-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Pre_finite_inputs_ReferenceIdeal.lean ====
abbrev S32768x2048 : Shape := ⟨2, ![32768, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  main_v3
-- ==== Kernel.lean ====
abbrev S16384x2048 : Shape := ⟨2, ![16384, 2048]⟩
abbrev S32768x1024 : Shape := ⟨2, ![32768, 1024]⟩
abbrev S2x1024x1024 : Shape := ⟨3, ![2, 1024, 1024]⟩
abbrev S16x1024x1024 : Shape := ⟨3, ![16, 1024, 1024]⟩
abbrev S2 : Shape := ⟨1, ![2]⟩
abbrev S16 : Shape := ⟨1, ![16]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16384x2048, .f32⟩
  | .hbm, ⟨1, _⟩ => ⟨S32768x1024, .bf16⟩
  | .local _ .vmem, ⟨0, _⟩ => ⟨S2x1024x1024, .f32⟩
  | .local _ .vmem, ⟨1, _⟩ => ⟨S16x1024x1024, .bf16⟩
  | .local _ .vmem, ⟨2, _⟩ => ⟨S2x1024x1024, .f32⟩
  | .local _ .vmem, ⟨3, _⟩ => ⟨S2x1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v14 : BitVec 32 := Scalar.muli v2 c4_i32_7
  let v15 : BitVec 32 := Scalar.addi c0_i32 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v16 : BitVec 32 := Scalar.muli v5 c2_i32_8
  let v17 : BitVec 32 := Scalar.addi v15 v16
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v18 : BitVec 32 := Scalar.muli v9 c1_i32_9
  let v19 : BitVec 32 := Scalar.addi v17 v18
  v19.toNat
def k0_off1 (d0 : Dev nD) : Fin 2 → Nat :=
  let c0_i32_15 : BitVec 32 := 0#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![0, v12.toNat]
def k0_off2 (d0 : Dev nD) : Fin 2 → Nat :=
  let c1024_i32_20 : BitVec 32 := 1024#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![1024, v12.toNat]
def k0_off3 (d0 : Dev nD) : Fin 2 → Nat :=
  let c2048_i32 : BitVec 32 := 2048#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![2048, v12.toNat]
def k0_off4 (d0 : Dev nD) (c0_i32_35 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v46 : BitVec 32 := Scalar.muli v8 c16384_i32
  let v47 : BitVec 32 := Scalar.addi v46 c0_i32_35
  let c0_i32_43 : BitVec 32 := 0#32
  ![v47.toNat, 0]
def k0_dev2 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v48 : BitVec 32 := Scalar.muli v2 c4_i32_39
  let v49 : BitVec 32 := Scalar.addi c0_i32_40 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v50 : BitVec 32 := Scalar.muli v5 c2_i32_41
  let v51 : BitVec 32 := Scalar.addi v49 v50
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_42 : BitVec 32 := 1#32
  let v52 : BitVec 32 := Scalar.muli v9 c1_i32_42
  let v53 : BitVec 32 := Scalar.addi v51 v52
  v53.toNat
def k0_off5 (d0 : Dev nD) : Fin 2 → Nat :=
  let c3072_i32 : BitVec 32 := 3072#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![3072, v12.toNat]
def k0_dev3 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v79 : BitVec 32 := Scalar.muli v2 c4_i32_65
  let v80 : BitVec 32 := Scalar.addi c0_i32_66 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v81 : BitVec 32 := Scalar.muli v5 c2_i32_67
  let v82 : BitVec 32 := Scalar.addi v80 v81
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_68 : BitVec 32 := 1#32
  let v83 : BitVec 32 := Scalar.muli v9 c1_i32_68
  let v84 : BitVec 32 := Scalar.addi v82 v83
  v84.toNat
def k0_off6 (d0 : Dev nD) : Fin 2 → Nat :=
  let c4096_i32 : BitVec 32 := 4096#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![4096, v12.toNat]
def k0_dev4 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v110 : BitVec 32 := Scalar.muli v2 c4_i32_91
  let v111 : BitVec 32 := Scalar.addi c0_i32_92 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v112 : BitVec 32 := Scalar.muli v5 c2_i32_93
  let v113 : BitVec 32 := Scalar.addi v111 v112
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_94 : BitVec 32 := 1#32
  let v114 : BitVec 32 := Scalar.muli v9 c1_i32_94
  let v115 : BitVec 32 := Scalar.addi v113 v114
  v115.toNat
def k0_off7 (d0 : Dev nD) : Fin 2 → Nat :=
  let c5120_i32 : BitVec 32 := 5120#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![5120, v12.toNat]
def k0_dev5 (d0 : Dev nD) : Nat :=
  let c0_i32_117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_116 : BitVec 32 := 4#32
  let v141 : BitVec 32 := Scalar.muli v2 c4_i32_116
  let v142 : BitVec 32 := Scalar.addi c0_i32_117 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_118 : BitVec 32 := 2#32
  let v143 : BitVec 32 := Scalar.muli v5 c2_i32_118
  let v144 : BitVec 32 := Scalar.addi v142 v143
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_119 : BitVec 32 := 1#32
  let v145 : BitVec 32 := Scalar.muli v9 c1_i32_119
  let v146 : BitVec 32 := Scalar.addi v144 v145
  v146.toNat
def k0_off8 (d0 : Dev nD) : Fin 2 → Nat :=
  let c6144_i32 : BitVec 32 := 6144#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![6144, v12.toNat]
def k0_dev6 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v172 : BitVec 32 := Scalar.muli v2 c4_i32_142
  let v173 : BitVec 32 := Scalar.addi c0_i32_143 v172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_144 : BitVec 32 := 2#32
  let v174 : BitVec 32 := Scalar.muli v5 c2_i32_144
  let v175 : BitVec 32 := Scalar.addi v173 v174
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_145 : BitVec 32 := 1#32
  let v176 : BitVec 32 := Scalar.muli v9 c1_i32_145
  let v177 : BitVec 32 := Scalar.addi v175 v176
  v177.toNat
def k0_off9 (d0 : Dev nD) : Fin 2 → Nat :=
  let c7168_i32 : BitVec 32 := 7168#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![7168, v12.toNat]
def k0_dev7 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v203 : BitVec 32 := Scalar.muli v2 c4_i32_167
  let v204 : BitVec 32 := Scalar.addi c0_i32_168 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v205 : BitVec 32 := Scalar.muli v5 c2_i32_169
  let v206 : BitVec 32 := Scalar.addi v204 v205
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_170 : BitVec 32 := 1#32
  let v207 : BitVec 32 := Scalar.muli v9 c1_i32_170
  let v208 : BitVec 32 := Scalar.addi v206 v207
  v208.toNat
def k0_off10 (d0 : Dev nD) : Fin 2 → Nat :=
  let c8192_i32 : BitVec 32 := 8192#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![8192, v12.toNat]
def k0_dev8 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v234 : BitVec 32 := Scalar.muli v2 c4_i32_192
  let v235 : BitVec 32 := Scalar.addi c0_i32_193 v234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_194 : BitVec 32 := 2#32
  let v236 : BitVec 32 := Scalar.muli v5 c2_i32_194
  let v237 : BitVec 32 := Scalar.addi v235 v236
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_195 : BitVec 32 := 1#32
  let v238 : BitVec 32 := Scalar.muli v9 c1_i32_195
  let v239 : BitVec 32 := Scalar.addi v237 v238
  v239.toNat
def k0_off11 (d0 : Dev nD) : Fin 2 → Nat :=
  let c9216_i32 : BitVec 32 := 9216#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![9216, v12.toNat]
def k0_dev9 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v265 : BitVec 32 := Scalar.muli v2 c4_i32_217
  let v266 : BitVec 32 := Scalar.addi c0_i32_218 v265
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v267 : BitVec 32 := Scalar.muli v5 c2_i32_219
  let v268 : BitVec 32 := Scalar.addi v266 v267
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_220 : BitVec 32 := 1#32
  let v269 : BitVec 32 := Scalar.muli v9 c1_i32_220
  let v270 : BitVec 32 := Scalar.addi v268 v269
  v270.toNat
def k0_off12 (d0 : Dev nD) : Fin 2 → Nat :=
  let c10240_i32 : BitVec 32 := 10240#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![10240, v12.toNat]
def k0_dev10 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v296 : BitVec 32 := Scalar.muli v2 c4_i32_242
  let v297 : BitVec 32 := Scalar.addi c0_i32_243 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v298 : BitVec 32 := Scalar.muli v5 c2_i32_244
  let v299 : BitVec 32 := Scalar.addi v297 v298
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_245 : BitVec 32 := 1#32
  let v300 : BitVec 32 := Scalar.muli v9 c1_i32_245
  let v301 : BitVec 32 := Scalar.addi v299 v300
  v301.toNat
def k0_off13 (d0 : Dev nD) : Fin 2 → Nat :=
  let c11264_i32 : BitVec 32 := 11264#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![11264, v12.toNat]
def k0_dev11 (d0 : Dev nD) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_267 : BitVec 32 := 4#32
  let v327 : BitVec 32 := Scalar.muli v2 c4_i32_267
  let v328 : BitVec 32 := Scalar.addi c0_i32_268 v327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_269 : BitVec 32 := 2#32
  let v329 : BitVec 32 := Scalar.muli v5 c2_i32_269
  let v330 : BitVec 32 := Scalar.addi v328 v329
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_270 : BitVec 32 := 1#32
  let v331 : BitVec 32 := Scalar.muli v9 c1_i32_270
  let v332 : BitVec 32 := Scalar.addi v330 v331
  v332.toNat
def k0_off14 (d0 : Dev nD) : Fin 2 → Nat :=
  let c12288_i32 : BitVec 32 := 12288#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![12288, v12.toNat]
def k0_dev12 (d0 : Dev nD) : Nat :=
  let c0_i32_293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_292 : BitVec 32 := 4#32
  let v358 : BitVec 32 := Scalar.muli v2 c4_i32_292
  let v359 : BitVec 32 := Scalar.addi c0_i32_293 v358
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_294 : BitVec 32 := 2#32
  let v360 : BitVec 32 := Scalar.muli v5 c2_i32_294
  let v361 : BitVec 32 := Scalar.addi v359 v360
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_295 : BitVec 32 := 1#32
  let v362 : BitVec 32 := Scalar.muli v9 c1_i32_295
  let v363 : BitVec 32 := Scalar.addi v361 v362
  v363.toNat
def k0_off15 (d0 : Dev nD) : Fin 2 → Nat :=
  let c13312_i32 : BitVec 32 := 13312#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![13312, v12.toNat]
def k0_dev13 (d0 : Dev nD) : Nat :=
  let c0_i32_318 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_317 : BitVec 32 := 4#32
  let v389 : BitVec 32 := Scalar.muli v2 c4_i32_317
  let v390 : BitVec 32 := Scalar.addi c0_i32_318 v389
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_319 : BitVec 32 := 2#32
  let v391 : BitVec 32 := Scalar.muli v5 c2_i32_319
  let v392 : BitVec 32 := Scalar.addi v390 v391
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_320 : BitVec 32 := 1#32
  let v393 : BitVec 32 := Scalar.muli v9 c1_i32_320
  let v394 : BitVec 32 := Scalar.addi v392 v393
  v394.toNat
def k0_off16 (d0 : Dev nD) : Fin 2 → Nat :=
  let c14336_i32 : BitVec 32 := 14336#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![14336, v12.toNat]
def k0_dev14 (d0 : Dev nD) : Nat :=
  let c0_i32_343 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_342 : BitVec 32 := 4#32
  let v420 : BitVec 32 := Scalar.muli v2 c4_i32_342
  let v421 : BitVec 32 := Scalar.addi c0_i32_343 v420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_344 : BitVec 32 := 2#32
  let v422 : BitVec 32 := Scalar.muli v5 c2_i32_344
  let v423 : BitVec 32 := Scalar.addi v421 v422
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_345 : BitVec 32 := 1#32
  let v424 : BitVec 32 := Scalar.muli v9 c1_i32_345
  let v425 : BitVec 32 := Scalar.addi v423 v424
  v425.toNat
def k0_off17 (d0 : Dev nD) : Fin 2 → Nat :=
  let c15360_i32 : BitVec 32 := 15360#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1024_i32_5 : BitVec 32 := 1024#32
  let v12 : BitVec 32 := Scalar.muli v11 c1024_i32_5
  ![15360, v12.toNat]
def k0_dev15 (d0 : Dev nD) : Nat :=
  let c0_i32_368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_367 : BitVec 32 := 4#32
  let v451 : BitVec 32 := Scalar.muli v2 c4_i32_367
  let v452 : BitVec 32 := Scalar.addi c0_i32_368 v451
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_369 : BitVec 32 := 2#32
  let v453 : BitVec 32 := Scalar.muli v5 c2_i32_369
  let v454 : BitVec 32 := Scalar.addi v452 v453
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_370 : BitVec 32 := 1#32
  let v455 : BitVec 32 := Scalar.muli v9 c1_i32_370
  let v456 : BitVec 32 := Scalar.addi v454 v455
  v456.toNat
def k0_dev16 (d0 : Dev nD) : Nat :=
  let c0_i32_389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_388 : BitVec 32 := 4#32
  let v477 : BitVec 32 := Scalar.muli v2 c4_i32_388
  let v478 : BitVec 32 := Scalar.addi c0_i32_389 v477
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_390 : BitVec 32 := 2#32
  let v479 : BitVec 32 := Scalar.muli v5 c2_i32_390
  let v480 : BitVec 32 := Scalar.addi v478 v479
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_391 : BitVec 32 := 1#32
  let v481 : BitVec 32 := Scalar.muli v9 c1_i32_391
  let v482 : BitVec 32 := Scalar.addi v480 v481
  v482.toNat
def k0_dev17 (d0 : Dev nD) : Nat :=
  let c0_i32_410 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_409 : BitVec 32 := 4#32
  let v503 : BitVec 32 := Scalar.muli v2 c4_i32_409
  let v504 : BitVec 32 := Scalar.addi c0_i32_410 v503
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_411 : BitVec 32 := 2#32
  let v505 : BitVec 32 := Scalar.muli v5 c2_i32_411
  let v506 : BitVec 32 := Scalar.addi v504 v505
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_412 : BitVec 32 := 1#32
  let v507 : BitVec 32 := Scalar.muli v9 c1_i32_412
  let v508 : BitVec 32 := Scalar.addi v506 v507
  v508.toNat
def k0_off18 (d0 : Dev nD) : Fin 2 → Nat :=
  let c0_i32_420 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![0, v10.toNat]
def k0_off19 (d0 : Dev nD) : Fin 2 → Nat :=
  let c1024_i32_425 : BitVec 32 := 1024#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![1024, v10.toNat]
def k0_off20 (d0 : Dev nD) : Fin 2 → Nat :=
  let c2048_i32_441 : BitVec 32 := 2048#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![2048, v10.toNat]
def k0_off21 (d0 : Dev nD) : Fin 2 → Nat :=
  let c3072_i32_464 : BitVec 32 := 3072#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![3072, v10.toNat]
def k0_off22 (d0 : Dev nD) : Fin 2 → Nat :=
  let c4096_i32_492 : BitVec 32 := 4096#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![4096, v10.toNat]
def k0_off23 (d0 : Dev nD) : Fin 2 → Nat :=
  let c5120_i32_520 : BitVec 32 := 5120#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![5120, v10.toNat]
def k0_off24 (d0 : Dev nD) : Fin 2 → Nat :=
  let c6144_i32_548 : BitVec 32 := 6144#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![6144, v10.toNat]
def k0_off25 (d0 : Dev nD) : Fin 2 → Nat :=
  let c7168_i32_576 : BitVec 32 := 7168#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![7168, v10.toNat]
def k0_off26 (d0 : Dev nD) : Fin 2 → Nat :=
  let c8192_i32_604 : BitVec 32 := 8192#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![8192, v10.toNat]
def k0_off27 (d0 : Dev nD) : Fin 2 → Nat :=
  let c9216_i32_632 : BitVec 32 := 9216#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![9216, v10.toNat]
def k0_off28 (d0 : Dev nD) : Fin 2 → Nat :=
  let c10240_i32_660 : BitVec 32 := 10240#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![10240, v10.toNat]
def k0_off29 (d0 : Dev nD) : Fin 2 → Nat :=
  let c11264_i32_688 : BitVec 32 := 11264#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![11264, v10.toNat]
def k0_off30 (d0 : Dev nD) : Fin 2 → Nat :=
  let c12288_i32_716 : BitVec 32 := 12288#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![12288, v10.toNat]
def k0_off31 (d0 : Dev nD) : Fin 2 → Nat :=
  let c13312_i32_744 : BitVec 32 := 13312#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![13312, v10.toNat]
def k0_off32 (d0 : Dev nD) : Fin 2 → Nat :=
  let c14336_i32_772 : BitVec 32 := 14336#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![14336, v10.toNat]
def k0_off33 (d0 : Dev nD) : Fin 2 → Nat :=
  let c15360_i32_800 : BitVec 32 := 15360#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  ![15360, v10.toNat]

class Facts₀ : Prop where
  hamt_1 : (1#32 : BitVec 32).msb = false
  inb_S2_S1_0 : ∀ a, (![0] : Fin 1 → Nat) a + S1.size a ≤ S2.size a
  squeezes_S1_S_ : S1.Squeezes S_
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  inb_S2_S1_1 : ∀ a, (![1] : Fin 1 → Nat) a + S1.size a ≤ S2.size a
  inb_S2x1024x1024_S1x1024x1024_1_0_0 : ∀ a, (![1, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S16x1024x1024_S1x1024x1024_0_0_0 : ∀ a, (![0, 0, 0] : Fin 3 → Nat) a + S1x1024x1024.size a ≤ S16x1024x1024.size a
  shapeCasts_S1024x1024_S1x1024x1024 : S1024x1024.ShapeCasts S1x1024x1024
  packedbf16_S16x1024x1024_S1x1024x1024_0_0_0 : (Rect.unit (s := S16x1024x1024) ![0, 0, 0] S1x1024x1024.size inb_S16x1024x1024_S1x1024x1024_0_0_0).PackedRows (EltTy.packing .bf16)
  inb_S16_S1_0 : ∀ a, (![0] : Fin 1 → Nat) a + S1.size a ≤ S16.size a
  wordsbf16_S16x1024x1024_S1x1024x1024_0_0_0 : (Rect.unit (s := S16x1024x1024) ![0, 0, 0] S1x1024x1024.size inb_S16x1024x1024_S1x1024x1024_0_0_0).WholeWords (EltTy.packing .bf16)
  inb_S16x1024x1024_S1x1024x1024_1_0_0 : ∀ a, (![1, 0, 0] : Fin 3 → Nat) a + S1x1024x1024.size a ≤ S16x1024x1024.size a
  packedbf16_S16x1024x1024_S1x1024x1024_1_0_0 : (Rect.unit (s := S16x1024x1024) ![1, 0, 0] S1x1024x1024.size inb_S16x1024x1024_S1x1024x1024_1_0_0).PackedRows (EltTy.packing .bf16)
  inb_S16_S1_1 : ∀ a, (![1] : Fin 1 → Nat) a + S1.size a ≤ S16.size a
  wordsbf16_S16x1024x1024_S1x1024x1024_1_0_0 : (Rect.unit (s := S16x1024x1024) ![1, 0, 0] S1x1024x1024.size inb_S16x1024x1024_S1x1024x1024_1_0_0).WholeWords (EltTy.packing .bf16)
  inb_S16x1024x1024_S1x1024x1024_2_0_0 : ∀ a, (![2, 0, 0] : Fin 3 → Nat) a + S1x1024x1024.size a ≤ S16x1024x1024.size a
  packedbf16_S16x1024x1024_S1x1024x1024_2_0_0 : (Rect.unit (s := S16x1024x1024) ![2, 0, 0] S1x1024x1024.size inb_S16x1024x1024_S1x1024x1024_2_0_0).PackedRows (EltTy.packing .bf16)
  inb_S16_S1_2 : ∀ a, (![2] : Fin 1 → Nat) a + S1.size a ≤ S16.size a
  wordsbf16_S16x1024x1024_S1x1024x1024_2_0_0 : (Rect.unit (s := S16x1024x1024) ![2, 0, 0] S1x1024x1024.size inb_S16x1024x1024_S1x1024x1024_2_0_0).WholeWords (EltTy.packing .bf16)
  inb_S16x1024x1024_S1x1024x1024_3_0_0 : ∀ a, (![3, 0, 0] : Fin 3 → Nat) a + S1x1024x1024.size a ≤ S16x1024x1024.size a
  packedbf16_S16x1024x1024_S1x1024x1024_3_0_0 : (Rect.unit (s := S16x1024x1024) ![3, 0, 0] S1x1024x1024.size inb_S16x1024x1024_S1x1024x1024_3_0_0).PackedRows (EltTy.packing .bf16)
  inb_S16_S1_3 : ∀ a, (![3] : Fin 1 → Nat) a + S1.size a ≤ S16.size a
  wordsbf16_S16x1024x1024_S1x1024x1024_3_0_0 : (Rect.unit (s := S16x1024x1024) ![3, 0, 0] S1x1024x1024.size inb_S16x1024x1024_S1x1024x1024_3_0_0).WholeWords (EltTy.packing .bf16)
  inb_S16x1024x1024_S1x1024x1024_4_0_0 : ∀ a, (![4, 0, 0] : Fin 3 → Nat) a + S1x1024x1024.size a ≤ S16x1024x1024.size a
  packedbf16_S16x1024x1024_S1x1024x1024_4_0_0 : (Rect.unit (s := S16x1024x1024) ![4, 0, 0] S1x1024x1024.size inb_S16x1024x1024_S1x1024x1024_4_0_0).PackedRows (EltTy.packing .bf16)
  inb_S16_S1_4 : ∀ a, (![4] : Fin 1 → Nat) a + S1.size a ≤ S16.size a
  wordsbf16_S16x1024x1024_S1x1024x1024_4_0_0 : (Rect.unit (s := S16x1024x1024) ![4, 0, 0] S1x1024x1024.size inb_S16x1024x1024_S1x1024x1024_4_0_0).WholeWords (EltTy.packing .bf16)
  inb_S16x1024x1024_S1x1024x1024_5_0_0 : ∀ a, (![5, 0, 0] : Fin 3 → Nat) a + S1x1024x1024.size a ≤ S16x1024x1024.size a
  packedbf16_S16x1024x1024_S1x1024x1024_5_0_0 : (Rect.unit (s := S16x1024x1024) ![5, 0, 0] S1x1024x1024.size inb_S16x1024x1024_S1x1024x1024_5_0_0).PackedRows (EltTy.packing .bf16)
  inb_S16_S1_5 : ∀ a, (![5] : Fin 1 → Nat) a + S1.size a ≤ S16.size a
  wordsbf16_S16x1024x1024_S1x1024x1024_5_0_0 : (Rect.unit (s := S16x1024x1024) ![5, 0, 0] S1x1024x1024.size inb_S16x1024x1024_S1x1024x1024_5_0_0).WholeWords (EltTy.packing .bf16)
  inb_S16x1024x1024_S1x1024x1024_6_0_0 : ∀ a, (![6, 0, 0] : Fin 3 → Nat) a + S1x1024x1024.size a ≤ S16x1024x1024.size a
  packedbf16_S16x1024x1024_S1x1024x1024_6_0_0 : (Rect.unit (s := S16x1024x1024) ![6, 0, 0] S1x1024x1024.size inb_S16x1024x1024_S1x1024x1024_6_0_0).PackedRows (EltTy.packing .bf16)
  inb_S16_S1_6 : ∀ a, (![6] : Fin 1 → Nat) a + S1.size a ≤ S16.size a
  wordsbf16_S16x1024x1024_S1x1024x1024_6_0_0 : (Rect.unit (s := S16x1024x1024) ![6, 0, 0] S1x1024x1024.size inb_S16x1024x1024_S1x1024x1024_6_0_0).WholeWords (EltTy.packing .bf16)
  inb_S16x1024x1024_S1x1024x1024_7_0_0 : ∀ a, (![7, 0, 0] : Fin 3 → Nat) a + S1x1024x1024.size a ≤ S16x1024x1024.size a
  packedbf16_S16x1024x1024_S1x1024x1024_7_0_0 : (Rect.unit (s := S16x1024x1024) ![7, 0, 0] S1x1024x1024.size inb_S16x1024x1024_S1x1024x1024_7_0_0).PackedRows (EltTy.packing .bf16)
  inb_S16_S1_7 : ∀ a, (![7] : Fin 1 → Nat) a + S1.size a ≤ S16.size a
  wordsbf16_S16x1024x1024_S1x1024x1024_7_0_0 : (Rect.unit (s := S16x1024x1024) ![7, 0, 0] S1x1024x1024.size inb_S16x1024x1024_S1x1024x1024_7_0_0).WholeWords (EltTy.packing .bf16)
  inb_S16x1024x1024_S1x1024x1024_8_0_0 : ∀ a, (![8, 0, 0] : Fin 3 → Nat) a + S1x1024x1024.size a ≤ S16x1024x1024.size a
  packedbf16_S16x1024x1024_S1x1024x1024_8_0_0 : (Rect.unit (s := S16x1024x1024) ![8, 0, 0] S1x1024x1024.size inb_S16x1024x1024_S1x1024x1024_8_0_0).PackedRows (EltTy.packing .bf16)
  inb_S16_S1_8 : ∀ a, (![8] : Fin 1 → Nat) a + S1.size a ≤ S16.size a
  wordsbf16_S16x1024x1024_S1x1024x1024_8_0_0 : (Rect.unit (s := S16x1024x1024) ![8, 0, 0] S1x1024x1024.size inb_S16x1024x1024_S1x1024x1024_8_0_0).WholeWords (EltTy.packing .bf16)
  inb_S16x1024x1024_S1x1024x1024_9_0_0 : ∀ a, (![9, 0, 0] : Fin 3 → Nat) a + S1x1024x1024.size a ≤ S16x1024x1024.size a
  packedbf16_S16x1024x1024_S1x1024x1024_9_0_0 : (Rect.unit (s := S16x1024x1024) ![9, 0, 0] S1x1024x1024.size inb_S16x1024x1024_S1x1024x1024_9_0_0).PackedRows (EltTy.packing .bf16)
  inb_S16_S1_9 : ∀ a, (![9] : Fin 1 → Nat) a + S1.size a ≤ S16.size a
  wordsbf16_S16x1024x1024_S1x1024x1024_9_0_0 : (Rect.unit (s := S16x1024x1024) ![9, 0, 0] S1x1024x1024.size inb_S16x1024x1024_S1x1024x1024_9_0_0).WholeWords (EltTy.packing .bf16)
  inb_S16x1024x1024_S1x1024x1024_10_0_0 : ∀ a, (![10, 0, 0] : Fin 3 → Nat) a + S1x1024x1024.size a ≤ S16x1024x1024.size a
  packedbf16_S16x1024x1024_S1x1024x1024_10_0_0 : (Rect.unit (s := S16x1024x1024) ![10, 0, 0] S1x1024x1024.size inb_S16x1024x1024_S1x1024x1024_10_0_0).PackedRows (EltTy.packing .bf16)
  inb_S16_S1_10 : ∀ a, (![10] : Fin 1 → Nat) a + S1.size a ≤ S16.size a
  wordsbf16_S16x1024x1024_S1x1024x1024_10_0_0 : (Rect.unit (s := S16x1024x1024) ![10, 0, 0] S1x1024x1024.size inb_S16x1024x1024_S1x1024x1024_10_0_0).WholeWords (EltTy.packing .bf16)
  inb_S16x1024x1024_S1x1024x1024_11_0_0 : ∀ a, (![11, 0, 0] : Fin 3 → Nat) a + S1x1024x1024.size a ≤ S16x1024x1024.size a
  packedbf16_S16x1024x1024_S1x1024x1024_11_0_0 : (Rect.unit (s := S16x1024x1024) ![11, 0, 0] S1x1024x1024.size inb_S16x1024x1024_S1x1024x1024_11_0_0).PackedRows (EltTy.packing .bf16)
  inb_S16_S1_11 : ∀ a, (![11] : Fin 1 → Nat) a + S1.size a ≤ S16.size a
  wordsbf16_S16x1024x1024_S1x1024x1024_11_0_0 : (Rect.unit (s := S16x1024x1024) ![11, 0, 0] S1x1024x1024.size inb_S16x1024x1024_S1x1024x1024_11_0_0).WholeWords (EltTy.packing .bf16)
  inb_S16x1024x1024_S1x1024x1024_12_0_0 : ∀ a, (![12, 0, 0] : Fin 3 → Nat) a + S1x1024x1024.size a ≤ S16x1024x1024.size a
  packedbf16_S16x1024x1024_S1x1024x1024_12_0_0 : (Rect.unit (s := S16x1024x1024) ![12, 0, 0] S1x1024x1024.size inb_S16x1024x1024_S1x1024x1024_12_0_0).PackedRows (EltTy.packing .bf16)
  inb_S16_S1_12 : ∀ a, (![12] : Fin 1 → Nat) a + S1.size a ≤ S16.size a
  wordsbf16_S16x1024x1024_S1x1024x1024_12_0_0 : (Rect.unit (s := S16x1024x1024) ![12, 0, 0] S1x1024x1024.size inb_S16x1024x1024_S1x1024x1024_12_0_0).WholeWords (EltTy.packing .bf16)
  inb_S16x1024x1024_S1x1024x1024_13_0_0 : ∀ a, (![13, 0, 0] : Fin 3 → Nat) a + S1x1024x1024.size a ≤ S16x1024x1024.size a
  packedbf16_S16x1024x1024_S1x1024x1024_13_0_0 : (Rect.unit (s := S16x1024x1024) ![13, 0, 0] S1x1024x1024.size inb_S16x1024x1024_S1x1024x1024_13_0_0).PackedRows (EltTy.packing .bf16)
  inb_S16_S1_13 : ∀ a, (![13] : Fin 1 → Nat) a + S1.size a ≤ S16.size a
  wordsbf16_S16x1024x1024_S1x1024x1024_13_0_0 : (Rect.unit (s := S16x1024x1024) ![13, 0, 0] S1x1024x1024.size inb_S16x1024x1024_S1x1024x1024_13_0_0).WholeWords (EltTy.packing .bf16)
  inb_S16x1024x1024_S1x1024x1024_14_0_0 : ∀ a, (![14, 0, 0] : Fin 3 → Nat) a + S1x1024x1024.size a ≤ S16x1024x1024.size a
  packedbf16_S16x1024x1024_S1x1024x1024_14_0_0 : (Rect.unit (s := S16x1024x1024) ![14, 0, 0] S1x1024x1024.size inb_S16x1024x1024_S1x1024x1024_14_0_0).PackedRows (EltTy.packing .bf16)
  inb_S16_S1_14 : ∀ a, (![14] : Fin 1 → Nat) a + S1.size a ≤ S16.size a
  wordsbf16_S16x1024x1024_S1x1024x1024_14_0_0 : (Rect.unit (s := S16x1024x1024) ![14, 0, 0] S1x1024x1024.size inb_S16x1024x1024_S1x1024x1024_14_0_0).WholeWords (EltTy.packing .bf16)
  inb_S16x1024x1024_S1x1024x1024_15_0_0 : ∀ a, (![15, 0, 0] : Fin 3 → Nat) a + S1x1024x1024.size a ≤ S16x1024x1024.size a
  packedbf16_S16x1024x1024_S1x1024x1024_15_0_0 : (Rect.unit (s := S16x1024x1024) ![15, 0, 0] S1x1024x1024.size inb_S16x1024x1024_S1x1024x1024_15_0_0).PackedRows (EltTy.packing .bf16)
  inb_S16_S1_15 : ∀ a, (![15] : Fin 1 → Nat) a + S1.size a ≤ S16.size a
  wordsbf16_S16x1024x1024_S1x1024x1024_15_0_0 : (Rect.unit (s := S16x1024x1024) ![15, 0, 0] S1x1024x1024.size inb_S16x1024x1024_S1x1024x1024_15_0_0).WholeWords (EltTy.packing .bf16)
  packedbf16_S2x1024x1024_S1x1024x1024_0_0_0 : (Rect.unit (s := S2x1024x1024) ![0, 0, 0] S1x1024x1024.size inb_S2x1024x1024_S1x1024x1024_0_0_0).PackedRows (EltTy.packing .bf16)
  wordsbf16_S2x1024x1024_S1x1024x1024_0_0_0 : (Rect.unit (s := S2x1024x1024) ![0, 0, 0] S1x1024x1024.size inb_S2x1024x1024_S1x1024x1024_0_0_0).WholeWords (EltTy.packing .bf16)
  packedbf16_S2x1024x1024_S1x1024x1024_1_0_0 : (Rect.unit (s := S2x1024x1024) ![1, 0, 0] S1x1024x1024.size inb_S2x1024x1024_S1x1024x1024_1_0_0).PackedRows (EltTy.packing .bf16)
  wordsbf16_S2x1024x1024_S1x1024x1024_1_0_0 : (Rect.unit (s := S2x1024x1024) ![1, 0, 0] S1x1024x1024.size inb_S2x1024x1024_S1x1024x1024_1_0_0).WholeWords (EltTy.packing .bf16)
  hcc0_scratch4 : 0 + S2.numel ≤ 38
  hcc0_scratch5 : 2 + S2.numel ≤ 38
  hcc0_scratch6 : 4 + S2.numel ≤ 38
  hcc0_scratch7 : 6 + S16.numel ≤ 38
  hcc0_scratch8 : 22 + S16.numel ≤ 38
  k0_dev1_lt : ∀ d0 : Dev nD, (k0_dev1 d0) < nD
  k0_off1_inb : ∀ d0 : Dev nD, ∀ a, (k0_off1 d0) a + S1024x1024.size a ≤ S16384x2048.size a
  k0_off2_inb : ∀ d0 : Dev nD, ∀ a, (k0_off2 d0) a + S1024x1024.size a ≤ S16384x2048.size a
  k0_off3_inb : ∀ d0 : Dev nD, ∀ a, (k0_off3 d0) a + S1024x1024.size a ≤ S16384x2048.size a
  k0_off4_inb : ∀ d0 : Dev nD, ∀ (r : Fin 16), ∀ a, (k0_off4 d0 (BitVec.ofNat 32 (1024 * r.val))) a + S1024x1024.size a ≤ S32768x1024.size a
  k0_off4_wordsbf16 : ∀ d0 : Dev nD, ∀ (r : Fin 16), (Rect.unit (s := S32768x1024) (k0_off4 d0 (BitVec.ofNat 32 (1024 * r.val))) S1024x1024.size (k0_off4_inb d0 r)).WholeWords (EltTy.packing .bf16)
  k0_dev2_lt : ∀ d0 : Dev nD, (k0_dev2 d0) < nD
  k0_off5_inb : ∀ d0 : Dev nD, ∀ a, (k0_off5 d0) a + S1024x1024.size a ≤ S16384x2048.size a
  k0_dev3_lt : ∀ d0 : Dev nD, (k0_dev3 d0) < nD
  k0_off6_inb : ∀ d0 : Dev nD, ∀ a, (k0_off6 d0) a + S1024x1024.size a ≤ S16384x2048.size a
  k0_dev4_lt : ∀ d0 : Dev nD, (k0_dev4 d0) < nD
  k0_off7_inb : ∀ d0 : Dev nD, ∀ a, (k0_off7 d0) a + S1024x1024.size a ≤ S16384x2048.size a
  k0_dev5_lt : ∀ d0 : Dev nD, (k0_dev5 d0) < nD
  k0_off8_inb : ∀ d0 : Dev nD, ∀ a, (k0_off8 d0) a + S1024x1024.size a ≤ S16384x2048.size a
  k0_dev6_lt : ∀ d0 : Dev nD, (k0_dev6 d0) < nD
  k0_off9_inb : ∀ d0 : Dev nD, ∀ a, (k0_off9 d0) a + S1024x1024.size a ≤ S16384x2048.size a
  k0_dev7_lt : ∀ d0 : Dev nD, (k0_dev7 d0) < nD
  k0_off10_inb : ∀ d0 : Dev nD, ∀ a, (k0_off10 d0) a + S1024x1024.size a ≤ S16384x2048.size a
  k0_dev8_lt : ∀ d0 : Dev nD, (k0_dev8 d0) < nD
  k0_off11_inb : ∀ d0 : Dev nD, ∀ a, (k0_off11 d0) a + S1024x1024.size a ≤ S16384x2048.size a
  k0_dev9_lt : ∀ d0 : Dev nD, (k0_dev9 d0) < nD
  k0_off12_inb : ∀ d0 : Dev nD, ∀ a, (k0_off12 d0) a + S1024x1024.size a ≤ S16384x2048.size a
  k0_dev10_lt : ∀ d0 : Dev nD, (k0_dev10 d0) < nD
  k0_off13_inb : ∀ d0 : Dev nD, ∀ a, (k0_off13 d0) a + S1024x1024.size a ≤ S16384x2048.size a
  k0_dev11_lt : ∀ d0 : Dev nD, (k0_dev11 d0) < nD
  k0_off14_inb : ∀ d0 : Dev nD, ∀ a, (k0_off14 d0) a + S1024x1024.size a ≤ S16384x2048.size a
  k0_dev12_lt : ∀ d0 : Dev nD, (k0_dev12 d0) < nD
  k0_off15_inb : ∀ d0 : Dev nD, ∀ a, (k0_off15 d0) a + S1024x1024.size a ≤ S16384x2048.size a
  k0_dev13_lt : ∀ d0 : Dev nD, (k0_dev13 d0) < nD
  k0_off16_inb : ∀ d0 : Dev nD, ∀ a, (k0_off16 d0) a + S1024x1024.size a ≤ S16384x2048.size a
  k0_dev14_lt : ∀ d0 : Dev nD, (k0_dev14 d0) < nD
  k0_off17_inb : ∀ d0 : Dev nD, ∀ a, (k0_off17 d0) a + S1024x1024.size a ≤ S16384x2048.size a
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_off18_inb : ∀ d0 : Dev nD, ∀ a, (k0_off18 d0) a + S1024x1024.size a ≤ S16384x2048.size a
  k0_off19_inb : ∀ d0 : Dev nD, ∀ a, (k0_off19 d0) a + S1024x1024.size a ≤ S16384x2048.size a
  k0_off20_inb : ∀ d0 : Dev nD, ∀ a, (k0_off20 d0) a + S1024x1024.size a ≤ S16384x2048.size a
  k0_off21_inb : ∀ d0 : Dev nD, ∀ a, (k0_off21 d0) a + S1024x1024.size a ≤ S16384x2048.size a
  k0_off22_inb : ∀ d0 : Dev nD, ∀ a, (k0_off22 d0) a + S1024x1024.size a ≤ S16384x2048.size a
  k0_off23_inb : ∀ d0 : Dev nD, ∀ a, (k0_off23 d0) a + S1024x1024.size a ≤ S16384x2048.size a
  k0_off24_inb : ∀ d0 : Dev nD, ∀ a, (k0_off24 d0) a + S1024x1024.size a ≤ S16384x2048.size a
  k0_off25_inb : ∀ d0 : Dev nD, ∀ a, (k0_off25 d0) a + S1024x1024.size a ≤ S16384x2048.size a
  k0_off26_inb : ∀ d0 : Dev nD, ∀ a, (k0_off26 d0) a + S1024x1024.size a ≤ S16384x2048.size a
  k0_off27_inb : ∀ d0 : Dev nD, ∀ a, (k0_off27 d0) a + S1024x1024.size a ≤ S16384x2048.size a
  k0_off28_inb : ∀ d0 : Dev nD, ∀ a, (k0_off28 d0) a + S1024x1024.size a ≤ S16384x2048.size a
  k0_off29_inb : ∀ d0 : Dev nD, ∀ a, (k0_off29 d0) a + S1024x1024.size a ≤ S16384x2048.size a
  k0_off30_inb : ∀ d0 : Dev nD, ∀ a, (k0_off30 d0) a + S1024x1024.size a ≤ S16384x2048.size a
  k0_off31_inb : ∀ d0 : Dev nD, ∀ a, (k0_off31 d0) a + S1024x1024.size a ≤ S16384x2048.size a
  k0_off32_inb : ∀ d0 : Dev nD, ∀ a, (k0_off32 d0) a + S1024x1024.size a ≤ S16384x2048.size a
  k0_off33_inb : ∀ d0 : Dev nD, ∀ a, (k0_off33 d0) a + S1024x1024.size a ≤ S16384x2048.size a

variable [Facts₀]

abbrev cc0_scratch4 : DmaSems sig S2 := SemArray.consecutive 0 S2 hcc0_scratch4
abbrev cc0_scratch5 : DmaSems sig S2 := SemArray.consecutive 2 S2 hcc0_scratch5
abbrev cc0_scratch6 : DmaSems sig S2 := SemArray.consecutive 4 S2 hcc0_scratch6
abbrev cc0_scratch7 : DmaSems sig S16 := SemArray.consecutive 6 S16 hcc0_scratch7
abbrev cc0_scratch8 : DmaSems sig S16 := SemArray.consecutive 22 S16 hcc0_scratch8

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x2048 : Shape := ⟨2, ![32768, 2048]⟩

abbrev nBuf : Space → Nat
  | .hbm => 2
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Kernel.Spec.lean ====
/-
  The all-to-all along the mesh's last axis, as a specification.

  The mesh is 2 x 2 x 2 and a device's linear id is 4 x + 2 y + z, so its coordinate on the last axis is the id's
  parity and its partner on that axis is the id with the parity flipped.  Device c holds the row block z of the whole
  array x (16384 rows of 2048 columns); its result is the column block z of x (32768 rows of 1024 columns), each entry
  narrowed to bf16: the rows of its own row block come from its own argument, the rows of the other row block from
  its partner's argument.
-/
import proofs.«900627_g7700000000000628_dist_a2a_v7x_xyz2x2x2_z_m16384_n1024_bf16_1_alg».proof.Kernel
import Idealize.ShloMosaic.Lib.ValueIdx

noncomputable section

namespace Cert.Kernel.A2A

open Idealize.ShloMosaic Idealize.SL.Sem

variable {F : FTy → Type} [FloatOps F]

/-- A device's coordinate on the mesh's last axis. -/
def zOf (c : Dev nD) : ℕ := c.val % 2

theorem zOf_lt (c : Dev nD) : zOf c < 2 := Nat.mod_lt _ (by decide)

/-- The device with the same first two coordinates and the other last coordinate. -/
def peer (c : Dev nD) : Dev nD :=
  ⟨(4 * (c.val / 4) + 2 * ((c.val / 2) % 2) + 1) - (c.val % 2), by have := c.isLt; simp only [nD] at *; omega⟩

theorem peer_peer (c : Dev nD) : peer (peer c) = c := by revert c; decide
theorem peer_ne (c : Dev nD) : peer c ≠ c := by revert c; decide
theorem zOf_peer (c : Dev nD) : zOf (peer c) = 1 - zOf c := by revert c; decide

/-- The device whose argument block holds row `r` of the whole array, as seen from device `c`: `c` itself when the
    row lies in `c`'s own row block, its partner otherwise. -/
def ownerOf (c : Dev nD) (r : ℕ) : Dev nD := if r / 16384 = zOf c then c else peer c

/-- What device `c`'s result array must hold: at row `r`, column `k`, the entry at row `r % 16384`, column
    `1024 z + k` of the argument block of the device owning row `r`, narrowed to bf16. -/
def outVal (X : (d : Dev nD) → Buf (Elt F) ((d.tc : Thread nD τ).loc main_arg0)) (c : Dev nD) :
    Buf (Elt F) ((c.tc : Thread nD τ).loc main_v1) :=
  fun (j : S32768x1024.Idx) =>
    (truncf .bf16 (X (ownerOf c (j 0).val) : FVec F S16384x2048 .f32) (by decide) : FVec F S16384x2048 .bf16)
      (ValueIdx.ix2 (⟨(j 0).val % 16384, Nat.mod_lt _ (by decide)⟩ : Fin 16384)
        (⟨1024 * zOf c + (j 1).val, by have h0 := zOf_lt c; have h1 : (j 1).val < 1024 := (j 1).isLt; omega⟩ : Fin 2048))

end Cert.Kernel.A2A

end
-- ==== Proof.Kernel.Proto.lean ====
/-
  The protocol of the all-to-all along the mesh's last axis, under the rounds discipline.

  Every device c has a partner p = peer c.  At entry c signals p's barrier semaphore one unit and waits one unit on its
  own: the unit it receives is p's word that p is inside the kernel, and with it p lends c the sixteen row slices of
  p's result array that c will write.  For each of the sixteen row chunks r, c copies its narrowed chunk from its send
  buffer's slot r into p's result array, crediting its own send semaphore r when the slot is read and p's receive
  semaphore r when the slice is written; the landing hands p the slice back, holding its final contents.  Each of the
  33 semaphores of a device that another device or a remote copy pays is a cell with ONE round of ONE duty.
-/
import proofs.«900627_g7700000000000628_dist_a2a_v7x_xyz2x2x2_z_m16384_n1024_bf16_1_alg».proof.Proof.Kernel.Spec
import proofs.«900627_g7700000000000628_dist_a2a_v7x_xyz2x2x2_z_m16384_n1024_bf16_1_alg».proof.Proof.Gen.Kernel
import proofs.«900627_g7700000000000628_dist_a2a_v7x_xyz2x2x2_z_m16384_n1024_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's (one duty a round), and the counters the
    local copies' invariants take their tokens from -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  delta ER; unfold embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Every device's argument block at launch. -/
def X (d : Dev nD) : Buf (Elt F) ((d : Thread nD τ).loc main_arg0) := m ((d : Thread nD τ).loc main_arg0)
/-- Device `c`'s result array as it must end. -/
def OV (c : Dev nD) : Buf (Elt F) ((c : Thread nD τ).loc main_v1) := outVal (X m) c

/-- The kernel names its partner by seventeen integer chains; each is `peer`. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)
theorem dev10_eq (c : Dev nD) : (⟨k0_dev10 c, k0_dev10_lt c⟩ : Dev nD) = peer c := Fin.ext (k0_dev10_eq c)
theorem dev11_eq (c : Dev nD) : (⟨k0_dev11 c, k0_dev11_lt c⟩ : Dev nD) = peer c := Fin.ext (k0_dev11_eq c)
theorem dev12_eq (c : Dev nD) : (⟨k0_dev12 c, k0_dev12_lt c⟩ : Dev nD) = peer c := Fin.ext (k0_dev12_eq c)
theorem dev13_eq (c : Dev nD) : (⟨k0_dev13 c, k0_dev13_lt c⟩ : Dev nD) = peer c := Fin.ext (k0_dev13_eq c)
theorem dev14_eq (c : Dev nD) : (⟨k0_dev14 c, k0_dev14_lt c⟩ : Dev nD) = peer c := Fin.ext (k0_dev14_eq c)
theorem dev15_eq (c : Dev nD) : (⟨k0_dev15 c, k0_dev15_lt c⟩ : Dev nD) = peer c := Fin.ext (k0_dev15_eq c)
theorem dev16_eq (c : Dev nD) : (⟨k0_dev16 c, k0_dev16_lt c⟩ : Dev nD) = peer c := Fin.ext (k0_dev16_eq c)
theorem dev17_eq (c : Dev nD) : (⟨k0_dev17 c, k0_dev17_lt c⟩ : Dev nD) = peer c := Fin.ext (k0_dev17_eq c)

def pairing : Dev nD ≃ Dev nD := ⟨peer, peer, peer_peer, peer_peer⟩

/-! ## The memrefs and cells -/

abbrev xM : Memref sig .tc .hbm S16384x2048 .f32 := Memref.whole main_arg0
abbrev oM : Memref sig .tc .hbm S32768x1024 .bf16 := Memref.whole main_v1
abbrev stgS : Memref sig .tc .vmem S2x1024x1024 .f32 := Memref.whole cc0_scratch0
abbrev sndB : Memref sig .tc .vmem S16x1024x1024 .bf16 := Memref.whole cc0_scratch1
abbrev stgL : Memref sig .tc .vmem S2x1024x1024 .f32 := Memref.whole cc0_scratch2
abbrev locB : Memref sig .tc .vmem S2x1024x1024 .bf16 := Memref.whole cc0_scratch3

/-- Row chunk `r`'s slice of the result array as DEVICE `c`'s kernel addresses it: rows `16384 z + 1024 r` on,
    `z` the last coordinate of `c`.  The same slice is the destination of `c`'s local store (on `c`) and of `c`'s remote
    copy (on `peer c`). -/
abbrev oS (c : Dev nD) (r : Fin 16) : Memref sig .tc .hbm S1024x1024 .bf16 :=
  (oM).slice (Rect.unit (s := S32768x1024) (k0_off4 c (BitVec.ofNat 32 (1024 * r.val))) S1024x1024.size (k0_off4_inb c r)) (fun _ => rfl)

theorem sb_inb (r : Fin 16) : ∀ a, (![r.val, 0, 0] : Fin 3 → Nat) a + S1x1024x1024.size a ≤ S16x1024x1024.size a := by
  revert r; decide
/-- Slot `r` of the send buffer. -/
abbrev sbS (r : Fin 16) : Memref sig .tc .vmem S1024x1024 .bf16 :=
  ((sndB).slice (Rect.unit (s := S16x1024x1024) ![r.val, 0, 0] S1x1024x1024.size (sb_inb r)) (fun _ => rfl)).squeeze S1024x1024 squeezes_S1x1024x1024_S1024x1024

/-- The barrier semaphore of the collective (not scoped to the launch); the send and receive DMA semaphores of chunk `r`
    (the kernel's ninth and tenth scratch operands, sixteen each: numbers `6 + r` and `22 + r` of the 38). -/
abbrev barS : Sem sig := (SemArray.scalar (sig.barrier 0 rfl) : Sems sig S_).sem
def sendSem (r : Fin 16) : DmaSem sig := ⟨6 + r.val, by have := r.isLt; show 6 + r.val < 38; omega⟩
def recvSem (r : Fin 16) : DmaSem sig := ⟨22 + r.val, by have := r.isLt; show 22 + r.val < 38; omega⟩
/-- The six DMA semaphores only the device's own local copies touch (numbers 0 to 5). -/
def locSem (k : Fin 6) : DmaSem sig := ⟨k.val, by have := k.isLt; show k.val < 38; omega⟩

abbrev barCell (c : Dev nD) : GSem nD τ sig := ((c : Thread nD τ), .reg barS)
abbrev sendCell (c : Dev nD) (r : Fin 16) : GSem nD τ sig := ((c : Thread nD τ), .dma (sendSem r))
abbrev recvCell (c : Dev nD) (r : Fin 16) : GSem nD τ sig := ((c : Thread nD τ), .dma (recvSem r))
abbrev locCell (c : Dev nD) (k : Fin 6) : GSem nD τ sig := ((c : Thread nD τ), .dma (locSem k))

/-- The kernel's OWN (scoped) semaphores, as the launch theorem indexes them: all 38 DMA semaphores. -/
abbrev osem : Fin 38 → SemLoc sig := fun k => .dma k
/-- The protocol's 33 cells of a device: the barrier, the sixteen send cells, the sixteen receive cells. -/
def csem (k : Fin 33) : SemLoc sig :=
  if h0 : k.val = 0 then .reg barS
  else if h1 : k.val < 17 then .dma (sendSem ⟨k.val - 1, by omega⟩)
  else .dma (recvSem ⟨k.val - 17, by have := k.isLt; omega⟩)
abbrev kcell (ck : Dev nD × Fin 33) : GSem nD τ sig := ((ck.1 : Thread nD τ), csem ck.2)

/-- The credit of one chunk's copy (1024 x 1024 bf16 elements). -/
abbrev N : ℕ := (sbS 0 : Memref sig .tc .vmem S1024x1024 .bf16).view.dmaCredit
theorem N_pos : 0 < N := View.dmaCredit_pos _ (by decide)

/-! ## The schedule -/

/-- A result-array slice held outright at some contents, on device `d`. -/
def slicePts (d : Dev nD) (v : Memref sig .tc .hbm S1024x1024 .bf16) : sProp 𝕄 :=
  iprop(∃ f : Buf (Elt F) (v.view.loc (d : Thread nD τ)), v.view.loc (d : Thread nD τ) ↦[v.view.set]{fullShare} f)

/-- What `peer c`'s signal hands `c` (the one duty of `c`'s barrier cell): for every chunk, the slice of `peer c`'s
    result array that `c` will write, and that `peer c` has reached round 0 of its receive cell for the chunk. -/
def barPay (c : Dev nD) : sProp 𝕄 :=
  bigSep Finset.univ fun r : Fin 16 => iprop(slicePts (F := F) (peer c) (oS c r) ∗ reached ER (recvCell (peer c) r) 0)
/-- What the landing of `peer c`'s copy of chunk `r` hands `c`: the slice of `c`'s result array it wrote, at its final contents. -/
def recvPay (c : Dev nD) (r : Fin 16) : sProp 𝕄 :=
  (oS (peer c) r).view.loc (c : Thread nD τ) ↦[(oS (peer c) r).view.set]{fullShare} OV m c
/-- What the send buffer holds once every chunk is narrowed into it: slot `s`, row `a`, column `b` is the entry at row
    `1024 s + a`, column `1024 (1 - z) + b` of the device's argument block (the columns its partner keeps), narrowed. -/
def sbV (c : Dev nD) : Buf (Elt F) ((c : Thread nD τ).loc cc0_scratch1) :=
  fun (j : S16x1024x1024.Idx) =>
    (truncf .bf16 (X m c : FVec F S16384x2048 .f32) (by decide) : FVec F S16384x2048 .bf16)
      (ValueIdx.ix2 (⟨1024 * (j 0).val + (j 1).val, by have h0 : (j 0).val < 16 := (j 0).isLt; have h1 : (j 1).val < 1024 := (j 1).isLt; omega⟩ : Fin 16384)
        (⟨1024 * (1 - zOf c) + (j 2).val, by have h2 : (j 2).val < 1024 := (j 2).isLt; have := zOf_lt c; omega⟩ : Fin 2048))
/-- What the reading of slot `r` hands `c` back: the slot, at its sent chunk. -/
def sendPay (c : Dev nD) (r : Fin 16) : sProp 𝕄 :=
  (sbS r).view.loc (c : Thread nD τ) ↦[(sbS r).view.set]{fullShare} sbV m c

/-- Is `g` one of the protocol's cells (on a TensorCore thread: the barrier, a send or a receive semaphore)? -/
def IsCell (g : GSem nD τ sig) : Prop :=
  g.1.2 = .tc ∧ (g.2 = .reg barS ∨ ∃ q : DmaSem sig, g.2 = .dma q ∧ 6 ≤ q.val)
instance (g : GSem nD τ sig) : Decidable (IsCell g) := by unfold IsCell; infer_instance

/-- One round, round 0, one duty: a barrier cell's of one unit, a send or receive cell's of a chunk's credit. -/
def a2aRd : Rounds.Schedule (GSem nD τ sig) Unit 𝕄 where
  duties g r := if r = 0 ∧ IsCell g then {()} else ∅
  unitless _ := False
  amount g _ _ := if g.2 = .reg barS then 1 else N
  payload g _ _ :=
    match g.2 with
    | .reg s => if s = barS then barPay g.1.1 else iprop(emp)
    | .dma q =>
      if h : 22 ≤ q.val then recvPay m g.1.1 ⟨q.val - 22, by have hq : q.val < 38 := q.isLt; show q.val - 22 < 16; omega⟩
      else if h' : 6 ≤ q.val then sendPay m g.1.1 ⟨q.val - 6, by omega⟩
      else iprop(emp)
  amount_pos g _ _ _ := by
    by_cases h : g.2 = .reg barS
    · rw [if_pos h]; exact Nat.one_pos
    · rw [if_neg h]; exact N_pos

instance a2aRd_payload_storable (g : GSem nD τ sig) (r : ℕ) (d : Unit) :
    BI.Storable (upEmb : UEmb _ 𝕄) ((a2aRd (F := F) m).payload g r d) := by
  dsimp only [a2aRd]
  split
  · split
    · unfold barPay slicePts; infer_instance
    · infer_instance
  · split
    · unfold recvPay; infer_instance
    · split
      · unfold sendPay; infer_instance
      · infer_instance

/-! ## What each device owes at launch; the levels -/

/-- The receive credits device `c` still owes its partner before its copy of chunk `k`: chunks `k` to 15, summed so that
    the copy of chunk `k` peels the last summand. -/
def owedFrom (c : Dev nD) : ℕ → CellTallies nD τ sig Unit
  | k => if h : k < 16 then owedFrom c (k + 1) + tallyAt (recvCell (peer c) ⟨k, h⟩) () N else 0
termination_by k => 16 - k

theorem owedFrom_lt (c : Dev nD) (k : Fin 16) :
    owedFrom c k.val = owedFrom c (k.val + 1) + tallyAt (recvCell (peer c) k) () N := by
  rw [owedFrom, dif_pos k.isLt]
theorem owedFrom_16 (c : Dev nD) : owedFrom c 16 = 0 := by
  rw [owedFrom, dif_neg (by omega)]

/-- At launch device `c` owes its partner's sixteen receive cells a chunk's credit each and its partner's barrier cell
    one unit; the signal comes first, so its unit is the last summand. -/
def O₀ (c : Dev nD) : CellTallies nD τ sig Unit := owedFrom c 0 + tallyAt (barCell (peer c)) () 1

def L (g : GSem nD τ sig) : Finset Unit := if g.1.2 = .tc then {()} else ∅
/-- Barrier cells at level 1, receive cells at 2, everything else (the local copies' and the send cells) at 0. -/
def lv (g : GSem nD τ sig) (_ : Unit) : ℕ :=
  match g.2 with
  | .reg s => if s = barS then 1 else 0
  | .dma q => if 22 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state and the proof data -/

/-- The cells' invariants device `c`'s body opens, under the names `K` the launch allocated them at: its own 33, its
    partner's barrier cell (its signal) and its partner's sixteen receive cells (its copies). -/
def invs (K : Dev nD × Fin 33 → ℕ) (c : Dev nD) : sProp 𝕄 :=
  iprop((bigSep Finset.univ fun k : Fin 33 => cellInv ER (a2aRd m) (K (c, k)) (kcell (c, k)))
    ∗ cellInv ER (a2aRd m) (K (peer c, 0)) (barCell (peer c))
    ∗ bigSep Finset.univ fun r : Fin 16 => cellInv ER (a2aRd m) (K (peer c, ⟨17 + r.val, by have := r.isLt; omega⟩)) (recvCell (peer c) r))

instance invs_persistent (K : Dev nD × Fin 33 → ℕ) (c : Dev nD) : BI.Persistent (invs m K c) := by unfold invs; infer_instance

/-- The protocol's ghost state device `c` starts from: the invariants; its positions at round 0 of its 33 cells; that
    round 0 is reached of the cells it pays and of its own; the 33 duty tokens it pays with — its partner's barrier
    duty, its partner's sixteen receive duties, its own sixteen send duties. -/
def ghost (K : Dev nD × Fin 33 → ℕ) (c : Dev nD) : sProp 𝕄 :=
  iprop(invs m K c
    ∗ (bigSep Finset.univ fun k : Fin 33 => atPos ER (kcell (c, k)) 0 ∅ 0)
    ∗ (bigSep Finset.univ fun k : Fin 33 => reached ER (kcell (c, k)) 0)
    ∗ reached ER (barCell (peer c)) 0 ∗ (bigSep Finset.univ fun r : Fin 16 => reached ER (recvCell (peer c) r) 0)
    ∗ dutyTok ER (barCell (peer c)) 0 ()
    ∗ (bigSep Finset.univ fun r : Fin 16 => dutyTok ER (recvCell (peer c) r) 0 ())
    ∗ (bigSep Finset.univ fun r : Fin 16 => dutyTok ER (sendCell c r) 0 ()))

/-- What device `c`'s body starts from besides its buffers: the ghost state at some names, its credit tokens (its
    barrier's unit, each receive cell's credit), the level facts, and its six local DMA semaphores at zero. -/
def start (c : Dev nD) : sProp 𝕄 :=
  iprop((∃ K, ghost m K c) ∗ cred (tallyAt (barCell c) () 1)
    ∗ (bigSep Finset.univ fun r : Fin 16 => cred (tallyAt (recvCell c r) () N)) ∗ levAts L lv
    ∗ bigSep Finset.univ fun k : Fin 6 => semVal (locCell c k) 0)

/-- The device's two unscoped arrays: the argument as launched, the result at contents `f`. -/
def arrays (c : Dev nD) (f : Buf (Elt F) ((c : Thread nD τ).loc main_v1)) : sProp 𝕄 :=
  iprop((((c : Thread nD τ).loc main_arg0) ↦{fullShare} X m c) ∗ (((c : Thread nD τ).loc main_v1) ↦{fullShare} f))
/-- Its four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Before the body: the start, the arrays as launched, the scratch buffers. -/
def Φ₀ (c : Dev nD) : sProp 𝕄 := iprop(start m c ∗ arrays m c (m ((c : Thread nD τ).loc main_v1)) ∗ scratch (F := F) c)
/-- After it: the result array at its final contents, the argument as launched, the scratch buffers, and all 38 own
    semaphores back at zero (the barrier cell is not the kernel's: nothing to hand back). -/
def Φ₁ (c : Dev nD) : sProp 𝕄 :=
  iprop(arrays m c (OV m c) ∗ scratch (F := F) c ∗ bigSep Finset.univ fun k : Fin 38 => semVal ((c : Thread nD τ), osem k) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The body's statement -/

/-- What the body starts from, the names of the invariants fixed. -/
def bodyPre (K : Dev nD × Fin 33 → ℕ) (c : Dev nD) : sProp 𝕄 :=
  iprop(ghost m K c ∗ cred (tallyAt (barCell c) () 1)
    ∗ (bigSep Finset.univ fun r : Fin 16 => cred (tallyAt (recvCell c r) () N)) ∗ levAts L lv
    ∗ (bigSep Finset.univ fun k : Fin 6 => semVal (locCell c k) 0)
    ∗ arrays m c (m ((c : Thread nD τ).loc main_v1)) ∗ scratch (F := F) c
    ∗ Pipeline.owesWithin c (O₀ c) Set.univ)

def bodyPost (c : Dev nD) : sProp 𝕄 := iprop(Φ₁ m c ∗ Pipeline.owesWithin c 0 Set.univ)

end Cert.Kernel.A2A

end
-- ==== Proof.Kernel.Tables.lean ====
/-
  The schedule's tables: which duty each of a device's 33 cells has in its one round, of what amount, with what
  payload; and the level argument: a device waits on a cell only while everything it still owes lies above that cell.
-/
import proofs.«900627_g7700000000000628_dist_a2a_v7x_xyz2x2x2_z_m16384_n1024_bf16_1_alg».proof.Proof.Kernel.Proto

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD) (r : Fin 16)

omit [FloatOps F] in
theorem isCell_bar : IsCell (barCell c) := ⟨rfl, .inl rfl⟩
omit [FloatOps F] in
theorem isCell_send : IsCell (sendCell c r) := ⟨rfl, .inr ⟨sendSem r, rfl, Nat.le_add_right 6 r.val⟩⟩
omit [FloatOps F] in
theorem isCell_recv : IsCell (recvCell c r) :=
  ⟨rfl, .inr ⟨recvSem r, rfl, by show 6 ≤ 22 + r.val; omega⟩⟩

theorem duties_bar : (a2aRd (F := F) m).duties (barCell c) 0 = {()} := by dsimp only [a2aRd]; exact if_pos ⟨rfl, isCell_bar c⟩
theorem duties_send : (a2aRd (F := F) m).duties (sendCell c r) 0 = {()} := by dsimp only [a2aRd]; exact if_pos ⟨rfl, isCell_send c r⟩
theorem duties_recv : (a2aRd (F := F) m).duties (recvCell c r) 0 = {()} := by dsimp only [a2aRd]; exact if_pos ⟨rfl, isCell_recv c r⟩
theorem duties_later (g : GSem nD τ sig) : ∀ r, 1 ≤ r → (a2aRd (F := F) m).duties g r = ∅ :=
  fun r hr => by dsimp only [a2aRd]; rw [if_neg fun h => by omega]

theorem amount_bar (d : Unit) : (a2aRd (F := F) m).amount (barCell c) 0 d = 1 := by dsimp only [a2aRd]; exact if_pos rfl
theorem amount_send (d : Unit) : (a2aRd (F := F) m).amount (sendCell c r) 0 d = N := by
  dsimp only [a2aRd]; exact if_neg fun h => by cases h
theorem amount_recv (d : Unit) : (a2aRd (F := F) m).amount (recvCell c r) 0 d = N := by
  dsimp only [a2aRd]; exact if_neg fun h => by cases h

theorem expect_bar : (a2aRd (F := F) m).expect (barCell c) 0 = 1 := by
  unfold Schedule.expect Schedule.amountOf; rw [duties_bar, Finset.sum_singleton, amount_bar]
theorem expect_send : (a2aRd (F := F) m).expect (sendCell c r) 0 = N := by
  unfold Schedule.expect Schedule.amountOf; rw [duties_send, Finset.sum_singleton, amount_send]
theorem expect_recv : (a2aRd (F := F) m).expect (recvCell c r) 0 = N := by
  unfold Schedule.expect Schedule.amountOf; rw [duties_recv, Finset.sum_singleton, amount_recv]

theorem payload_bar (d : Unit) : (a2aRd (F := F) m).payload (barCell c) 0 d = barPay c := by
  dsimp only [a2aRd]; rw [if_pos rfl]
theorem payload_send (d : Unit) : (a2aRd (F := F) m).payload (sendCell c r) 0 d = sendPay m c r := by
  dsimp only [a2aRd]
  rw [dif_neg (show ¬ 22 ≤ (sendSem r).val by have := r.isLt; show ¬ 22 ≤ 6 + r.val; omega),
    dif_pos (show 6 ≤ (sendSem r).val from Nat.le_add_right 6 r.val)]
  exact congrArg (sendPay m c) (Fin.ext (Nat.add_sub_cancel_left (n := 6) (m := r.val)))
theorem payload_recv (d : Unit) : (a2aRd (F := F) m).payload (recvCell c r) 0 d = recvPay m c r := by
  dsimp only [a2aRd]
  rw [dif_pos (show 22 ≤ (recvSem r).val from Nat.le_add_right 22 r.val)]
  exact congrArg (recvPay m c) (Fin.ext (Nat.add_sub_cancel_left (n := 22) (m := r.val)))

/-- The rest of a cell's round, no duty taken: its one payload. -/
theorem rest_bar : bigSep ((a2aRd (F := F) m).duties (barCell c) 0 \ ∅) (fun d => (a2aRd (F := F) m).payload (barCell c) 0 d) = barPay c := by
  rw [Finset.sdiff_empty, duties_bar, bigSep_singleton, payload_bar]
theorem rest_send : bigSep ((a2aRd (F := F) m).duties (sendCell c r) 0 \ ∅) (fun d => (a2aRd (F := F) m).payload (sendCell c r) 0 d) = sendPay m c r := by
  rw [Finset.sdiff_empty, duties_send, bigSep_singleton, payload_send]
theorem rest_recv : bigSep ((a2aRd (F := F) m).duties (recvCell c r) 0 \ ∅) (fun d => (a2aRd (F := F) m).payload (recvCell c r) 0 d) = recvPay m c r := by
  rw [Finset.sdiff_empty, duties_recv, bigSep_singleton, payload_recv]

end Sched

/-- The proof of Proto.lean's `a2aRd_payload_storable` (to be moved there). -/
theorem payload_storable (g : GSem nD τ sig) (r : ℕ) (d : Unit) :
    BI.Storable (upEmb : UEmb _ 𝕄) ((a2aRd (F := F) m).payload g r d) := by
  dsimp only [a2aRd]
  split
  · split
    · unfold barPay slicePts; infer_instance
    · infer_instance
  · split
    · unfold recvPay; infer_instance
    · split
      · unfold sendPay; infer_instance
      · infer_instance

/-! ## The levels -/

omit [FloatOps F] in
/-- Whatever a device still owes of its receive debts is owed to a receive cell of its partner. -/
theorem owedFrom_pos {c : Dev nD} {n : ℕ} {g : GSem nD τ sig} {u : Unit} (h : 0 < owedFrom c n g u) :
    ∃ r : Fin 16, g = recvCell (peer c) r := by
  induction hk : 16 - n generalizing n with
  | zero =>
    rw [owedFrom, dif_neg (by omega)] at h
    exact absurd h (Nat.lt_irrefl 0)
  | succ k ih =>
    have hn : n < 16 := by omega
    have e : owedFrom c n = owedFrom c (n + 1) + tallyAt (recvCell (peer c) ⟨n, hn⟩) () N := owedFrom_lt c ⟨n, hn⟩
    rw [e, Pi.add_apply, Finsupp.add_apply, tallyAt_apply] at h
    by_cases hg : g = recvCell (peer c) ⟨n, hn⟩ ∧ u = ()
    · exact ⟨_, hg.1⟩
    · rw [if_neg hg, Nat.add_zero] at h
      exact ih h (by omega)

omit [FloatOps F] in
/-- A wait on one of the device's six local DMA semaphores, or on one of its send cells, while it owes receive credit
    only (all at level 2, the awaited cell at level 0). -/
theorem mayWait_low (c : Dev nD) (q : DmaSem sig) (hq : q.val < 22) (n : ℕ) :
    (levAts L lv : sProp 𝕄) ⊢ MayWait (c : Thread nD τ) (.dma q) () (owedFrom c n) :=
  MayOwe.of_cut (L := L) (lev := lv) 0
    (fun p hp => by rw [Finset.mem_singleton.mp hp, L_tc]; exact Finset.mem_singleton_self _)
    (fun g u hg => by obtain ⟨r, rfl⟩ := owedFrom_pos hg; rw [L_tc]; exact Finset.mem_singleton_self _)
    (fun p hp => by rw [Finset.mem_singleton.mp hp]; dsimp only [lv]; rw [if_neg (by omega)])
    (fun g u hg => by
      obtain ⟨r, rfl⟩ := owedFrom_pos hg
      dsimp only [lv]; rw [if_pos (show 22 ≤ (recvSem r).val from Nat.le_add_right 22 r.val)]; decide)

omit [FloatOps F] in
/-- At its barrier wait (level 1) a device owes its partner's sixteen receive credits only (level 2). -/
theorem mayWait_bar (c : Dev nD) :
    (levAts L lv : sProp 𝕄) ⊢ MayWait (c : Thread nD τ) (.reg barS) () (owedFrom c 0) :=
  MayOwe.of_cut (L := L) (lev := lv) 1
    (fun p hp => by rw [Finset.mem_singleton.mp hp, L_tc]; exact Finset.mem_singleton_self _)
    (fun g u hg => by obtain ⟨r, rfl⟩ := owedFrom_pos hg; rw [L_tc]; exact Finset.mem_singleton_self _)
    (fun p hp => by rw [Finset.mem_singleton.mp hp]; dsimp only [lv]; rw [if_pos rfl])
    (fun g u hg => by
      obtain ⟨r, rfl⟩ := owedFrom_pos hg
      dsimp only [lv]; rw [if_pos (show 22 ≤ (recvSem r).val from Nat.le_add_right 22 r.val)]; decide)

/-- info: 'Cert.Kernel.A2A.owedFrom_pos' depends on axioms: [propext, Classical.choice, Quot.sound] -/
#guard_msgs in #print axioms owedFrom_pos

/-- info: 'Cert.Kernel.A2A.mayWait_low' depends on axioms: [propext, Classical.choice, Quot.sound] -/
#guard_msgs in #print axioms mayWait_low

/-- info: 'Cert.Kernel.A2A.mayWait_bar' depends on axioms: [propext, Classical.choice, Quot.sound] -/
#guard_msgs in #print axioms mayWait_bar

end Cert.Kernel.A2A

end
-- ==== Proof.Kernel.BodyPrep.lean ====
/-
  Bookkeeping for the body: a separating conjunction over a device's six local semaphores, sixteen chunks or 33 cells
  written out term by term, and which semaphore each of the 33 cells is.
-/
import proofs.«900627_g7700000000000628_dist_a2a_v7x_xyz2x2x2_z_m16384_n1024_bf16_1_alg».proof.Proof.Kernel.Proto
import proofs.«900627_g7700000000000628_dist_a2a_v7x_xyz2x2x2_z_m16384_n1024_bf16_1_alg».proof.Proof.Kernel.Tables

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin33 (Φ : Fin 33 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32) :=
  bigSep_univ_eq_bigSepL [0, 1, 2, 3, 4, 5, 6, 7, 8, 9, 10, 11, 12, 13, 14, 15, 16, 17, 18, 19, 20, 21, 22, 23, 24, 25, 26, 27, 28, 29, 30, 31, 32] (by decide) (by decide) Φ

omit [FloatOps F] in
theorem csem_bar : csem (0 : Fin 33) = .reg barS := rfl
omit [FloatOps F] in
theorem csem_send (r : Fin 16) : csem (⟨1 + r.val, by have := r.isLt; omega⟩ : Fin 33) = .dma (sendSem r) := by
  unfold csem
  rw [dif_neg (by show ¬ (1 + r.val = 0); omega), dif_pos (by show 1 + r.val < 17; have := r.isLt; omega)]
  congr 2
  exact Fin.ext (by show 1 + r.val - 1 = r.val; omega)
omit [FloatOps F] in
theorem csem_recv (r : Fin 16) : csem (⟨17 + r.val, by have := r.isLt; omega⟩ : Fin 33) = .dma (recvSem r) := by
  unfold csem
  rw [dif_neg (by show ¬ (17 + r.val = 0); omega), dif_neg (by show ¬ (17 + r.val < 17); omega)]
  congr 2
  exact Fin.ext (by show 17 + r.val - 17 = r.val; omega)

end Cert.Kernel.A2A

end
-- ==== Proof.Kernel.Regions.lean ====
/-
  The result array as its 32 row slices, the send buffer as its 16 slots.

  A device's result array has 32768 rows: the sixteen slices its own kernel addresses (rows 16384 z + 1024 r on) and the
  sixteen its partner's kernel addresses (rows 16384 (1 - z) + 1024 r on) are pairwise disjoint and cover it; the send
  buffer's sixteen slots likewise.  So holding the whole buffer is holding every piece, at the same contents.
-/
import proofs.«900627_g7700000000000628_dist_a2a_v7x_xyz2x2x2_z_m16384_n1024_bf16_1_alg».proof.Proof.Kernel.Proto

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which elements a slice holds -/

/-- Row chunk `r`'s slice as device `d`'s kernel addresses it holds the rows `16384 z + 1024 r` to `16384 z + 1024 r + 1023`,
    `z` the parity of `d`, all columns. -/
theorem mem_oS (d : Dev nD) (r : Fin 16) (i : S32768x1024.Idx) :
    i ∈ (oS d r).view.set ↔
      16384 * (d.val % 2) + 1024 * r.val ≤ (i 0).val ∧ (i 0).val < 16384 * (d.val % 2) + 1024 * r.val + 1024 := by
  rw [View.set_slice_whole, Rect.mem_set_unit, k0_off4_eq]
  refine ⟨fun h => h 0, fun h a => ?_⟩
  obtain ⟨a, ha⟩ := a
  have ha2 : a < 2 := ha
  interval_cases a
  · exact h
  · have h1 : (i ⟨1, ha⟩).val < 1024 := (i ⟨1, ha⟩).isLt
    exact ⟨Nat.zero_le _, by show _ < 0 + 1024; omega⟩

/-- Slot `r` of the send buffer holds the elements whose first coordinate is `r`. -/
theorem mem_sbS (r : Fin 16) (i : S16x1024x1024.Idx) : i ∈ (sbS r).view.set ↔ (i 0).val = r.val := by
  rw [View.set_reshape, View.set_slice_whole, Rect.mem_set_unit]
  refine ⟨fun h => ?_, fun h a => ?_⟩
  · have h0 : r.val ≤ (i 0).val ∧ (i 0).val < r.val + 1 := h 0
    omega
  · obtain ⟨a, ha⟩ := a
    have ha3 : a < 3 := ha
    interval_cases a
    · exact (show r.val ≤ (i 0).val ∧ (i 0).val < r.val + 1 from ⟨by omega, by omega⟩)
    · have h1 : (i ⟨1, ha⟩).val < 1024 := (i ⟨1, ha⟩).isLt
      exact ⟨Nat.zero_le _, by show _ < 0 + 1024; omega⟩
    · have h2 : (i ⟨2, ha⟩).val < 1024 := (i ⟨2, ha⟩).isLt
      exact ⟨Nat.zero_le _, by show _ < 0 + 1024; omega⟩

/-- Two chunks' slices of one device's addressing share no element. -/
theorem oS_disj (d : Dev nD) {r r' : Fin 16} (h : r ≠ r') :
    Disjoint ((oS d r).view.set : Finset S32768x1024.Idx) (oS d r').view.set := by
  rw [Finset.disjoint_left]
  intro i hi hi'
  rw [mem_oS] at hi hi'
  exact h (Fin.ext (by omega))

/-- A slice of a device's addressing and a slice of its partner's lie in different halves of the rows. -/
theorem oS_disj_peer (c : Dev nD) (r r' : Fin 16) :
    Disjoint ((oS c r).view.set : Finset S32768x1024.Idx) (oS (peer c) r').view.set := by
  rw [Finset.disjoint_left]
  intro i hi hi'
  rw [mem_oS] at hi hi'
  have hz : (peer c).val % 2 = 1 - c.val % 2 := zOf_peer c
  have hr := r.isLt
  have hr' := r'.isLt
  rw [hz] at hi'
  omega

/-- Every element of the result array lies in a slice of the device's addressing or in one of its partner's. -/
theorem oS_cover (c : Dev nD) (i : S32768x1024.Idx) :
    (∃ r : Fin 16, i ∈ (oS c r).view.set) ∨ ∃ r : Fin 16, i ∈ (oS (peer c) r).view.set := by
  have hi : (i 0).val < 32768 := (i 0).isLt
  have hz : (peer c).val % 2 = 1 - c.val % 2 := zOf_peer c
  by_cases h : (i 0).val / 16384 = c.val % 2
  · refine .inl ⟨⟨((i 0).val % 16384) / 1024, by omega⟩, ?_⟩
    rw [mem_oS]
    show 16384 * (c.val % 2) + 1024 * (((i 0).val % 16384) / 1024) ≤ (i 0).val
      ∧ (i 0).val < 16384 * (c.val % 2) + 1024 * (((i 0).val % 16384) / 1024) + 1024
    omega
  · refine .inr ⟨⟨((i 0).val % 16384) / 1024, by omega⟩, ?_⟩
    rw [mem_oS, hz]
    show 16384 * (1 - c.val % 2) + 1024 * (((i 0).val % 16384) / 1024) ≤ (i 0).val
      ∧ (i 0).val < 16384 * (1 - c.val % 2) + 1024 * (((i 0).val % 16384) / 1024) + 1024
    omega

/-- Two slots of the send buffer share no element. -/
theorem sbS_disj {r r' : Fin 16} (h : r ≠ r') :
    Disjoint ((sbS r).view.set : Finset S16x1024x1024.Idx) (sbS r').view.set := by
  rw [Finset.disjoint_left]
  intro i hi hi'
  rw [mem_sbS] at hi hi'
  exact h (Fin.ext (by omega))

/-! ## The two splittings -/

omit [FloatOps F] in
/-- The result array held whole is its sixteen own slices and its partner's sixteen, all at the same contents. -/
theorem out_split (c : Dev nD) (f : Buf (Elt F) ((c : Thread nD τ).loc main_v1)) :
    ((((c : Thread nD τ).loc main_v1) ↦{fullShare} f : sProp 𝕄))
      ⊣⊢ iprop((bigSep Finset.univ fun r : Fin 16 => ((oS c r).view.loc (c : Thread nD τ) ↦[(oS c r).view.set]{fullShare} f : sProp 𝕄))
          ∗ (bigSep Finset.univ fun r : Fin 16 => ((oS (peer c) r).view.loc (c : Thread nD τ) ↦[(oS (peer c) r).view.set]{fullShare} f : sProp 𝕄))) := by
  have hu : (Finset.univ : Finset (Idx ((c : Thread nD τ).loc main_v1))) =
      (Finset.biUnion (β := Idx ((c : Thread nD τ).loc main_v1)) Finset.univ fun r : Fin 16 => (oS c r).view.set)
        ∪ (Finset.biUnion (β := Idx ((c : Thread nD τ).loc main_v1)) Finset.univ fun r : Fin 16 => (oS (peer c) r).view.set) := by
    ext i
    simp only [Finset.mem_univ, Finset.mem_union, Finset.mem_biUnion, true_and, true_iff]
    exact oS_cover c i
  have hd : Disjoint (Finset.biUnion (β := Idx ((c : Thread nD τ).loc main_v1)) Finset.univ fun r : Fin 16 => (oS c r).view.set)
      (Finset.biUnion (β := Idx ((c : Thread nD τ).loc main_v1)) Finset.univ fun r : Fin 16 => (oS (peer c) r).view.set) := by
    rw [Finset.disjoint_biUnion_left]
    intro r _
    rw [Finset.disjoint_biUnion_right]
    intro r' _
    exact oS_disj_peer c r r'
  rw [hu]
  refine (pointsTo_union hd).trans (BiEntails.of_eq ?_)
  rw [pointsTo_biUnion _ _ (fun r _ r' _ h => oS_disj c h), pointsTo_biUnion _ _ (fun r _ r' _ h => oS_disj (peer c) h)]

omit [FloatOps F] in
/-- The send buffer held whole is its sixteen slots, all at the same contents. -/
theorem sndB_split (c : Dev nD) (f : Buf (Elt F) ((c : Thread nD τ).loc cc0_scratch1)) :
    ((((c : Thread nD τ).loc cc0_scratch1) ↦{fullShare} f : sProp 𝕄))
      ⊣⊢ (bigSep Finset.univ fun r : Fin 16 => ((sbS r).view.loc (c : Thread nD τ) ↦[(sbS r).view.set]{fullShare} f : sProp 𝕄)) := by
  have hu : (Finset.univ : Finset (Idx ((c : Thread nD τ).loc cc0_scratch1))) = Finset.univ.biUnion fun r : Fin 16 => (sbS r).view.set := by
    ext i
    simp only [Finset.mem_univ, Finset.mem_biUnion, true_and, true_iff]
    exact ⟨⟨(i 0).val, (i 0).isLt⟩, (mem_sbS _ i).mpr rfl⟩
  rw [hu]
  refine BiEntails.of_eq ?_
  rw [pointsTo_biUnion _ _ (fun r _ r' _ h => sbS_disj h)]

/-- info: 'Cert.Kernel.A2A.out_split' depends on axioms: [propext, Classical.choice, Quot.sound] -/
#guard_msgs in #print axioms out_split

/-- info: 'Cert.Kernel.A2A.sndB_split' depends on axioms: [propext, Classical.choice, Quot.sound] -/
#guard_msgs in #print axioms sndB_split

end Cert.Kernel.A2A

end
-- ==== Proof.Kernel.Contents.lean ====
/-
  What the buffers hold on the way, and the two landing facts.

  Chunk r of device s, narrowed: the 1024 x 1024 block of s's argument at rows 1024 r on, columns of the column block
  that the device's PARTNER keeps (the chunk s sends) or that s itself keeps (the chunk s stores locally).  A copy of
  the sent chunk into the partner's result rows, or of the kept chunk into the device's own, writes exactly the
  result array's final contents there.
-/
import proofs.«900627_g7700000000000628_dist_a2a_v7x_xyz2x2x2_z_m16384_n1024_bf16_1_alg».proof.Proof.Kernel.Proto
import Idealize.ShloMosaic.Lib.Pipeline.Value

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The chunk device `s` sends for row chunk `r`: rows `1024 r` on of its argument, the columns of its partner's block. -/
def sentChunk (s : Dev nD) (r : Fin 16) : Vec F S1024x1024 .bf16 :=
  fun y => (truncf .bf16 (X m s : FVec F S16384x2048 .f32) (by decide) : FVec F S16384x2048 .bf16)
    (ValueIdx.ix2 (⟨1024 * r.val + (y 0).val, by have := r.isLt; have h : (y 0).val < 1024 := (y 0).isLt; omega⟩ : Fin 16384)
      (⟨1024 * (1 - zOf s) + (y 1).val, by have := zOf_lt s; have h : (y 1).val < 1024 := (y 1).isLt; omega⟩ : Fin 2048))

/-- The chunk device `s` keeps for row chunk `r`: the same rows, the columns of its own block. -/
def keptChunk (s : Dev nD) (r : Fin 16) : Vec F S1024x1024 .bf16 :=
  fun y => (truncf .bf16 (X m s : FVec F S16384x2048 .f32) (by decide) : FVec F S16384x2048 .bf16)
    (ValueIdx.ix2 (⟨1024 * r.val + (y 0).val, by have := r.isLt; have h : (y 0).val < 1024 := (y 0).isLt; omega⟩ : Fin 16384)
      (⟨1024 * zOf s + (y 1).val, by have := zOf_lt s; have h : (y 1).val < 1024 := (y 1).isLt; omega⟩ : Fin 2048))

/-! ## Where a result slice's elements lie, and the result array read there -/

/-- The element at `y` of row chunk `r`'s slice, as device `s` addresses it, lies at row
    `16384 z + 1024 r + y 0` of the result array, `z` the last coordinate of `s`, -/
theorem oS_emb_row (s : Dev nD) (r : Fin 16) (y : S1024x1024.Idx) :
    (((oS s r).view.emb y : S32768x1024.Idx) 0).val = 16384 * zOf s + 1024 * r.val + (y 0).val := by
  show (k0_off4 s (BitVec.ofNat 32 (1024 * r.val))) 0 + 1 * (y 0).val = _
  rw [k0_off4_eq]
  show 16384 * (s.val % 2) + 1024 * r.val + 1 * (y 0).val = 16384 * (s.val % 2) + 1024 * r.val + (y 0).val
  omega

/-- and at column `y 1`. -/
theorem oS_emb_col (s : Dev nD) (r : Fin 16) (y : S1024x1024.Idx) :
    (((oS s r).view.emb y : S32768x1024.Idx) 1).val = (y 1).val := by
  show (k0_off4 s (BitVec.ofNat 32 (1024 * r.val))) 1 + 1 * (y 1).val = _
  rw [k0_off4_eq]
  show 0 + 1 * (y 1).val = (y 1).val
  omega

/-- The result array device `c` must end with, read at `j`, once the owner of row `j 0` and the two coordinates
    read in the owner's argument are named. -/
theorem outVal_at (Y : (d : Dev nD) → Buf (Elt F) ((d.tc : Thread nD τ).loc main_arg0)) (c : Dev nD)
    (j : S32768x1024.Idx) (d : Dev nD) (hd : ownerOf c (j 0).val = d) (a : Fin 16384) (b : Fin 2048)
    (ha : a.val = (j 0).val % 16384) (hb : b.val = 1024 * zOf c + (j 1).val) :
    outVal Y c j = FloatOps.truncf .bf16 (by decide) ((Y d : FVec F S16384x2048 .f32) (ValueIdx.ix2 a b)) := by
  subst hd
  obtain rfl : a = ⟨(j 0).val % 16384, Nat.mod_lt _ (by decide)⟩ := Fin.ext ha
  have hbnd : 1024 * zOf c + (j 1).val < 2048 := by
    clear ha hb; have h0 := zOf_lt c; have h1 : (j 1).val < 1024 := (j 1).isLt; omega
  obtain rfl : b = ⟨1024 * zOf c + (j 1).val, hbnd⟩ := Fin.ext hb
  rfl

/-- The landing of device `s`'s copy of chunk `r` on its partner `c`: whatever `c`'s result array held (`fd`), the slice
    written with the sent chunk holds the result's final contents: the receive cell's payload. -/
theorem land_recv (c s : Dev nD) (hs : s = peer c) (r : Fin 16)
    (fd : Buf (Elt F) ((oS s r).view.loc (c : Thread nD τ)))
    (src : S1024x1024.Idx → Elt F .bf16) (hsrc : src = sentChunk m s r) :
    ((oS s r).view.loc (c : Thread nD τ) ↦[(oS s r).view.set]{fullShare} ((oS s r).view.write (Elt F) fd src Finset.univ) : sProp 𝕄)
      ⊢ recvPay m c r := by
  subst hs hsrc
  unfold recvPay
  refine Entails.of_eq (pointsTo_congr fun i hi => ?_)
  obtain ⟨y, rfl⟩ := View.exists_emb_of_mem_set _ hi
  rw [View.write_emb_of_mem _ _ (Finset.mem_univ y)]
  have hrow := oS_emb_row (peer c) r y
  have hcol := oS_emb_col (peer c) r y
  have hz := zOf_lt c
  have hp := zOf_peer c
  have hr := r.isLt
  have hy0 : (y 0).val < 1024 := (y 0).isLt
  have hown : ownerOf c (((oS (peer c) r).view.emb y : S32768x1024.Idx) 0).val = peer c := by
    unfold ownerOf
    rw [if_neg]
    rw [hrow, hp]; omega
  show _ = outVal (X m) c ((oS (peer c) r).view.emb y)
  rw [outVal_at (X m) c _ (peer c) hown
    ⟨1024 * r.val + (y 0).val, by omega⟩
    ⟨1024 * (1 - zOf (peer c)) + (y 1).val, by have h1 : (y 1).val < 1024 := (y 1).isLt; omega⟩
    (by show 1024 * r.val + (y 0).val = _; rw [hrow, hp]; omega)
    (by show 1024 * (1 - zOf (peer c)) + (y 1).val = _; rw [hcol, hp]; omega)]
  rfl

/-- The landing of device `c`'s local store of chunk `r`: the slice written with the kept chunk holds the result's
    final contents. -/
theorem land_local (c : Dev nD) (r : Fin 16)
    (fd : Buf (Elt F) ((oS c r).view.loc (c : Thread nD τ)))
    (src : S1024x1024.Idx → Elt F .bf16) (hsrc : src = keptChunk m c r) :
    ((oS c r).view.loc (c : Thread nD τ) ↦[(oS c r).view.set]{fullShare} ((oS c r).view.write (Elt F) fd src Finset.univ) : sProp 𝕄)
      ⊢ ((oS c r).view.loc (c : Thread nD τ) ↦[(oS c r).view.set]{fullShare} OV m c : sProp 𝕄) := by
  subst hsrc
  refine Entails.of_eq (pointsTo_congr fun i hi => ?_)
  obtain ⟨y, rfl⟩ := View.exists_emb_of_mem_set _ hi
  rw [View.write_emb_of_mem _ _ (Finset.mem_univ y)]
  have hrow := oS_emb_row c r y
  have hcol := oS_emb_col c r y
  have hz := zOf_lt c
  have hr := r.isLt
  have hy0 : (y 0).val < 1024 := (y 0).isLt
  have hown : ownerOf c (((oS c r).view.emb y : S32768x1024.Idx) 0).val = c := by
    unfold ownerOf
    rw [if_pos]
    rw [hrow]; omega
  show _ = outVal (X m) c ((oS c r).view.emb y)
  rw [outVal_at (X m) c _ c hown
    ⟨1024 * r.val + (y 0).val, by omega⟩
    ⟨1024 * zOf c + (y 1).val, by have h1 : (y 1).val < 1024 := (y 1).isLt; omega⟩
    (by show 1024 * r.val + (y 0).val = _; rw [hrow]; omega)
    (by show 1024 * zOf c + (y 1).val = _; rw [hcol])]
  rfl

/-- info: 'Cert.Kernel.A2A.land_recv' depends on axioms: [propext, Classical.choice, Quot.sound] -/
#guard_msgs in #print axioms Cert.Kernel.A2A.land_recv
/-- info: 'Cert.Kernel.A2A.land_local' depends on axioms: [propext, Classical.choice, Quot.sound] -/
#guard_msgs in #print axioms Cert.Kernel.A2A.land_local

end Cert.Kernel.A2A

end
-- ==== Proof.Kernel.RuleSend.lean ====
/-
  The remote copy of one chunk, as a rule of the protocol.

  Device c copies slot r of its send buffer, which holds the chunk it sends, into row chunk r's slice of its partner's
  result array.  The reading of the slot credits c's own send cell r and hands the slot back at the send buffer's final
  contents; the landing credits the partner's receive cell r and hands the partner the slice at its result array's final
  contents.  Of what c owes, the landing pays the last summand: the partner's receive credit for chunk r.
-/
import proofs.«900627_g7700000000000628_dist_a2a_v7x_xyz2x2x2_z_m16384_n1024_bf16_1_alg».proof.Proof.Kernel.Proto
import proofs.«900627_g7700000000000628_dist_a2a_v7x_xyz2x2x2_z_m16384_n1024_bf16_1_alg».proof.Proof.Kernel.Tables
import proofs.«900627_g7700000000000628_dist_a2a_v7x_xyz2x2x2_z_m16384_n1024_bf16_1_alg».proof.Proof.Kernel.Contents

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where a slot's elements lie, and the send buffer read there -/

/-- The element at `y` of slot `r` of the send buffer lies at `(r, y 0, y 1)`: the slot is the buffer's slice at
    first coordinate `r` with that axis of size one dropped. -/
theorem sbS_emb (r : Fin 16) (y : S1024x1024.Idx) :
    (((sbS r).view.emb y : S16x1024x1024.Idx) 0).val = r.val
      ∧ (((sbS r).view.emb y : S16x1024x1024.Idx) 1).val = (y 0).val
      ∧ (((sbS r).view.emb y : S16x1024x1024.Idx) 2).val = (y 1).val := by
  have e : Shape.reshapeEquiv (s := S1x1024x1024) (s' := S1024x1024) squeezes_S1x1024x1024_S1024x1024.numel_eq y
      = Fin.cons ⟨0, Nat.one_pos⟩ y := Shape.reshapeEquiv_cons_one _ y
  refine ⟨?_, ?_, ?_⟩
  · show (![r.val, 0, 0] : Fin 3 → ℕ) 0
      + 1 * ((Shape.reshapeEquiv (s := S1x1024x1024) (s' := S1024x1024) squeezes_S1x1024x1024_S1024x1024.numel_eq y) 0).val = _
    rw [e]; show r.val + 1 * 0 = r.val; omega
  · show (![r.val, 0, 0] : Fin 3 → ℕ) 1
      + 1 * ((Shape.reshapeEquiv (s := S1x1024x1024) (s' := S1024x1024) squeezes_S1x1024x1024_S1024x1024.numel_eq y) 1).val = _
    rw [e]; show 0 + 1 * (y 0).val = (y 0).val; omega
  · show (![r.val, 0, 0] : Fin 3 → ℕ) 2
      + 1 * ((Shape.reshapeEquiv (s := S1x1024x1024) (s' := S1024x1024) squeezes_S1x1024x1024_S1024x1024.numel_eq y) 2).val = _
    rw [e]; show 0 + 1 * (y 1).val = (y 1).val; omega

/-- The send buffer's final contents read at `j`, once the two coordinates read in the device's argument are named. -/
theorem sbV_at (c : Dev nD) (j : S16x1024x1024.Idx) (a : Fin 16384) (b : Fin 2048)
    (ha : a.val = 1024 * (j 0).val + (j 1).val) (hb : b.val = 1024 * (1 - zOf c) + (j 2).val) :
    sbV m c j = FloatOps.truncf .bf16 (by decide) ((X m c : FVec F S16384x2048 .f32) (ValueIdx.ix2 a b)) := by
  have hab : 1024 * (j 0).val + (j 1).val < 16384 := by
    clear ha hb; have h0 : (j 0).val < 16 := (j 0).isLt; have h1 : (j 1).val < 1024 := (j 1).isLt; omega
  have hbb : 1024 * (1 - zOf c) + (j 2).val < 2048 := by
    clear ha hb; have h2 : (j 2).val < 1024 := (j 2).isLt; have := zOf_lt c; omega
  obtain rfl : a = ⟨1024 * (j 0).val + (j 1).val, hab⟩ := Fin.ext ha
  obtain rfl : b = ⟨1024 * (1 - zOf c) + (j 2).val, hbb⟩ := Fin.ext hb
  rfl

/-- A slot that reads as the chunk the device sends holds the send buffer's final contents. -/
theorem slot_sent (c : Dev nD) (r : Fin 16)
    (fs : Buf (Elt F) ((sbS r).view.loc (c : Thread nD τ))) (hfs : (sbS r).view.read (Elt F) fs = sentChunk m c r) :
    ((sbS r).view.loc (c : Thread nD τ) ↦[(sbS r).view.set]{fullShare} fs : sProp 𝕄) ⊢ sendPay m c r := by
  unfold sendPay
  refine Entails.of_eq (pointsTo_congr fun i hi => ?_)
  obtain ⟨y, rfl⟩ := View.exists_emb_of_mem_set _ hi
  have h := congrFun hfs y
  rw [View.read_apply] at h
  obtain ⟨e0, e1, e2⟩ := sbS_emb r y
  have hr := r.isLt
  have hz := zOf_lt c
  have hy0 : (y 0).val < 1024 := (y 0).isLt
  have hy1 : (y 1).val < 1024 := (y 1).isLt
  rw [sbV_at m c _ ⟨1024 * r.val + (y 0).val, by omega⟩ ⟨1024 * (1 - zOf c) + (y 1).val, by omega⟩
    (by show 1024 * r.val + (y 0).val = _; rw [e0, e1]) (by show 1024 * (1 - zOf c) + (y 1).val = _; rw [e2])]
  exact h

/-! ## The rule -/

/-- The remote copy of chunk `r`: from the two cells' invariants, the slot at the sent chunk, the partner's slice at any
    contents, what the device still owes from chunk `r` on, and the two duties' tokens at round 0, the copy is
    enqueued; the device goes on with its send cell's credit and what it owes from chunk `r + 1` on. -/
theorem rule_send (c : Dev nD) (r : Fin 16) (κ₁ κ₂ : ℕ) (W : Waits sig Unit)
    (fs : Buf (Elt F) ((sbS r).view.loc (c : Thread nD τ))) (hfs : (sbS r).view.read (Elt F) fs = sentChunk m c r)
    (fd : Buf (Elt F) ((oS c r).view.loc (peer c : Thread nD τ)))
    {hsc : (oS c r : Memref sig (Dev.tc (peer c) : Thread nD τ).2.kind .hbm S1024x1024 .bf16).view.ref.isScScratch = false}
    {hsrc : (sbS r).view.WordExact} {hdst : (oS c r).view.WordExact}
    {hsem : DmaTarget.Typed .vmem (.dma (recvSem r)) (.remote (Dev.tc (peer c) : Thread nD τ) (oS c r) (.dma (sendSem r)) hsc)}
    {α : Type} {Q : α → sProp 𝕄} {k : PUnit → Prog (TpuEff nD τ sig (Elt F) Λ₀ .tc) α} :
    iprop(cellInv ER (a2aRd m) κ₁ (sendCell c r) ∗ cellInv ER (a2aRd m) κ₂ (recvCell (peer c) r)
        ∗ ((sbS r).view.loc (c : Thread nD τ) ↦[(sbS r).view.set]{fullShare} fs)
        ∗ ((oS c r).view.loc (peer c : Thread nD τ) ↦[(oS c r).view.set]{fullShare} fd)
        ∗ owes (c : Thread nD τ) (owedFrom c r.val) W
        ∗ dutyTok ER (sendCell c r) 0 () ∗ reached ER (sendCell c r) 0
        ∗ dutyTok ER (recvCell (peer c) r) 0 () ∗ reached ER (recvCell (peer c) r) 0)
      ⊢ iprop(((cred (tallyAt (sendCell c r) () N) ∗ owes (c : Thread nD τ) (owedFrom c (r.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbS r) (.remote (Dev.tc (peer c) : Thread nD τ) (oS c r) (.dma (sendSem r)) hsc) (.dma (recvSem r)) hsrc hdst hsem) k) Q) :=
  Rounds.wp_send_pointsTo 𝒱₀ ER (a2aRd m) (c : Thread nD τ) none (κ₁ := κ₁) (κ₂ := κ₂)
    (r₁ := 0) (r₂ := 0) (d₁ := ()) (d₂ := ()) (fd := fd)
    (by rw [duties_send]; exact Finset.mem_singleton_self _) (by rw [duties_recv]; exact Finset.mem_singleton_self _)
    () () N rfl (amount_send m c r ()) (amount_recv m (peer c) r ()) (owedFrom c (r.val + 1)) (owedFrom_lt c r) (W := W)
    (by rw [payload_send]; exact slot_sent m c r fs hfs)
    (by rw [payload_recv]; exact land_recv m (peer c) c (peer_peer c).symm r fd _ hfs)

/-- info: 'Cert.Kernel.A2A.slot_sent' depends on axioms: [propext, Classical.choice, Quot.sound] -/
#guard_msgs in #print axioms Cert.Kernel.A2A.slot_sent
/-- info: 'Cert.Kernel.A2A.rule_send' depends on axioms: [propext, Classical.choice, Quot.sound] -/
#guard_msgs in #print axioms Cert.Kernel.A2A.rule_send

end Cert.Kernel.A2A

end
-- ==== Proof.Kernel.RuleSendEx.lean ====
/-
  The remote copy of a chunk, in the form the body run applies it: the slot held at SOME contents that read, through the
  slot, as the chunk to send.
-/
import proofs.«900627_g7700000000000628_dist_a2a_v7x_xyz2x2x2_z_m16384_n1024_bf16_1_alg».proof.Proof.Kernel.RuleSend
import proofs.«900627_g7700000000000628_dist_a2a_v7x_xyz2x2x2_z_m16384_n1024_bf16_1_alg».proof.Proof.Kernel.BodyPrep

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem rule_send_ex (c : Dev nD) (r : Fin 16) (κ₁ κ₂ : ℕ) {W : Waits sig Unit}
    (fd : Buf (Elt F) ((oS c r).view.loc (peer c : Thread nD τ)))
    {hsc : (oS c r : Memref sig (Dev.tc (peer c) : Thread nD τ).2.kind .hbm S1024x1024 .bf16).view.ref.isScScratch = false}
    {hsrc : (sbS r).view.WordExact} {hdst : (oS c r).view.WordExact}
    {hsem : DmaTarget.Typed .vmem (.dma (recvSem r)) (.remote (Dev.tc (peer c) : Thread nD τ) (oS c r) (.dma (sendSem r)) hsc)}
    {α : Type} {Q : α → sProp 𝕄} {k : PUnit → Prog (TpuEff nD τ sig (Elt F) Λ₀ .tc) α} :
    iprop(cellInv ER (a2aRd m) κ₁ (sendCell c r) ∗ cellInv ER (a2aRd m) κ₂ (recvCell (peer c) r)
        ∗ (∃ fs : Buf (Elt F) ((sbS r).view.loc (c : Thread nD τ)), ⌜(sbS r).view.read (Elt F) fs = sentChunk m c r⌝
            ∗ ((sbS r).view.loc (c : Thread nD τ) ↦[(sbS r).view.set]{fullShare} fs))
        ∗ ((oS c r).view.loc (peer c : Thread nD τ) ↦[(oS c r).view.set]{fullShare} fd)
        ∗ owes (c : Thread nD τ) (owedFrom c r.val) W
        ∗ dutyTok ER (sendCell c r) 0 () ∗ reached ER (sendCell c r) 0
        ∗ dutyTok ER (recvCell (peer c) r) 0 () ∗ reached ER (recvCell (peer c) r) 0)
      ⊢ iprop(((cred (tallyAt (sendCell c r) () N) ∗ owes (c : Thread nD τ) (owedFrom c (r.val + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbS r) (.remote (Dev.tc (peer c) : Thread nD τ) (oS c r) (.dma (sendSem r)) hsc) (.dma (recvSem r)) hsrc hdst hsem) k) Q) := by
  iintro ⟨H1, H2, ⟨%fs, %hfs, Hs⟩, Hd, HO, Ht1, Hr1, Ht2, Hr2⟩
  iapply (rule_send m c r κ₁ κ₂ W fs hfs fd) $$ [H1 H2 Hs Hd HO Ht1 Hr1 Ht2 Hr2]
  isplitl [H1]; · iexact H1
  isplitl [H2]; · iexact H2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

/-- The same, the partner named by any device equal to it (the kernel names it by an integer chain). -/
theorem rule_send_at (c n : Dev nD) (hn : n = peer c) (r : Fin 16) (κ₁ κ₂ : ℕ) {W : Waits sig Unit}
    (fd : Buf (Elt F) ((oS c r).view.loc (peer c : Thread nD τ)))
    {hsc : (oS c r : Memref sig (Dev.tc n : Thread nD τ).2.kind .hbm S1024x1024 .bf16).view.ref.isScScratch = false}
    {hsrc : (sbS r).view.WordExact} {hdst : (oS c r).view.WordExact}
    {hsem : DmaTarget.Typed .vmem (.dma (recvSem r)) (.remote (Dev.tc n : Thread nD τ) (oS c r) (.dma (sendSem r)) hsc)}
    {α : Type} {Q : α → sProp 𝕄} {k : PUnit → Prog (TpuEff nD τ sig (Elt F) Λ₀ .tc) α} :
    iprop(cellInv ER (a2aRd m) κ₁ (sendCell c r) ∗ cellInv ER (a2aRd m) κ₂ (recvCell (peer c) r)
        ∗ (∃ fs : Buf (Elt F) ((sbS r).view.loc (c : Thread nD τ)), ⌜(sbS r).view.read (Elt F) fs = sentChunk m c r⌝
            ∗ ((sbS r).view.loc (c : Thread nD τ) ↦[(sbS r).view.set]{fullShare} fs))
        ∗ ((oS c r).view.loc (peer c : Thread nD τ) ↦[(oS c r).view.set]{fullShare} fd)
        ∗ owes (c : Thread nD τ) (owedFrom c r.val) W
        ∗ dutyTok ER (sendCell c r) 0 () ∗ reached ER (sendCell c r) 0
        ∗ dutyTok ER (recvCell (peer c) r) 0 () ∗ reached ER (recvCell (peer c) r) 0)
      ⊢ iprop(((cred (tallyAt (sendCell c r) () N) ∗ owes (c : Thread nD τ) (owedFrom c (r.val + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbS r) (.remote (Dev.tc n : Thread nD τ) (oS c r) (.dma (sendSem r)) hsc) (.dma (recvSem r)) hsrc hdst hsem) k) Q) := by
  subst hn
  exact rule_send_ex m c r κ₁ κ₂ fd

omit [FloatOps F] in
/-- What a device hands its partner with its barrier signal: its own sixteen slices that the partner will write, and
    that it has reached round 0 of each of its receive cells. -/
theorem barPay_peer (c : Dev nD) :
    (barPay (F := F) (peer c) : sProp 𝕄)
      = bigSep Finset.univ fun r : Fin 16 => iprop(slicePts (F := F) c (oS (peer c) r) ∗ reached ER (recvCell c r) 0) := by
  unfold barPay
  rw [peer_peer]

/-- The payload of the partner's barrier cell from its sixteen conjuncts written out. -/
theorem bar_payload_intro (c : Dev nD) :
    (iprop((slicePts (F := F) c (oS (peer c) 0) ∗ reached ER (recvCell c 0) 0) ∗ (slicePts (F := F) c (oS (peer c) 1) ∗ reached ER (recvCell c 1) 0) ∗ (slicePts (F := F) c (oS (peer c) 2) ∗ reached ER (recvCell c 2) 0) ∗ (slicePts (F := F) c (oS (peer c) 3) ∗ reached ER (recvCell c 3) 0) ∗ (slicePts (F := F) c (oS (peer c) 4) ∗ reached ER (recvCell c 4) 0) ∗ (slicePts (F := F) c (oS (peer c) 5) ∗ reached ER (recvCell c 5) 0) ∗ (slicePts (F := F) c (oS (peer c) 6) ∗ reached ER (recvCell c 6) 0) ∗ (slicePts (F := F) c (oS (peer c) 7) ∗ reached ER (recvCell c 7) 0) ∗ (slicePts (F := F) c (oS (peer c) 8) ∗ reached ER (recvCell c 8) 0) ∗ (slicePts (F := F) c (oS (peer c) 9) ∗ reached ER (recvCell c 9) 0) ∗ (slicePts (F := F) c (oS (peer c) 10) ∗ reached ER (recvCell c 10) 0) ∗ (slicePts (F := F) c (oS (peer c) 11) ∗ reached ER (recvCell c 11) 0) ∗ (slicePts (F := F) c (oS (peer c) 12) ∗ reached ER (recvCell c 12) 0) ∗ (slicePts (F := F) c (oS (peer c) 13) ∗ reached ER (recvCell c 13) 0) ∗ (slicePts (F := F) c (oS (peer c) 14) ∗ reached ER (recvCell c 14) 0) ∗ (slicePts (F := F) c (oS (peer c) 15) ∗ reached ER (recvCell c 15) 0)) : sProp 𝕄)
      ⊢ (a2aRd (F := F) m).payload (barCell (peer c)) 0 () := by
  rw [payload_bar, barPay_peer, bigSep_fin16]

end Cert.Kernel.A2A

end
-- ==== Proof.Kernel.BodyEnds.lean ====
/-
  The two ends of the body.  At entry each of the three two-slot scratch buffers, held whole, is cut into its two
  slots; at exit the slots are joined again, the result array is put together from its 32 row slices and the send buffer
  from its sixteen slots, the 38 semaphores are regrouped, and what is left is the state the launch takes back.
-/
import proofs.«900627_g7700000000000628_dist_a2a_v7x_xyz2x2x2_z_m16384_n1024_bf16_1_alg».proof.Proof.Kernel.Proto
import proofs.«900627_g7700000000000628_dist_a2a_v7x_xyz2x2x2_z_m16384_n1024_bf16_1_alg».proof.Proof.Kernel.Tables
import proofs.«900627_g7700000000000628_dist_a2a_v7x_xyz2x2x2_z_m16384_n1024_bf16_1_alg».proof.Proof.Kernel.Regions
import proofs.«900627_g7700000000000628_dist_a2a_v7x_xyz2x2x2_z_m16384_n1024_bf16_1_alg».proof.Proof.Kernel.BodyPrep

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots of a two-slot buffer -/

/-- The rectangle of slot `k` holds the elements whose first coordinate is `k`. -/
theorem mem_slotRect (k : ℕ) (inb : ∀ a, (![k, 0, 0] : Fin 3 → Nat) a + S1x1024x1024.size a ≤ S2x1024x1024.size a)
    (i : S2x1024x1024.Idx) :
    i ∈ (Rect.unit (s := S2x1024x1024) ![k, 0, 0] S1x1024x1024.size inb).set ↔ (i 0).val = k := by
  rw [Rect.mem_set_unit]
  refine ⟨fun h => ?_, fun h a => ?_⟩
  · have h0 : k ≤ (i 0).val ∧ (i 0).val < k + 1 := h 0
    omega
  · obtain ⟨a, ha⟩ := a
    have ha3 : a < 3 := ha
    interval_cases a
    · exact (show k ≤ (i 0).val ∧ (i 0).val < k + 1 from ⟨by omega, by omega⟩)
    · have h1 : (i ⟨1, ha⟩).val < 1024 := (i ⟨1, ha⟩).isLt
      exact ⟨Nat.zero_le _, by show _ < 0 + 1024; omega⟩
    · have h2 : (i ⟨2, ha⟩).val < 1024 := (i ⟨2, ha⟩).isLt
      exact ⟨Nat.zero_le _, by show _ < 0 + 1024; omega⟩

/-- Two sets of elements, the first coordinate 0 in one and 1 in the other, share nothing and cover the buffer. -/
theorem two_slots {A B : Finset S2x1024x1024.Idx} (hA : ∀ i, i ∈ A ↔ (i 0).val = 0) (hB : ∀ i, i ∈ B ↔ (i 0).val = 1) :
    Disjoint A B ∧ (Finset.univ : Finset S2x1024x1024.Idx) = A ∪ B := by
  refine ⟨Finset.disjoint_left.mpr fun i hi hi' => ?_, ?_⟩
  · rw [hA] at hi; rw [hB] at hi'; omega
  · ext i
    simp only [Finset.mem_univ, Finset.mem_union, true_iff]
    rw [hA, hB]
    have h2 : (i 0).val < 2 := (i 0).isLt
    omega

/-! ### `cc0_scratch0` -/

theorem stgS_sets :
    Disjoint ((((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set : Finset S2x1024x1024.Idx)
        (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set
      ∧ (Finset.univ : Finset S2x1024x1024.Idx)
        = (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set :=
  two_slots (fun i => by rw [View.set_reshape, View.set_slice_whole]; exact mem_slotRect 0 _ i)
    (fun i => by rw [View.set_reshape, View.set_slice_whole]; exact mem_slotRect 1 _ i)

omit [FloatOps F] in
/-- The buffer held whole is its two slots, at the same contents. -/
theorem stgS_split (c : Dev nD) (f : Buf (Elt F) ((c : Thread nD τ).loc cc0_scratch0)) :
    (((Memref.whole cc0_scratch0 : Memref sig .tc .vmem S2x1024x1024 .f32)).view.loc (c : Thread nD τ) ↦[((Memref.whole cc0_scratch0 : Memref sig .tc .vmem S2x1024x1024 .f32)).view.set]{fullShare} f : sProp 𝕄)
      ⊣⊢ iprop(((((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
          ∗ ((((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)) := by
  have e : (((Memref.whole cc0_scratch0 : Memref sig .tc .vmem S2x1024x1024 .f32)).view.loc (c : Thread nD τ) ↦[((Memref.whole cc0_scratch0 : Memref sig .tc .vmem S2x1024x1024 .f32)).view.set]{fullShare} f : sProp 𝕄)
      = (((c : Thread nD τ).loc cc0_scratch0) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f) := by
    rw [View.set_whole]
    exact congrArg (fun S : Finset (Idx ((c : Thread nD τ).loc cc0_scratch0)) => (((c : Thread nD τ).loc cc0_scratch0) ↦[S]{fullShare} f : sProp 𝕄)) stgS_sets.2
  exact (BiEntails.of_eq e).trans (pointsTo_union stgS_sets.1)

omit [FloatOps F] in
/-- The two slots, each at some contents, are the buffer whole at some contents. -/
theorem stgS_glue (c : Dev nD) :
    iprop((∃ f, (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
        ∗ (∃ f, (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f))
      ⊢ (iprop(∃ h : Buf (Elt F) ((c : Thread nD τ).loc cc0_scratch0), ((c : Thread nD τ).loc cc0_scratch0) ↦{fullShare} h) : sProp 𝕄) := by
  iintro ⟨⟨%f, Hf⟩, ⟨%g, Hg⟩⟩
  ihave H := (pointsTo_join (ℓ := (c : Thread nD τ).loc cc0_scratch0) (q := fullShare) (f := f) (g := g) stgS_sets.1) $$ [Hf Hg]
  · isplitl [Hf] <;> iassumption
  iexists _
  iapply (Entails.of_eq (congrArg (fun S : Finset (Idx ((c : Thread nD τ).loc cc0_scratch0)) => (((c : Thread nD τ).loc cc0_scratch0) ↦[S]{fullShare} _ : sProp 𝕄)) stgS_sets.2.symm))
  iexact H

/-! ### `cc0_scratch2` -/

theorem stgL_sets :
    Disjoint ((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set : Finset S2x1024x1024.Idx)
        (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set
      ∧ (Finset.univ : Finset S2x1024x1024.Idx)
        = (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set :=
  two_slots (fun i => by rw [View.set_reshape, View.set_slice_whole]; exact mem_slotRect 0 _ i)
    (fun i => by rw [View.set_reshape, View.set_slice_whole]; exact mem_slotRect 1 _ i)

omit [FloatOps F] in
/-- The buffer held whole is its two slots, at the same contents. -/
theorem stgL_split (c : Dev nD) (f : Buf (Elt F) ((c : Thread nD τ).loc cc0_scratch2)) :
    (((Memref.whole cc0_scratch2 : Memref sig .tc .vmem S2x1024x1024 .f32)).view.loc (c : Thread nD τ) ↦[((Memref.whole cc0_scratch2 : Memref sig .tc .vmem S2x1024x1024 .f32)).view.set]{fullShare} f : sProp 𝕄)
      ⊣⊢ iprop(((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
          ∗ ((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)) := by
  have e : (((Memref.whole cc0_scratch2 : Memref sig .tc .vmem S2x1024x1024 .f32)).view.loc (c : Thread nD τ) ↦[((Memref.whole cc0_scratch2 : Memref sig .tc .vmem S2x1024x1024 .f32)).view.set]{fullShare} f : sProp 𝕄)
      = (((c : Thread nD τ).loc cc0_scratch2) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f) := by
    rw [View.set_whole]
    exact congrArg (fun S : Finset (Idx ((c : Thread nD τ).loc cc0_scratch2)) => (((c : Thread nD τ).loc cc0_scratch2) ↦[S]{fullShare} f : sProp 𝕄)) stgL_sets.2
  exact (BiEntails.of_eq e).trans (pointsTo_union stgL_sets.1)

omit [FloatOps F] in
/-- The two slots, each at some contents, are the buffer whole at some contents. -/
theorem stgL_glue (c : Dev nD) :
    iprop((∃ f, (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
        ∗ (∃ f, (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f))
      ⊢ (iprop(∃ h : Buf (Elt F) ((c : Thread nD τ).loc cc0_scratch2), ((c : Thread nD τ).loc cc0_scratch2) ↦{fullShare} h) : sProp 𝕄) := by
  iintro ⟨⟨%f, Hf⟩, ⟨%g, Hg⟩⟩
  ihave H := (pointsTo_join (ℓ := (c : Thread nD τ).loc cc0_scratch2) (q := fullShare) (f := f) (g := g) stgL_sets.1) $$ [Hf Hg]
  · isplitl [Hf] <;> iassumption
  iexists _
  iapply (Entails.of_eq (congrArg (fun S : Finset (Idx ((c : Thread nD τ).loc cc0_scratch2)) => (((c : Thread nD τ).loc cc0_scratch2) ↦[S]{fullShare} _ : sProp 𝕄)) stgL_sets.2.symm))
  iexact H

/-! ### `cc0_scratch3` -/

theorem locB_sets :
    Disjoint ((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set : Finset S2x1024x1024.Idx)
        (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set
      ∧ (Finset.univ : Finset S2x1024x1024.Idx)
        = (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set :=
  two_slots (fun i => by rw [View.set_reshape, View.set_slice_whole]; exact mem_slotRect 0 _ i)
    (fun i => by rw [View.set_reshape, View.set_slice_whole]; exact mem_slotRect 1 _ i)

omit [FloatOps F] in
/-- The buffer held whole is its two slots, at the same contents. -/
theorem locB_split (c : Dev nD) (f : Buf (Elt F) ((c : Thread nD τ).loc cc0_scratch3)) :
    (((Memref.whole cc0_scratch3 : Memref sig .tc .vmem S2x1024x1024 .bf16)).view.loc (c : Thread nD τ) ↦[((Memref.whole cc0_scratch3 : Memref sig .tc .vmem S2x1024x1024 .bf16)).view.set]{fullShare} f : sProp 𝕄)
      ⊣⊢ iprop(((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
          ∗ ((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f)) := by
  have e : (((Memref.whole cc0_scratch3 : Memref sig .tc .vmem S2x1024x1024 .bf16)).view.loc (c : Thread nD τ) ↦[((Memref.whole cc0_scratch3 : Memref sig .tc .vmem S2x1024x1024 .bf16)).view.set]{fullShare} f : sProp 𝕄)
      = (((c : Thread nD τ).loc cc0_scratch3) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f) := by
    rw [View.set_whole]
    exact congrArg (fun S : Finset (Idx ((c : Thread nD τ).loc cc0_scratch3)) => (((c : Thread nD τ).loc cc0_scratch3) ↦[S]{fullShare} f : sProp 𝕄)) locB_sets.2
  exact (BiEntails.of_eq e).trans (pointsTo_union locB_sets.1)

omit [FloatOps F] in
/-- The two slots, each at some contents, are the buffer whole at some contents. -/
theorem locB_glue (c : Dev nD) :
    iprop((∃ f, (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
        ∗ (∃ f, (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f))
      ⊢ (iprop(∃ h : Buf (Elt F) ((c : Thread nD τ).loc cc0_scratch3), ((c : Thread nD τ).loc cc0_scratch3) ↦{fullShare} h) : sProp 𝕄) := by
  iintro ⟨⟨%f, Hf⟩, ⟨%g, Hg⟩⟩
  ihave H := (pointsTo_join (ℓ := (c : Thread nD τ).loc cc0_scratch3) (q := fullShare) (f := f) (g := g) locB_sets.1) $$ [Hf Hg]
  · isplitl [Hf] <;> iassumption
  iexists _
  iapply (Entails.of_eq (congrArg (fun S : Finset (Idx ((c : Thread nD τ).loc cc0_scratch3)) => (((c : Thread nD τ).loc cc0_scratch3) ↦[S]{fullShare} _ : sProp 𝕄)) locB_sets.2.symm))
  iexact H

/-! ## The exit -/

/-- The 38 DMA semaphores are the six local ones, the sixteen send and the sixteen receive semaphores. -/
def f38 : Fin 6 ⊕ (Fin 16 ⊕ Fin 16) → Fin 38
  | .inl k => ⟨k.val, by have := k.isLt; omega⟩
  | .inr (.inl r) => ⟨6 + r.val, by have := r.isLt; omega⟩
  | .inr (.inr r) => ⟨22 + r.val, by have := r.isLt; omega⟩
def e38 : Fin 6 ⊕ (Fin 16 ⊕ Fin 16) ≃ Fin 38 := Equiv.ofBijective f38 (by decide)

omit [FloatOps F] in
theorem sems38 (c : Dev nD) :
    iprop((bigSep Finset.univ fun k : Fin 6 => semVal (locCell c k) 0) ∗ (bigSep Finset.univ fun r : Fin 16 => semVal (sendCell c r) 0)
        ∗ (bigSep Finset.univ fun r : Fin 16 => semVal (recvCell c r) 0))
      ⊢ (bigSep Finset.univ fun k : Fin 38 => semVal ((c : Thread nD τ), osem k) 0 : sProp 𝕄) := by
  rw [bigSep_univ_equiv e38 (fun k : Fin 38 => (semVal ((c : Thread nD τ), osem k) 0 : sProp 𝕄)), bigSep_univ_sum, bigSep_univ_sum]
  exact .rfl

/-- After the last wait: the argument as launched, the result array's 32 slices at their final contents (the sixteen
    the device stored itself, the sixteen its partner's copies landed), the send buffer's sixteen slots handed back, the
    six slots of the double-buffered scratch buffers, every semaphore of the kernel's own at zero and nothing owed:
    that is the state the launch takes back. -/
theorem exit_post (c : Dev nD) (W : Waits sig Unit) :
    iprop((((Memref.whole main_arg0 : Memref sig .tc .hbm S16384x2048 .f32)).view.loc (c : Thread nD τ) ↦[((Memref.whole main_arg0 : Memref sig .tc .hbm S16384x2048 .f32)).view.set]{fullShare} X m c)
      ∗ (bigSep Finset.univ fun r : Fin 16 => ((oS c r).view.loc (c : Thread nD τ) ↦[(oS c r).view.set]{fullShare} OV m c : sProp 𝕄))
      ∗ (bigSep Finset.univ fun r : Fin 16 => recvPay m c r)
      ∗ (bigSep Finset.univ fun r : Fin 16 => sendPay m c r)
      ∗ (∃ f, (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (∃ f, (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (∃ f, (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (bigSep Finset.univ fun k : Fin 6 => semVal (locCell c k) 0) ∗ (bigSep Finset.univ fun r : Fin 16 => semVal (sendCell c r) 0)
      ∗ (bigSep Finset.univ fun r : Fin 16 => semVal (recvCell c r) 0)
      ∗ owes (c : Thread nD τ) 0 W)
    ⊢ bodyPost m c := by
  unfold bodyPost Φ₁ arrays scratch recvPay sendPay
  rw [View.set_whole]
  iintro ⟨Hx, Ho, Hr, Hs, Ha0, Ha1, Hb0, Hb1, Hc0, Hc1, HL, HS, HV, HO⟩
  ihave Hout := (out_split (F := F) c (OV m c)).2 $$ [Ho Hr]
  · isplitl [Ho] <;> iassumption
  ihave Hsnd := (sndB_split (F := F) c (sbV m c)).2 $$ Hs
  ihave HA := (stgS_glue (F := F) c) $$ [Ha0 Ha1]
  · isplitl [Ha0] <;> iassumption
  ihave HB := (stgL_glue (F := F) c) $$ [Hb0 Hb1]
  · isplitl [Hb0] <;> iassumption
  ihave HC := (locB_glue (F := F) c) $$ [Hc0 Hc1]
  · isplitl [Hc0] <;> iassumption
  ihave Hsem := (sems38 (F := F) c) $$ [HL HS HV]
  · isplitl [HL]; · iexact HL
    isplitl [HS] <;> iassumption
  isplitr [HO]
  · isplitl [Hx Hout]
    · isplitl [Hx] <;> iassumption
    isplitr [Hsem]
    · isplitl [HA]; · iexact HA
      isplitl [Hsnd]; · iexists _; iexact Hsnd
      isplitl [HB] <;> iassumption
    · iexact Hsem
  · iexists W
    isplitr
    · ipureintro; exact Set.subset_univ _
    · iexact HO

/-- info: 'Cert.Kernel.A2A.stgS_split' depends on axioms: [propext, Classical.choice, Quot.sound] -/
#guard_msgs in #print axioms stgS_split

/-- info: 'Cert.Kernel.A2A.stgL_split' depends on axioms: [propext, Classical.choice, Quot.sound] -/
#guard_msgs in #print axioms stgL_split

/-- info: 'Cert.Kernel.A2A.locB_split' depends on axioms: [propext, Classical.choice, Quot.sound] -/
#guard_msgs in #print axioms locB_split

/-- info: 'Cert.Kernel.A2A.stgS_glue' depends on axioms: [propext, Classical.choice, Quot.sound] -/
#guard_msgs in #print axioms stgS_glue

/-- info: 'Cert.Kernel.A2A.stgL_glue' depends on axioms: [propext, Classical.choice, Quot.sound] -/
#guard_msgs in #print axioms stgL_glue

/-- info: 'Cert.Kernel.A2A.locB_glue' depends on axioms: [propext, Classical.choice, Quot.sound] -/
#guard_msgs in #print axioms locB_glue

/-- info: 'Cert.Kernel.A2A.exit_post' depends on axioms: [propext, Classical.choice, Quot.sound] -/
#guard_msgs in #print axioms exit_post

/-- The exit with every group written out term by term: the same as `exit_post`, for a context that holds the pieces one by one. -/
theorem exit_post_flat (c : Dev nD) (W : Waits sig Unit) :
    iprop((((Memref.whole main_arg0 : Memref sig .tc .hbm S16384x2048 .f32)).view.loc (c : Thread nD τ) ↦[((Memref.whole main_arg0 : Memref sig .tc .hbm S16384x2048 .f32)).view.set]{fullShare} X m c)
      ∗ (((oS c 0).view.loc (c : Thread nD τ) ↦[(oS c 0).view.set]{fullShare} OV m c) ∗ ((oS c 1).view.loc (c : Thread nD τ) ↦[(oS c 1).view.set]{fullShare} OV m c) ∗ ((oS c 2).view.loc (c : Thread nD τ) ↦[(oS c 2).view.set]{fullShare} OV m c) ∗ ((oS c 3).view.loc (c : Thread nD τ) ↦[(oS c 3).view.set]{fullShare} OV m c) ∗ ((oS c 4).view.loc (c : Thread nD τ) ↦[(oS c 4).view.set]{fullShare} OV m c) ∗ ((oS c 5).view.loc (c : Thread nD τ) ↦[(oS c 5).view.set]{fullShare} OV m c) ∗ ((oS c 6).view.loc (c : Thread nD τ) ↦[(oS c 6).view.set]{fullShare} OV m c) ∗ ((oS c 7).view.loc (c : Thread nD τ) ↦[(oS c 7).view.set]{fullShare} OV m c) ∗ ((oS c 8).view.loc (c : Thread nD τ) ↦[(oS c 8).view.set]{fullShare} OV m c) ∗ ((oS c 9).view.loc (c : Thread nD τ) ↦[(oS c 9).view.set]{fullShare} OV m c) ∗ ((oS c 10).view.loc (c : Thread nD τ) ↦[(oS c 10).view.set]{fullShare} OV m c) ∗ ((oS c 11).view.loc (c : Thread nD τ) ↦[(oS c 11).view.set]{fullShare} OV m c) ∗ ((oS c 12).view.loc (c : Thread nD τ) ↦[(oS c 12).view.set]{fullShare} OV m c) ∗ ((oS c 13).view.loc (c : Thread nD τ) ↦[(oS c 13).view.set]{fullShare} OV m c) ∗ ((oS c 14).view.loc (c : Thread nD τ) ↦[(oS c 14).view.set]{fullShare} OV m c) ∗ ((oS c 15).view.loc (c : Thread nD τ) ↦[(oS c 15).view.set]{fullShare} OV m c))
      ∗ (recvPay m c 0 ∗ recvPay m c 1 ∗ recvPay m c 2 ∗ recvPay m c 3 ∗ recvPay m c 4 ∗ recvPay m c 5 ∗ recvPay m c 6 ∗ recvPay m c 7 ∗ recvPay m c 8 ∗ recvPay m c 9 ∗ recvPay m c 10 ∗ recvPay m c 11 ∗ recvPay m c 12 ∗ recvPay m c 13 ∗ recvPay m c 14 ∗ recvPay m c 15)
      ∗ (sendPay m c 0 ∗ sendPay m c 1 ∗ sendPay m c 2 ∗ sendPay m c 3 ∗ sendPay m c 4 ∗ sendPay m c 5 ∗ sendPay m c 6 ∗ sendPay m c 7 ∗ sendPay m c 8 ∗ sendPay m c 9 ∗ sendPay m c 10 ∗ sendPay m c 11 ∗ sendPay m c 12 ∗ sendPay m c 13 ∗ sendPay m c 14 ∗ sendPay m c 15)
      ∗ (∃ f, (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (∃ f, (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (∃ f, (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (semVal (locCell c 0) 0 ∗ semVal (locCell c 1) 0 ∗ semVal (locCell c 2) 0 ∗ semVal (locCell c 3) 0 ∗ semVal (locCell c 4) 0 ∗ semVal (locCell c 5) 0)
      ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (sendCell c 8) 0 ∗ semVal (sendCell c 9) 0 ∗ semVal (sendCell c 10) 0 ∗ semVal (sendCell c 11) 0 ∗ semVal (sendCell c 12) 0 ∗ semVal (sendCell c 13) 0 ∗ semVal (sendCell c 14) 0 ∗ semVal (sendCell c 15) 0)
      ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal (recvCell c 8) 0 ∗ semVal (recvCell c 9) 0 ∗ semVal (recvCell c 10) 0 ∗ semVal (recvCell c 11) 0 ∗ semVal (recvCell c 12) 0 ∗ semVal (recvCell c 13) 0 ∗ semVal (recvCell c 14) 0 ∗ semVal (recvCell c 15) 0)
      ∗ owes (c : Thread nD τ) 0 W)
    ⊢ bodyPost m c := by
  have h := exit_post m c W
  rw [bigSep_fin16, bigSep_fin16, bigSep_fin16, bigSep_fin6, bigSep_fin16, bigSep_fin16] at h
  exact h

/-- info: 'Cert.Kernel.A2A.exit_post_flat' depends on axioms: [propext, Classical.choice, Quot.sound] -/
#guard_msgs in #print axioms exit_post_flat

end Cert.Kernel.A2A

end
-- ==== Proof.Kernel.ValueSteps.lean ====
/-
  The value steps of the body: what the kernel's buffers hold on the way, entry by entry.

  For each row chunk the kernel copies a 1024 x 1024 block of its argument into a staging slot, loads the slot, narrows
  the loaded block to bf16 and stores it into a slot of the send buffer (the columns its partner keeps) or of the local
  buffer (the columns it keeps itself).  Each step moves entries without changing them, except the narrowing, which
  acts entry by entry; so the slot ends holding the sent chunk, or the kept chunk, of the specification.
-/
import proofs.«900627_g7700000000000628_dist_a2a_v7x_xyz2x2x2_z_m16384_n1024_bf16_1_alg».proof.Proof.Kernel.Proto
import proofs.«900627_g7700000000000628_dist_a2a_v7x_xyz2x2x2_z_m16384_n1024_bf16_1_alg».proof.Proof.Kernel.Contents
import proofs.«900627_g7700000000000628_dist_a2a_v7x_xyz2x2x2_z_m16384_n1024_bf16_1_alg».proof.Proof.Kernel.RuleSend
import proofs.«900627_g7700000000000628_dist_a2a_v7x_xyz2x2x2_z_m16384_n1024_bf16_1_alg».proof.Proof.Gen.Kernel.Skeleton
import Idealize.ShloMosaic.Lib.Writes
import Idealize.ShloMosaic.Lib.ValueLayout
import Idealize.ShloMosaic.Lib.Exec.Geometry

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-! ## Reading the argument through a chunk's slice -/

/-- The argument read through its 1024 x 1024 slice at offsets `off`: at `y`, the entry at row `off 0 + y 0`,
    column `off 1 + y 1`. -/
theorem xslice_read (c : Dev nD) (off : Fin 2 → ℕ) (inb : ∀ a, off a + S1024x1024.size a ≤ S16384x2048.size a)
    (hs : ∀ a, (Rect.unit (s := S16384x2048) off S1024x1024.size inb).stride a = 1) (y : S1024x1024.Idx)
    (a : Fin 16384) (b : Fin 2048) (ha : a.val = off 0 + (y 0).val) (hb : b.val = off 1 + (y 1).val) :
    View.read (Elt F) ((Memref.whole main_arg0 : Memref sig .tc .hbm S16384x2048 .f32).slice
        (Rect.unit (s := S16384x2048) off S1024x1024.size inb) hs).view (X m c) y
      = (X m c : FVec F S16384x2048 .f32) (ix2 a b) := by
  rw [View.read_apply]
  show (X m c : FVec F S16384x2048 .f32) ((Rect.unit (s := S16384x2048) off S1024x1024.size inb).emb y) = _
  congr 1
  funext d
  apply Fin.ext
  match d with
  | ⟨0, _⟩ => show off 0 + 1 * (y 0).val = a.val; omega
  | ⟨1, _⟩ => show off 1 + 1 * (y 1).val = b.val; omega

/-! ## Loading a staging slot -/

/-- A staging buffer's slot `k` written whole with `w`, then loaded through the buffer at the slot's rectangle: at
    `x`, the entry of `w` at `(x 1, x 2)`. -/
theorem staged_read {sp : Space} {L : List (View.Piece (Elt F) S1024x1024 .f32)} (c : Dev nD) (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (f : Buf (Elt F) (stg.view.loc (c : Thread nD τ))) (w : S1024x1024.Idx → Elt F .f32)
    (x : S1x1024x1024.Idx) :
    View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F) f (⟨Rect.whole S1024x1024, w⟩ :: L)) x
      = w (ix2 (x 1) (x 2)) := by
  rw [View.readAt_apply, View.writes_cons, View.read_apply]
  have hx : stg.view.emb ((Rect.unit (s := S2x1024x1024) ![k, 0, 0] S1x1024x1024.size inb).toLoadRect.idx x)
      = ((((stg.slice (Rect.unit (s := S2x1024x1024) ![k, 0, 0] S1x1024x1024.size inb) hs).squeeze S1024x1024
            squeezes_S1x1024x1024_S1024x1024).view).slice (Rect.whole S1024x1024)).emb (ix2 (x 1) (x 2)) := by
    show stg.view.emb ((Rect.unit (s := S2x1024x1024) ![k, 0, 0] S1x1024x1024.size inb).emb x)
      = stg.view.emb ((Rect.unit (s := S2x1024x1024) ![k, 0, 0] S1x1024x1024.size inb).emb
          (Shape.reshapeEquiv (s := S1x1024x1024) (s' := S1024x1024) squeezes_S1x1024x1024_S1024x1024.numel_eq
            ((Rect.whole S1024x1024).emb (ix2 (x 1) (x 2)))))
    rw [Rect.emb_whole_apply, Shape.reshapeEquiv_cons_one]
    congr 2
    funext a
    match a with
    | ⟨0, _⟩ => exact Fin.ext (by have h0 : (x 0).val < 1 := (x 0).isLt; show (x 0).val = 0; omega)
    | ⟨1, _⟩ => rfl
    | ⟨2, _⟩ => rfl
  rw [hx, View.write_emb_of_mem _ _ (Finset.mem_univ _), cast_cast, cast_eq]

/-! ## The payload -/

/-- Every chunk's payload is the loaded block narrowed entry by entry: the two casts only drop and restore the leading
    axis of size one. -/
theorem pay_apply (u : Vec F S1x1024x1024 .f32) (h1 : S1x1024x1024.ShapeCasts S1024x1024)
    (h2 : S1024x1024.ShapeCasts S1x1024x1024) (hb : FTy.bits .bf16 < FTy.bits .f32) (y : S1x1024x1024.Idx) :
    shapeCast S1x1024x1024
        (truncf .bf16 (shapeCast S1024x1024 u h1 : FVec F S1024x1024 .f32) hb : FVec F S1024x1024 .bf16) h2 y
      = FloatOps.truncf .bf16 hb (u y) := by
  obtain ⟨a, b, d, rfl⟩ : ∃ a b d, y = ix3 a b d := ⟨_, _, _, eq_ix3 y⟩
  rw [shapeCast_ab_1ab_apply]
  show FloatOps.truncf .bf16 hb (shapeCast S1024x1024 u h1 (ix2 b d)) = _
  rw [shapeCast_1ab_ab_apply]
  have ha : a = 0 := Fin.ext (by have := a.isLt; omega)
  rw [ha]

/-! ## Reading a slot of the send buffer out of the buffer's stores -/

/-- The send buffer after a store of `w` at slot `k` (over earlier stores), read through slot `r = k`: at `y`, the
    entry of `w` at `(0, y 0, y 1)`. -/
theorem sbS_read_writes (c : Dev nD) (r : Fin 16) (k : ℕ) (hk : k = r.val)
    (inb : ∀ a, (![k, 0, 0] : Fin 3 → ℕ) a + S1x1024x1024.size a ≤ S16x1024x1024.size a)
    (f : Buf (Elt F) ((Memref.whole cc0_scratch1 : Memref sig .tc .vmem S16x1024x1024 .bf16).view.loc (c : Thread nD τ)))
    (w : S1x1024x1024.Idx → Elt F .bf16) (L : List (View.Piece (Elt F) S16x1024x1024 .bf16)) (y : S1024x1024.Idx) :
    (sbS r).view.read (Elt F)
        ((Memref.whole cc0_scratch1 : Memref sig .tc .vmem S16x1024x1024 .bf16).view.writes (Elt F) f
          (⟨Rect.unit (s := S16x1024x1024) ![k, 0, 0] S1x1024x1024.size inb, w⟩ :: L)) y
      = w (ix3 0 (y 0) (y 1)) := by
  subst hk
  rw [View.read_apply, View.writes_cons]
  have hy : (sbS r).view.emb y
      = ((Memref.whole cc0_scratch1 : Memref sig .tc .vmem S16x1024x1024 .bf16).view.slice
          (Rect.unit (s := S16x1024x1024) ![r.val, 0, 0] S1x1024x1024.size inb)).emb (ix3 0 (y 0) (y 1)) := by
    show (Memref.whole cc0_scratch1 : Memref sig .tc .vmem S16x1024x1024 .bf16).view.emb
        ((Rect.unit (s := S16x1024x1024) ![r.val, 0, 0] S1x1024x1024.size (sb_inb r)).emb
          (Shape.reshapeEquiv (s := S1x1024x1024) (s' := S1024x1024) squeezes_S1x1024x1024_S1024x1024.numel_eq y))
      = (Memref.whole cc0_scratch1 : Memref sig .tc .vmem S16x1024x1024 .bf16).view.emb
        ((Rect.unit (s := S16x1024x1024) ![r.val, 0, 0] S1x1024x1024.size inb).emb (ix3 0 (y 0) (y 1)))
    rw [Shape.reshapeEquiv_cons_one]
    congr 2
    funext a
    match a with
    | ⟨0, _⟩ => rfl
    | ⟨1, _⟩ => rfl
    | ⟨2, _⟩ => rfl
  rw [hy, View.write_emb_of_mem _ _ (Finset.mem_univ _)]
  rfl

/-! ## A chunk's narrowed block, entry by entry -/

/-- A staging slot filled by the copy of the argument's slice at `off`, loaded, and narrowed by the chunk's payload:
    at `y`, the argument's entry at row `off 0 + y 1`, column `off 1 + y 2`, narrowed. -/
theorem chunk_payload {L : List (View.Piece (Elt F) S1024x1024 .f32)} (c : Dev nD) (pay : Vec F S1x1024x1024 .f32 → FVec F S1x1024x1024 .bf16)
    (hpay : ∀ u y, pay u y = FloatOps.truncf .bf16 (by decide) (u y))
    {sp : Space} (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (f : Buf (Elt F) (stg.view.loc (c : Thread nD τ)))
    (off : Fin 2 → ℕ) (inbo : ∀ a, off a + S1024x1024.size a ≤ S16384x2048.size a)
    (hso : ∀ a, (Rect.unit (s := S16384x2048) off S1024x1024.size inbo).stride a = 1)
    (y : S1x1024x1024.Idx) (a : Fin 16384) (b : Fin 2048)
    (ha : a.val = off 0 + (y 1).val) (hb : b.val = off 1 + (y 2).val) :
    pay (View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F) f
          (⟨Rect.whole S1024x1024, ReadAs.same.apply (View.read (Elt F)
              ((Memref.whole main_arg0 : Memref sig .tc .hbm S16384x2048 .f32).slice
                (Rect.unit (s := S16384x2048) off S1024x1024.size inbo) hso).view (X m c))⟩ :: L))) y
      = FloatOps.truncf .bf16 (by decide) ((X m c : FVec F S16384x2048 .f32) (ix2 a b)) := by
  rw [hpay, staged_read]
  exact congrArg _ (xslice_read m c off inbo hso _ a b ha hb)

/-- The same for a chunk the device SENDS: row chunk `r`, the columns its partner keeps. -/
theorem sent_payload {L : List (View.Piece (Elt F) S1024x1024 .f32)} (c : Dev nD) (r : Fin 16) (pay : Vec F S1x1024x1024 .f32 → FVec F S1x1024x1024 .bf16)
    (hpay : ∀ u y, pay u y = FloatOps.truncf .bf16 (by decide) (u y))
    {sp : Space} (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (f : Buf (Elt F) (stg.view.loc (c : Thread nD τ)))
    (off : Fin 2 → ℕ) (inbo : ∀ a, off a + S1024x1024.size a ≤ S16384x2048.size a)
    (hso : ∀ a, (Rect.unit (s := S16384x2048) off S1024x1024.size inbo).stride a = 1)
    (o0 o1 : ℕ) (hoff : off = ![o0, o1]) (h0 : o0 = 1024 * r.val) (h1 : o1 = 1024 - 1024 * (c.val % 2))
    (y : S1x1024x1024.Idx) (a : Fin 16384) (b : Fin 2048)
    (ha : a.val = 1024 * r.val + (y 1).val) (hb : b.val = 1024 * (1 - zOf c) + (y 2).val) :
    pay (View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F) f
          (⟨Rect.whole S1024x1024, ReadAs.same.apply (View.read (Elt F)
              ((Memref.whole main_arg0 : Memref sig .tc .hbm S16384x2048 .f32).slice
                (Rect.unit (s := S16384x2048) off S1024x1024.size inbo) hso).view (X m c))⟩ :: L))) y
      = FloatOps.truncf .bf16 (by decide) ((X m c : FVec F S16384x2048 .f32) (ix2 a b)) := by
  refine chunk_payload m c pay hpay stg k inb hs f off inbo hso y a b ?_ ?_
  · rw [hoff, ha, h0]; rfl
  · rw [hoff, hb, h1]; show 1024 * (1 - c.val % 2) + (y 2).val = 1024 - 1024 * (c.val % 2) + (y 2).val
    have := Nat.mod_lt c.val (show 0 < 2 by decide); omega

/-- `sent_payload` with the staging slot's earlier contents unspecified (the copy fills the whole slot). -/
theorem sent_payload_junk [∀ e, Nonempty (Elt F e)] {L : List (View.Piece (Elt F) S1024x1024 .f32)} (c : Dev nD) (r : Fin 16)
    (pay : Vec F S1x1024x1024 .f32 → FVec F S1x1024x1024 .bf16)
    (hpay : ∀ u y, pay u y = FloatOps.truncf .bf16 (by decide) (u y))
    {sp : Space} (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (off : Fin 2 → ℕ) (inbo : ∀ a, off a + S1024x1024.size a ≤ S16384x2048.size a)
    (hso : ∀ a, (Rect.unit (s := S16384x2048) off S1024x1024.size inbo).stride a = 1)
    (o0 o1 : ℕ) (hoff : off = ![o0, o1]) (h0 : o0 = 1024 * r.val) (h1 : o1 = 1024 - 1024 * (c.val % 2))
    (y : S1x1024x1024.Idx) (a : Fin 16384) (b : Fin 2048)
    (ha : a.val = 1024 * r.val + (y 1).val) (hb : b.val = 1024 * (1 - zOf c) + (y 2).val) :
    pay (View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F)
          ((stg.slice (Rect.unit (s := S2x1024x1024) ![k, 0, 0] S1x1024x1024.size inb) hs).squeeze S1024x1024
            squeezes_S1x1024x1024_S1024x1024).view.junk
          (⟨Rect.whole S1024x1024, ReadAs.same.apply (View.read (Elt F)
              ((Memref.whole main_arg0 : Memref sig .tc .hbm S16384x2048 .f32).slice
                (Rect.unit (s := S16384x2048) off S1024x1024.size inbo) hso).view (X m c))⟩ :: L))) y
      = FloatOps.truncf .bf16 (by decide) ((X m c : FVec F S16384x2048 .f32) (ix2 a b)) :=
  sent_payload m c r pay hpay stg k inb hs _ off inbo hso o0 o1 hoff h0 h1 y a b ha hb

/-! ## The send buffer's slot holds the sent chunk -/

/-- The send buffer after a store at slot `k = r` of a block that is, entry by entry, the argument's narrowed entries
    of the sent chunk, read through slot `r`: the sent chunk. -/
theorem sent_hfs_whole (c : Dev nD) (r : Fin 16) (k : ℕ) (hk : k = r.val)
    (inb : ∀ a, (![k, 0, 0] : Fin 3 → ℕ) a + S1x1024x1024.size a ≤ S16x1024x1024.size a)
    (f : Buf (Elt F) ((Memref.whole cc0_scratch1 : Memref sig .tc .vmem S16x1024x1024 .bf16).view.loc (c : Thread nD τ)))
    (L : List (View.Piece (Elt F) S16x1024x1024 .bf16)) (w : S1x1024x1024.Idx → Elt F .bf16)
    (hw : ∀ (y : S1x1024x1024.Idx) (a : Fin 16384) (b : Fin 2048), a.val = 1024 * r.val + (y 1).val →
      b.val = 1024 * (1 - zOf c) + (y 2).val →
      w y = FloatOps.truncf .bf16 (by decide) ((X m c : FVec F S16384x2048 .f32) (ix2 a b))) :
    (sbS r).view.read (Elt F)
        ((Memref.whole cc0_scratch1 : Memref sig .tc .vmem S16x1024x1024 .bf16).view.writes (Elt F) f
          (⟨Rect.unit (s := S16x1024x1024) ![k, 0, 0] S1x1024x1024.size inb, w⟩ :: L))
      = sentChunk m c r := by
  funext y
  rw [sbS_read_writes c r k hk inb f w L y]
  have hr := r.isLt
  have hz := zOf_lt c
  have hy0 : (y 0).val < 1024 := (y 0).isLt
  have hy1 : (y 1).val < 1024 := (y 1).isLt
  exact hw (ix3 0 (y 0) (y 1)) ⟨1024 * r.val + (y 0).val, by omega⟩ ⟨1024 * (1 - zOf c) + (y 1).val, by omega⟩ rfl rfl

/-! ## The same for a chunk the device KEEPS -/

/-- `chunk_payload` for a chunk the device keeps: row chunk `r`, the columns of its own block. -/
theorem kept_payload {L : List (View.Piece (Elt F) S1024x1024 .f32)} (c : Dev nD) (r : Fin 16) (pay : Vec F S1x1024x1024 .f32 → FVec F S1x1024x1024 .bf16)
    (hpay : ∀ u y, pay u y = FloatOps.truncf .bf16 (by decide) (u y))
    {sp : Space} (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (f : Buf (Elt F) (stg.view.loc (c : Thread nD τ)))
    (off : Fin 2 → ℕ) (inbo : ∀ a, off a + S1024x1024.size a ≤ S16384x2048.size a)
    (hso : ∀ a, (Rect.unit (s := S16384x2048) off S1024x1024.size inbo).stride a = 1)
    (o0 o1 : ℕ) (hoff : off = ![o0, o1]) (h0 : o0 = 1024 * r.val) (h1 : o1 = 1024 * (c.val % 2))
    (y : S1x1024x1024.Idx) (a : Fin 16384) (b : Fin 2048)
    (ha : a.val = 1024 * r.val + (y 1).val) (hb : b.val = 1024 * zOf c + (y 2).val) :
    pay (View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F) f
          (⟨Rect.whole S1024x1024, ReadAs.same.apply (View.read (Elt F)
              ((Memref.whole main_arg0 : Memref sig .tc .hbm S16384x2048 .f32).slice
                (Rect.unit (s := S16384x2048) off S1024x1024.size inbo) hso).view (X m c))⟩ :: L))) y
      = FloatOps.truncf .bf16 (by decide) ((X m c : FVec F S16384x2048 .f32) (ix2 a b)) := by
  refine chunk_payload m c pay hpay stg k inb hs f off inbo hso y a b ?_ ?_
  · rw [hoff, ha, h0]; rfl
  · rw [hoff, hb, h1]; rfl

/-- `kept_payload` with the staging slot's earlier contents unspecified. -/
theorem kept_payload_junk [∀ e, Nonempty (Elt F e)] {L : List (View.Piece (Elt F) S1024x1024 .f32)} (c : Dev nD) (r : Fin 16)
    (pay : Vec F S1x1024x1024 .f32 → FVec F S1x1024x1024 .bf16)
    (hpay : ∀ u y, pay u y = FloatOps.truncf .bf16 (by decide) (u y))
    {sp : Space} (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (off : Fin 2 → ℕ) (inbo : ∀ a, off a + S1024x1024.size a ≤ S16384x2048.size a)
    (hso : ∀ a, (Rect.unit (s := S16384x2048) off S1024x1024.size inbo).stride a = 1)
    (o0 o1 : ℕ) (hoff : off = ![o0, o1]) (h0 : o0 = 1024 * r.val) (h1 : o1 = 1024 * (c.val % 2))
    (y : S1x1024x1024.Idx) (a : Fin 16384) (b : Fin 2048)
    (ha : a.val = 1024 * r.val + (y 1).val) (hb : b.val = 1024 * zOf c + (y 2).val) :
    pay (View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F)
          ((stg.slice (Rect.unit (s := S2x1024x1024) ![k, 0, 0] S1x1024x1024.size inb) hs).squeeze S1024x1024
            squeezes_S1x1024x1024_S1024x1024).view.junk
          (⟨Rect.whole S1024x1024, ReadAs.same.apply (View.read (Elt F)
              ((Memref.whole main_arg0 : Memref sig .tc .hbm S16384x2048 .f32).slice
                (Rect.unit (s := S16384x2048) off S1024x1024.size inbo) hso).view (X m c))⟩ :: L))) y
      = FloatOps.truncf .bf16 (by decide) ((X m c : FVec F S16384x2048 .f32) (ix2 a b)) :=
  kept_payload m c r pay hpay stg k inb hs _ off inbo hso o0 o1 hoff h0 h1 y a b ha hb

/-! ## A slot of a three-axis buffer, read after a store through the buffer at that slot -/

/-- A buffer of `n` slots of 1024 x 1024 entries, stored at slot `k` with `w` (through the whole buffer, at the slot's
    rectangle), read through the slot: at `y`, the entry of `w` at `(0, y 0, y 1)`. -/
theorem slot_read_write {sp : Space} {n : ℕ} {e : EltTy} (c : Dev nD)
    (B : Memref sig .tc sp (⟨3, ![n, 1024, 1024]⟩ : Shape) e) (k : ℕ)
    (inb : ∀ a, (![k, 0, 0] : Fin 3 → ℕ) a + S1x1024x1024.size a ≤ (⟨3, ![n, 1024, 1024]⟩ : Shape).size a)
    (hs : ∀ a, (Rect.unit (s := (⟨3, ![n, 1024, 1024]⟩ : Shape)) ![k, 0, 0] S1x1024x1024.size inb).stride a = 1)
    (f : Buf (Elt F) (B.view.loc (c : Thread nD τ))) (w : S1x1024x1024.Idx → Elt F e) (y : S1024x1024.Idx) :
    ((B.slice (Rect.unit (s := (⟨3, ![n, 1024, 1024]⟩ : Shape)) ![k, 0, 0] S1x1024x1024.size inb) hs).squeeze S1024x1024
          squeezes_S1x1024x1024_S1024x1024).view.read (Elt F)
        (View.write (Elt F) (B.access (Rect.unit (s := (⟨3, ![n, 1024, 1024]⟩ : Shape)) ![k, 0, 0] S1x1024x1024.size inb))
          f w Finset.univ) y
      = w (ix3 0 (y 0) (y 1)) := by
  rw [View.read_apply]
  have hy : ((B.slice (Rect.unit (s := (⟨3, ![n, 1024, 1024]⟩ : Shape)) ![k, 0, 0] S1x1024x1024.size inb) hs).squeeze
        S1024x1024 squeezes_S1x1024x1024_S1024x1024).view.emb y
      = (B.access (Rect.unit (s := (⟨3, ![n, 1024, 1024]⟩ : Shape)) ![k, 0, 0] S1x1024x1024.size inb)).emb
          (ix3 0 (y 0) (y 1)) := by
    show B.view.emb ((Rect.unit (s := (⟨3, ![n, 1024, 1024]⟩ : Shape)) ![k, 0, 0] S1x1024x1024.size inb).emb
        (Shape.reshapeEquiv (s := S1x1024x1024) (s' := S1024x1024) squeezes_S1x1024x1024_S1024x1024.numel_eq y))
      = B.view.emb ((Rect.unit (s := (⟨3, ![n, 1024, 1024]⟩ : Shape)) ![k, 0, 0] S1x1024x1024.size inb).emb
          (ix3 0 (y 0) (y 1)))
    rw [Shape.reshapeEquiv_cons_one]
    congr 2
    funext a
    match a with
    | ⟨0, _⟩ => rfl
    | ⟨1, _⟩ => rfl
    | ⟨2, _⟩ => rfl
  rw [hy, View.write_emb_of_mem _ _ (Finset.mem_univ _), cast_cast, cast_eq]

/-- Slot `r` of the send buffer, stored with a block that is entry by entry the sent chunk's narrowed entries, reads
    as the sent chunk. -/
theorem sent_hfs_slot (c : Dev nD) (r : Fin 16) (k : ℕ) (hk : k = r.val)
    (inb : ∀ a, (![k, 0, 0] : Fin 3 → ℕ) a + S1x1024x1024.size a ≤ S16x1024x1024.size a)
    (f : Buf (Elt F) ((Memref.whole cc0_scratch1 : Memref sig .tc .vmem S16x1024x1024 .bf16).view.loc (c : Thread nD τ)))
    (w : S1x1024x1024.Idx → Elt F .bf16)
    (hw : ∀ (y : S1x1024x1024.Idx) (a : Fin 16384) (b : Fin 2048), a.val = 1024 * r.val + (y 1).val →
      b.val = 1024 * (1 - zOf c) + (y 2).val →
      w y = FloatOps.truncf .bf16 (by decide) ((X m c : FVec F S16384x2048 .f32) (ix2 a b))) :
    (sbS r).view.read (Elt F)
        (View.write (Elt F) ((Memref.whole cc0_scratch1 : Memref sig .tc .vmem S16x1024x1024 .bf16).access
          (Rect.unit (s := S16x1024x1024) ![k, 0, 0] S1x1024x1024.size inb)) f w Finset.univ)
      = sentChunk m c r := by
  subst hk
  funext y
  refine (slot_read_write c (Memref.whole cc0_scratch1 : Memref sig .tc .vmem S16x1024x1024 .bf16) r.val inb
    (fun _ => rfl) f w y).trans ?_
  have hr := r.isLt
  have hz := zOf_lt c
  have hy0 : (y 0).val < 1024 := (y 0).isLt
  have hy1 : (y 1).val < 1024 := (y 1).isLt
  exact hw (ix3 0 (y 0) (y 1)) ⟨1024 * r.val + (y 0).val, by omega⟩ ⟨1024 * (1 - zOf c) + (y 1).val, by omega⟩ rfl rfl

/-- Slot `k` of the local buffer, stored with a block that is entry by entry the kept chunk's narrowed entries, reads
    as the kept chunk of row chunk `r`. -/
theorem kept_hfs_slot (c : Dev nD) (r : Fin 16) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (f : Buf (Elt F) ((Memref.whole cc0_scratch3 : Memref sig .tc .vmem S2x1024x1024 .bf16).view.loc (c : Thread nD τ)))
    (w : S1x1024x1024.Idx → Elt F .bf16)
    (hw : ∀ (y : S1x1024x1024.Idx) (a : Fin 16384) (b : Fin 2048), a.val = 1024 * r.val + (y 1).val →
      b.val = 1024 * zOf c + (y 2).val →
      w y = FloatOps.truncf .bf16 (by decide) ((X m c : FVec F S16384x2048 .f32) (ix2 a b))) :
    (((Memref.whole cc0_scratch3 : Memref sig .tc .vmem S2x1024x1024 .bf16).slice
          (Rect.unit (s := S2x1024x1024) ![k, 0, 0] S1x1024x1024.size inb) hs).squeeze S1024x1024
          squeezes_S1x1024x1024_S1024x1024).view.read (Elt F)
        (View.write (Elt F) ((Memref.whole cc0_scratch3 : Memref sig .tc .vmem S2x1024x1024 .bf16).access
          (Rect.unit (s := S2x1024x1024) ![k, 0, 0] S1x1024x1024.size inb)) f w Finset.univ)
      = keptChunk m c r := by
  funext y
  refine (slot_read_write c (Memref.whole cc0_scratch3 : Memref sig .tc .vmem S2x1024x1024 .bf16) k inb hs f w y).trans ?_
  have hr := r.isLt
  have hz := zOf_lt c
  have hy0 : (y 0).val < 1024 := (y 0).isLt
  have hy1 : (y 1).val < 1024 := (y 1).isLt
  exact hw (ix3 0 (y 0) (y 1)) ⟨1024 * r.val + (y 0).val, by omega⟩ ⟨1024 * zOf c + (y 1).val, by omega⟩ rfl rfl

/-! ## The send buffer's final contents, slot by slot -/

/-- Slot `r` of the send buffer's final contents reads as the sent chunk. -/
theorem read_sbV (c : Dev nD) (r : Fin 16) : (sbS r).view.read (Elt F) (sbV m c) = sentChunk m c r := by
  funext y
  rw [View.read_apply]
  obtain ⟨e0, e1, e2⟩ := sbS_emb r y
  have hr := r.isLt
  have hz := zOf_lt c
  have hy0 : (y 0).val < 1024 := (y 0).isLt
  have hy1 : (y 1).val < 1024 := (y 1).isLt
  rw [sbV_at m c _ ⟨1024 * r.val + (y 0).val, by omega⟩ ⟨1024 * (1 - zOf c) + (y 1).val, by omega⟩
    (by show 1024 * r.val + (y 0).val = _; rw [e0, e1]) (by show 1024 * (1 - zOf c) + (y 1).val = _; rw [e2])]
  rfl

/-- A slot of the send buffer just stored with the sent chunk's narrowed entries holds the send buffer's final
    contents there. -/
theorem sent_slot_canon (c : Dev nD) (r : Fin 16) (k : ℕ) (hk : k = r.val)
    (inb : ∀ a, (![k, 0, 0] : Fin 3 → ℕ) a + S1x1024x1024.size a ≤ S16x1024x1024.size a)
    (f : Buf (Elt F) ((Memref.whole cc0_scratch1 : Memref sig .tc .vmem S16x1024x1024 .bf16).view.loc (c : Thread nD τ)))
    (w : S1x1024x1024.Idx → Elt F .bf16)
    (hw : ∀ (y : S1x1024x1024.Idx) (a : Fin 16384) (b : Fin 2048), a.val = 1024 * r.val + (y 1).val →
      b.val = 1024 * (1 - zOf c) + (y 2).val →
      w y = FloatOps.truncf .bf16 (by decide) ((X m c : FVec F S16384x2048 .f32) (ix2 a b))) :
    ((sbS r).view.loc (c : Thread nD τ) ↦[(sbS r).view.set]{fullShare}
        (View.write (Elt F) ((Memref.whole cc0_scratch1 : Memref sig .tc .vmem S16x1024x1024 .bf16).access
          (Rect.unit (s := S16x1024x1024) ![k, 0, 0] S1x1024x1024.size inb)) f w Finset.univ) : sProp 𝕄)
      ⊢ ((sbS r).view.loc (c : Thread nD τ) ↦[(sbS r).view.set]{fullShare} sbV m c : sProp 𝕄) :=
  slot_sent m c r _ (sent_hfs_slot m c r k hk inb f w hw)

/-- The same, with the slot spelt as the symbolic run spells it (the buffer's slice at `![k, 0, 0]`, squeezed). -/
theorem sent_slot_canon' (c : Dev nD) (r : Fin 16) (k : ℕ) (hk : k = r.val)
    (inb : ∀ a, (![k, 0, 0] : Fin 3 → ℕ) a + S1x1024x1024.size a ≤ S16x1024x1024.size a)
    (hs : ∀ a, (Rect.unit (s := S16x1024x1024) ![k, 0, 0] S1x1024x1024.size inb).stride a = 1)
    (f : Buf (Elt F) ((Memref.whole cc0_scratch1 : Memref sig .tc .vmem S16x1024x1024 .bf16).view.loc (c : Thread nD τ)))
    (w : S1x1024x1024.Idx → Elt F .bf16)
    (hw : ∀ (y : S1x1024x1024.Idx) (a : Fin 16384) (b : Fin 2048), a.val = 1024 * r.val + (y 1).val →
      b.val = 1024 * (1 - zOf c) + (y 2).val →
      w y = FloatOps.truncf .bf16 (by decide) ((X m c : FVec F S16384x2048 .f32) (ix2 a b))) :
    ((((Memref.whole cc0_scratch1 : Memref sig .tc .vmem S16x1024x1024 .bf16).slice
          (Rect.unit (s := S16x1024x1024) ![k, 0, 0] S1x1024x1024.size inb) hs).squeeze S1024x1024
          squeezes_S1x1024x1024_S1024x1024).view.loc (c : Thread nD τ)
        ↦[(((Memref.whole cc0_scratch1 : Memref sig .tc .vmem S16x1024x1024 .bf16).slice
          (Rect.unit (s := S16x1024x1024) ![k, 0, 0] S1x1024x1024.size inb) hs).squeeze S1024x1024
          squeezes_S1x1024x1024_S1024x1024).view.set]{fullShare}
        (View.write (Elt F) ((Memref.whole cc0_scratch1 : Memref sig .tc .vmem S16x1024x1024 .bf16).access
          (Rect.unit (s := S16x1024x1024) ![k, 0, 0] S1x1024x1024.size inb)) f w Finset.univ) : sProp 𝕄)
      ⊢ ((sbS r).view.loc (c : Thread nD τ) ↦[(sbS r).view.set]{fullShare} sbV m c : sProp 𝕄) := by
  subst hk
  exact sent_slot_canon m c r r.val rfl inb f w hw

/-! ## Opening the symbolic executor's auxiliary definitions -/

open Lean Elab Tactic Meta in
/-- Unfold, in the goal, every definition whose name has a component `sl` (the auxiliary definitions a symbolic run
    makes for the values it meets, named `<theorem>.sl.<binder>`).  Plain definitional unfolding: the goal is
    replaced by a definitionally equal one. -/
elab "unfold_sl" : tactic => do
  let g ← getMainGoal
  let t ← instantiateMVars (← g.getType)
  let t' ← Meta.deltaExpand t fun n => n.components.contains `sl
  replaceMainGoal [← g.replaceTargetDefEq t']

/-! ## A landed own slice of the result array -/

/-- Row chunk `r`'s own slice of the result array, filled whole by the copy of a block that is the kept chunk, holds
    the result array's final contents.  The slice is spelt by its row offset's word `N = 1024 r`. -/
theorem own_land (c : Dev nD) (r : Fin 16) (N : ℕ) (hN : N = 1024 * r.val)
    (inb : ∀ a, (k0_off4 c (BitVec.ofNat 32 N)) a + S1024x1024.size a ≤ S32768x1024.size a)
    (hs : ∀ a, (Rect.unit (s := S32768x1024) (k0_off4 c (BitVec.ofNat 32 N)) S1024x1024.size inb).stride a = 1)
    (fo : Buf (Elt F) (((Memref.whole main_v1 : Memref sig .tc .hbm S32768x1024 .bf16).slice
      (Rect.unit (s := S32768x1024) (k0_off4 c (BitVec.ofNat 32 N)) S1024x1024.size inb) hs).view.loc (c : Thread nD τ)))
    (Wv : S1024x1024.Idx → Elt F .bf16) (hW : Wv = keptChunk m c r) :
    ((((Memref.whole main_v1 : Memref sig .tc .hbm S32768x1024 .bf16).slice
          (Rect.unit (s := S32768x1024) (k0_off4 c (BitVec.ofNat 32 N)) S1024x1024.size inb) hs).view.loc (c : Thread nD τ)
        ↦[((Memref.whole main_v1 : Memref sig .tc .hbm S32768x1024 .bf16).slice
          (Rect.unit (s := S32768x1024) (k0_off4 c (BitVec.ofNat 32 N)) S1024x1024.size inb) hs).view.set]{fullShare}
        (((Memref.whole main_v1 : Memref sig .tc .hbm S32768x1024 .bf16).slice
          (Rect.unit (s := S32768x1024) (k0_off4 c (BitVec.ofNat 32 N)) S1024x1024.size inb) hs).view.writes (Elt F) fo
          [⟨Rect.whole (Rect.unit (s := S32768x1024) (k0_off4 c (BitVec.ofNat 32 N)) S1024x1024.size inb).shape, Wv⟩])
        : sProp 𝕄))
      ⊢ ((oS c r).view.loc (c : Thread nD τ) ↦[(oS c r).view.set]{fullShare} OV m c : sProp 𝕄) := by
  subst hN
  have e := View.write_univ_eq_writes_whole (Val := Elt F) (oS c r).view fo [] Wv
  refine (Entails.of_eq (?_ : _ = _)).trans (land_local m c r fo Wv hW)
  exact congrArg (fun g => ((oS c r).view.loc (c : Thread nD τ) ↦[(oS c r).view.set]{fullShare} g : sProp 𝕄)) e.symm

/-- The same with the condition on the landed block left as a premise inside the entailment. -/
theorem own_land_wand (c : Dev nD) (r : Fin 16) (N : ℕ) (hN : N = 1024 * r.val)
    (inb : ∀ a, (k0_off4 c (BitVec.ofNat 32 N)) a + S1024x1024.size a ≤ S32768x1024.size a)
    (hs : ∀ a, (Rect.unit (s := S32768x1024) (k0_off4 c (BitVec.ofNat 32 N)) S1024x1024.size inb).stride a = 1)
    (fo : Buf (Elt F) (((Memref.whole main_v1 : Memref sig .tc .hbm S32768x1024 .bf16).slice
      (Rect.unit (s := S32768x1024) (k0_off4 c (BitVec.ofNat 32 N)) S1024x1024.size inb) hs).view.loc (c : Thread nD τ)))
    (Wv : S1024x1024.Idx → Elt F .bf16) :
    ((((Memref.whole main_v1 : Memref sig .tc .hbm S32768x1024 .bf16).slice
          (Rect.unit (s := S32768x1024) (k0_off4 c (BitVec.ofNat 32 N)) S1024x1024.size inb) hs).view.loc (c : Thread nD τ)
        ↦[((Memref.whole main_v1 : Memref sig .tc .hbm S32768x1024 .bf16).slice
          (Rect.unit (s := S32768x1024) (k0_off4 c (BitVec.ofNat 32 N)) S1024x1024.size inb) hs).view.set]{fullShare}
        (((Memref.whole main_v1 : Memref sig .tc .hbm S32768x1024 .bf16).slice
          (Rect.unit (s := S32768x1024) (k0_off4 c (BitVec.ofNat 32 N)) S1024x1024.size inb) hs).view.writes (Elt F) fo
          [⟨Rect.whole (Rect.unit (s := S32768x1024) (k0_off4 c (BitVec.ofNat 32 N)) S1024x1024.size inb).shape, Wv⟩])
        : sProp 𝕄))
      ⊢ iprop(⌜Wv = keptChunk m c r⌝ -∗
          ((oS c r).view.loc (c : Thread nD τ) ↦[(oS c r).view.set]{fullShare} OV m c : sProp 𝕄)) := by
  iintro H %hW
  iapply (own_land m c r N hN inb hs fo Wv hW)
  iexact H

/-- info: 'Cert.Kernel.A2A.sent_hfs_whole' depends on axioms: [propext, Classical.choice, Quot.sound] -/
#guard_msgs in #print axioms Cert.Kernel.A2A.sent_hfs_whole
/-- info: 'Cert.Kernel.A2A.sent_payload_junk' depends on axioms: [propext, Classical.choice, Quot.sound] -/
#guard_msgs in #print axioms Cert.Kernel.A2A.sent_payload_junk
/-- info: 'Cert.Kernel.A2A.kept_payload_junk' depends on axioms: [propext, Classical.choice, Quot.sound] -/
#guard_msgs in #print axioms Cert.Kernel.A2A.kept_payload_junk
/-- info: 'Cert.Kernel.A2A.sent_hfs_slot' depends on axioms: [propext, Classical.choice, Quot.sound] -/
#guard_msgs in #print axioms Cert.Kernel.A2A.sent_hfs_slot
/-- info: 'Cert.Kernel.A2A.kept_hfs_slot' depends on axioms: [propext, Classical.choice, Quot.sound] -/
#guard_msgs in #print axioms Cert.Kernel.A2A.kept_hfs_slot
/-- info: 'Cert.Kernel.A2A.sent_slot_canon'' depends on axioms: [propext, Classical.choice, Quot.sound] -/
#guard_msgs in #print axioms Cert.Kernel.A2A.sent_slot_canon'
/-- info: 'Cert.Kernel.A2A.own_land' depends on axioms: [propext, Classical.choice, Quot.sound] -/
#guard_msgs in #print axioms Cert.Kernel.A2A.own_land
/-- info: 'Cert.Kernel.A2A.own_land_wand' depends on axioms: [propext, Classical.choice, Quot.sound] -/
#guard_msgs in #print axioms Cert.Kernel.A2A.own_land_wand

end Cert.Kernel.A2A

end
-- ==== Proof.Kernel.Progs.lean ====
/-
  The body's text cut at two of its printed parts' boundaries: the handshake and the sixteen remote copies (parts 1 to 17),
  the local phase (parts 18 to 34), the remaining waits (part 35 to the end); and that the body is the three in sequence.
-/
import proofs.«900627_g7700000000000628_dist_a2a_v7x_xyz2x2x2_z_m16384_n1024_bf16_1_alg».proof.Proof.Kernel.Proto
import proofs.«900627_g7700000000000628_dist_a2a_v7x_xyz2x2x2_z_m16384_n1024_bf16_1_alg».proof.Proof.Gen.Kernel.Skeleton
import proofs.«900627_g7700000000000628_dist_a2a_v7x_xyz2x2x2_z_m16384_n1024_bf16_1_alg».proof.Proof.Gen.Kernel.Points

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Parts 1 to 17, then `k` on the words part 1 hands on. -/
noncomputable def headProg (k : Dev nD → BitVec 32 → BitVec 32 → BitVec 32 → BitVec 32 → Prog (TpuEff nD τ sig (Elt F) Λ₀ .tc) PUnit) :
    Prog (TpuEff nD τ sig (Elt F) Λ₀ .tc) PUnit := do
  let ⟨d0, v2, v5, v8, v9⟩ : Σ' (d0 : Dev nD) (v2 : BitVec 32) (v5 : BitVec 32) (v8 : BitVec 32), BitVec 32 ← k0_part1 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8
  k0_part2 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  k0_part3 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  k0_part4 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  let v144 : BitVec 32 ← k0_part5 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8
  let v173 : BitVec 32 ← k0_part6 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v8 v9 v144
  let c4_i32_167 : BitVec 32 ← k0_part7 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v5 v8 v9 v173
  k0_part8 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9 c4_i32_167
  let v263 : BitVec 32 ← k0_part9 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  k0_part10 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9 v263
  k0_part11 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  k0_part12 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  k0_part13 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  let v409 : FVec F S1024x1024 .bf16 ← k0_part14 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  let v440 : FVec F S1024x1024 .bf16 ← k0_part15 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9 v409
  let v470 : FVec F S1024x1024 .f32 ← k0_part16 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9 v440
  k0_part17 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9 v470
  k d0 v2 v5 v8 v9

/-- Parts 18 to 34, then `rest`. -/
noncomputable def localProg (d0 : Dev nD) (v2 v5 v8 v9 : BitVec 32) (rest : Prog (TpuEff nD τ sig (Elt F) Λ₀ .tc) PUnit) :
    Prog (TpuEff nD τ sig (Elt F) Λ₀ .tc) PUnit := do
  k0_part18 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  let v556 : FVec F S1024x1024 .bf16 ← k0_part19 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  let v584 : FVec F S1024x1024 .bf16 ← k0_part20 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v556
  let v612 : FVec F S1024x1024 .bf16 ← k0_part21 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v584
  let v640 : FVec F S1024x1024 .bf16 ← k0_part22 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v612
  let v667 : FVec F S1024x1024 .f32 ← k0_part23 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v640
  let v694 : Vec F S1x1024x1024 .f32 ← k0_part24 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v667
  k0_part25 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v694
  k0_part26 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part27 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part28 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part29 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part30 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part31 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part32 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  let v943 : FVec F S1024x1024 .bf16 ← k0_part33 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part34 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v943
  rest

/-- Part 35 to the end. -/
noncomputable def tailProg (d0 : Dev nD) (v2 v5 v9 : BitVec 32) : Prog (TpuEff nD τ sig (Elt F) Λ₀ .tc) PUnit := do
  k0_part35 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part36 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  let ⟨v1050, c2_i32_961⟩ : Σ' (v1050 : BitVec 32), BitVec 32 ← k0_part37 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part38 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9 v1050 c2_i32_961
  k0_part39 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part40 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part41 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part42 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part43 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  let c0_i32_1135 : BitVec 32 := 0#32
  let v1218 : Memref sig .tc .vmem S1x1024x1024 .bf16 := (Memref.whole cc0_scratch1 : Memref sig .tc .vmem S16x1024x1024 .bf16).slice (Rect.unit (s := S16x1024x1024) ![15, 0, 0] S1x1024x1024.size inb_S16x1024x1024_S1x1024x1024_15_0_0) (fun _ => rfl)
  let v1219 : Memref sig .tc .vmem S1024x1024 .bf16 := v1218.squeeze S1024x1024 squeezes_S1x1024x1024_S1024x1024
  let v1215 : DmaSems sig S1 := cc0_scratch8.slice (Rect.unit (s := S16) ![15] S1.size inb_S16_S1_15)
  let v1216 : DmaSems sig S_ := v1215.squeeze S_ squeezes_S1_S_
  let v1217 : Memref sig .tc .hbm S1024x1024 .bf16 := (Memref.whole main_v1 : Memref sig .tc .hbm S32768x1024 .bf16).slice (Rect.unit (s := S32768x1024) (k0_off4 d0 15360#32) S1024x1024.size (k0_off4_inb d0 15)) (fun _ => rfl)
  Prog.lift (.waitDma2 v1216.sem v1219 v1217 (((Memref.isWhole_whole cc0_scratch1).wordExact_slice rfl _ wordsbf16_S16x1024x1024_S1x1024x1024_15_0_0).reshape _ _) ((Memref.isWhole_whole main_v1).wordExact_slice rfl _ (k0_off4_wordsbf16 d0 15)))
  pure ⟨⟩

/-- The body is the three stretches in sequence. -/
theorem cc0_body_split :
    (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8)
      = headProg (F := F) fun d0 v2 v5 v8 v9 => localProg d0 v2 v5 v8 v9 (tailProg d0 v2 v5 v9) := by
  rfl

-- the two later stretches are opened only by the lemmas that run them
attribute [irreducible] localProg tailProg

end Cert.Kernel.A2A

end
-- ==== Proof.Kernel.RuleWait.lean ====
/-
  The final waits of a device, as rules of the protocol.

  A device ends by waiting, for every chunk r, on its send cell r (slot r of its send buffer has been read) and on its
  receive cell r (its partner's copy of chunk r has landed).  Such a wait takes the rest of the cell's one round and so
  hands over the cell's one payload: the slot back, resp. the slice of the result array at its final contents.  No
  later round of the cell has a duty, so the cell then closes and its counter, at zero, is the device's again.
-/
import proofs.«900627_g7700000000000628_dist_a2a_v7x_xyz2x2x2_z_m16384_n1024_bf16_1_alg».proof.Proof.Kernel.Proto
import proofs.«900627_g7700000000000628_dist_a2a_v7x_xyz2x2x2_z_m16384_n1024_bf16_1_alg».proof.Proof.Kernel.Tables

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The wait on send cell `r`, for the credit of one chunk: the device gets slot `r` of its send buffer back, and the
    cell's counter at zero. -/
theorem rule_wait_send (c : Dev nD) (r : Fin 16) (κ : ℕ) (W : Waits sig Unit)
    {sp' sp : Space} {s' : Shape} {e' : EltTy}
    {src : Memref sig (c : Thread nD τ).2.kind sp' s' e'} {dst : Memref sig .tc sp S1024x1024 .bf16}
    {hsrc : src.view.WordExact} {hdst : dst.view.WordExact}
    {α : Type} {Q : α → sProp 𝕄} {k : PUnit → Prog (TpuEff nD τ sig (Elt F) Λ₀ .tc) α} :
    iprop(cellInv ER (a2aRd m) κ (sendCell c r) ∗ cred (tallyAt (sendCell c r) () N) ∗ owes (c : Thread nD τ) 0 W
        ∗ atPos ER (sendCell c r) 0 ∅ 0)
      ⊢ iprop(((owes (c : Thread nD τ) 0 (insert (SemLoc.dma (sendSem r), ()) W) ∗ semVal (sendCell c r) 0 ∗ sendPay m c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem r) src dst hsrc hdst) k) Q) := by
  iintro ⟨#HI, Hc, HO, Hat⟩ Hk
  iapply (Rounds.wp_wait_rest_token 𝒱₀ ER (a2aRd m) (c : Thread nD τ) none (κ := κ)
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c r)) $$ Hpay
  imod (Rounds.cell_close ER (a2aRd m) (Set.mem_univ κ) (fun h => h) (R := 0 + 1) (duties_later m (sendCell c r))) $$ [Hat] with Hz
  · isplitr; · iexact HI
    iexact Hat
  iapply Hk
  isplitl [HO]; · iexact HO
  isplitl [Hz]; · iexact Hz
  iexact Hp

/-- The wait on receive cell `r`, for the credit of one chunk: the device gets the slice of its result array that its
    partner's copy of chunk `r` wrote, at its final contents, and the cell's counter at zero. -/
theorem rule_wait_recv (c : Dev nD) (r : Fin 16) (κ : ℕ) (W : Waits sig Unit)
    {sp' sp : Space} {s' : Shape} {e' : EltTy}
    {src : Memref sig (c : Thread nD τ).2.kind sp' s' e'} {dst : Memref sig .tc sp S1024x1024 .bf16}
    {hsrc : src.view.WordExact} {hdst : dst.view.WordExact}
    {α : Type} {Q : α → sProp 𝕄} {k : PUnit → Prog (TpuEff nD τ sig (Elt F) Λ₀ .tc) α} :
    iprop(cellInv ER (a2aRd m) κ (recvCell c r) ∗ cred (tallyAt (recvCell c r) () N) ∗ owes (c : Thread nD τ) 0 W
        ∗ atPos ER (recvCell c r) 0 ∅ 0)
      ⊢ iprop(((owes (c : Thread nD τ) 0 (insert (SemLoc.dma (recvSem r), ()) W) ∗ semVal (recvCell c r) 0 ∗ recvPay m c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem r) src dst hsrc hdst) k) Q) := by
  iintro ⟨#HI, Hc, HO, Hat⟩ Hk
  iapply (Rounds.wp_wait_rest_token 𝒱₀ ER (a2aRd m) (c : Thread nD τ) none (κ := κ)
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c r)) $$ Hpay
  imod (Rounds.cell_close ER (a2aRd m) (Set.mem_univ κ) (fun h => h) (R := 0 + 1) (duties_later m (recvCell c r))) $$ [Hat] with Hz
  · isplitr; · iexact HI
    iexact Hat
  iapply Hk
  isplitl [HO]; · iexact HO
  isplitl [Hz]; · iexact Hz
  iexact Hp

/-! ## The same in two steps: the payloads of a round already waited for, and the closing of the cell -/

/-- After its wait a send cell closes: no later round has a duty, and its counter, at zero, is the device's again. -/
theorem close_send (c : Dev nD) (r : Fin 16) (κ : ℕ) :
    iprop(cellInv ER (a2aRd m) κ (sendCell c r) ∗ atPos ER (sendCell c r) 1 ∅ 0)
      ⊢ iprop(|={Set.univ}=> semVal (sendCell c r) 0) :=
  Rounds.cell_close ER (a2aRd m) (Set.mem_univ κ) (fun h => h) (R := 1) (duties_later m (sendCell c r))

/-- After its wait a receive cell closes likewise. -/
theorem close_recv (c : Dev nD) (r : Fin 16) (κ : ℕ) :
    iprop(cellInv ER (a2aRd m) κ (recvCell c r) ∗ atPos ER (recvCell c r) 1 ∅ 0)
      ⊢ iprop(|={Set.univ}=> semVal (recvCell c r) 0) :=
  Rounds.cell_close ER (a2aRd m) (Set.mem_univ κ) (fun h => h) (R := 1) (duties_later m (recvCell c r))

/-- All the payloads of a send cell's round: its one payload. -/
theorem pays_send (c : Dev nD) (r : Fin 16) :
    bigSep ((a2aRd (F := F) m).duties (sendCell c r) 0) (fun d => (a2aRd (F := F) m).payload (sendCell c r) 0 d) = sendPay m c r := by
  rw [duties_send, bigSep_singleton, payload_send]

/-- All the payloads of a receive cell's round: its one payload. -/
theorem pays_recv (c : Dev nD) (r : Fin 16) :
    bigSep ((a2aRd (F := F) m).duties (recvCell c r) 0) (fun d => (a2aRd (F := F) m).payload (recvCell c r) 0 d) = recvPay m c r := by
  rw [duties_recv, bigSep_singleton, payload_recv]

/-- info: 'Cert.Kernel.A2A.rule_wait_send' depends on axioms: [propext, Classical.choice, Quot.sound] -/
#guard_msgs in #print axioms rule_wait_send

/-- info: 'Cert.Kernel.A2A.rule_wait_recv' depends on axioms: [propext, Classical.choice, Quot.sound] -/
#guard_msgs in #print axioms rule_wait_recv

end Cert.Kernel.A2A

end
-- ==== Proof.Kernel.LocalRun.lean ====
/-
  The local phase of a device's body, as one lemma.

  After the last chunk's copy to the partner has been started, the device moves its own row block: for each of the
  sixteen chunks it loads the chunk's window of its argument into a staging slot, narrows it to bf16 into a slot of its
  local buffer and copies that slot into the chunk's own slice of its result array, two chunks in flight at a time.  At
  the end every own slice holds the result array's final contents, every buffer and local counter is back, and the wait
  on the first send cell has handed back slot 0 of the send buffer.
-/
import proofs.«900627_g7700000000000628_dist_a2a_v7x_xyz2x2x2_z_m16384_n1024_bf16_1_alg».proof.Proof.Kernel.Proto
import proofs.«900627_g7700000000000628_dist_a2a_v7x_xyz2x2x2_z_m16384_n1024_bf16_1_alg».proof.Proof.Kernel.Tables
import proofs.«900627_g7700000000000628_dist_a2a_v7x_xyz2x2x2_z_m16384_n1024_bf16_1_alg».proof.Proof.Kernel.BodyPrep
import proofs.«900627_g7700000000000628_dist_a2a_v7x_xyz2x2x2_z_m16384_n1024_bf16_1_alg».proof.Proof.Kernel.Regions
import proofs.«900627_g7700000000000628_dist_a2a_v7x_xyz2x2x2_z_m16384_n1024_bf16_1_alg».proof.Proof.Kernel.Contents
import proofs.«900627_g7700000000000628_dist_a2a_v7x_xyz2x2x2_z_m16384_n1024_bf16_1_alg».proof.Proof.Kernel.RuleSend
import proofs.«900627_g7700000000000628_dist_a2a_v7x_xyz2x2x2_z_m16384_n1024_bf16_1_alg».proof.Proof.Kernel.RuleSendEx
import proofs.«900627_g7700000000000628_dist_a2a_v7x_xyz2x2x2_z_m16384_n1024_bf16_1_alg».proof.Proof.Kernel.RuleWait
import proofs.«900627_g7700000000000628_dist_a2a_v7x_xyz2x2x2_z_m16384_n1024_bf16_1_alg».proof.Proof.Kernel.ValueSteps
import proofs.«900627_g7700000000000628_dist_a2a_v7x_xyz2x2x2_z_m16384_n1024_bf16_1_alg».proof.Proof.Kernel.Progs
import proofs.«900627_g7700000000000628_dist_a2a_v7x_xyz2x2x2_z_m16384_n1024_bf16_1_alg».proof.Proof.Gen.Kernel.Skeleton
import proofs.«900627_g7700000000000628_dist_a2a_v7x_xyz2x2x2_z_m16384_n1024_bf16_1_alg».proof.Proof.Gen.Kernel.Points

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the local phase starts from.  In order: the invariants of send cell 15, of the partner's receive cell 15 and of
    send cell 0; the level facts; round 0 reached of send cell 15 and of the partner's receive cell 15; the argument whole;
    the two slots of the staging buffer and of the local buffer; the sixteen own slices of the result array, at any
    contents; the four local counters at zero; what is still owed (the partner's receive credit for chunk 15); slot 15 of
    the send buffer holding the chunk to send; the partner's slice for chunk 15; the two duty tokens of that copy; the
    credit and the position of send cell 0. -/
def MidA (K : Dev nD × Fin 33 → ℕ) (c : Dev nD) (W : Waits sig Unit) (fo : Buf (Elt F) ((c : Thread nD τ).loc main_v1))
    (f2 : Buf (Elt F) ((c : Thread nD τ).loc cc0_scratch2)) (f3 : Buf (Elt F) ((c : Thread nD τ).loc cc0_scratch3))
    (fd15 : Buf (Elt F) ((oS c 15).view.loc (peer c : Thread nD τ))) : sProp 𝕄 :=
  iprop(cellInv ER (a2aRd m) (K (c, 16)) (sendCell c 15)
    ∗ cellInv ER (a2aRd m) (K (peer c, 32)) (recvCell (peer c) 15)
    ∗ cellInv ER (a2aRd m) (K (c, 1)) (sendCell c 0)
    ∗ (levAts L lv : sProp 𝕄)
    ∗ reached ER (sendCell c 15) 0
    ∗ reached ER (recvCell (peer c) 15) 0
    ∗ (((Memref.whole main_arg0 : Memref sig .tc .hbm S16384x2048 .f32)).view.loc (c : Thread nD τ) ↦[((Memref.whole main_arg0 : Memref sig .tc .hbm S16384x2048 .f32)).view.set]{fullShare} X m c : sProp 𝕄)
    ∗ (((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ) ↦[((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024)).view.set]{fullShare} f2 : sProp 𝕄)
    ∗ (((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ) ↦[((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)).view.set]{fullShare} f2 : sProp 𝕄)
    ∗ (((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ) ↦[((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024)).view.set]{fullShare} f3 : sProp 𝕄)
    ∗ (((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ) ↦[((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024)).view.set]{fullShare} f3 : sProp 𝕄)
    ∗ ((((Memref.whole main_v1 : Memref sig .tc .hbm S32768x1024 .bf16).slice (Rect.unit (s := S32768x1024) (k0_off4 c 0#32) S1024x1024.size (k0_off4_inb c 0)) (fun _ => rfl))).view.loc (c : Thread nD τ) ↦[(((Memref.whole main_v1 : Memref sig .tc .hbm S32768x1024 .bf16).slice (Rect.unit (s := S32768x1024) (k0_off4 c 0#32) S1024x1024.size (k0_off4_inb c 0)) (fun _ => rfl))).view.set]{fullShare} fo : sProp 𝕄)
    ∗ ((((Memref.whole main_v1 : Memref sig .tc .hbm S32768x1024 .bf16).slice (Rect.unit (s := S32768x1024) (k0_off4 c 1024#32) S1024x1024.size (k0_off4_inb c 1)) (fun _ => rfl))).view.loc (c : Thread nD τ) ↦[(((Memref.whole main_v1 : Memref sig .tc .hbm S32768x1024 .bf16).slice (Rect.unit (s := S32768x1024) (k0_off4 c 1024#32) S1024x1024.size (k0_off4_inb c 1)) (fun _ => rfl))).view.set]{fullShare} fo : sProp 𝕄)
    ∗ ((((Memref.whole main_v1 : Memref sig .tc .hbm S32768x1024 .bf16).slice (Rect.unit (s := S32768x1024) (k0_off4 c 2048#32) S1024x1024.size (k0_off4_inb c 2)) (fun _ => rfl))).view.loc (c : Thread nD τ) ↦[(((Memref.whole main_v1 : Memref sig .tc .hbm S32768x1024 .bf16).slice (Rect.unit (s := S32768x1024) (k0_off4 c 2048#32) S1024x1024.size (k0_off4_inb c 2)) (fun _ => rfl))).view.set]{fullShare} fo : sProp 𝕄)
    ∗ ((((Memref.whole main_v1 : Memref sig .tc .hbm S32768x1024 .bf16).slice (Rect.unit (s := S32768x1024) (k0_off4 c 3072#32) S1024x1024.size (k0_off4_inb c 3)) (fun _ => rfl))).view.loc (c : Thread nD τ) ↦[(((Memref.whole main_v1 : Memref sig .tc .hbm S32768x1024 .bf16).slice (Rect.unit (s := S32768x1024) (k0_off4 c 3072#32) S1024x1024.size (k0_off4_inb c 3)) (fun _ => rfl))).view.set]{fullShare} fo : sProp 𝕄)
    ∗ ((((Memref.whole main_v1 : Memref sig .tc .hbm S32768x1024 .bf16).slice (Rect.unit (s := S32768x1024) (k0_off4 c 4096#32) S1024x1024.size (k0_off4_inb c 4)) (fun _ => rfl))).view.loc (c : Thread nD τ) ↦[(((Memref.whole main_v1 : Memref sig .tc .hbm S32768x1024 .bf16).slice (Rect.unit (s := S32768x1024) (k0_off4 c 4096#32) S1024x1024.size (k0_off4_inb c 4)) (fun _ => rfl))).view.set]{fullShare} fo : sProp 𝕄)
    ∗ ((((Memref.whole main_v1 : Memref sig .tc .hbm S32768x1024 .bf16).slice (Rect.unit (s := S32768x1024) (k0_off4 c 5120#32) S1024x1024.size (k0_off4_inb c 5)) (fun _ => rfl))).view.loc (c : Thread nD τ) ↦[(((Memref.whole main_v1 : Memref sig .tc .hbm S32768x1024 .bf16).slice (Rect.unit (s := S32768x1024) (k0_off4 c 5120#32) S1024x1024.size (k0_off4_inb c 5)) (fun _ => rfl))).view.set]{fullShare} fo : sProp 𝕄)
    ∗ ((((Memref.whole main_v1 : Memref sig .tc .hbm S32768x1024 .bf16).slice (Rect.unit (s := S32768x1024) (k0_off4 c 6144#32) S1024x1024.size (k0_off4_inb c 6)) (fun _ => rfl))).view.loc (c : Thread nD τ) ↦[(((Memref.whole main_v1 : Memref sig .tc .hbm S32768x1024 .bf16).slice (Rect.unit (s := S32768x1024) (k0_off4 c 6144#32) S1024x1024.size (k0_off4_inb c 6)) (fun _ => rfl))).view.set]{fullShare} fo : sProp 𝕄)
    ∗ ((((Memref.whole main_v1 : Memref sig .tc .hbm S32768x1024 .bf16).slice (Rect.unit (s := S32768x1024) (k0_off4 c 7168#32) S1024x1024.size (k0_off4_inb c 7)) (fun _ => rfl))).view.loc (c : Thread nD τ) ↦[(((Memref.whole main_v1 : Memref sig .tc .hbm S32768x1024 .bf16).slice (Rect.unit (s := S32768x1024) (k0_off4 c 7168#32) S1024x1024.size (k0_off4_inb c 7)) (fun _ => rfl))).view.set]{fullShare} fo : sProp 𝕄)
    ∗ ((((Memref.whole main_v1 : Memref sig .tc .hbm S32768x1024 .bf16).slice (Rect.unit (s := S32768x1024) (k0_off4 c 8192#32) S1024x1024.size (k0_off4_inb c 8)) (fun _ => rfl))).view.loc (c : Thread nD τ) ↦[(((Memref.whole main_v1 : Memref sig .tc .hbm S32768x1024 .bf16).slice (Rect.unit (s := S32768x1024) (k0_off4 c 8192#32) S1024x1024.size (k0_off4_inb c 8)) (fun _ => rfl))).view.set]{fullShare} fo : sProp 𝕄)
    ∗ ((((Memref.whole main_v1 : Memref sig .tc .hbm S32768x1024 .bf16).slice (Rect.unit (s := S32768x1024) (k0_off4 c 9216#32) S1024x1024.size (k0_off4_inb c 9)) (fun _ => rfl))).view.loc (c : Thread nD τ) ↦[(((Memref.whole main_v1 : Memref sig .tc .hbm S32768x1024 .bf16).slice (Rect.unit (s := S32768x1024) (k0_off4 c 9216#32) S1024x1024.size (k0_off4_inb c 9)) (fun _ => rfl))).view.set]{fullShare} fo : sProp 𝕄)
    ∗ ((((Memref.whole main_v1 : Memref sig .tc .hbm S32768x1024 .bf16).slice (Rect.unit (s := S32768x1024) (k0_off4 c 10240#32) S1024x1024.size (k0_off4_inb c 10)) (fun _ => rfl))).view.loc (c : Thread nD τ) ↦[(((Memref.whole main_v1 : Memref sig .tc .hbm S32768x1024 .bf16).slice (Rect.unit (s := S32768x1024) (k0_off4 c 10240#32) S1024x1024.size (k0_off4_inb c 10)) (fun _ => rfl))).view.set]{fullShare} fo : sProp 𝕄)
    ∗ ((((Memref.whole main_v1 : Memref sig .tc .hbm S32768x1024 .bf16).slice (Rect.unit (s := S32768x1024) (k0_off4 c 11264#32) S1024x1024.size (k0_off4_inb c 11)) (fun _ => rfl))).view.loc (c : Thread nD τ) ↦[(((Memref.whole main_v1 : Memref sig .tc .hbm S32768x1024 .bf16).slice (Rect.unit (s := S32768x1024) (k0_off4 c 11264#32) S1024x1024.size (k0_off4_inb c 11)) (fun _ => rfl))).view.set]{fullShare} fo : sProp 𝕄)
    ∗ ((((Memref.whole main_v1 : Memref sig .tc .hbm S32768x1024 .bf16).slice (Rect.unit (s := S32768x1024) (k0_off4 c 12288#32) S1024x1024.size (k0_off4_inb c 12)) (fun _ => rfl))).view.loc (c : Thread nD τ) ↦[(((Memref.whole main_v1 : Memref sig .tc .hbm S32768x1024 .bf16).slice (Rect.unit (s := S32768x1024) (k0_off4 c 12288#32) S1024x1024.size (k0_off4_inb c 12)) (fun _ => rfl))).view.set]{fullShare} fo : sProp 𝕄)
    ∗ ((((Memref.whole main_v1 : Memref sig .tc .hbm S32768x1024 .bf16).slice (Rect.unit (s := S32768x1024) (k0_off4 c 13312#32) S1024x1024.size (k0_off4_inb c 13)) (fun _ => rfl))).view.loc (c : Thread nD τ) ↦[(((Memref.whole main_v1 : Memref sig .tc .hbm S32768x1024 .bf16).slice (Rect.unit (s := S32768x1024) (k0_off4 c 13312#32) S1024x1024.size (k0_off4_inb c 13)) (fun _ => rfl))).view.set]{fullShare} fo : sProp 𝕄)
    ∗ ((((Memref.whole main_v1 : Memref sig .tc .hbm S32768x1024 .bf16).slice (Rect.unit (s := S32768x1024) (k0_off4 c 14336#32) S1024x1024.size (k0_off4_inb c 14)) (fun _ => rfl))).view.loc (c : Thread nD τ) ↦[(((Memref.whole main_v1 : Memref sig .tc .hbm S32768x1024 .bf16).slice (Rect.unit (s := S32768x1024) (k0_off4 c 14336#32) S1024x1024.size (k0_off4_inb c 14)) (fun _ => rfl))).view.set]{fullShare} fo : sProp 𝕄)
    ∗ ((((Memref.whole main_v1 : Memref sig .tc .hbm S32768x1024 .bf16).slice (Rect.unit (s := S32768x1024) (k0_off4 c 15360#32) S1024x1024.size (k0_off4_inb c 15)) (fun _ => rfl))).view.loc (c : Thread nD τ) ↦[(((Memref.whole main_v1 : Memref sig .tc .hbm S32768x1024 .bf16).slice (Rect.unit (s := S32768x1024) (k0_off4 c 15360#32) S1024x1024.size (k0_off4_inb c 15)) (fun _ => rfl))).view.set]{fullShare} fo : sProp 𝕄)
    ∗ semVal ((c : Thread nD τ), SemLoc.dma ((SemArray.slice cc0_scratch5 (Rect.unit (s := S2) ![0] S1.size inb_S2_S1_0)).squeeze S_ squeezes_S1_S_).sem) 0
    ∗ semVal ((c : Thread nD τ), SemLoc.dma ((SemArray.slice cc0_scratch5 (Rect.unit (s := S2) ![1] S1.size inb_S2_S1_1)).squeeze S_ squeezes_S1_S_).sem) 0
    ∗ semVal ((c : Thread nD τ), SemLoc.dma ((SemArray.slice cc0_scratch6 (Rect.unit (s := S2) ![0] S1.size inb_S2_S1_0)).squeeze S_ squeezes_S1_S_).sem) 0
    ∗ semVal ((c : Thread nD τ), SemLoc.dma ((SemArray.slice cc0_scratch6 (Rect.unit (s := S2) ![1] S1.size inb_S2_S1_1)).squeeze S_ squeezes_S1_S_).sem) 0
    ∗ owes (c : Thread nD τ) (owedFrom c 15) W
    ∗ (∃ fs : Buf (Elt F) ((sbS 15).view.loc (c : Thread nD τ)), ⌜(sbS 15).view.read (Elt F) fs = sentChunk m c 15⌝ ∗ (((((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024)).view.loc (c : Thread nD τ) ↦[((((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024)).view.set]{fullShare} fs : sProp 𝕄))
    ∗ ((oS c 15).view.loc (peer c : Thread nD τ) ↦[(oS c 15).view.set]{fullShare} fd15)
    ∗ dutyTok ER (sendCell c 15) 0 ()
    ∗ dutyTok ER (recvCell (peer c) 15) 0 ()
    ∗ cred (tallyAt (sendCell c 0) () N)
    ∗ atPos ER (sendCell c 0) 0 ∅ 0)

/-- What the local phase leaves: the argument whole; the sixteen own slices at the result array's final contents; the
    four slots of the staging and local buffers at some contents; the four local counters at zero; nothing owed; the
    credit of send cell 15; send cell 0's counter at zero and slot 0 of the send buffer back. -/
def MidB (K : Dev nD × Fin 33 → ℕ) (c : Dev nD) : sProp 𝕄 :=
  iprop((((Memref.whole main_arg0 : Memref sig .tc .hbm S16384x2048 .f32)).view.loc (c : Thread nD τ) ↦[((Memref.whole main_arg0 : Memref sig .tc .hbm S16384x2048 .f32)).view.set]{fullShare} X m c : sProp 𝕄)
    ∗ ((oS c 0).view.loc (c : Thread nD τ) ↦[(oS c 0).view.set]{fullShare} OV m c : sProp 𝕄)
    ∗ ((oS c 1).view.loc (c : Thread nD τ) ↦[(oS c 1).view.set]{fullShare} OV m c : sProp 𝕄)
    ∗ ((oS c 2).view.loc (c : Thread nD τ) ↦[(oS c 2).view.set]{fullShare} OV m c : sProp 𝕄)
    ∗ ((oS c 3).view.loc (c : Thread nD τ) ↦[(oS c 3).view.set]{fullShare} OV m c : sProp 𝕄)
    ∗ ((oS c 4).view.loc (c : Thread nD τ) ↦[(oS c 4).view.set]{fullShare} OV m c : sProp 𝕄)
    ∗ ((oS c 5).view.loc (c : Thread nD τ) ↦[(oS c 5).view.set]{fullShare} OV m c : sProp 𝕄)
    ∗ ((oS c 6).view.loc (c : Thread nD τ) ↦[(oS c 6).view.set]{fullShare} OV m c : sProp 𝕄)
    ∗ ((oS c 7).view.loc (c : Thread nD τ) ↦[(oS c 7).view.set]{fullShare} OV m c : sProp 𝕄)
    ∗ ((oS c 8).view.loc (c : Thread nD τ) ↦[(oS c 8).view.set]{fullShare} OV m c : sProp 𝕄)
    ∗ ((oS c 9).view.loc (c : Thread nD τ) ↦[(oS c 9).view.set]{fullShare} OV m c : sProp 𝕄)
    ∗ ((oS c 10).view.loc (c : Thread nD τ) ↦[(oS c 10).view.set]{fullShare} OV m c : sProp 𝕄)
    ∗ ((oS c 11).view.loc (c : Thread nD τ) ↦[(oS c 11).view.set]{fullShare} OV m c : sProp 𝕄)
    ∗ ((oS c 12).view.loc (c : Thread nD τ) ↦[(oS c 12).view.set]{fullShare} OV m c : sProp 𝕄)
    ∗ ((oS c 13).view.loc (c : Thread nD τ) ↦[(oS c 13).view.set]{fullShare} OV m c : sProp 𝕄)
    ∗ ((oS c 14).view.loc (c : Thread nD τ) ↦[(oS c 14).view.set]{fullShare} OV m c : sProp 𝕄)
    ∗ ((oS c 15).view.loc (c : Thread nD τ) ↦[(oS c 15).view.set]{fullShare} OV m c : sProp 𝕄)
    ∗ (∃ f : Buf (Elt F) (((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ)), (((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ) ↦[((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024)).view.set]{fullShare} f : sProp 𝕄))
    ∗ (∃ f : Buf (Elt F) (((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ)), (((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ) ↦[((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)).view.set]{fullShare} f : sProp 𝕄))
    ∗ (∃ f : Buf (Elt F) (((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ)), (((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ) ↦[((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024)).view.set]{fullShare} f : sProp 𝕄))
    ∗ (∃ f : Buf (Elt F) (((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ)), (((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ) ↦[((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024)).view.set]{fullShare} f : sProp 𝕄))
    ∗ semVal (locCell c 2) 0
    ∗ semVal (locCell c 3) 0
    ∗ semVal (locCell c 4) 0
    ∗ semVal (locCell c 5) 0
    ∗ (∃ W' : Waits sig Unit, owes (c : Thread nD τ) 0 W')
    ∗ cred (tallyAt (sendCell c 15) () N)
    ∗ semVal (sendCell c 0) 0
    ∗ sendPay m c 0)

set_option maxHeartbeats 40000000 in
set_option maxRecDepth 100000 in
/-- The local phase, run from `MidA` to `MidB`. -/
theorem local_run (K : Dev nD × Fin 33 → ℕ) (c : Dev nD) (W : Waits sig Unit) (v2 v5 v8 v9 : BitVec 32)
    (fo : Buf (Elt F) ((c : Thread nD τ).loc main_v1))
    (f2 : Buf (Elt F) ((c : Thread nD τ).loc cc0_scratch2)) (f3 : Buf (Elt F) ((c : Thread nD τ).loc cc0_scratch3))
    (fd15 : Buf (Elt F) ((oS c 15).view.loc (peer c : Thread nD τ)))
    (rest : Prog (TpuEff nD τ sig (Elt F) Λ₀ .tc) PUnit) (Q : PUnit → sProp 𝕄) :
    iprop(MidA m K c W fo f2 f3 fd15
        ∗ (MidB m K c -∗ wp frame (wpE (defs₀ (F := F)) 𝒱₀ (c : Thread nD τ) none) Set.univ rest Q))
      ⊢ wp frame (wpE (defs₀ (F := F)) 𝒱₀ (c : Thread nD τ) none) Set.univ (localProg (F := F) c v2 v5 v8 v9 rest) Q := by
  unfold MidA
  iintro ⟨⟨#HIS15, #HIP15, #HIS0, #Hlev, #HrS15, #HrP15, Hx, Hs2a, Hs2b, Hs3a, Hs3b, Hown0, Hown1, Hown2, Hown3, Hown4, Hown5, Hown6, Hown7, Hown8, Hown9, Hown10, Hown11, Hown12, Hown13, Hown14, Hown15, Hl2, Hl3, Hl4, Hl5, HO, Hsb15, Hd15, HtS15, HtP15, HcS0, HatS0⟩, Hk⟩
  icases Hsb15 with ⟨%fs, %hfs, Hsb15⟩
  ihave Hsb15 := (Entails.of_eq (show ((((((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024)).view.loc (c : Thread nD τ) ↦[((((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024)).view.set]{fullShare} fs : sProp 𝕄)) = ((sbS 15).view.loc (c : Thread nD τ) ↦[(sbS 15).view.set]{fullShare} fs : sProp 𝕄) from rfl)) $$ Hsb15
  have hmw2 : ∀ n : ℕ, (levAts L lv : sProp 𝕄) ⊢ MayWait (c : Thread nD τ) (SemLoc.dma ((SemArray.slice cc0_scratch5 (Rect.unit (s := S2) ![0] S1.size inb_S2_S1_0)).squeeze S_ squeezes_S1_S_).sem) () (owedFrom c n) := fun n => mayWait_low c _ (by decide) n
  have hmw3 : ∀ n : ℕ, (levAts L lv : sProp 𝕄) ⊢ MayWait (c : Thread nD τ) (SemLoc.dma ((SemArray.slice cc0_scratch5 (Rect.unit (s := S2) ![1] S1.size inb_S2_S1_1)).squeeze S_ squeezes_S1_S_).sem) () (owedFrom c n) := fun n => mayWait_low c _ (by decide) n
  have hmw4 : ∀ n : ℕ, (levAts L lv : sProp 𝕄) ⊢ MayWait (c : Thread nD τ) (SemLoc.dma ((SemArray.slice cc0_scratch6 (Rect.unit (s := S2) ![0] S1.size inb_S2_S1_0)).squeeze S_ squeezes_S1_S_).sem) () (owedFrom c n) := fun n => mayWait_low c _ (by decide) n
  have hmw5 : ∀ n : ℕ, (levAts L lv : sProp 𝕄) ⊢ MayWait (c : Thread nD τ) (SemLoc.dma ((SemArray.slice cc0_scratch6 (Rect.unit (s := S2) ![1] S1.size inb_S2_S1_1)).squeeze S_ squeezes_S1_S_).sem) () (owedFrom c n) := fun n => mayWait_low c _ (by decide) n
  unfold localProg
  sl_exec
  -- the copy of chunk 15 to the partner
  iapply (rule_send_at m c _ (dev17_eq c) 15 (K (c, 16)) (K (peer c, 32)) fd15) $$ [HO Hsb15 Hd15 HtS15 HtP15]
  · isplitr; · iexact HIS15
    isplitr; · iexact HIP15
    isplitl [Hsb15]
    · iexists fs
      isplitr; · ipureintro; exact hfs
      iexact Hsb15
    isplitl [Hd15]; · iexact Hd15
    isplitl [HO]; · iexact HO
    isplitl [HtS15]; · iexact HtS15
    isplitr; · iexact HrS15
    isplitl [HtP15]; · iexact HtP15
    iexact HrP15
  iintro ⟨HcS15, HO⟩
  rw [show owedFrom c (((15 : Fin 16) : ℕ) + 1) = 0 from owedFrom_16 c]
  -- the sixteen chunks of the own row block, and the wait on send cell 0
  sl_exec
  imod (close_send m c 0 (K (c, 1))) $$ [HatS0] with Hz
  · isplitr; · iexact HIS0
    iexact HatS0
  ihave Hp := (Entails.of_eq (pays_send m c 0)) $$ HatS0_pay1
  -- every own slice holds the result array's final contents
  ihave Hown0 := (own_land m c 0 0 rfl _ _ _ _ (by exact kept_hfs_slot m c 0 0 inb_S2x1024x1024_S1x1024x1024_0_0_0 (fun _ => rfl) _ _ (kept_payload_junk m c 0 k0_pay20 (fun u y => pay_apply u _ _ _ y) (Memref.whole cc0_scratch2) 0 inb_S2x1024x1024_S1x1024x1024_0_0_0 (fun _ => rfl) (k0_off18 c) (k0_off18_inb c) (fun _ => rfl) _ _ (k0_off18_eq c) rfl rfl))) $$ Hown0
  ihave Hown1 := (own_land m c 1 1024 rfl _ _ _ _ (by exact kept_hfs_slot m c 1 1 inb_S2x1024x1024_S1x1024x1024_1_0_0 (fun _ => rfl) _ _ (kept_payload_junk m c 1 (fun u => k0_pay22 (k0_pay21 u)) (fun u y => pay_apply u _ _ _ y) (Memref.whole cc0_scratch2) 1 inb_S2x1024x1024_S1x1024x1024_1_0_0 (fun _ => rfl) (k0_off19 c) (k0_off19_inb c) (fun _ => rfl) _ _ (k0_off19_eq c) rfl rfl))) $$ Hown1
  ihave Hown2 := (own_land m c 2 2048 rfl _ _ _ _ (by exact kept_hfs_slot m c 2 0 inb_S2x1024x1024_S1x1024x1024_0_0_0 (fun _ => rfl) _ _ (kept_payload_junk m c 2 (fun u => k0_pay24 (k0_pay23 u)) (fun u y => pay_apply u _ _ _ y) (Memref.whole cc0_scratch2) 0 inb_S2x1024x1024_S1x1024x1024_0_0_0 (fun _ => rfl) (k0_off20 c) (k0_off20_inb c) (fun _ => rfl) _ _ (k0_off20_eq c) rfl rfl))) $$ Hown2
  ihave Hown3 := (own_land m c 3 3072 rfl _ _ _ _ (by exact kept_hfs_slot m c 3 1 inb_S2x1024x1024_S1x1024x1024_1_0_0 (fun _ => rfl) _ _ (kept_payload_junk m c 3 (fun u => k0_pay26 (k0_pay25 u)) (fun u y => pay_apply u _ _ _ y) (Memref.whole cc0_scratch2) 1 inb_S2x1024x1024_S1x1024x1024_1_0_0 (fun _ => rfl) (k0_off21 c) (k0_off21_inb c) (fun _ => rfl) _ _ (k0_off21_eq c) rfl rfl))) $$ Hown3
  ihave Hown4 := (own_land m c 4 4096 rfl _ _ _ _ (by exact kept_hfs_slot m c 4 0 inb_S2x1024x1024_S1x1024x1024_0_0_0 (fun _ => rfl) _ _ (kept_payload_junk m c 4 (fun u => k0_pay28 (k0_pay27 u)) (fun u y => pay_apply u _ _ _ y) (Memref.whole cc0_scratch2) 0 inb_S2x1024x1024_S1x1024x1024_0_0_0 (fun _ => rfl) (k0_off22 c) (k0_off22_inb c) (fun _ => rfl) _ _ (k0_off22_eq c) rfl rfl))) $$ Hown4
  ihave Hown5 := (own_land m c 5 5120 rfl _ _ _ _ (by exact kept_hfs_slot m c 5 1 inb_S2x1024x1024_S1x1024x1024_1_0_0 (fun _ => rfl) _ _ (kept_payload_junk m c 5 (fun u => k0_pay30 (k0_pay29 u)) (fun u y => pay_apply u _ _ _ y) (Memref.whole cc0_scratch2) 1 inb_S2x1024x1024_S1x1024x1024_1_0_0 (fun _ => rfl) (k0_off23 c) (k0_off23_inb c) (fun _ => rfl) _ _ (k0_off23_eq c) rfl rfl))) $$ Hown5
  ihave Hown6 := (own_land m c 6 6144 rfl _ _ _ _ (by exact kept_hfs_slot m c 6 0 inb_S2x1024x1024_S1x1024x1024_0_0_0 (fun _ => rfl) _ _ (kept_payload_junk m c 6 k0_pay31 (fun u y => pay_apply u _ _ _ y) (Memref.whole cc0_scratch2) 0 inb_S2x1024x1024_S1x1024x1024_0_0_0 (fun _ => rfl) (k0_off24 c) (k0_off24_inb c) (fun _ => rfl) _ _ (k0_off24_eq c) rfl rfl))) $$ Hown6
  ihave Hown7 := (own_land m c 7 7168 rfl _ _ _ _ (by exact kept_hfs_slot m c 7 1 inb_S2x1024x1024_S1x1024x1024_1_0_0 (fun _ => rfl) _ _ (kept_payload_junk m c 7 k0_pay32 (fun u y => pay_apply u _ _ _ y) (Memref.whole cc0_scratch2) 1 inb_S2x1024x1024_S1x1024x1024_1_0_0 (fun _ => rfl) (k0_off25 c) (k0_off25_inb c) (fun _ => rfl) _ _ (k0_off25_eq c) rfl rfl))) $$ Hown7
  ihave Hown8 := (own_land m c 8 8192 rfl _ _ _ _ (by exact kept_hfs_slot m c 8 0 inb_S2x1024x1024_S1x1024x1024_0_0_0 (fun _ => rfl) _ _ (kept_payload_junk m c 8 k0_pay33 (fun u y => pay_apply u _ _ _ y) (Memref.whole cc0_scratch2) 0 inb_S2x1024x1024_S1x1024x1024_0_0_0 (fun _ => rfl) (k0_off26 c) (k0_off26_inb c) (fun _ => rfl) _ _ (k0_off26_eq c) rfl rfl))) $$ Hown8
  ihave Hown9 := (own_land m c 9 9216 rfl _ _ _ _ (by exact kept_hfs_slot m c 9 1 inb_S2x1024x1024_S1x1024x1024_1_0_0 (fun _ => rfl) _ _ (kept_payload_junk m c 9 k0_pay34 (fun u y => pay_apply u _ _ _ y) (Memref.whole cc0_scratch2) 1 inb_S2x1024x1024_S1x1024x1024_1_0_0 (fun _ => rfl) (k0_off27 c) (k0_off27_inb c) (fun _ => rfl) _ _ (k0_off27_eq c) rfl rfl))) $$ Hown9
  ihave Hown10 := (own_land m c 10 10240 rfl _ _ _ _ (by exact kept_hfs_slot m c 10 0 inb_S2x1024x1024_S1x1024x1024_0_0_0 (fun _ => rfl) _ _ (kept_payload_junk m c 10 k0_pay35 (fun u y => pay_apply u _ _ _ y) (Memref.whole cc0_scratch2) 0 inb_S2x1024x1024_S1x1024x1024_0_0_0 (fun _ => rfl) (k0_off28 c) (k0_off28_inb c) (fun _ => rfl) _ _ (k0_off28_eq c) rfl rfl))) $$ Hown10
  ihave Hown11 := (own_land m c 11 11264 rfl _ _ _ _ (by exact kept_hfs_slot m c 11 1 inb_S2x1024x1024_S1x1024x1024_1_0_0 (fun _ => rfl) _ _ (kept_payload_junk m c 11 k0_pay36 (fun u y => pay_apply u _ _ _ y) (Memref.whole cc0_scratch2) 1 inb_S2x1024x1024_S1x1024x1024_1_0_0 (fun _ => rfl) (k0_off29 c) (k0_off29_inb c) (fun _ => rfl) _ _ (k0_off29_eq c) rfl rfl))) $$ Hown11
  ihave Hown12 := (own_land m c 12 12288 rfl _ _ _ _ (by exact kept_hfs_slot m c 12 0 inb_S2x1024x1024_S1x1024x1024_0_0_0 (fun _ => rfl) _ _ (kept_payload_junk m c 12 k0_pay37 (fun u y => pay_apply u _ _ _ y) (Memref.whole cc0_scratch2) 0 inb_S2x1024x1024_S1x1024x1024_0_0_0 (fun _ => rfl) (k0_off30 c) (k0_off30_inb c) (fun _ => rfl) _ _ (k0_off30_eq c) rfl rfl))) $$ Hown12
  ihave Hown13 := (own_land m c 13 13312 rfl _ _ _ _ (by exact kept_hfs_slot m c 13 1 inb_S2x1024x1024_S1x1024x1024_1_0_0 (fun _ => rfl) _ _ (kept_payload_junk m c 13 k0_pay38 (fun u y => pay_apply u _ _ _ y) (Memref.whole cc0_scratch2) 1 inb_S2x1024x1024_S1x1024x1024_1_0_0 (fun _ => rfl) (k0_off31 c) (k0_off31_inb c) (fun _ => rfl) _ _ (k0_off31_eq c) rfl rfl))) $$ Hown13
  ihave Hown14 := (own_land m c 14 14336 rfl _ _ _ _ (by exact kept_hfs_slot m c 14 0 inb_S2x1024x1024_S1x1024x1024_0_0_0 (fun _ => rfl) _ _ (kept_payload_junk m c 14 k0_pay39 (fun u y => pay_apply u _ _ _ y) (Memref.whole cc0_scratch2) 0 inb_S2x1024x1024_S1x1024x1024_0_0_0 (fun _ => rfl) (k0_off32 c) (k0_off32_inb c) (fun _ => rfl) _ _ (k0_off32_eq c) rfl rfl))) $$ Hown14
  ihave Hown15 := (own_land m c 15 15360 rfl _ _ _ _ (by exact kept_hfs_slot m c 15 1 inb_S2x1024x1024_S1x1024x1024_1_0_0 (fun _ => rfl) _ _ (kept_payload_junk m c 15 (fun u => k0_pay41 (k0_pay40 u)) (fun u y => pay_apply u _ _ _ y) (Memref.whole cc0_scratch2) 1 inb_S2x1024x1024_S1x1024x1024_1_0_0 (fun _ => rfl) (k0_off33 c) (k0_off33_inb c) (fun _ => rfl) _ _ (k0_off33_eq c) rfl rfl))) $$ Hown15
  iapply Hk
  unfold MidB
  isplitl [Hx]; · iexact Hx
  isplitl [Hown0]; · iexact Hown0
  isplitl [Hown1]; · iexact Hown1
  isplitl [Hown2]; · iexact Hown2
  isplitl [Hown3]; · iexact Hown3
  isplitl [Hown4]; · iexact Hown4
  isplitl [Hown5]; · iexact Hown5
  isplitl [Hown6]; · iexact Hown6
  isplitl [Hown7]; · iexact Hown7
  isplitl [Hown8]; · iexact Hown8
  isplitl [Hown9]; · iexact Hown9
  isplitl [Hown10]; · iexact Hown10
  isplitl [Hown11]; · iexact Hown11
  isplitl [Hown12]; · iexact Hown12
  isplitl [Hown13]; · iexact Hown13
  isplitl [Hown14]; · iexact Hown14
  isplitl [Hown15]; · iexact Hown15
  isplitl [Hs2a]; · iexists _; iexact Hs2a
  isplitl [Hs2b]; · iexists _; iexact Hs2b
  isplitl [Hs3a]; · iexists _; iexact Hs3a
  isplitl [Hs3b]; · iexists _; iexact Hs3b
  isplitl [Hl2]; · iexact Hl2
  isplitl [Hl3]; · iexact Hl3
  isplitl [Hl4]; · iexact Hl4
  isplitl [Hl5]; · iexact Hl5
  isplitl [HO]; · iexists _; iexact HO
  isplitl [HcS15]; · iexact HcS15
  isplitl [Hz]; · iexact Hz
  iexact Hp

/-- info: 'Cert.Kernel.A2A.local_run' depends on axioms: [propext, Classical.choice, Quot.sound] -/
#guard_msgs in #print axioms local_run

end Cert.Kernel.A2A

end
-- ==== Proof.Kernel.TailRun2.lean ====
/-
  The end of a device's body: its last waits, one on every remaining send and receive cell, and its return.

  When the tail starts, every remote copy has been started and the first send cell has been waited for and closed.  Each
  of the thirty-one waits takes the rest of its cell's one round, which hands over the cell's payload (a slot of the send
  buffer back, or the slice of the result array the partner's copy wrote, at its final contents); the cell then closes
  and its counter, at zero, is the device's again.  What is then held is the state the launch takes back.
-/
import proofs.«900627_g7700000000000628_dist_a2a_v7x_xyz2x2x2_z_m16384_n1024_bf16_1_alg».proof.Proof.Kernel.Proto
import proofs.«900627_g7700000000000628_dist_a2a_v7x_xyz2x2x2_z_m16384_n1024_bf16_1_alg».proof.Proof.Kernel.Tables
import proofs.«900627_g7700000000000628_dist_a2a_v7x_xyz2x2x2_z_m16384_n1024_bf16_1_alg».proof.Proof.Kernel.BodyPrep
import proofs.«900627_g7700000000000628_dist_a2a_v7x_xyz2x2x2_z_m16384_n1024_bf16_1_alg».proof.Proof.Kernel.Regions
import proofs.«900627_g7700000000000628_dist_a2a_v7x_xyz2x2x2_z_m16384_n1024_bf16_1_alg».proof.Proof.Kernel.RuleWait
import proofs.«900627_g7700000000000628_dist_a2a_v7x_xyz2x2x2_z_m16384_n1024_bf16_1_alg».proof.Proof.Kernel.BodyEnds
import proofs.«900627_g7700000000000628_dist_a2a_v7x_xyz2x2x2_z_m16384_n1024_bf16_1_alg».proof.Proof.Kernel.Progs
import proofs.«900627_g7700000000000628_dist_a2a_v7x_xyz2x2x2_z_m16384_n1024_bf16_1_alg».proof.Proof.Gen.Kernel.Skeleton
import proofs.«900627_g7700000000000628_dist_a2a_v7x_xyz2x2x2_z_m16384_n1024_bf16_1_alg».proof.Proof.Gen.Kernel.Points

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device holds when the tail starts, as one chain: the invariants of its sixteen send and sixteen receive cells;
    its position and its credit on each cell still to be waited for; send cell 0 closed and its slot back; what it owes
    (nothing); the argument as launched; the sixteen row slices of the result array it stored itself, at their final
    contents; the six slots of the double-buffered scratch buffers; its six local semaphores at zero. -/
def MidC (K : Dev nD × Fin 33 → ℕ) (c : Dev nD) : sProp 𝕄 :=
  iprop(cellInv ER (a2aRd m) (K (c, 1)) (sendCell c 0)
    ∗ cellInv ER (a2aRd m) (K (c, 2)) (sendCell c 1)
    ∗ cellInv ER (a2aRd m) (K (c, 3)) (sendCell c 2)
    ∗ cellInv ER (a2aRd m) (K (c, 4)) (sendCell c 3)
    ∗ cellInv ER (a2aRd m) (K (c, 5)) (sendCell c 4)
    ∗ cellInv ER (a2aRd m) (K (c, 6)) (sendCell c 5)
    ∗ cellInv ER (a2aRd m) (K (c, 7)) (sendCell c 6)
    ∗ cellInv ER (a2aRd m) (K (c, 8)) (sendCell c 7)
    ∗ cellInv ER (a2aRd m) (K (c, 9)) (sendCell c 8)
    ∗ cellInv ER (a2aRd m) (K (c, 10)) (sendCell c 9)
    ∗ cellInv ER (a2aRd m) (K (c, 11)) (sendCell c 10)
    ∗ cellInv ER (a2aRd m) (K (c, 12)) (sendCell c 11)
    ∗ cellInv ER (a2aRd m) (K (c, 13)) (sendCell c 12)
    ∗ cellInv ER (a2aRd m) (K (c, 14)) (sendCell c 13)
    ∗ cellInv ER (a2aRd m) (K (c, 15)) (sendCell c 14)
    ∗ cellInv ER (a2aRd m) (K (c, 16)) (sendCell c 15)
    ∗ cellInv ER (a2aRd m) (K (c, 17)) (recvCell c 0)
    ∗ cellInv ER (a2aRd m) (K (c, 18)) (recvCell c 1)
    ∗ cellInv ER (a2aRd m) (K (c, 19)) (recvCell c 2)
    ∗ cellInv ER (a2aRd m) (K (c, 20)) (recvCell c 3)
    ∗ cellInv ER (a2aRd m) (K (c, 21)) (recvCell c 4)
    ∗ cellInv ER (a2aRd m) (K (c, 22)) (recvCell c 5)
    ∗ cellInv ER (a2aRd m) (K (c, 23)) (recvCell c 6)
    ∗ cellInv ER (a2aRd m) (K (c, 24)) (recvCell c 7)
    ∗ cellInv ER (a2aRd m) (K (c, 25)) (recvCell c 8)
    ∗ cellInv ER (a2aRd m) (K (c, 26)) (recvCell c 9)
    ∗ cellInv ER (a2aRd m) (K (c, 27)) (recvCell c 10)
    ∗ cellInv ER (a2aRd m) (K (c, 28)) (recvCell c 11)
    ∗ cellInv ER (a2aRd m) (K (c, 29)) (recvCell c 12)
    ∗ cellInv ER (a2aRd m) (K (c, 30)) (recvCell c 13)
    ∗ cellInv ER (a2aRd m) (K (c, 31)) (recvCell c 14)
    ∗ cellInv ER (a2aRd m) (K (c, 32)) (recvCell c 15)
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (sendCell c 8) 0 ∅ 0
    ∗ atPos ER (sendCell c 9) 0 ∅ 0
    ∗ atPos ER (sendCell c 10) 0 ∅ 0
    ∗ atPos ER (sendCell c 11) 0 ∅ 0
    ∗ atPos ER (sendCell c 12) 0 ∅ 0
    ∗ atPos ER (sendCell c 13) 0 ∅ 0
    ∗ atPos ER (sendCell c 14) 0 ∅ 0
    ∗ atPos ER (sendCell c 15) 0 ∅ 0
    ∗ cred (tallyAt (sendCell c 1) () N)
    ∗ cred (tallyAt (sendCell c 2) () N)
    ∗ cred (tallyAt (sendCell c 3) () N)
    ∗ cred (tallyAt (sendCell c 4) () N)
    ∗ cred (tallyAt (sendCell c 5) () N)
    ∗ cred (tallyAt (sendCell c 6) () N)
    ∗ cred (tallyAt (sendCell c 7) () N)
    ∗ cred (tallyAt (sendCell c 8) () N)
    ∗ cred (tallyAt (sendCell c 9) () N)
    ∗ cred (tallyAt (sendCell c 10) () N)
    ∗ cred (tallyAt (sendCell c 11) () N)
    ∗ cred (tallyAt (sendCell c 12) () N)
    ∗ cred (tallyAt (sendCell c 13) () N)
    ∗ cred (tallyAt (sendCell c 14) () N)
    ∗ cred (tallyAt (sendCell c 15) () N)
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0
    ∗ atPos ER (recvCell c 6) 0 ∅ 0
    ∗ atPos ER (recvCell c 7) 0 ∅ 0
    ∗ atPos ER (recvCell c 8) 0 ∅ 0
    ∗ atPos ER (recvCell c 9) 0 ∅ 0
    ∗ atPos ER (recvCell c 10) 0 ∅ 0
    ∗ atPos ER (recvCell c 11) 0 ∅ 0
    ∗ atPos ER (recvCell c 12) 0 ∅ 0
    ∗ atPos ER (recvCell c 13) 0 ∅ 0
    ∗ atPos ER (recvCell c 14) 0 ∅ 0
    ∗ atPos ER (recvCell c 15) 0 ∅ 0
    ∗ cred (tallyAt (recvCell c 0) () N)
    ∗ cred (tallyAt (recvCell c 1) () N)
    ∗ cred (tallyAt (recvCell c 2) () N)
    ∗ cred (tallyAt (recvCell c 3) () N)
    ∗ cred (tallyAt (recvCell c 4) () N)
    ∗ cred (tallyAt (recvCell c 5) () N)
    ∗ cred (tallyAt (recvCell c 6) () N)
    ∗ cred (tallyAt (recvCell c 7) () N)
    ∗ cred (tallyAt (recvCell c 8) () N)
    ∗ cred (tallyAt (recvCell c 9) () N)
    ∗ cred (tallyAt (recvCell c 10) () N)
    ∗ cred (tallyAt (recvCell c 11) () N)
    ∗ cred (tallyAt (recvCell c 12) () N)
    ∗ cred (tallyAt (recvCell c 13) () N)
    ∗ cred (tallyAt (recvCell c 14) () N)
    ∗ cred (tallyAt (recvCell c 15) () N)
    ∗ semVal (sendCell c 0) 0
    ∗ sendPay m c 0
    ∗ (∃ W : Waits sig Unit, owes (c : Thread nD τ) 0 W)
    ∗ (((Memref.whole main_arg0 : Memref sig .tc .hbm S16384x2048 .f32)).view.loc (c : Thread nD τ) ↦[((Memref.whole main_arg0 : Memref sig .tc .hbm S16384x2048 .f32)).view.set]{fullShare} X m c)
    ∗ ((oS c 0).view.loc (c : Thread nD τ) ↦[(oS c 0).view.set]{fullShare} OV m c)
    ∗ ((oS c 1).view.loc (c : Thread nD τ) ↦[(oS c 1).view.set]{fullShare} OV m c)
    ∗ ((oS c 2).view.loc (c : Thread nD τ) ↦[(oS c 2).view.set]{fullShare} OV m c)
    ∗ ((oS c 3).view.loc (c : Thread nD τ) ↦[(oS c 3).view.set]{fullShare} OV m c)
    ∗ ((oS c 4).view.loc (c : Thread nD τ) ↦[(oS c 4).view.set]{fullShare} OV m c)
    ∗ ((oS c 5).view.loc (c : Thread nD τ) ↦[(oS c 5).view.set]{fullShare} OV m c)
    ∗ ((oS c 6).view.loc (c : Thread nD τ) ↦[(oS c 6).view.set]{fullShare} OV m c)
    ∗ ((oS c 7).view.loc (c : Thread nD τ) ↦[(oS c 7).view.set]{fullShare} OV m c)
    ∗ ((oS c 8).view.loc (c : Thread nD τ) ↦[(oS c 8).view.set]{fullShare} OV m c)
    ∗ ((oS c 9).view.loc (c : Thread nD τ) ↦[(oS c 9).view.set]{fullShare} OV m c)
    ∗ ((oS c 10).view.loc (c : Thread nD τ) ↦[(oS c 10).view.set]{fullShare} OV m c)
    ∗ ((oS c 11).view.loc (c : Thread nD τ) ↦[(oS c 11).view.set]{fullShare} OV m c)
    ∗ ((oS c 12).view.loc (c : Thread nD τ) ↦[(oS c 12).view.set]{fullShare} OV m c)
    ∗ ((oS c 13).view.loc (c : Thread nD τ) ↦[(oS c 13).view.set]{fullShare} OV m c)
    ∗ ((oS c 14).view.loc (c : Thread nD τ) ↦[(oS c 14).view.set]{fullShare} OV m c)
    ∗ ((oS c 15).view.loc (c : Thread nD τ) ↦[(oS c 15).view.set]{fullShare} OV m c)
    ∗ (∃ f, (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ (∃ f, (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ (∃ f, (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ semVal (locCell c 0) 0
    ∗ semVal (locCell c 1) 0
    ∗ semVal (locCell c 2) 0
    ∗ semVal (locCell c 3) 0
    ∗ semVal (locCell c 4) 0
    ∗ semVal (locCell c 5) 0)

/-! ## Keeping the cells' pieces folded until their wait -/

/-- An assertion held folded: the same assertion under a name, unfolded where it is used. -/
def Kept (P : sProp 𝕄) : sProp 𝕄 := P

/-- The state at the start of the tail with each cell's invariant, position and credit held folded. -/
def MidCk (K : Dev nD × Fin 33 → ℕ) (c : Dev nD) : sProp 𝕄 :=
  iprop(Kept (cellInv ER (a2aRd m) (K (c, 1)) (sendCell c 0))
    ∗ Kept (cellInv ER (a2aRd m) (K (c, 2)) (sendCell c 1))
    ∗ Kept (cellInv ER (a2aRd m) (K (c, 3)) (sendCell c 2))
    ∗ Kept (cellInv ER (a2aRd m) (K (c, 4)) (sendCell c 3))
    ∗ Kept (cellInv ER (a2aRd m) (K (c, 5)) (sendCell c 4))
    ∗ Kept (cellInv ER (a2aRd m) (K (c, 6)) (sendCell c 5))
    ∗ Kept (cellInv ER (a2aRd m) (K (c, 7)) (sendCell c 6))
    ∗ Kept (cellInv ER (a2aRd m) (K (c, 8)) (sendCell c 7))
    ∗ Kept (cellInv ER (a2aRd m) (K (c, 9)) (sendCell c 8))
    ∗ Kept (cellInv ER (a2aRd m) (K (c, 10)) (sendCell c 9))
    ∗ Kept (cellInv ER (a2aRd m) (K (c, 11)) (sendCell c 10))
    ∗ Kept (cellInv ER (a2aRd m) (K (c, 12)) (sendCell c 11))
    ∗ Kept (cellInv ER (a2aRd m) (K (c, 13)) (sendCell c 12))
    ∗ Kept (cellInv ER (a2aRd m) (K (c, 14)) (sendCell c 13))
    ∗ Kept (cellInv ER (a2aRd m) (K (c, 15)) (sendCell c 14))
    ∗ Kept (cellInv ER (a2aRd m) (K (c, 16)) (sendCell c 15))
    ∗ Kept (cellInv ER (a2aRd m) (K (c, 17)) (recvCell c 0))
    ∗ Kept (cellInv ER (a2aRd m) (K (c, 18)) (recvCell c 1))
    ∗ Kept (cellInv ER (a2aRd m) (K (c, 19)) (recvCell c 2))
    ∗ Kept (cellInv ER (a2aRd m) (K (c, 20)) (recvCell c 3))
    ∗ Kept (cellInv ER (a2aRd m) (K (c, 21)) (recvCell c 4))
    ∗ Kept (cellInv ER (a2aRd m) (K (c, 22)) (recvCell c 5))
    ∗ Kept (cellInv ER (a2aRd m) (K (c, 23)) (recvCell c 6))
    ∗ Kept (cellInv ER (a2aRd m) (K (c, 24)) (recvCell c 7))
    ∗ Kept (cellInv ER (a2aRd m) (K (c, 25)) (recvCell c 8))
    ∗ Kept (cellInv ER (a2aRd m) (K (c, 26)) (recvCell c 9))
    ∗ Kept (cellInv ER (a2aRd m) (K (c, 27)) (recvCell c 10))
    ∗ Kept (cellInv ER (a2aRd m) (K (c, 28)) (recvCell c 11))
    ∗ Kept (cellInv ER (a2aRd m) (K (c, 29)) (recvCell c 12))
    ∗ Kept (cellInv ER (a2aRd m) (K (c, 30)) (recvCell c 13))
    ∗ Kept (cellInv ER (a2aRd m) (K (c, 31)) (recvCell c 14))
    ∗ Kept (cellInv ER (a2aRd m) (K (c, 32)) (recvCell c 15))
    ∗ Kept (atPos ER (sendCell c 1) 0 ∅ 0)
    ∗ Kept (atPos ER (sendCell c 2) 0 ∅ 0)
    ∗ Kept (atPos ER (sendCell c 3) 0 ∅ 0)
    ∗ Kept (atPos ER (sendCell c 4) 0 ∅ 0)
    ∗ Kept (atPos ER (sendCell c 5) 0 ∅ 0)
    ∗ Kept (atPos ER (sendCell c 6) 0 ∅ 0)
    ∗ Kept (atPos ER (sendCell c 7) 0 ∅ 0)
    ∗ Kept (atPos ER (sendCell c 8) 0 ∅ 0)
    ∗ Kept (atPos ER (sendCell c 9) 0 ∅ 0)
    ∗ Kept (atPos ER (sendCell c 10) 0 ∅ 0)
    ∗ Kept (atPos ER (sendCell c 11) 0 ∅ 0)
    ∗ Kept (atPos ER (sendCell c 12) 0 ∅ 0)
    ∗ Kept (atPos ER (sendCell c 13) 0 ∅ 0)
    ∗ Kept (atPos ER (sendCell c 14) 0 ∅ 0)
    ∗ Kept (atPos ER (sendCell c 15) 0 ∅ 0)
    ∗ Kept (cred (tallyAt (sendCell c 1) () N))
    ∗ Kept (cred (tallyAt (sendCell c 2) () N))
    ∗ Kept (cred (tallyAt (sendCell c 3) () N))
    ∗ Kept (cred (tallyAt (sendCell c 4) () N))
    ∗ Kept (cred (tallyAt (sendCell c 5) () N))
    ∗ Kept (cred (tallyAt (sendCell c 6) () N))
    ∗ Kept (cred (tallyAt (sendCell c 7) () N))
    ∗ Kept (cred (tallyAt (sendCell c 8) () N))
    ∗ Kept (cred (tallyAt (sendCell c 9) () N))
    ∗ Kept (cred (tallyAt (sendCell c 10) () N))
    ∗ Kept (cred (tallyAt (sendCell c 11) () N))
    ∗ Kept (cred (tallyAt (sendCell c 12) () N))
    ∗ Kept (cred (tallyAt (sendCell c 13) () N))
    ∗ Kept (cred (tallyAt (sendCell c 14) () N))
    ∗ Kept (cred (tallyAt (sendCell c 15) () N))
    ∗ Kept (atPos ER (recvCell c 0) 0 ∅ 0)
    ∗ Kept (atPos ER (recvCell c 1) 0 ∅ 0)
    ∗ Kept (atPos ER (recvCell c 2) 0 ∅ 0)
    ∗ Kept (atPos ER (recvCell c 3) 0 ∅ 0)
    ∗ Kept (atPos ER (recvCell c 4) 0 ∅ 0)
    ∗ Kept (atPos ER (recvCell c 5) 0 ∅ 0)
    ∗ Kept (atPos ER (recvCell c 6) 0 ∅ 0)
    ∗ Kept (atPos ER (recvCell c 7) 0 ∅ 0)
    ∗ Kept (atPos ER (recvCell c 8) 0 ∅ 0)
    ∗ Kept (atPos ER (recvCell c 9) 0 ∅ 0)
    ∗ Kept (atPos ER (recvCell c 10) 0 ∅ 0)
    ∗ Kept (atPos ER (recvCell c 11) 0 ∅ 0)
    ∗ Kept (atPos ER (recvCell c 12) 0 ∅ 0)
    ∗ Kept (atPos ER (recvCell c 13) 0 ∅ 0)
    ∗ Kept (atPos ER (recvCell c 14) 0 ∅ 0)
    ∗ Kept (atPos ER (recvCell c 15) 0 ∅ 0)
    ∗ Kept (cred (tallyAt (recvCell c 0) () N))
    ∗ Kept (cred (tallyAt (recvCell c 1) () N))
    ∗ Kept (cred (tallyAt (recvCell c 2) () N))
    ∗ Kept (cred (tallyAt (recvCell c 3) () N))
    ∗ Kept (cred (tallyAt (recvCell c 4) () N))
    ∗ Kept (cred (tallyAt (recvCell c 5) () N))
    ∗ Kept (cred (tallyAt (recvCell c 6) () N))
    ∗ Kept (cred (tallyAt (recvCell c 7) () N))
    ∗ Kept (cred (tallyAt (recvCell c 8) () N))
    ∗ Kept (cred (tallyAt (recvCell c 9) () N))
    ∗ Kept (cred (tallyAt (recvCell c 10) () N))
    ∗ Kept (cred (tallyAt (recvCell c 11) () N))
    ∗ Kept (cred (tallyAt (recvCell c 12) () N))
    ∗ Kept (cred (tallyAt (recvCell c 13) () N))
    ∗ Kept (cred (tallyAt (recvCell c 14) () N))
    ∗ Kept (cred (tallyAt (recvCell c 15) () N))
    ∗ semVal (sendCell c 0) 0
    ∗ sendPay m c 0
    ∗ (∃ W : Waits sig Unit, owes (c : Thread nD τ) 0 W)
    ∗ (((Memref.whole main_arg0 : Memref sig .tc .hbm S16384x2048 .f32)).view.loc (c : Thread nD τ) ↦[((Memref.whole main_arg0 : Memref sig .tc .hbm S16384x2048 .f32)).view.set]{fullShare} X m c)
    ∗ ((oS c 0).view.loc (c : Thread nD τ) ↦[(oS c 0).view.set]{fullShare} OV m c)
    ∗ ((oS c 1).view.loc (c : Thread nD τ) ↦[(oS c 1).view.set]{fullShare} OV m c)
    ∗ ((oS c 2).view.loc (c : Thread nD τ) ↦[(oS c 2).view.set]{fullShare} OV m c)
    ∗ ((oS c 3).view.loc (c : Thread nD τ) ↦[(oS c 3).view.set]{fullShare} OV m c)
    ∗ ((oS c 4).view.loc (c : Thread nD τ) ↦[(oS c 4).view.set]{fullShare} OV m c)
    ∗ ((oS c 5).view.loc (c : Thread nD τ) ↦[(oS c 5).view.set]{fullShare} OV m c)
    ∗ ((oS c 6).view.loc (c : Thread nD τ) ↦[(oS c 6).view.set]{fullShare} OV m c)
    ∗ ((oS c 7).view.loc (c : Thread nD τ) ↦[(oS c 7).view.set]{fullShare} OV m c)
    ∗ ((oS c 8).view.loc (c : Thread nD τ) ↦[(oS c 8).view.set]{fullShare} OV m c)
    ∗ ((oS c 9).view.loc (c : Thread nD τ) ↦[(oS c 9).view.set]{fullShare} OV m c)
    ∗ ((oS c 10).view.loc (c : Thread nD τ) ↦[(oS c 10).view.set]{fullShare} OV m c)
    ∗ ((oS c 11).view.loc (c : Thread nD τ) ↦[(oS c 11).view.set]{fullShare} OV m c)
    ∗ ((oS c 12).view.loc (c : Thread nD τ) ↦[(oS c 12).view.set]{fullShare} OV m c)
    ∗ ((oS c 13).view.loc (c : Thread nD τ) ↦[(oS c 13).view.set]{fullShare} OV m c)
    ∗ ((oS c 14).view.loc (c : Thread nD τ) ↦[(oS c 14).view.set]{fullShare} OV m c)
    ∗ ((oS c 15).view.loc (c : Thread nD τ) ↦[(oS c 15).view.set]{fullShare} OV m c)
    ∗ (∃ f, (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ (∃ f, (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ (∃ f, (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ semVal (locCell c 0) 0
    ∗ semVal (locCell c 1) 0
    ∗ semVal (locCell c 2) 0
    ∗ semVal (locCell c 3) 0
    ∗ semVal (locCell c 4) 0
    ∗ semVal (locCell c 5) 0)

theorem MidC_eq (K : Dev nD × Fin 33 → ℕ) (c : Dev nD) : MidC m K c = MidCk m K c := rfl

/-- The wait on send cell `r` from the cell's pieces held folded. -/
theorem rule_wait_send_k (c : Dev nD) (r : Fin 16) (κ : ℕ) (W : Waits sig Unit)
    {sp' sp : Space} {s' : Shape} {e' : EltTy}
    {src : Memref sig (c : Thread nD τ).2.kind sp' s' e'} {dst : Memref sig .tc sp S1024x1024 .bf16}
    {hsrc : src.view.WordExact} {hdst : dst.view.WordExact}
    {α : Type} {Q : α → sProp 𝕄} {k : PUnit → Prog (TpuEff nD τ sig (Elt F) Λ₀ .tc) α} :
    iprop(Kept (cellInv ER (a2aRd m) κ (sendCell c r)) ∗ Kept (cred (tallyAt (sendCell c r) () N)) ∗ owes (c : Thread nD τ) 0 W
        ∗ Kept (atPos ER (sendCell c r) 0 ∅ 0))
      ⊢ iprop(((owes (c : Thread nD τ) 0 (insert (SemLoc.dma (sendSem r), ()) W) ∗ semVal (sendCell c r) 0 ∗ sendPay m c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem r) src dst hsrc hdst) k) Q) :=
  rule_wait_send m c r κ W

/-- The wait on receive cell `r` from the cell's pieces held folded. -/
theorem rule_wait_recv_k (c : Dev nD) (r : Fin 16) (κ : ℕ) (W : Waits sig Unit)
    {sp' sp : Space} {s' : Shape} {e' : EltTy}
    {src : Memref sig (c : Thread nD τ).2.kind sp' s' e'} {dst : Memref sig .tc sp S1024x1024 .bf16}
    {hsrc : src.view.WordExact} {hdst : dst.view.WordExact}
    {α : Type} {Q : α → sProp 𝕄} {k : PUnit → Prog (TpuEff nD τ sig (Elt F) Λ₀ .tc) α} :
    iprop(Kept (cellInv ER (a2aRd m) κ (recvCell c r)) ∗ Kept (cred (tallyAt (recvCell c r) () N)) ∗ owes (c : Thread nD τ) 0 W
        ∗ Kept (atPos ER (recvCell c r) 0 ∅ 0))
      ⊢ iprop(((owes (c : Thread nD τ) 0 (insert (SemLoc.dma (recvSem r), ()) W) ∗ semVal (recvCell c r) 0 ∗ recvPay m c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem r) src dst hsrc hdst) k) Q) :=
  rule_wait_recv m c r κ W

set_option maxHeartbeats 40000000 in
set_option maxRecDepth 100000 in
/-- From that state the tail runs to the state the launch takes back. -/
theorem tail_run2 (K : Dev nD × Fin 33 → ℕ) (c : Dev nD) (v2 v5 v9 : BitVec 32) (Kt : PUnit → sProp 𝕄) :
    iprop(MidC m K c ∗ (bodyPost m c -∗ Kt ⟨⟩))
      ⊢ wp frame (wpE (defs₀ (F := F)) 𝒱₀ c none) Set.univ (tailProg (F := F) c v2 v5 v9) Kt := by
  rw [MidC_eq]
  unfold MidCk
  iintro ⟨⟨HIS0, HIS1, HIS2, HIS3, HIS4, HIS5, HIS6, HIS7, HIS8, HIS9, HIS10, HIS11, HIS12, HIS13, HIS14, HIS15, HIR0, HIR1, HIR2, HIR3, HIR4, HIR5, HIR6, HIR7, HIR8, HIR9, HIR10, HIR11, HIR12, HIR13, HIR14, HIR15, HatS1, HatS2, HatS3, HatS4, HatS5, HatS6, HatS7, HatS8, HatS9, HatS10, HatS11, HatS12, HatS13, HatS14, HatS15, HcS1, HcS2, HcS3, HcS4, HcS5, HcS6, HcS7, HcS8, HcS9, HcS10, HcS11, HcS12, HcS13, HcS14, HcS15, HatR0, HatR1, HatR2, HatR3, HatR4, HatR5, HatR6, HatR7, HatR8, HatR9, HatR10, HatR11, HatR12, HatR13, HatR14, HatR15, HcR0, HcR1, HcR2, HcR3, HcR4, HcR5, HcR6, HcR7, HcR8, HcR9, HcR10, HcR11, HcR12, HcR13, HcR14, HcR15, Hz0, Hsp0, ⟨%W, HO⟩, Hx, Hown0, Hown1, Hown2, Hown3, Hown4, Hown5, Hown6, Hown7, Hown8, Hown9, Hown10, Hown11, Hown12, Hown13, Hown14, Hown15, ⟨%g0a, Hs0a⟩, ⟨%g0b, Hs0b⟩, ⟨%g2a, Hs2a⟩, ⟨%g2b, Hs2b⟩, ⟨%g3a, Hs3a⟩, ⟨%g3b, Hs3b⟩, Hl0, Hl1, Hl2, Hl3, Hl4, Hl5⟩, Hk⟩
  unfold tailProg
  -- the wait on receive cell 0
  sl_exec
  iapply (rule_wait_recv_k m c 0 (K (c, 17)) _) $$ [HIR0 HcR0 HO HatR0]
  · isplitl [HIR0]; · iexact HIR0
    isplitl [HcR0]; · iexact HcR0
    isplitl [HO]; · iexact HO
    iexact HatR0
  iintro ⟨HO, HzR0, Hrp0⟩
  -- the wait on send cell 1
  sl_exec
  iapply (rule_wait_send_k m c 1 (K (c, 2)) _) $$ [HIS1 HcS1 HO HatS1]
  · isplitl [HIS1]; · iexact HIS1
    isplitl [HcS1]; · iexact HcS1
    isplitl [HO]; · iexact HO
    iexact HatS1
  iintro ⟨HO, Hz1, Hsp1⟩
  -- the wait on receive cell 1
  sl_exec
  iapply (rule_wait_recv_k m c 1 (K (c, 18)) _) $$ [HIR1 HcR1 HO HatR1]
  · isplitl [HIR1]; · iexact HIR1
    isplitl [HcR1]; · iexact HcR1
    isplitl [HO]; · iexact HO
    iexact HatR1
  iintro ⟨HO, HzR1, Hrp1⟩
  -- the wait on send cell 2
  sl_exec
  iapply (rule_wait_send_k m c 2 (K (c, 3)) _) $$ [HIS2 HcS2 HO HatS2]
  · isplitl [HIS2]; · iexact HIS2
    isplitl [HcS2]; · iexact HcS2
    isplitl [HO]; · iexact HO
    iexact HatS2
  iintro ⟨HO, Hz2, Hsp2⟩
  -- the wait on receive cell 2
  sl_exec
  iapply (rule_wait_recv_k m c 2 (K (c, 19)) _) $$ [HIR2 HcR2 HO HatR2]
  · isplitl [HIR2]; · iexact HIR2
    isplitl [HcR2]; · iexact HcR2
    isplitl [HO]; · iexact HO
    iexact HatR2
  iintro ⟨HO, HzR2, Hrp2⟩
  -- the wait on send cell 3
  sl_exec
  iapply (rule_wait_send_k m c 3 (K (c, 4)) _) $$ [HIS3 HcS3 HO HatS3]
  · isplitl [HIS3]; · iexact HIS3
    isplitl [HcS3]; · iexact HcS3
    isplitl [HO]; · iexact HO
    iexact HatS3
  iintro ⟨HO, Hz3, Hsp3⟩
  -- the wait on receive cell 3
  sl_exec
  iapply (rule_wait_recv_k m c 3 (K (c, 20)) _) $$ [HIR3 HcR3 HO HatR3]
  · isplitl [HIR3]; · iexact HIR3
    isplitl [HcR3]; · iexact HcR3
    isplitl [HO]; · iexact HO
    iexact HatR3
  iintro ⟨HO, HzR3, Hrp3⟩
  -- the wait on send cell 4
  sl_exec
  iapply (rule_wait_send_k m c 4 (K (c, 5)) _) $$ [HIS4 HcS4 HO HatS4]
  · isplitl [HIS4]; · iexact HIS4
    isplitl [HcS4]; · iexact HcS4
    isplitl [HO]; · iexact HO
    iexact HatS4
  iintro ⟨HO, Hz4, Hsp4⟩
  -- the wait on receive cell 4
  sl_exec
  iapply (rule_wait_recv_k m c 4 (K (c, 21)) _) $$ [HIR4 HcR4 HO HatR4]
  · isplitl [HIR4]; · iexact HIR4
    isplitl [HcR4]; · iexact HcR4
    isplitl [HO]; · iexact HO
    iexact HatR4
  iintro ⟨HO, HzR4, Hrp4⟩
  -- the wait on send cell 5
  sl_exec
  iapply (rule_wait_send_k m c 5 (K (c, 6)) _) $$ [HIS5 HcS5 HO HatS5]
  · isplitl [HIS5]; · iexact HIS5
    isplitl [HcS5]; · iexact HcS5
    isplitl [HO]; · iexact HO
    iexact HatS5
  iintro ⟨HO, Hz5, Hsp5⟩
  -- the wait on receive cell 5
  sl_exec
  iapply (rule_wait_recv_k m c 5 (K (c, 22)) _) $$ [HIR5 HcR5 HO HatR5]
  · isplitl [HIR5]; · iexact HIR5
    isplitl [HcR5]; · iexact HcR5
    isplitl [HO]; · iexact HO
    iexact HatR5
  iintro ⟨HO, HzR5, Hrp5⟩
  -- the wait on send cell 6
  sl_exec
  iapply (rule_wait_send_k m c 6 (K (c, 7)) _) $$ [HIS6 HcS6 HO HatS6]
  · isplitl [HIS6]; · iexact HIS6
    isplitl [HcS6]; · iexact HcS6
    isplitl [HO]; · iexact HO
    iexact HatS6
  iintro ⟨HO, Hz6, Hsp6⟩
  -- the wait on receive cell 6
  sl_exec
  iapply (rule_wait_recv_k m c 6 (K (c, 23)) _) $$ [HIR6 HcR6 HO HatR6]
  · isplitl [HIR6]; · iexact HIR6
    isplitl [HcR6]; · iexact HcR6
    isplitl [HO]; · iexact HO
    iexact HatR6
  iintro ⟨HO, HzR6, Hrp6⟩
  -- the wait on send cell 7
  sl_exec
  iapply (rule_wait_send_k m c 7 (K (c, 8)) _) $$ [HIS7 HcS7 HO HatS7]
  · isplitl [HIS7]; · iexact HIS7
    isplitl [HcS7]; · iexact HcS7
    isplitl [HO]; · iexact HO
    iexact HatS7
  iintro ⟨HO, Hz7, Hsp7⟩
  -- the wait on receive cell 7
  sl_exec
  iapply (rule_wait_recv_k m c 7 (K (c, 24)) _) $$ [HIR7 HcR7 HO HatR7]
  · isplitl [HIR7]; · iexact HIR7
    isplitl [HcR7]; · iexact HcR7
    isplitl [HO]; · iexact HO
    iexact HatR7
  iintro ⟨HO, HzR7, Hrp7⟩
  -- the wait on send cell 8
  sl_exec
  iapply (rule_wait_send_k m c 8 (K (c, 9)) _) $$ [HIS8 HcS8 HO HatS8]
  · isplitl [HIS8]; · iexact HIS8
    isplitl [HcS8]; · iexact HcS8
    isplitl [HO]; · iexact HO
    iexact HatS8
  iintro ⟨HO, Hz8, Hsp8⟩
  -- the wait on receive cell 8
  sl_exec
  iapply (rule_wait_recv_k m c 8 (K (c, 25)) _) $$ [HIR8 HcR8 HO HatR8]
  · isplitl [HIR8]; · iexact HIR8
    isplitl [HcR8]; · iexact HcR8
    isplitl [HO]; · iexact HO
    iexact HatR8
  iintro ⟨HO, HzR8, Hrp8⟩
  -- the wait on send cell 9
  sl_exec
  iapply (rule_wait_send_k m c 9 (K (c, 10)) _) $$ [HIS9 HcS9 HO HatS9]
  · isplitl [HIS9]; · iexact HIS9
    isplitl [HcS9]; · iexact HcS9
    isplitl [HO]; · iexact HO
    iexact HatS9
  iintro ⟨HO, Hz9, Hsp9⟩
  -- the wait on receive cell 9
  sl_exec
  iapply (rule_wait_recv_k m c 9 (K (c, 26)) _) $$ [HIR9 HcR9 HO HatR9]
  · isplitl [HIR9]; · iexact HIR9
    isplitl [HcR9]; · iexact HcR9
    isplitl [HO]; · iexact HO
    iexact HatR9
  iintro ⟨HO, HzR9, Hrp9⟩
  -- the wait on send cell 10
  sl_exec
  iapply (rule_wait_send_k m c 10 (K (c, 11)) _) $$ [HIS10 HcS10 HO HatS10]
  · isplitl [HIS10]; · iexact HIS10
    isplitl [HcS10]; · iexact HcS10
    isplitl [HO]; · iexact HO
    iexact HatS10
  iintro ⟨HO, Hz10, Hsp10⟩
  -- the wait on receive cell 10
  sl_exec
  iapply (rule_wait_recv_k m c 10 (K (c, 27)) _) $$ [HIR10 HcR10 HO HatR10]
  · isplitl [HIR10]; · iexact HIR10
    isplitl [HcR10]; · iexact HcR10
    isplitl [HO]; · iexact HO
    iexact HatR10
  iintro ⟨HO, HzR10, Hrp10⟩
  -- the wait on send cell 11
  sl_exec
  iapply (rule_wait_send_k m c 11 (K (c, 12)) _) $$ [HIS11 HcS11 HO HatS11]
  · isplitl [HIS11]; · iexact HIS11
    isplitl [HcS11]; · iexact HcS11
    isplitl [HO]; · iexact HO
    iexact HatS11
  iintro ⟨HO, Hz11, Hsp11⟩
  -- the wait on receive cell 11
  sl_exec
  iapply (rule_wait_recv_k m c 11 (K (c, 28)) _) $$ [HIR11 HcR11 HO HatR11]
  · isplitl [HIR11]; · iexact HIR11
    isplitl [HcR11]; · iexact HcR11
    isplitl [HO]; · iexact HO
    iexact HatR11
  iintro ⟨HO, HzR11, Hrp11⟩
  -- the wait on send cell 12
  sl_exec
  iapply (rule_wait_send_k m c 12 (K (c, 13)) _) $$ [HIS12 HcS12 HO HatS12]
  · isplitl [HIS12]; · iexact HIS12
    isplitl [HcS12]; · iexact HcS12
    isplitl [HO]; · iexact HO
    iexact HatS12
  iintro ⟨HO, Hz12, Hsp12⟩
  -- the wait on receive cell 12
  sl_exec
  iapply (rule_wait_recv_k m c 12 (K (c, 29)) _) $$ [HIR12 HcR12 HO HatR12]
  · isplitl [HIR12]; · iexact HIR12
    isplitl [HcR12]; · iexact HcR12
    isplitl [HO]; · iexact HO
    iexact HatR12
  iintro ⟨HO, HzR12, Hrp12⟩
  -- the wait on send cell 13
  sl_exec
  iapply (rule_wait_send_k m c 13 (K (c, 14)) _) $$ [HIS13 HcS13 HO HatS13]
  · isplitl [HIS13]; · iexact HIS13
    isplitl [HcS13]; · iexact HcS13
    isplitl [HO]; · iexact HO
    iexact HatS13
  iintro ⟨HO, Hz13, Hsp13⟩
  -- the wait on receive cell 13
  sl_exec
  iapply (rule_wait_recv_k m c 13 (K (c, 30)) _) $$ [HIR13 HcR13 HO HatR13]
  · isplitl [HIR13]; · iexact HIR13
    isplitl [HcR13]; · iexact HcR13
    isplitl [HO]; · iexact HO
    iexact HatR13
  iintro ⟨HO, HzR13, Hrp13⟩
  -- the wait on send cell 14
  sl_exec
  iapply (rule_wait_send_k m c 14 (K (c, 15)) _) $$ [HIS14 HcS14 HO HatS14]
  · isplitl [HIS14]; · iexact HIS14
    isplitl [HcS14]; · iexact HcS14
    isplitl [HO]; · iexact HO
    iexact HatS14
  iintro ⟨HO, Hz14, Hsp14⟩
  -- the wait on receive cell 14
  sl_exec
  iapply (rule_wait_recv_k m c 14 (K (c, 31)) _) $$ [HIR14 HcR14 HO HatR14]
  · isplitl [HIR14]; · iexact HIR14
    isplitl [HcR14]; · iexact HcR14
    isplitl [HO]; · iexact HO
    iexact HatR14
  iintro ⟨HO, HzR14, Hrp14⟩
  -- the wait on send cell 15
  sl_exec
  iapply (rule_wait_send_k m c 15 (K (c, 16)) _) $$ [HIS15 HcS15 HO HatS15]
  · isplitl [HIS15]; · iexact HIS15
    isplitl [HcS15]; · iexact HcS15
    isplitl [HO]; · iexact HO
    iexact HatS15
  iintro ⟨HO, Hz15, Hsp15⟩
  -- the wait on receive cell 15
  sl_exec
  iapply (rule_wait_recv_k m c 15 (K (c, 32)) _) $$ [HIR15 HcR15 HO HatR15]
  · isplitl [HIR15]; · iexact HIR15
    isplitl [HcR15]; · iexact HcR15
    isplitl [HO]; · iexact HO
    iexact HatR15
  iintro ⟨HO, HzR15, Hrp15⟩
  sl_exec
  -- the return, and the state the launch takes back
  rw [wp_ret]; imodintro
  iapply Hk
  iapply (exit_post_flat m c _)
  isplitl [Hx]; · iexact Hx
  isplitl [Hown0 Hown1 Hown2 Hown3 Hown4 Hown5 Hown6 Hown7 Hown8 Hown9 Hown10 Hown11 Hown12 Hown13 Hown14 Hown15]
  · isplitl [Hown0]; · iexact Hown0
    isplitl [Hown1]; · iexact Hown1
    isplitl [Hown2]; · iexact Hown2
    isplitl [Hown3]; · iexact Hown3
    isplitl [Hown4]; · iexact Hown4
    isplitl [Hown5]; · iexact Hown5
    isplitl [Hown6]; · iexact Hown6
    isplitl [Hown7]; · iexact Hown7
    isplitl [Hown8]; · iexact Hown8
    isplitl [Hown9]; · iexact Hown9
    isplitl [Hown10]; · iexact Hown10
    isplitl [Hown11]; · iexact Hown11
    isplitl [Hown12]; · iexact Hown12
    isplitl [Hown13]; · iexact Hown13
    isplitl [Hown14]; · iexact Hown14
    iexact Hown15
  isplitl [Hrp0 Hrp1 Hrp2 Hrp3 Hrp4 Hrp5 Hrp6 Hrp7 Hrp8 Hrp9 Hrp10 Hrp11 Hrp12 Hrp13 Hrp14 Hrp15]
  · isplitl [Hrp0]; · iexact Hrp0
    isplitl [Hrp1]; · iexact Hrp1
    isplitl [Hrp2]; · iexact Hrp2
    isplitl [Hrp3]; · iexact Hrp3
    isplitl [Hrp4]; · iexact Hrp4
    isplitl [Hrp5]; · iexact Hrp5
    isplitl [Hrp6]; · iexact Hrp6
    isplitl [Hrp7]; · iexact Hrp7
    isplitl [Hrp8]; · iexact Hrp8
    isplitl [Hrp9]; · iexact Hrp9
    isplitl [Hrp10]; · iexact Hrp10
    isplitl [Hrp11]; · iexact Hrp11
    isplitl [Hrp12]; · iexact Hrp12
    isplitl [Hrp13]; · iexact Hrp13
    isplitl [Hrp14]; · iexact Hrp14
    iexact Hrp15
  isplitl [Hsp0 Hsp1 Hsp2 Hsp3 Hsp4 Hsp5 Hsp6 Hsp7 Hsp8 Hsp9 Hsp10 Hsp11 Hsp12 Hsp13 Hsp14 Hsp15]
  · isplitl [Hsp0]; · iexact Hsp0
    isplitl [Hsp1]; · iexact Hsp1
    isplitl [Hsp2]; · iexact Hsp2
    isplitl [Hsp3]; · iexact Hsp3
    isplitl [Hsp4]; · iexact Hsp4
    isplitl [Hsp5]; · iexact Hsp5
    isplitl [Hsp6]; · iexact Hsp6
    isplitl [Hsp7]; · iexact Hsp7
    isplitl [Hsp8]; · iexact Hsp8
    isplitl [Hsp9]; · iexact Hsp9
    isplitl [Hsp10]; · iexact Hsp10
    isplitl [Hsp11]; · iexact Hsp11
    isplitl [Hsp12]; · iexact Hsp12
    isplitl [Hsp13]; · iexact Hsp13
    isplitl [Hsp14]; · iexact Hsp14
    iexact Hsp15
  isplitl [Hs0a]; · iexists _; iexact Hs0a
  isplitl [Hs0b]; · iexists _; iexact Hs0b
  isplitl [Hs2a]; · iexists _; iexact Hs2a
  isplitl [Hs2b]; · iexists _; iexact Hs2b
  isplitl [Hs3a]; · iexists _; iexact Hs3a
  isplitl [Hs3b]; · iexists _; iexact Hs3b
  isplitl [Hl0 Hl1 Hl2 Hl3 Hl4 Hl5]
  · isplitl [Hl0]; · iexact Hl0
    isplitl [Hl1]; · iexact Hl1
    isplitl [Hl2]; · iexact Hl2
    isplitl [Hl3]; · iexact Hl3
    isplitl [Hl4]; · iexact Hl4
    iexact Hl5
  isplitl [Hz0 Hz1 Hz2 Hz3 Hz4 Hz5 Hz6 Hz7 Hz8 Hz9 Hz10 Hz11 Hz12 Hz13 Hz14 Hz15]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    iexact Hz15
  isplitl [HzR0 HzR1 HzR2 HzR3 HzR4 HzR5 HzR6 HzR7 HzR8 HzR9 HzR10 HzR11 HzR12 HzR13 HzR14 HzR15]
  · isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    isplitl [HzR7]; · iexact HzR7
    isplitl [HzR8]; · iexact HzR8
    isplitl [HzR9]; · iexact HzR9
    isplitl [HzR10]; · iexact HzR10
    isplitl [HzR11]; · iexact HzR11
    isplitl [HzR12]; · iexact HzR12
    isplitl [HzR13]; · iexact HzR13
    isplitl [HzR14]; · iexact HzR14
    iexact HzR15
  iexact HO

/-- info: 'Cert.Kernel.A2A.tail_run2' depends on axioms: [propext, Classical.choice, Quot.sound] -/
#guard_msgs in #print axioms tail_run2

end Cert.Kernel.A2A

end
-- ==== Proof.Kernel.Body.lean ====
/-
  One device's body, run from the state before it to the state after it.
-/
import proofs.«900627_g7700000000000628_dist_a2a_v7x_xyz2x2x2_z_m16384_n1024_bf16_1_alg».proof.Proof.Kernel.Proto
import proofs.«900627_g7700000000000628_dist_a2a_v7x_xyz2x2x2_z_m16384_n1024_bf16_1_alg».proof.Proof.Kernel.Tables
import proofs.«900627_g7700000000000628_dist_a2a_v7x_xyz2x2x2_z_m16384_n1024_bf16_1_alg».proof.Proof.Kernel.BodyPrep
import proofs.«900627_g7700000000000628_dist_a2a_v7x_xyz2x2x2_z_m16384_n1024_bf16_1_alg».proof.Proof.Kernel.Regions
import proofs.«900627_g7700000000000628_dist_a2a_v7x_xyz2x2x2_z_m16384_n1024_bf16_1_alg».proof.Proof.Kernel.Contents
import proofs.«900627_g7700000000000628_dist_a2a_v7x_xyz2x2x2_z_m16384_n1024_bf16_1_alg».proof.Proof.Kernel.RuleSend
import proofs.«900627_g7700000000000628_dist_a2a_v7x_xyz2x2x2_z_m16384_n1024_bf16_1_alg».proof.Proof.Kernel.RuleSendEx
import proofs.«900627_g7700000000000628_dist_a2a_v7x_xyz2x2x2_z_m16384_n1024_bf16_1_alg».proof.Proof.Kernel.BodyEnds
import proofs.«900627_g7700000000000628_dist_a2a_v7x_xyz2x2x2_z_m16384_n1024_bf16_1_alg».proof.Proof.Kernel.ValueSteps
import proofs.«900627_g7700000000000628_dist_a2a_v7x_xyz2x2x2_z_m16384_n1024_bf16_1_alg».proof.Proof.Kernel.Progs
import proofs.«900627_g7700000000000628_dist_a2a_v7x_xyz2x2x2_z_m16384_n1024_bf16_1_alg».proof.Proof.Kernel.LocalRun
import proofs.«900627_g7700000000000628_dist_a2a_v7x_xyz2x2x2_z_m16384_n1024_bf16_1_alg».proof.Proof.Kernel.TailRun2
import proofs.«900627_g7700000000000628_dist_a2a_v7x_xyz2x2x2_z_m16384_n1024_bf16_1_alg».proof.Proof.Kernel.RuleWait
import proofs.«900627_g7700000000000628_dist_a2a_v7x_xyz2x2x2_z_m16384_n1024_bf16_1_alg».proof.Proof.Gen.Kernel.Skeleton
import proofs.«900627_g7700000000000628_dist_a2a_v7x_xyz2x2x2_z_m16384_n1024_bf16_1_alg».proof.Proof.Gen.Kernel.Points

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
set_option maxHeartbeats 40000000 in
set_option maxRecDepth 100000 in
/-- The body with its later stretches behind a name `k`: the first stretch is run here, the other two by their lemmas. -/
theorem sound_body_aux (K : Dev nD × Fin 33 → ℕ) (c : Dev nD) (Kt : PUnit → sProp 𝕄)
    (k : Dev nD → BitVec 32 → BitVec 32 → BitVec 32 → BitVec 32 → Prog (TpuEff nD τ sig (Elt F) Λ₀ .tc) PUnit)
    (hk : k = fun d0 v2 v5 v8 v9 => localProg (F := F) d0 v2 v5 v8 v9 (tailProg d0 v2 v5 v9)) :
    iprop(bodyPre m K c ∗ (bodyPost m c -∗ Kt ⟨⟩))
      ⊢ wp frame (wpE (defs₀ (F := F)) 𝒱₀ c none) Set.univ (headProg (F := F) k) Kt := by
  unfold bodyPre ghost invs arrays scratch
  iintro ⟨⟨⟨⟨#HI, #HIbp, #HIrp⟩, Hat, #Hr, #HrBP, #HrRP, HtBP, HtRP, HtS⟩, HcB, HcR, #Hlev, Hloc, ⟨Hx, Hout⟩, ⟨⟨%f0, Hs0⟩, ⟨%f1, Hs1⟩, ⟨%f2, Hs2⟩, ⟨%f3, Hs3⟩⟩, Ho⟩, Hk⟩
  unfold Pipeline.owesWithin
  icases Ho with ⟨%W, %hW, HO⟩
  ihave HI' := (Entails.of_eq (bigSep_fin33 _)) $$ HI
  icases HI' with ⟨#HIB, #HIS0, #HIS1, #HIS2, #HIS3, #HIS4, #HIS5, #HIS6, #HIS7, #HIS8, #HIS9, #HIS10, #HIS11, #HIS12, #HIS13, #HIS14, #HIS15, #HIR0, #HIR1, #HIR2, #HIR3, #HIR4, #HIR5, #HIR6, #HIR7, #HIR8, #HIR9, #HIR10, #HIR11, #HIR12, #HIR13, #HIR14, #HIR15⟩
  ihave Hat' := (Entails.of_eq (bigSep_fin33 _)) $$ Hat
  icases Hat' with ⟨HatB, HatS0, HatS1, HatS2, HatS3, HatS4, HatS5, HatS6, HatS7, HatS8, HatS9, HatS10, HatS11, HatS12, HatS13, HatS14, HatS15, HatR0, HatR1, HatR2, HatR3, HatR4, HatR5, HatR6, HatR7, HatR8, HatR9, HatR10, HatR11, HatR12, HatR13, HatR14, HatR15⟩
  ihave Hr' := (Entails.of_eq (bigSep_fin33 _)) $$ Hr
  icases Hr' with ⟨#HrB, #HrS0, #HrS1, #HrS2, #HrS3, #HrS4, #HrS5, #HrS6, #HrS7, #HrS8, #HrS9, #HrS10, #HrS11, #HrS12, #HrS13, #HrS14, #HrS15, #HrR0, #HrR1, #HrR2, #HrR3, #HrR4, #HrR5, #HrR6, #HrR7, #HrR8, #HrR9, #HrR10, #HrR11, #HrR12, #HrR13, #HrR14, #HrR15⟩
  ihave HIrp' := (Entails.of_eq (bigSep_fin16 _)) $$ HIrp
  icases HIrp' with ⟨#HIP0, #HIP1, #HIP2, #HIP3, #HIP4, #HIP5, #HIP6, #HIP7, #HIP8, #HIP9, #HIP10, #HIP11, #HIP12, #HIP13, #HIP14, #HIP15⟩
  ihave HrRP' := (Entails.of_eq (bigSep_fin16 _)) $$ HrRP
  icases HrRP' with ⟨#HrP0, #HrP1, #HrP2, #HrP3, #HrP4, #HrP5, #HrP6, #HrP7, #HrP8, #HrP9, #HrP10, #HrP11, #HrP12, #HrP13, #HrP14, #HrP15⟩
  ihave HtRP' := (Entails.of_eq (bigSep_fin16 _)) $$ HtRP
  icases HtRP' with ⟨HtP0, HtP1, HtP2, HtP3, HtP4, HtP5, HtP6, HtP7, HtP8, HtP9, HtP10, HtP11, HtP12, HtP13, HtP14, HtP15⟩
  ihave HtS' := (Entails.of_eq (bigSep_fin16 _)) $$ HtS
  icases HtS' with ⟨HtS0, HtS1, HtS2, HtS3, HtS4, HtS5, HtS6, HtS7, HtS8, HtS9, HtS10, HtS11, HtS12, HtS13, HtS14, HtS15⟩
  ihave HcR' := (Entails.of_eq (bigSep_fin16 _)) $$ HcR
  icases HcR' with ⟨HcR0, HcR1, HcR2, HcR3, HcR4, HcR5, HcR6, HcR7, HcR8, HcR9, HcR10, HcR11, HcR12, HcR13, HcR14, HcR15⟩
  ihave Hloc' := (Entails.of_eq (bigSep_fin6 _)) $$ Hloc
  icases Hloc' with ⟨Hl0, Hl1, Hl2, Hl3, Hl4, Hl5⟩
  ihave Hl0 := (Entails.of_eq (show (semVal (locCell c 0) 0 : sProp 𝕄) = semVal ((c : Thread nD τ), SemLoc.dma ((SemArray.slice cc0_scratch4 (Rect.unit (s := S2) ![0] S1.size inb_S2_S1_0)).squeeze S_ squeezes_S1_S_).sem) 0 from rfl)) $$ Hl0
  ihave Hl1 := (Entails.of_eq (show (semVal (locCell c 1) 0 : sProp 𝕄) = semVal ((c : Thread nD τ), SemLoc.dma ((SemArray.slice cc0_scratch4 (Rect.unit (s := S2) ![1] S1.size inb_S2_S1_1)).squeeze S_ squeezes_S1_S_).sem) 0 from rfl)) $$ Hl1
  ihave Hl2 := (Entails.of_eq (show (semVal (locCell c 2) 0 : sProp 𝕄) = semVal ((c : Thread nD τ), SemLoc.dma ((SemArray.slice cc0_scratch5 (Rect.unit (s := S2) ![0] S1.size inb_S2_S1_0)).squeeze S_ squeezes_S1_S_).sem) 0 from rfl)) $$ Hl2
  ihave Hl3 := (Entails.of_eq (show (semVal (locCell c 3) 0 : sProp 𝕄) = semVal ((c : Thread nD τ), SemLoc.dma ((SemArray.slice cc0_scratch5 (Rect.unit (s := S2) ![1] S1.size inb_S2_S1_1)).squeeze S_ squeezes_S1_S_).sem) 0 from rfl)) $$ Hl3
  ihave Hl4 := (Entails.of_eq (show (semVal (locCell c 4) 0 : sProp 𝕄) = semVal ((c : Thread nD τ), SemLoc.dma ((SemArray.slice cc0_scratch6 (Rect.unit (s := S2) ![0] S1.size inb_S2_S1_0)).squeeze S_ squeezes_S1_S_).sem) 0 from rfl)) $$ Hl4
  ihave Hl5 := (Entails.of_eq (show (semVal (locCell c 5) 0 : sProp 𝕄) = semVal ((c : Thread nD τ), SemLoc.dma ((SemArray.slice cc0_scratch6 (Rect.unit (s := S2) ![1] S1.size inb_S2_S1_1)).squeeze S_ squeezes_S1_S_).sem) 0 from rfl)) $$ Hl5
  ihave Hout' := (out_split c _).1 $$ Hout
  icases Hout' with ⟨Hown, Hlent⟩
  ihave Hown' := (Entails.of_eq (bigSep_fin16 _)) $$ Hown
  icases Hown' with ⟨Hown0, Hown1, Hown2, Hown3, Hown4, Hown5, Hown6, Hown7, Hown8, Hown9, Hown10, Hown11, Hown12, Hown13, Hown14, Hown15⟩
  ihave Hlent' := (Entails.of_eq (bigSep_fin16 _)) $$ Hlent
  icases Hlent' with ⟨Hlent0, Hlent1, Hlent2, Hlent3, Hlent4, Hlent5, Hlent6, Hlent7, Hlent8, Hlent9, Hlent10, Hlent11, Hlent12, Hlent13, Hlent14, Hlent15⟩
  ihave Hown0 := (Entails.of_eq (show ((oS c 0).view.loc (c : Thread nD τ) ↦[(oS c 0).view.set]{fullShare} m ((c : Thread nD τ).loc main_v1) : sProp 𝕄) = (((Memref.whole main_v1 : Memref sig .tc .hbm S32768x1024 .bf16).slice (Rect.unit (s := S32768x1024) (k0_off4 c 0#32) S1024x1024.size (k0_off4_inb c 0)) (fun _ => rfl)).view.loc (c : Thread nD τ) ↦[((Memref.whole main_v1 : Memref sig .tc .hbm S32768x1024 .bf16).slice (Rect.unit (s := S32768x1024) (k0_off4 c 0#32) S1024x1024.size (k0_off4_inb c 0)) (fun _ => rfl)).view.set]{fullShare} m ((c : Thread nD τ).loc main_v1) : sProp 𝕄) from rfl)) $$ Hown0
  ihave Hown1 := (Entails.of_eq (show ((oS c 1).view.loc (c : Thread nD τ) ↦[(oS c 1).view.set]{fullShare} m ((c : Thread nD τ).loc main_v1) : sProp 𝕄) = (((Memref.whole main_v1 : Memref sig .tc .hbm S32768x1024 .bf16).slice (Rect.unit (s := S32768x1024) (k0_off4 c 1024#32) S1024x1024.size (k0_off4_inb c 1)) (fun _ => rfl)).view.loc (c : Thread nD τ) ↦[((Memref.whole main_v1 : Memref sig .tc .hbm S32768x1024 .bf16).slice (Rect.unit (s := S32768x1024) (k0_off4 c 1024#32) S1024x1024.size (k0_off4_inb c 1)) (fun _ => rfl)).view.set]{fullShare} m ((c : Thread nD τ).loc main_v1) : sProp 𝕄) from rfl)) $$ Hown1
  ihave Hown2 := (Entails.of_eq (show ((oS c 2).view.loc (c : Thread nD τ) ↦[(oS c 2).view.set]{fullShare} m ((c : Thread nD τ).loc main_v1) : sProp 𝕄) = (((Memref.whole main_v1 : Memref sig .tc .hbm S32768x1024 .bf16).slice (Rect.unit (s := S32768x1024) (k0_off4 c 2048#32) S1024x1024.size (k0_off4_inb c 2)) (fun _ => rfl)).view.loc (c : Thread nD τ) ↦[((Memref.whole main_v1 : Memref sig .tc .hbm S32768x1024 .bf16).slice (Rect.unit (s := S32768x1024) (k0_off4 c 2048#32) S1024x1024.size (k0_off4_inb c 2)) (fun _ => rfl)).view.set]{fullShare} m ((c : Thread nD τ).loc main_v1) : sProp 𝕄) from rfl)) $$ Hown2
  ihave Hown3 := (Entails.of_eq (show ((oS c 3).view.loc (c : Thread nD τ) ↦[(oS c 3).view.set]{fullShare} m ((c : Thread nD τ).loc main_v1) : sProp 𝕄) = (((Memref.whole main_v1 : Memref sig .tc .hbm S32768x1024 .bf16).slice (Rect.unit (s := S32768x1024) (k0_off4 c 3072#32) S1024x1024.size (k0_off4_inb c 3)) (fun _ => rfl)).view.loc (c : Thread nD τ) ↦[((Memref.whole main_v1 : Memref sig .tc .hbm S32768x1024 .bf16).slice (Rect.unit (s := S32768x1024) (k0_off4 c 3072#32) S1024x1024.size (k0_off4_inb c 3)) (fun _ => rfl)).view.set]{fullShare} m ((c : Thread nD τ).loc main_v1) : sProp 𝕄) from rfl)) $$ Hown3
  ihave Hown4 := (Entails.of_eq (show ((oS c 4).view.loc (c : Thread nD τ) ↦[(oS c 4).view.set]{fullShare} m ((c : Thread nD τ).loc main_v1) : sProp 𝕄) = (((Memref.whole main_v1 : Memref sig .tc .hbm S32768x1024 .bf16).slice (Rect.unit (s := S32768x1024) (k0_off4 c 4096#32) S1024x1024.size (k0_off4_inb c 4)) (fun _ => rfl)).view.loc (c : Thread nD τ) ↦[((Memref.whole main_v1 : Memref sig .tc .hbm S32768x1024 .bf16).slice (Rect.unit (s := S32768x1024) (k0_off4 c 4096#32) S1024x1024.size (k0_off4_inb c 4)) (fun _ => rfl)).view.set]{fullShare} m ((c : Thread nD τ).loc main_v1) : sProp 𝕄) from rfl)) $$ Hown4
  ihave Hown5 := (Entails.of_eq (show ((oS c 5).view.loc (c : Thread nD τ) ↦[(oS c 5).view.set]{fullShare} m ((c : Thread nD τ).loc main_v1) : sProp 𝕄) = (((Memref.whole main_v1 : Memref sig .tc .hbm S32768x1024 .bf16).slice (Rect.unit (s := S32768x1024) (k0_off4 c 5120#32) S1024x1024.size (k0_off4_inb c 5)) (fun _ => rfl)).view.loc (c : Thread nD τ) ↦[((Memref.whole main_v1 : Memref sig .tc .hbm S32768x1024 .bf16).slice (Rect.unit (s := S32768x1024) (k0_off4 c 5120#32) S1024x1024.size (k0_off4_inb c 5)) (fun _ => rfl)).view.set]{fullShare} m ((c : Thread nD τ).loc main_v1) : sProp 𝕄) from rfl)) $$ Hown5
  ihave Hown6 := (Entails.of_eq (show ((oS c 6).view.loc (c : Thread nD τ) ↦[(oS c 6).view.set]{fullShare} m ((c : Thread nD τ).loc main_v1) : sProp 𝕄) = (((Memref.whole main_v1 : Memref sig .tc .hbm S32768x1024 .bf16).slice (Rect.unit (s := S32768x1024) (k0_off4 c 6144#32) S1024x1024.size (k0_off4_inb c 6)) (fun _ => rfl)).view.loc (c : Thread nD τ) ↦[((Memref.whole main_v1 : Memref sig .tc .hbm S32768x1024 .bf16).slice (Rect.unit (s := S32768x1024) (k0_off4 c 6144#32) S1024x1024.size (k0_off4_inb c 6)) (fun _ => rfl)).view.set]{fullShare} m ((c : Thread nD τ).loc main_v1) : sProp 𝕄) from rfl)) $$ Hown6
  ihave Hown7 := (Entails.of_eq (show ((oS c 7).view.loc (c : Thread nD τ) ↦[(oS c 7).view.set]{fullShare} m ((c : Thread nD τ).loc main_v1) : sProp 𝕄) = (((Memref.whole main_v1 : Memref sig .tc .hbm S32768x1024 .bf16).slice (Rect.unit (s := S32768x1024) (k0_off4 c 7168#32) S1024x1024.size (k0_off4_inb c 7)) (fun _ => rfl)).view.loc (c : Thread nD τ) ↦[((Memref.whole main_v1 : Memref sig .tc .hbm S32768x1024 .bf16).slice (Rect.unit (s := S32768x1024) (k0_off4 c 7168#32) S1024x1024.size (k0_off4_inb c 7)) (fun _ => rfl)).view.set]{fullShare} m ((c : Thread nD τ).loc main_v1) : sProp 𝕄) from rfl)) $$ Hown7
  ihave Hown8 := (Entails.of_eq (show ((oS c 8).view.loc (c : Thread nD τ) ↦[(oS c 8).view.set]{fullShare} m ((c : Thread nD τ).loc main_v1) : sProp 𝕄) = (((Memref.whole main_v1 : Memref sig .tc .hbm S32768x1024 .bf16).slice (Rect.unit (s := S32768x1024) (k0_off4 c 8192#32) S1024x1024.size (k0_off4_inb c 8)) (fun _ => rfl)).view.loc (c : Thread nD τ) ↦[((Memref.whole main_v1 : Memref sig .tc .hbm S32768x1024 .bf16).slice (Rect.unit (s := S32768x1024) (k0_off4 c 8192#32) S1024x1024.size (k0_off4_inb c 8)) (fun _ => rfl)).view.set]{fullShare} m ((c : Thread nD τ).loc main_v1) : sProp 𝕄) from rfl)) $$ Hown8
  ihave Hown9 := (Entails.of_eq (show ((oS c 9).view.loc (c : Thread nD τ) ↦[(oS c 9).view.set]{fullShare} m ((c : Thread nD τ).loc main_v1) : sProp 𝕄) = (((Memref.whole main_v1 : Memref sig .tc .hbm S32768x1024 .bf16).slice (Rect.unit (s := S32768x1024) (k0_off4 c 9216#32) S1024x1024.size (k0_off4_inb c 9)) (fun _ => rfl)).view.loc (c : Thread nD τ) ↦[((Memref.whole main_v1 : Memref sig .tc .hbm S32768x1024 .bf16).slice (Rect.unit (s := S32768x1024) (k0_off4 c 9216#32) S1024x1024.size (k0_off4_inb c 9)) (fun _ => rfl)).view.set]{fullShare} m ((c : Thread nD τ).loc main_v1) : sProp 𝕄) from rfl)) $$ Hown9
  ihave Hown10 := (Entails.of_eq (show ((oS c 10).view.loc (c : Thread nD τ) ↦[(oS c 10).view.set]{fullShare} m ((c : Thread nD τ).loc main_v1) : sProp 𝕄) = (((Memref.whole main_v1 : Memref sig .tc .hbm S32768x1024 .bf16).slice (Rect.unit (s := S32768x1024) (k0_off4 c 10240#32) S1024x1024.size (k0_off4_inb c 10)) (fun _ => rfl)).view.loc (c : Thread nD τ) ↦[((Memref.whole main_v1 : Memref sig .tc .hbm S32768x1024 .bf16).slice (Rect.unit (s := S32768x1024) (k0_off4 c 10240#32) S1024x1024.size (k0_off4_inb c 10)) (fun _ => rfl)).view.set]{fullShare} m ((c : Thread nD τ).loc main_v1) : sProp 𝕄) from rfl)) $$ Hown10
  ihave Hown11 := (Entails.of_eq (show ((oS c 11).view.loc (c : Thread nD τ) ↦[(oS c 11).view.set]{fullShare} m ((c : Thread nD τ).loc main_v1) : sProp 𝕄) = (((Memref.whole main_v1 : Memref sig .tc .hbm S32768x1024 .bf16).slice (Rect.unit (s := S32768x1024) (k0_off4 c 11264#32) S1024x1024.size (k0_off4_inb c 11)) (fun _ => rfl)).view.loc (c : Thread nD τ) ↦[((Memref.whole main_v1 : Memref sig .tc .hbm S32768x1024 .bf16).slice (Rect.unit (s := S32768x1024) (k0_off4 c 11264#32) S1024x1024.size (k0_off4_inb c 11)) (fun _ => rfl)).view.set]{fullShare} m ((c : Thread nD τ).loc main_v1) : sProp 𝕄) from rfl)) $$ Hown11
  ihave Hown12 := (Entails.of_eq (show ((oS c 12).view.loc (c : Thread nD τ) ↦[(oS c 12).view.set]{fullShare} m ((c : Thread nD τ).loc main_v1) : sProp 𝕄) = (((Memref.whole main_v1 : Memref sig .tc .hbm S32768x1024 .bf16).slice (Rect.unit (s := S32768x1024) (k0_off4 c 12288#32) S1024x1024.size (k0_off4_inb c 12)) (fun _ => rfl)).view.loc (c : Thread nD τ) ↦[((Memref.whole main_v1 : Memref sig .tc .hbm S32768x1024 .bf16).slice (Rect.unit (s := S32768x1024) (k0_off4 c 12288#32) S1024x1024.size (k0_off4_inb c 12)) (fun _ => rfl)).view.set]{fullShare} m ((c : Thread nD τ).loc main_v1) : sProp 𝕄) from rfl)) $$ Hown12
  ihave Hown13 := (Entails.of_eq (show ((oS c 13).view.loc (c : Thread nD τ) ↦[(oS c 13).view.set]{fullShare} m ((c : Thread nD τ).loc main_v1) : sProp 𝕄) = (((Memref.whole main_v1 : Memref sig .tc .hbm S32768x1024 .bf16).slice (Rect.unit (s := S32768x1024) (k0_off4 c 13312#32) S1024x1024.size (k0_off4_inb c 13)) (fun _ => rfl)).view.loc (c : Thread nD τ) ↦[((Memref.whole main_v1 : Memref sig .tc .hbm S32768x1024 .bf16).slice (Rect.unit (s := S32768x1024) (k0_off4 c 13312#32) S1024x1024.size (k0_off4_inb c 13)) (fun _ => rfl)).view.set]{fullShare} m ((c : Thread nD τ).loc main_v1) : sProp 𝕄) from rfl)) $$ Hown13
  ihave Hown14 := (Entails.of_eq (show ((oS c 14).view.loc (c : Thread nD τ) ↦[(oS c 14).view.set]{fullShare} m ((c : Thread nD τ).loc main_v1) : sProp 𝕄) = (((Memref.whole main_v1 : Memref sig .tc .hbm S32768x1024 .bf16).slice (Rect.unit (s := S32768x1024) (k0_off4 c 14336#32) S1024x1024.size (k0_off4_inb c 14)) (fun _ => rfl)).view.loc (c : Thread nD τ) ↦[((Memref.whole main_v1 : Memref sig .tc .hbm S32768x1024 .bf16).slice (Rect.unit (s := S32768x1024) (k0_off4 c 14336#32) S1024x1024.size (k0_off4_inb c 14)) (fun _ => rfl)).view.set]{fullShare} m ((c : Thread nD τ).loc main_v1) : sProp 𝕄) from rfl)) $$ Hown14
  ihave Hown15 := (Entails.of_eq (show ((oS c 15).view.loc (c : Thread nD τ) ↦[(oS c 15).view.set]{fullShare} m ((c : Thread nD τ).loc main_v1) : sProp 𝕄) = (((Memref.whole main_v1 : Memref sig .tc .hbm S32768x1024 .bf16).slice (Rect.unit (s := S32768x1024) (k0_off4 c 15360#32) S1024x1024.size (k0_off4_inb c 15)) (fun _ => rfl)).view.loc (c : Thread nD τ) ↦[((Memref.whole main_v1 : Memref sig .tc .hbm S32768x1024 .bf16).slice (Rect.unit (s := S32768x1024) (k0_off4 c 15360#32) S1024x1024.size (k0_off4_inb c 15)) (fun _ => rfl)).view.set]{fullShare} m ((c : Thread nD τ).loc main_v1) : sProp 𝕄) from rfl)) $$ Hown15
  ihave Hs1' := (sndB_split c _).1 $$ Hs1
  ihave Hs1'' := (Entails.of_eq (bigSep_fin16 _)) $$ Hs1'
  icases Hs1'' with ⟨Hsb0, Hsb1, Hsb2, Hsb3, Hsb4, Hsb5, Hsb6, Hsb7, Hsb8, Hsb9, Hsb10, Hsb11, Hsb12, Hsb13, Hsb14, Hsb15⟩
  ihave Hsb0 := (Entails.of_eq (show ((sbS 0).view.loc (c : Thread nD τ) ↦[(sbS 0).view.set]{fullShare} f1 : sProp 𝕄) = ((((Memref.whole cc0_scratch1 : Memref sig .tc .vmem S16x1024x1024 .bf16).slice (Rect.unit (s := S16x1024x1024) ![0, 0, 0] S1x1024x1024.size inb_S16x1024x1024_S1x1024x1024_0_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![0, 0, 0] S1x1024x1024.size inb_S16x1024x1024_S1x1024x1024_0_0_0) (fun _ => rfl)).squeeze S1024x1024 squeezes_S1x1024x1024_S1024x1024).view.set]{fullShare} f1 : sProp 𝕄) from rfl)) $$ Hsb0
  ihave Hsb1 := (Entails.of_eq (show ((sbS 1).view.loc (c : Thread nD τ) ↦[(sbS 1).view.set]{fullShare} f1 : sProp 𝕄) = ((((Memref.whole cc0_scratch1 : Memref sig .tc .vmem S16x1024x1024 .bf16).slice (Rect.unit (s := S16x1024x1024) ![1, 0, 0] S1x1024x1024.size inb_S16x1024x1024_S1x1024x1024_1_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![1, 0, 0] S1x1024x1024.size inb_S16x1024x1024_S1x1024x1024_1_0_0) (fun _ => rfl)).squeeze S1024x1024 squeezes_S1x1024x1024_S1024x1024).view.set]{fullShare} f1 : sProp 𝕄) from rfl)) $$ Hsb1
  ihave Hsb2 := (Entails.of_eq (show ((sbS 2).view.loc (c : Thread nD τ) ↦[(sbS 2).view.set]{fullShare} f1 : sProp 𝕄) = ((((Memref.whole cc0_scratch1 : Memref sig .tc .vmem S16x1024x1024 .bf16).slice (Rect.unit (s := S16x1024x1024) ![2, 0, 0] S1x1024x1024.size inb_S16x1024x1024_S1x1024x1024_2_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![2, 0, 0] S1x1024x1024.size inb_S16x1024x1024_S1x1024x1024_2_0_0) (fun _ => rfl)).squeeze S1024x1024 squeezes_S1x1024x1024_S1024x1024).view.set]{fullShare} f1 : sProp 𝕄) from rfl)) $$ Hsb2
  ihave Hsb3 := (Entails.of_eq (show ((sbS 3).view.loc (c : Thread nD τ) ↦[(sbS 3).view.set]{fullShare} f1 : sProp 𝕄) = ((((Memref.whole cc0_scratch1 : Memref sig .tc .vmem S16x1024x1024 .bf16).slice (Rect.unit (s := S16x1024x1024) ![3, 0, 0] S1x1024x1024.size inb_S16x1024x1024_S1x1024x1024_3_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![3, 0, 0] S1x1024x1024.size inb_S16x1024x1024_S1x1024x1024_3_0_0) (fun _ => rfl)).squeeze S1024x1024 squeezes_S1x1024x1024_S1024x1024).view.set]{fullShare} f1 : sProp 𝕄) from rfl)) $$ Hsb3
  ihave Hsb4 := (Entails.of_eq (show ((sbS 4).view.loc (c : Thread nD τ) ↦[(sbS 4).view.set]{fullShare} f1 : sProp 𝕄) = ((((Memref.whole cc0_scratch1 : Memref sig .tc .vmem S16x1024x1024 .bf16).slice (Rect.unit (s := S16x1024x1024) ![4, 0, 0] S1x1024x1024.size inb_S16x1024x1024_S1x1024x1024_4_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![4, 0, 0] S1x1024x1024.size inb_S16x1024x1024_S1x1024x1024_4_0_0) (fun _ => rfl)).squeeze S1024x1024 squeezes_S1x1024x1024_S1024x1024).view.set]{fullShare} f1 : sProp 𝕄) from rfl)) $$ Hsb4
  ihave Hsb5 := (Entails.of_eq (show ((sbS 5).view.loc (c : Thread nD τ) ↦[(sbS 5).view.set]{fullShare} f1 : sProp 𝕄) = ((((Memref.whole cc0_scratch1 : Memref sig .tc .vmem S16x1024x1024 .bf16).slice (Rect.unit (s := S16x1024x1024) ![5, 0, 0] S1x1024x1024.size inb_S16x1024x1024_S1x1024x1024_5_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![5, 0, 0] S1x1024x1024.size inb_S16x1024x1024_S1x1024x1024_5_0_0) (fun _ => rfl)).squeeze S1024x1024 squeezes_S1x1024x1024_S1024x1024).view.set]{fullShare} f1 : sProp 𝕄) from rfl)) $$ Hsb5
  ihave Hsb6 := (Entails.of_eq (show ((sbS 6).view.loc (c : Thread nD τ) ↦[(sbS 6).view.set]{fullShare} f1 : sProp 𝕄) = ((((Memref.whole cc0_scratch1 : Memref sig .tc .vmem S16x1024x1024 .bf16).slice (Rect.unit (s := S16x1024x1024) ![6, 0, 0] S1x1024x1024.size inb_S16x1024x1024_S1x1024x1024_6_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![6, 0, 0] S1x1024x1024.size inb_S16x1024x1024_S1x1024x1024_6_0_0) (fun _ => rfl)).squeeze S1024x1024 squeezes_S1x1024x1024_S1024x1024).view.set]{fullShare} f1 : sProp 𝕄) from rfl)) $$ Hsb6
  ihave Hsb7 := (Entails.of_eq (show ((sbS 7).view.loc (c : Thread nD τ) ↦[(sbS 7).view.set]{fullShare} f1 : sProp 𝕄) = ((((Memref.whole cc0_scratch1 : Memref sig .tc .vmem S16x1024x1024 .bf16).slice (Rect.unit (s := S16x1024x1024) ![7, 0, 0] S1x1024x1024.size inb_S16x1024x1024_S1x1024x1024_7_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![7, 0, 0] S1x1024x1024.size inb_S16x1024x1024_S1x1024x1024_7_0_0) (fun _ => rfl)).squeeze S1024x1024 squeezes_S1x1024x1024_S1024x1024).view.set]{fullShare} f1 : sProp 𝕄) from rfl)) $$ Hsb7
  ihave Hsb8 := (Entails.of_eq (show ((sbS 8).view.loc (c : Thread nD τ) ↦[(sbS 8).view.set]{fullShare} f1 : sProp 𝕄) = ((((Memref.whole cc0_scratch1 : Memref sig .tc .vmem S16x1024x1024 .bf16).slice (Rect.unit (s := S16x1024x1024) ![8, 0, 0] S1x1024x1024.size inb_S16x1024x1024_S1x1024x1024_8_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![8, 0, 0] S1x1024x1024.size inb_S16x1024x1024_S1x1024x1024_8_0_0) (fun _ => rfl)).squeeze S1024x1024 squeezes_S1x1024x1024_S1024x1024).view.set]{fullShare} f1 : sProp 𝕄) from rfl)) $$ Hsb8
  ihave Hsb9 := (Entails.of_eq (show ((sbS 9).view.loc (c : Thread nD τ) ↦[(sbS 9).view.set]{fullShare} f1 : sProp 𝕄) = ((((Memref.whole cc0_scratch1 : Memref sig .tc .vmem S16x1024x1024 .bf16).slice (Rect.unit (s := S16x1024x1024) ![9, 0, 0] S1x1024x1024.size inb_S16x1024x1024_S1x1024x1024_9_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![9, 0, 0] S1x1024x1024.size inb_S16x1024x1024_S1x1024x1024_9_0_0) (fun _ => rfl)).squeeze S1024x1024 squeezes_S1x1024x1024_S1024x1024).view.set]{fullShare} f1 : sProp 𝕄) from rfl)) $$ Hsb9
  ihave Hsb10 := (Entails.of_eq (show ((sbS 10).view.loc (c : Thread nD τ) ↦[(sbS 10).view.set]{fullShare} f1 : sProp 𝕄) = ((((Memref.whole cc0_scratch1 : Memref sig .tc .vmem S16x1024x1024 .bf16).slice (Rect.unit (s := S16x1024x1024) ![10, 0, 0] S1x1024x1024.size inb_S16x1024x1024_S1x1024x1024_10_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![10, 0, 0] S1x1024x1024.size inb_S16x1024x1024_S1x1024x1024_10_0_0) (fun _ => rfl)).squeeze S1024x1024 squeezes_S1x1024x1024_S1024x1024).view.set]{fullShare} f1 : sProp 𝕄) from rfl)) $$ Hsb10
  ihave Hsb11 := (Entails.of_eq (show ((sbS 11).view.loc (c : Thread nD τ) ↦[(sbS 11).view.set]{fullShare} f1 : sProp 𝕄) = ((((Memref.whole cc0_scratch1 : Memref sig .tc .vmem S16x1024x1024 .bf16).slice (Rect.unit (s := S16x1024x1024) ![11, 0, 0] S1x1024x1024.size inb_S16x1024x1024_S1x1024x1024_11_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![11, 0, 0] S1x1024x1024.size inb_S16x1024x1024_S1x1024x1024_11_0_0) (fun _ => rfl)).squeeze S1024x1024 squeezes_S1x1024x1024_S1024x1024).view.set]{fullShare} f1 : sProp 𝕄) from rfl)) $$ Hsb11
  ihave Hsb12 := (Entails.of_eq (show ((sbS 12).view.loc (c : Thread nD τ) ↦[(sbS 12).view.set]{fullShare} f1 : sProp 𝕄) = ((((Memref.whole cc0_scratch1 : Memref sig .tc .vmem S16x1024x1024 .bf16).slice (Rect.unit (s := S16x1024x1024) ![12, 0, 0] S1x1024x1024.size inb_S16x1024x1024_S1x1024x1024_12_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![12, 0, 0] S1x1024x1024.size inb_S16x1024x1024_S1x1024x1024_12_0_0) (fun _ => rfl)).squeeze S1024x1024 squeezes_S1x1024x1024_S1024x1024).view.set]{fullShare} f1 : sProp 𝕄) from rfl)) $$ Hsb12
  ihave Hsb13 := (Entails.of_eq (show ((sbS 13).view.loc (c : Thread nD τ) ↦[(sbS 13).view.set]{fullShare} f1 : sProp 𝕄) = ((((Memref.whole cc0_scratch1 : Memref sig .tc .vmem S16x1024x1024 .bf16).slice (Rect.unit (s := S16x1024x1024) ![13, 0, 0] S1x1024x1024.size inb_S16x1024x1024_S1x1024x1024_13_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![13, 0, 0] S1x1024x1024.size inb_S16x1024x1024_S1x1024x1024_13_0_0) (fun _ => rfl)).squeeze S1024x1024 squeezes_S1x1024x1024_S1024x1024).view.set]{fullShare} f1 : sProp 𝕄) from rfl)) $$ Hsb13
  ihave Hsb14 := (Entails.of_eq (show ((sbS 14).view.loc (c : Thread nD τ) ↦[(sbS 14).view.set]{fullShare} f1 : sProp 𝕄) = ((((Memref.whole cc0_scratch1 : Memref sig .tc .vmem S16x1024x1024 .bf16).slice (Rect.unit (s := S16x1024x1024) ![14, 0, 0] S1x1024x1024.size inb_S16x1024x1024_S1x1024x1024_14_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![14, 0, 0] S1x1024x1024.size inb_S16x1024x1024_S1x1024x1024_14_0_0) (fun _ => rfl)).squeeze S1024x1024 squeezes_S1x1024x1024_S1024x1024).view.set]{fullShare} f1 : sProp 𝕄) from rfl)) $$ Hsb14
  ihave Hsb15 := (Entails.of_eq (show ((sbS 15).view.loc (c : Thread nD τ) ↦[(sbS 15).view.set]{fullShare} f1 : sProp 𝕄) = ((((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024).view.set]{fullShare} f1 : sProp 𝕄) from rfl)) $$ Hsb15
  ihave Hx := (Entails.of_eq (show (((c : Thread nD τ).loc main_arg0) ↦{fullShare} X m c : sProp 𝕄) = (((Memref.whole main_arg0 : Memref sig .tc .hbm S16384x2048 .f32)).view.loc (c : Thread nD τ) ↦[((Memref.whole main_arg0 : Memref sig .tc .hbm S16384x2048 .f32)).view.set]{fullShare} X m c : sProp 𝕄) from by rw [View.set_whole])) $$ Hx
  ihave Hs0 := (Entails.of_eq (show (((c : Thread nD τ).loc cc0_scratch0) ↦{fullShare} f0 : sProp 𝕄) = (((Memref.whole cc0_scratch0 : Memref sig .tc .vmem S2x1024x1024 .f32)).view.loc (c : Thread nD τ) ↦[((Memref.whole cc0_scratch0 : Memref sig .tc .vmem S2x1024x1024 .f32)).view.set]{fullShare} f0 : sProp 𝕄) from by rw [View.set_whole])) $$ Hs0
  ihave Hs2 := (Entails.of_eq (show (((c : Thread nD τ).loc cc0_scratch2) ↦{fullShare} f2 : sProp 𝕄) = (((Memref.whole cc0_scratch2 : Memref sig .tc .vmem S2x1024x1024 .f32)).view.loc (c : Thread nD τ) ↦[((Memref.whole cc0_scratch2 : Memref sig .tc .vmem S2x1024x1024 .f32)).view.set]{fullShare} f2 : sProp 𝕄) from by rw [View.set_whole])) $$ Hs2
  ihave Hs3 := (Entails.of_eq (show (((c : Thread nD τ).loc cc0_scratch3) ↦{fullShare} f3 : sProp 𝕄) = (((Memref.whole cc0_scratch3 : Memref sig .tc .vmem S2x1024x1024 .bf16)).view.loc (c : Thread nD τ) ↦[((Memref.whole cc0_scratch3 : Memref sig .tc .vmem S2x1024x1024 .bf16)).view.set]{fullShare} f3 : sProp 𝕄) from by rw [View.set_whole])) $$ Hs3
  ihave Hs0' := (stgS_split c f0).1 $$ Hs0
  icases Hs0' with ⟨Hs0a, Hs0b⟩
  ihave Hs2' := (stgL_split c f2).1 $$ Hs2
  icases Hs2' with ⟨Hs2a, Hs2b⟩
  ihave Hs3' := (locB_split c f3).1 $$ Hs3
  icases Hs3' with ⟨Hs3a, Hs3b⟩
  have hmw0 : ∀ n : ℕ, (levAts L lv : sProp 𝕄) ⊢ MayWait (c : Thread nD τ) (SemLoc.dma ((SemArray.slice cc0_scratch4 (Rect.unit (s := S2) ![0] S1.size inb_S2_S1_0)).squeeze S_ squeezes_S1_S_).sem) () (owedFrom c n) := fun n => mayWait_low c _ (by decide) n
  have hmw1 : ∀ n : ℕ, (levAts L lv : sProp 𝕄) ⊢ MayWait (c : Thread nD τ) (SemLoc.dma ((SemArray.slice cc0_scratch4 (Rect.unit (s := S2) ![1] S1.size inb_S2_S1_1)).squeeze S_ squeezes_S1_S_).sem) () (owedFrom c n) := fun n => mayWait_low c _ (by decide) n
  have hmw2 : ∀ n : ℕ, (levAts L lv : sProp 𝕄) ⊢ MayWait (c : Thread nD τ) (SemLoc.dma ((SemArray.slice cc0_scratch5 (Rect.unit (s := S2) ![0] S1.size inb_S2_S1_0)).squeeze S_ squeezes_S1_S_).sem) () (owedFrom c n) := fun n => mayWait_low c _ (by decide) n
  have hmw3 : ∀ n : ℕ, (levAts L lv : sProp 𝕄) ⊢ MayWait (c : Thread nD τ) (SemLoc.dma ((SemArray.slice cc0_scratch5 (Rect.unit (s := S2) ![1] S1.size inb_S2_S1_1)).squeeze S_ squeezes_S1_S_).sem) () (owedFrom c n) := fun n => mayWait_low c _ (by decide) n
  have hmw4 : ∀ n : ℕ, (levAts L lv : sProp 𝕄) ⊢ MayWait (c : Thread nD τ) (SemLoc.dma ((SemArray.slice cc0_scratch6 (Rect.unit (s := S2) ![0] S1.size inb_S2_S1_0)).squeeze S_ squeezes_S1_S_).sem) () (owedFrom c n) := fun n => mayWait_low c _ (by decide) n
  have hmw5 : ∀ n : ℕ, (levAts L lv : sProp 𝕄) ⊢ MayWait (c : Thread nD τ) (SemLoc.dma ((SemArray.slice cc0_scratch6 (Rect.unit (s := S2) ![1] S1.size inb_S2_S1_1)).squeeze S_ squeezes_S1_S_).sem) () (owedFrom c n) := fun n => mayWait_low c _ (by decide) n
  ihave T := (Entails.of_eq (show (cellInv ER (a2aRd m) (K (c, 1)) (kcell (c, 1)) : sProp 𝕄) = cellInv ER (a2aRd m) (K (c, 1)) (sendCell c 0) from rfl)) $$ HIS0
  icases T with #HIS0
  ihave T := (Entails.of_eq (show (cellInv ER (a2aRd m) (K (c, 17)) (kcell (c, 17)) : sProp 𝕄) = cellInv ER (a2aRd m) (K (c, 17)) (recvCell c 0) from rfl)) $$ HIR0
  icases T with #HIR0
  ihave HatS0 := (Entails.of_eq (show (atPos ER (kcell (c, 1)) 0 ∅ 0 : sProp 𝕄) = atPos ER (sendCell c 0) 0 ∅ 0 from rfl)) $$ HatS0
  ihave HatR0 := (Entails.of_eq (show (atPos ER (kcell (c, 17)) 0 ∅ 0 : sProp 𝕄) = atPos ER (recvCell c 0) 0 ∅ 0 from rfl)) $$ HatR0
  ihave T := (Entails.of_eq (show (cellInv ER (a2aRd m) (K (c, 2)) (kcell (c, 2)) : sProp 𝕄) = cellInv ER (a2aRd m) (K (c, 2)) (sendCell c 1) from rfl)) $$ HIS1
  icases T with #HIS1
  ihave T := (Entails.of_eq (show (cellInv ER (a2aRd m) (K (c, 18)) (kcell (c, 18)) : sProp 𝕄) = cellInv ER (a2aRd m) (K (c, 18)) (recvCell c 1) from rfl)) $$ HIR1
  icases T with #HIR1
  ihave HatS1 := (Entails.of_eq (show (atPos ER (kcell (c, 2)) 0 ∅ 0 : sProp 𝕄) = atPos ER (sendCell c 1) 0 ∅ 0 from rfl)) $$ HatS1
  ihave HatR1 := (Entails.of_eq (show (atPos ER (kcell (c, 18)) 0 ∅ 0 : sProp 𝕄) = atPos ER (recvCell c 1) 0 ∅ 0 from rfl)) $$ HatR1
  ihave T := (Entails.of_eq (show (cellInv ER (a2aRd m) (K (c, 3)) (kcell (c, 3)) : sProp 𝕄) = cellInv ER (a2aRd m) (K (c, 3)) (sendCell c 2) from rfl)) $$ HIS2
  icases T with #HIS2
  ihave T := (Entails.of_eq (show (cellInv ER (a2aRd m) (K (c, 19)) (kcell (c, 19)) : sProp 𝕄) = cellInv ER (a2aRd m) (K (c, 19)) (recvCell c 2) from rfl)) $$ HIR2
  icases T with #HIR2
  ihave HatS2 := (Entails.of_eq (show (atPos ER (kcell (c, 3)) 0 ∅ 0 : sProp 𝕄) = atPos ER (sendCell c 2) 0 ∅ 0 from rfl)) $$ HatS2
  ihave HatR2 := (Entails.of_eq (show (atPos ER (kcell (c, 19)) 0 ∅ 0 : sProp 𝕄) = atPos ER (recvCell c 2) 0 ∅ 0 from rfl)) $$ HatR2
  ihave T := (Entails.of_eq (show (cellInv ER (a2aRd m) (K (c, 4)) (kcell (c, 4)) : sProp 𝕄) = cellInv ER (a2aRd m) (K (c, 4)) (sendCell c 3) from rfl)) $$ HIS3
  icases T with #HIS3
  ihave T := (Entails.of_eq (show (cellInv ER (a2aRd m) (K (c, 20)) (kcell (c, 20)) : sProp 𝕄) = cellInv ER (a2aRd m) (K (c, 20)) (recvCell c 3) from rfl)) $$ HIR3
  icases T with #HIR3
  ihave HatS3 := (Entails.of_eq (show (atPos ER (kcell (c, 4)) 0 ∅ 0 : sProp 𝕄) = atPos ER (sendCell c 3) 0 ∅ 0 from rfl)) $$ HatS3
  ihave HatR3 := (Entails.of_eq (show (atPos ER (kcell (c, 20)) 0 ∅ 0 : sProp 𝕄) = atPos ER (recvCell c 3) 0 ∅ 0 from rfl)) $$ HatR3
  ihave T := (Entails.of_eq (show (cellInv ER (a2aRd m) (K (c, 5)) (kcell (c, 5)) : sProp 𝕄) = cellInv ER (a2aRd m) (K (c, 5)) (sendCell c 4) from rfl)) $$ HIS4
  icases T with #HIS4
  ihave T := (Entails.of_eq (show (cellInv ER (a2aRd m) (K (c, 21)) (kcell (c, 21)) : sProp 𝕄) = cellInv ER (a2aRd m) (K (c, 21)) (recvCell c 4) from rfl)) $$ HIR4
  icases T with #HIR4
  ihave HatS4 := (Entails.of_eq (show (atPos ER (kcell (c, 5)) 0 ∅ 0 : sProp 𝕄) = atPos ER (sendCell c 4) 0 ∅ 0 from rfl)) $$ HatS4
  ihave HatR4 := (Entails.of_eq (show (atPos ER (kcell (c, 21)) 0 ∅ 0 : sProp 𝕄) = atPos ER (recvCell c 4) 0 ∅ 0 from rfl)) $$ HatR4
  ihave T := (Entails.of_eq (show (cellInv ER (a2aRd m) (K (c, 6)) (kcell (c, 6)) : sProp 𝕄) = cellInv ER (a2aRd m) (K (c, 6)) (sendCell c 5) from rfl)) $$ HIS5
  icases T with #HIS5
  ihave T := (Entails.of_eq (show (cellInv ER (a2aRd m) (K (c, 22)) (kcell (c, 22)) : sProp 𝕄) = cellInv ER (a2aRd m) (K (c, 22)) (recvCell c 5) from rfl)) $$ HIR5
  icases T with #HIR5
  ihave HatS5 := (Entails.of_eq (show (atPos ER (kcell (c, 6)) 0 ∅ 0 : sProp 𝕄) = atPos ER (sendCell c 5) 0 ∅ 0 from rfl)) $$ HatS5
  ihave HatR5 := (Entails.of_eq (show (atPos ER (kcell (c, 22)) 0 ∅ 0 : sProp 𝕄) = atPos ER (recvCell c 5) 0 ∅ 0 from rfl)) $$ HatR5
  ihave T := (Entails.of_eq (show (cellInv ER (a2aRd m) (K (c, 7)) (kcell (c, 7)) : sProp 𝕄) = cellInv ER (a2aRd m) (K (c, 7)) (sendCell c 6) from rfl)) $$ HIS6
  icases T with #HIS6
  ihave T := (Entails.of_eq (show (cellInv ER (a2aRd m) (K (c, 23)) (kcell (c, 23)) : sProp 𝕄) = cellInv ER (a2aRd m) (K (c, 23)) (recvCell c 6) from rfl)) $$ HIR6
  icases T with #HIR6
  ihave HatS6 := (Entails.of_eq (show (atPos ER (kcell (c, 7)) 0 ∅ 0 : sProp 𝕄) = atPos ER (sendCell c 6) 0 ∅ 0 from rfl)) $$ HatS6
  ihave HatR6 := (Entails.of_eq (show (atPos ER (kcell (c, 23)) 0 ∅ 0 : sProp 𝕄) = atPos ER (recvCell c 6) 0 ∅ 0 from rfl)) $$ HatR6
  ihave T := (Entails.of_eq (show (cellInv ER (a2aRd m) (K (c, 8)) (kcell (c, 8)) : sProp 𝕄) = cellInv ER (a2aRd m) (K (c, 8)) (sendCell c 7) from rfl)) $$ HIS7
  icases T with #HIS7
  ihave T := (Entails.of_eq (show (cellInv ER (a2aRd m) (K (c, 24)) (kcell (c, 24)) : sProp 𝕄) = cellInv ER (a2aRd m) (K (c, 24)) (recvCell c 7) from rfl)) $$ HIR7
  icases T with #HIR7
  ihave HatS7 := (Entails.of_eq (show (atPos ER (kcell (c, 8)) 0 ∅ 0 : sProp 𝕄) = atPos ER (sendCell c 7) 0 ∅ 0 from rfl)) $$ HatS7
  ihave HatR7 := (Entails.of_eq (show (atPos ER (kcell (c, 24)) 0 ∅ 0 : sProp 𝕄) = atPos ER (recvCell c 7) 0 ∅ 0 from rfl)) $$ HatR7
  ihave T := (Entails.of_eq (show (cellInv ER (a2aRd m) (K (c, 9)) (kcell (c, 9)) : sProp 𝕄) = cellInv ER (a2aRd m) (K (c, 9)) (sendCell c 8) from rfl)) $$ HIS8
  icases T with #HIS8
  ihave T := (Entails.of_eq (show (cellInv ER (a2aRd m) (K (c, 25)) (kcell (c, 25)) : sProp 𝕄) = cellInv ER (a2aRd m) (K (c, 25)) (recvCell c 8) from rfl)) $$ HIR8
  icases T with #HIR8
  ihave HatS8 := (Entails.of_eq (show (atPos ER (kcell (c, 9)) 0 ∅ 0 : sProp 𝕄) = atPos ER (sendCell c 8) 0 ∅ 0 from rfl)) $$ HatS8
  ihave HatR8 := (Entails.of_eq (show (atPos ER (kcell (c, 25)) 0 ∅ 0 : sProp 𝕄) = atPos ER (recvCell c 8) 0 ∅ 0 from rfl)) $$ HatR8
  ihave T := (Entails.of_eq (show (cellInv ER (a2aRd m) (K (c, 10)) (kcell (c, 10)) : sProp 𝕄) = cellInv ER (a2aRd m) (K (c, 10)) (sendCell c 9) from rfl)) $$ HIS9
  icases T with #HIS9
  ihave T := (Entails.of_eq (show (cellInv ER (a2aRd m) (K (c, 26)) (kcell (c, 26)) : sProp 𝕄) = cellInv ER (a2aRd m) (K (c, 26)) (recvCell c 9) from rfl)) $$ HIR9
  icases T with #HIR9
  ihave HatS9 := (Entails.of_eq (show (atPos ER (kcell (c, 10)) 0 ∅ 0 : sProp 𝕄) = atPos ER (sendCell c 9) 0 ∅ 0 from rfl)) $$ HatS9
  ihave HatR9 := (Entails.of_eq (show (atPos ER (kcell (c, 26)) 0 ∅ 0 : sProp 𝕄) = atPos ER (recvCell c 9) 0 ∅ 0 from rfl)) $$ HatR9
  ihave T := (Entails.of_eq (show (cellInv ER (a2aRd m) (K (c, 11)) (kcell (c, 11)) : sProp 𝕄) = cellInv ER (a2aRd m) (K (c, 11)) (sendCell c 10) from rfl)) $$ HIS10
  icases T with #HIS10
  ihave T := (Entails.of_eq (show (cellInv ER (a2aRd m) (K (c, 27)) (kcell (c, 27)) : sProp 𝕄) = cellInv ER (a2aRd m) (K (c, 27)) (recvCell c 10) from rfl)) $$ HIR10
  icases T with #HIR10
  ihave HatS10 := (Entails.of_eq (show (atPos ER (kcell (c, 11)) 0 ∅ 0 : sProp 𝕄) = atPos ER (sendCell c 10) 0 ∅ 0 from rfl)) $$ HatS10
  ihave HatR10 := (Entails.of_eq (show (atPos ER (kcell (c, 27)) 0 ∅ 0 : sProp 𝕄) = atPos ER (recvCell c 10) 0 ∅ 0 from rfl)) $$ HatR10
  ihave T := (Entails.of_eq (show (cellInv ER (a2aRd m) (K (c, 12)) (kcell (c, 12)) : sProp 𝕄) = cellInv ER (a2aRd m) (K (c, 12)) (sendCell c 11) from rfl)) $$ HIS11
  icases T with #HIS11
  ihave T := (Entails.of_eq (show (cellInv ER (a2aRd m) (K (c, 28)) (kcell (c, 28)) : sProp 𝕄) = cellInv ER (a2aRd m) (K (c, 28)) (recvCell c 11) from rfl)) $$ HIR11
  icases T with #HIR11
  ihave HatS11 := (Entails.of_eq (show (atPos ER (kcell (c, 12)) 0 ∅ 0 : sProp 𝕄) = atPos ER (sendCell c 11) 0 ∅ 0 from rfl)) $$ HatS11
  ihave HatR11 := (Entails.of_eq (show (atPos ER (kcell (c, 28)) 0 ∅ 0 : sProp 𝕄) = atPos ER (recvCell c 11) 0 ∅ 0 from rfl)) $$ HatR11
  ihave T := (Entails.of_eq (show (cellInv ER (a2aRd m) (K (c, 13)) (kcell (c, 13)) : sProp 𝕄) = cellInv ER (a2aRd m) (K (c, 13)) (sendCell c 12) from rfl)) $$ HIS12
  icases T with #HIS12
  ihave T := (Entails.of_eq (show (cellInv ER (a2aRd m) (K (c, 29)) (kcell (c, 29)) : sProp 𝕄) = cellInv ER (a2aRd m) (K (c, 29)) (recvCell c 12) from rfl)) $$ HIR12
  icases T with #HIR12
  ihave HatS12 := (Entails.of_eq (show (atPos ER (kcell (c, 13)) 0 ∅ 0 : sProp 𝕄) = atPos ER (sendCell c 12) 0 ∅ 0 from rfl)) $$ HatS12
  ihave HatR12 := (Entails.of_eq (show (atPos ER (kcell (c, 29)) 0 ∅ 0 : sProp 𝕄) = atPos ER (recvCell c 12) 0 ∅ 0 from rfl)) $$ HatR12
  ihave T := (Entails.of_eq (show (cellInv ER (a2aRd m) (K (c, 14)) (kcell (c, 14)) : sProp 𝕄) = cellInv ER (a2aRd m) (K (c, 14)) (sendCell c 13) from rfl)) $$ HIS13
  icases T with #HIS13
  ihave T := (Entails.of_eq (show (cellInv ER (a2aRd m) (K (c, 30)) (kcell (c, 30)) : sProp 𝕄) = cellInv ER (a2aRd m) (K (c, 30)) (recvCell c 13) from rfl)) $$ HIR13
  icases T with #HIR13
  ihave HatS13 := (Entails.of_eq (show (atPos ER (kcell (c, 14)) 0 ∅ 0 : sProp 𝕄) = atPos ER (sendCell c 13) 0 ∅ 0 from rfl)) $$ HatS13
  ihave HatR13 := (Entails.of_eq (show (atPos ER (kcell (c, 30)) 0 ∅ 0 : sProp 𝕄) = atPos ER (recvCell c 13) 0 ∅ 0 from rfl)) $$ HatR13
  ihave T := (Entails.of_eq (show (cellInv ER (a2aRd m) (K (c, 15)) (kcell (c, 15)) : sProp 𝕄) = cellInv ER (a2aRd m) (K (c, 15)) (sendCell c 14) from rfl)) $$ HIS14
  icases T with #HIS14
  ihave T := (Entails.of_eq (show (cellInv ER (a2aRd m) (K (c, 31)) (kcell (c, 31)) : sProp 𝕄) = cellInv ER (a2aRd m) (K (c, 31)) (recvCell c 14) from rfl)) $$ HIR14
  icases T with #HIR14
  ihave HatS14 := (Entails.of_eq (show (atPos ER (kcell (c, 15)) 0 ∅ 0 : sProp 𝕄) = atPos ER (sendCell c 14) 0 ∅ 0 from rfl)) $$ HatS14
  ihave HatR14 := (Entails.of_eq (show (atPos ER (kcell (c, 31)) 0 ∅ 0 : sProp 𝕄) = atPos ER (recvCell c 14) 0 ∅ 0 from rfl)) $$ HatR14
  ihave T := (Entails.of_eq (show (cellInv ER (a2aRd m) (K (c, 16)) (kcell (c, 16)) : sProp 𝕄) = cellInv ER (a2aRd m) (K (c, 16)) (sendCell c 15) from rfl)) $$ HIS15
  icases T with #HIS15
  ihave T := (Entails.of_eq (show (cellInv ER (a2aRd m) (K (c, 32)) (kcell (c, 32)) : sProp 𝕄) = cellInv ER (a2aRd m) (K (c, 32)) (recvCell c 15) from rfl)) $$ HIR15
  icases T with #HIR15
  ihave HatS15 := (Entails.of_eq (show (atPos ER (kcell (c, 16)) 0 ∅ 0 : sProp 𝕄) = atPos ER (sendCell c 15) 0 ∅ 0 from rfl)) $$ HatS15
  ihave HatR15 := (Entails.of_eq (show (atPos ER (kcell (c, 32)) 0 ∅ 0 : sProp 𝕄) = atPos ER (recvCell c 15) 0 ∅ 0 from rfl)) $$ HatR15
  sl_unfold [headProg]
  sl_exec
  rw [dev1_eq]
  -- the signal to the partner's barrier cell: it lends the partner the sixteen slices the partner will write
  iapply (Rounds.wp_signal 𝒱₀ ER (a2aRd m) (c : Thread nD τ) none (dst := (peer c : Thread nD τ)) (κ := K (peer c, 0))
      (d := ()) (by rw [duties_bar]; exact Finset.mem_singleton_self _) ((amount_bar m (peer c) ()).trans (by decide)) () (owedFrom c 0) rfl)
    $$ [HO HtBP Hlent0 Hlent1 Hlent2 Hlent3 Hlent4 Hlent5 Hlent6 Hlent7 Hlent8 Hlent9 Hlent10 Hlent11 Hlent12 Hlent13 Hlent14 Hlent15]
  · isplitr; · iexact HIbp
    isplitl [HO]; · iexact HO
    isplitl [HtBP]; · iexact HtBP
    isplitl [Hlent0 Hlent1 Hlent2 Hlent3 Hlent4 Hlent5 Hlent6 Hlent7 Hlent8 Hlent9 Hlent10 Hlent11 Hlent12 Hlent13 Hlent14 Hlent15]
    · iapply (bar_payload_intro m c)
      isplitl [Hlent0]
      · isplitl [Hlent0]
        · unfold slicePts; iexists _; iexact Hlent0
        · iexact HrR0
      isplitl [Hlent1]
      · isplitl [Hlent1]
        · unfold slicePts; iexists _; iexact Hlent1
        · iexact HrR1
      isplitl [Hlent2]
      · isplitl [Hlent2]
        · unfold slicePts; iexists _; iexact Hlent2
        · iexact HrR2
      isplitl [Hlent3]
      · isplitl [Hlent3]
        · unfold slicePts; iexists _; iexact Hlent3
        · iexact HrR3
      isplitl [Hlent4]
      · isplitl [Hlent4]
        · unfold slicePts; iexists _; iexact Hlent4
        · iexact HrR4
      isplitl [Hlent5]
      · isplitl [Hlent5]
        · unfold slicePts; iexists _; iexact Hlent5
        · iexact HrR5
      isplitl [Hlent6]
      · isplitl [Hlent6]
        · unfold slicePts; iexists _; iexact Hlent6
        · iexact HrR6
      isplitl [Hlent7]
      · isplitl [Hlent7]
        · unfold slicePts; iexists _; iexact Hlent7
        · iexact HrR7
      isplitl [Hlent8]
      · isplitl [Hlent8]
        · unfold slicePts; iexists _; iexact Hlent8
        · iexact HrR8
      isplitl [Hlent9]
      · isplitl [Hlent9]
        · unfold slicePts; iexists _; iexact Hlent9
        · iexact HrR9
      isplitl [Hlent10]
      · isplitl [Hlent10]
        · unfold slicePts; iexists _; iexact Hlent10
        · iexact HrR10
      isplitl [Hlent11]
      · isplitl [Hlent11]
        · unfold slicePts; iexists _; iexact Hlent11
        · iexact HrR11
      isplitl [Hlent12]
      · isplitl [Hlent12]
        · unfold slicePts; iexists _; iexact Hlent12
        · iexact HrR12
      isplitl [Hlent13]
      · isplitl [Hlent13]
        · unfold slicePts; iexists _; iexact Hlent13
        · iexact HrR13
      isplitl [Hlent14]
      · isplitl [Hlent14]
        · unfold slicePts; iexists _; iexact Hlent14
        · iexact HrR14
      isplitl [Hlent15]
      · unfold slicePts; iexists _; iexact Hlent15
      · iexact HrR15
    · iexact HrBP
  iintro HO
  rw [wp_ret]; imodintro
  sl_exec
  -- the wait on its own barrier cell: the partner's slices arrive with it
  iapply (Rounds.wp_wait_rest_token 𝒱₀ ER (a2aRd m) (c : Thread nD τ) none (κ := K (c, 0))
      (wpE_semWait_eq 𝒱₀ (c : Thread nD τ) none Set.univ) (Set.mem_univ _) () (O := owedFrom c 0) (W := W) (R := 0) (m := 0) (T := ∅)
      (by rw [expect_bar]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay slicePts
  ihave Hp' := (Entails.of_eq (bigSep_fin16 _)) $$ Hp
  icases Hp' with ⟨⟨⟨%fd0, Hd0⟩, #HrQ0⟩, ⟨⟨%fd1, Hd1⟩, #HrQ1⟩, ⟨⟨%fd2, Hd2⟩, #HrQ2⟩, ⟨⟨%fd3, Hd3⟩, #HrQ3⟩, ⟨⟨%fd4, Hd4⟩, #HrQ4⟩, ⟨⟨%fd5, Hd5⟩, #HrQ5⟩, ⟨⟨%fd6, Hd6⟩, #HrQ6⟩, ⟨⟨%fd7, Hd7⟩, #HrQ7⟩, ⟨⟨%fd8, Hd8⟩, #HrQ8⟩, ⟨⟨%fd9, Hd9⟩, #HrQ9⟩, ⟨⟨%fd10, Hd10⟩, #HrQ10⟩, ⟨⟨%fd11, Hd11⟩, #HrQ11⟩, ⟨⟨%fd12, Hd12⟩, #HrQ12⟩, ⟨⟨%fd13, Hd13⟩, #HrQ13⟩, ⟨⟨%fd14, Hd14⟩, #HrQ14⟩, ⟨⟨%fd15, Hd15⟩, #HrQ15⟩⟩
  rw [wp_ret]; imodintro
  sl_exec
  -- the copy of chunk 0 into the partner's result rows
  iapply (rule_send_at m c ⟨k0_dev2 c, k0_dev2_lt c⟩ (dev2_eq c) 0 _ _ fd0) $$ [Hsb0 Hd0 HO HtS0 HtP0]
  · isplitr; · iexact HIS0
    isplitr; · iexact HIP0
    isplitl [Hsb0]
    · iexists _
      isplitr
      rotate_left
      · iexact Hsb0
      · ipureintro; exact sent_hfs_slot m c 0 0 rfl inb_S16x1024x1024_S1x1024x1024_0_0_0 _ _ (sent_payload_junk m c 0 k0_pay1 (fun u y => pay_apply u _ _ _ y) (Memref.whole cc0_scratch0) 0 inb_S2x1024x1024_S1x1024x1024_0_0_0 (fun _ => rfl) (k0_off1 c) (k0_off1_inb c) (fun _ => rfl) _ _ (k0_off1_eq c) rfl rfl)
    isplitl [Hd0]; · iexact Hd0
    isplitl [HO]; · iexact HO
    isplitl [HtS0]; · iexact HtS0
    isplitr; · iexact HrS0
    isplitl [HtP0]; · iexact HtP0
    iexact HrP0
  iintro ⟨HcS0, HO⟩
  sl_exec
  -- the copy of chunk 1 into the partner's result rows
  iapply (rule_send_at m c ⟨k0_dev3 c, k0_dev3_lt c⟩ (dev3_eq c) 1 _ _ fd1) $$ [Hsb1 Hd1 HO HtS1 HtP1]
  · isplitr; · iexact HIS1
    isplitr; · iexact HIP1
    isplitl [Hsb1]
    · iexists _
      isplitr
      rotate_left
      · iexact Hsb1
      · ipureintro; exact sent_hfs_slot m c 1 1 rfl inb_S16x1024x1024_S1x1024x1024_1_0_0 _ _ (sent_payload_junk m c 1 k0_pay2 (fun u y => pay_apply u _ _ _ y) (Memref.whole cc0_scratch0) 1 inb_S2x1024x1024_S1x1024x1024_1_0_0 (fun _ => rfl) (k0_off2 c) (k0_off2_inb c) (fun _ => rfl) _ _ (k0_off2_eq c) rfl rfl)
    isplitl [Hd1]; · iexact Hd1
    isplitl [HO]; · iexact HO
    isplitl [HtS1]; · iexact HtS1
    isplitr; · iexact HrS1
    isplitl [HtP1]; · iexact HtP1
    iexact HrP1
  iintro ⟨HcS1, HO⟩
  sl_exec
  -- the copy of chunk 2 into the partner's result rows
  iapply (rule_send_at m c ⟨k0_dev4 c, k0_dev4_lt c⟩ (dev4_eq c) 2 _ _ fd2) $$ [Hsb2 Hd2 HO HtS2 HtP2]
  · isplitr; · iexact HIS2
    isplitr; · iexact HIP2
    isplitl [Hsb2]
    · iexists _
      isplitr
      rotate_left
      · iexact Hsb2
      · ipureintro; exact sent_hfs_slot m c 2 2 rfl inb_S16x1024x1024_S1x1024x1024_2_0_0 _ _ (sent_payload_junk m c 2 k0_pay3 (fun u y => pay_apply u _ _ _ y) (Memref.whole cc0_scratch0) 0 inb_S2x1024x1024_S1x1024x1024_0_0_0 (fun _ => rfl) (k0_off3 c) (k0_off3_inb c) (fun _ => rfl) _ _ (k0_off3_eq c) rfl rfl)
    isplitl [Hd2]; · iexact Hd2
    isplitl [HO]; · iexact HO
    isplitl [HtS2]; · iexact HtS2
    isplitr; · iexact HrS2
    isplitl [HtP2]; · iexact HtP2
    iexact HrP2
  iintro ⟨HcS2, HO⟩
  sl_exec
  -- the copy of chunk 3 into the partner's result rows
  iapply (rule_send_at m c ⟨k0_dev5 c, k0_dev5_lt c⟩ (dev5_eq c) 3 _ _ fd3) $$ [Hsb3 Hd3 HO HtS3 HtP3]
  · isplitr; · iexact HIS3
    isplitr; · iexact HIP3
    isplitl [Hsb3]
    · iexists _
      isplitr
      rotate_left
      · iexact Hsb3
      · ipureintro; exact sent_hfs_slot m c 3 3 rfl inb_S16x1024x1024_S1x1024x1024_3_0_0 _ _ (sent_payload_junk m c 3 k0_pay4 (fun u y => pay_apply u _ _ _ y) (Memref.whole cc0_scratch0) 1 inb_S2x1024x1024_S1x1024x1024_1_0_0 (fun _ => rfl) (k0_off5 c) (k0_off5_inb c) (fun _ => rfl) _ _ (k0_off5_eq c) rfl rfl)
    isplitl [Hd3]; · iexact Hd3
    isplitl [HO]; · iexact HO
    isplitl [HtS3]; · iexact HtS3
    isplitr; · iexact HrS3
    isplitl [HtP3]; · iexact HtP3
    iexact HrP3
  iintro ⟨HcS3, HO⟩
  sl_exec
  -- the copy of chunk 4 into the partner's result rows
  iapply (rule_send_at m c ⟨k0_dev6 c, k0_dev6_lt c⟩ (dev6_eq c) 4 _ _ fd4) $$ [Hsb4 Hd4 HO HtS4 HtP4]
  · isplitr; · iexact HIS4
    isplitr; · iexact HIP4
    isplitl [Hsb4]
    · iexists _
      isplitr
      rotate_left
      · iexact Hsb4
      · ipureintro; exact sent_hfs_slot m c 4 4 rfl inb_S16x1024x1024_S1x1024x1024_4_0_0 _ _ (sent_payload_junk m c 4 k0_pay5 (fun u y => pay_apply u _ _ _ y) (Memref.whole cc0_scratch0) 0 inb_S2x1024x1024_S1x1024x1024_0_0_0 (fun _ => rfl) (k0_off6 c) (k0_off6_inb c) (fun _ => rfl) _ _ (k0_off6_eq c) rfl rfl)
    isplitl [Hd4]; · iexact Hd4
    isplitl [HO]; · iexact HO
    isplitl [HtS4]; · iexact HtS4
    isplitr; · iexact HrS4
    isplitl [HtP4]; · iexact HtP4
    iexact HrP4
  iintro ⟨HcS4, HO⟩
  sl_exec
  -- the copy of chunk 5 into the partner's result rows
  iapply (rule_send_at m c ⟨k0_dev7 c, k0_dev7_lt c⟩ (dev7_eq c) 5 _ _ fd5) $$ [Hsb5 Hd5 HO HtS5 HtP5]
  · isplitr; · iexact HIS5
    isplitr; · iexact HIP5
    isplitl [Hsb5]
    · iexists _
      isplitr
      rotate_left
      · iexact Hsb5
      · ipureintro; exact sent_hfs_slot m c 5 5 rfl inb_S16x1024x1024_S1x1024x1024_5_0_0 _ _ (sent_payload_junk m c 5 k0_pay6 (fun u y => pay_apply u _ _ _ y) (Memref.whole cc0_scratch0) 1 inb_S2x1024x1024_S1x1024x1024_1_0_0 (fun _ => rfl) (k0_off7 c) (k0_off7_inb c) (fun _ => rfl) _ _ (k0_off7_eq c) rfl rfl)
    isplitl [Hd5]; · iexact Hd5
    isplitl [HO]; · iexact HO
    isplitl [HtS5]; · iexact HtS5
    isplitr; · iexact HrS5
    isplitl [HtP5]; · iexact HtP5
    iexact HrP5
  iintro ⟨HcS5, HO⟩
  sl_exec
  -- the copy of chunk 6 into the partner's result rows
  iapply (rule_send_at m c ⟨k0_dev8 c, k0_dev8_lt c⟩ (dev8_eq c) 6 _ _ fd6) $$ [Hsb6 Hd6 HO HtS6 HtP6]
  · isplitr; · iexact HIS6
    isplitr; · iexact HIP6
    isplitl [Hsb6]
    · iexists _
      isplitr
      rotate_left
      · iexact Hsb6
      · ipureintro; exact sent_hfs_slot m c 6 6 rfl inb_S16x1024x1024_S1x1024x1024_6_0_0 _ _ (sent_payload_junk m c 6 k0_pay7 (fun u y => pay_apply u _ _ _ y) (Memref.whole cc0_scratch0) 0 inb_S2x1024x1024_S1x1024x1024_0_0_0 (fun _ => rfl) (k0_off8 c) (k0_off8_inb c) (fun _ => rfl) _ _ (k0_off8_eq c) rfl rfl)
    isplitl [Hd6]; · iexact Hd6
    isplitl [HO]; · iexact HO
    isplitl [HtS6]; · iexact HtS6
    isplitr; · iexact HrS6
    isplitl [HtP6]; · iexact HtP6
    iexact HrP6
  iintro ⟨HcS6, HO⟩
  sl_exec
  -- the copy of chunk 7 into the partner's result rows
  iapply (rule_send_at m c ⟨k0_dev9 c, k0_dev9_lt c⟩ (dev9_eq c) 7 _ _ fd7) $$ [Hsb7 Hd7 HO HtS7 HtP7]
  · isplitr; · iexact HIS7
    isplitr; · iexact HIP7
    isplitl [Hsb7]
    · iexists _
      isplitr
      rotate_left
      · iexact Hsb7
      · ipureintro; exact sent_hfs_slot m c 7 7 rfl inb_S16x1024x1024_S1x1024x1024_7_0_0 _ _ (sent_payload_junk m c 7 k0_pay8 (fun u y => pay_apply u _ _ _ y) (Memref.whole cc0_scratch0) 1 inb_S2x1024x1024_S1x1024x1024_1_0_0 (fun _ => rfl) (k0_off9 c) (k0_off9_inb c) (fun _ => rfl) _ _ (k0_off9_eq c) rfl rfl)
    isplitl [Hd7]; · iexact Hd7
    isplitl [HO]; · iexact HO
    isplitl [HtS7]; · iexact HtS7
    isplitr; · iexact HrS7
    isplitl [HtP7]; · iexact HtP7
    iexact HrP7
  iintro ⟨HcS7, HO⟩
  sl_exec
  -- the copy of chunk 8 into the partner's result rows
  iapply (rule_send_at m c ⟨k0_dev10 c, k0_dev10_lt c⟩ (dev10_eq c) 8 _ _ fd8) $$ [Hsb8 Hd8 HO HtS8 HtP8]
  · isplitr; · iexact HIS8
    isplitr; · iexact HIP8
    isplitl [Hsb8]
    · iexists _
      isplitr
      rotate_left
      · iexact Hsb8
      · ipureintro; exact sent_hfs_slot m c 8 8 rfl inb_S16x1024x1024_S1x1024x1024_8_0_0 _ _ (sent_payload_junk m c 8 k0_pay9 (fun u y => pay_apply u _ _ _ y) (Memref.whole cc0_scratch0) 0 inb_S2x1024x1024_S1x1024x1024_0_0_0 (fun _ => rfl) (k0_off10 c) (k0_off10_inb c) (fun _ => rfl) _ _ (k0_off10_eq c) rfl rfl)
    isplitl [Hd8]; · iexact Hd8
    isplitl [HO]; · iexact HO
    isplitl [HtS8]; · iexact HtS8
    isplitr; · iexact HrS8
    isplitl [HtP8]; · iexact HtP8
    iexact HrP8
  iintro ⟨HcS8, HO⟩
  sl_exec
  -- the copy of chunk 9 into the partner's result rows
  iapply (rule_send_at m c ⟨k0_dev11 c, k0_dev11_lt c⟩ (dev11_eq c) 9 _ _ fd9) $$ [Hsb9 Hd9 HO HtS9 HtP9]
  · isplitr; · iexact HIS9
    isplitr; · iexact HIP9
    isplitl [Hsb9]
    · iexists _
      isplitr
      rotate_left
      · iexact Hsb9
      · ipureintro; exact sent_hfs_slot m c 9 9 rfl inb_S16x1024x1024_S1x1024x1024_9_0_0 _ _ (sent_payload_junk m c 9 k0_pay10 (fun u y => pay_apply u _ _ _ y) (Memref.whole cc0_scratch0) 1 inb_S2x1024x1024_S1x1024x1024_1_0_0 (fun _ => rfl) (k0_off11 c) (k0_off11_inb c) (fun _ => rfl) _ _ (k0_off11_eq c) rfl rfl)
    isplitl [Hd9]; · iexact Hd9
    isplitl [HO]; · iexact HO
    isplitl [HtS9]; · iexact HtS9
    isplitr; · iexact HrS9
    isplitl [HtP9]; · iexact HtP9
    iexact HrP9
  iintro ⟨HcS9, HO⟩
  sl_exec
  -- the copy of chunk 10 into the partner's result rows
  iapply (rule_send_at m c ⟨k0_dev12 c, k0_dev12_lt c⟩ (dev12_eq c) 10 _ _ fd10) $$ [Hsb10 Hd10 HO HtS10 HtP10]
  · isplitr; · iexact HIS10
    isplitr; · iexact HIP10
    isplitl [Hsb10]
    · iexists _
      isplitr
      rotate_left
      · iexact Hsb10
      · ipureintro; exact sent_hfs_slot m c 10 10 rfl inb_S16x1024x1024_S1x1024x1024_10_0_0 _ _ (sent_payload_junk m c 10 k0_pay11 (fun u y => pay_apply u _ _ _ y) (Memref.whole cc0_scratch0) 0 inb_S2x1024x1024_S1x1024x1024_0_0_0 (fun _ => rfl) (k0_off12 c) (k0_off12_inb c) (fun _ => rfl) _ _ (k0_off12_eq c) rfl rfl)
    isplitl [Hd10]; · iexact Hd10
    isplitl [HO]; · iexact HO
    isplitl [HtS10]; · iexact HtS10
    isplitr; · iexact HrS10
    isplitl [HtP10]; · iexact HtP10
    iexact HrP10
  iintro ⟨HcS10, HO⟩
  sl_exec
  -- the copy of chunk 11 into the partner's result rows
  iapply (rule_send_at m c ⟨k0_dev13 c, k0_dev13_lt c⟩ (dev13_eq c) 11 _ _ fd11) $$ [Hsb11 Hd11 HO HtS11 HtP11]
  · isplitr; · iexact HIS11
    isplitr; · iexact HIP11
    isplitl [Hsb11]
    · iexists _
      isplitr
      rotate_left
      · iexact Hsb11
      · ipureintro; exact sent_hfs_slot m c 11 11 rfl inb_S16x1024x1024_S1x1024x1024_11_0_0 _ _ (sent_payload_junk m c 11 k0_pay12 (fun u y => pay_apply u _ _ _ y) (Memref.whole cc0_scratch0) 1 inb_S2x1024x1024_S1x1024x1024_1_0_0 (fun _ => rfl) (k0_off13 c) (k0_off13_inb c) (fun _ => rfl) _ _ (k0_off13_eq c) rfl rfl)
    isplitl [Hd11]; · iexact Hd11
    isplitl [HO]; · iexact HO
    isplitl [HtS11]; · iexact HtS11
    isplitr; · iexact HrS11
    isplitl [HtP11]; · iexact HtP11
    iexact HrP11
  iintro ⟨HcS11, HO⟩
  sl_exec
  -- the copy of chunk 12 into the partner's result rows
  iapply (rule_send_at m c ⟨k0_dev14 c, k0_dev14_lt c⟩ (dev14_eq c) 12 _ _ fd12) $$ [Hsb12 Hd12 HO HtS12 HtP12]
  · isplitr; · iexact HIS12
    isplitr; · iexact HIP12
    isplitl [Hsb12]
    · iexists _
      isplitr
      rotate_left
      · iexact Hsb12
      · ipureintro; exact sent_hfs_slot m c 12 12 rfl inb_S16x1024x1024_S1x1024x1024_12_0_0 _ _ (sent_payload_junk m c 12 (fun u => k0_pay14 (k0_pay13 u)) (fun u y => pay_apply u _ _ _ y) (Memref.whole cc0_scratch0) 0 inb_S2x1024x1024_S1x1024x1024_0_0_0 (fun _ => rfl) (k0_off14 c) (k0_off14_inb c) (fun _ => rfl) _ _ (k0_off14_eq c) rfl rfl)
    isplitl [Hd12]; · iexact Hd12
    isplitl [HO]; · iexact HO
    isplitl [HtS12]; · iexact HtS12
    isplitr; · iexact HrS12
    isplitl [HtP12]; · iexact HtP12
    iexact HrP12
  iintro ⟨HcS12, HO⟩
  sl_exec
  -- the copy of chunk 13 into the partner's result rows
  iapply (rule_send_at m c ⟨k0_dev15 c, k0_dev15_lt c⟩ (dev15_eq c) 13 _ _ fd13) $$ [Hsb13 Hd13 HO HtS13 HtP13]
  · isplitr; · iexact HIS13
    isplitr; · iexact HIP13
    isplitl [Hsb13]
    · iexists _
      isplitr
      rotate_left
      · iexact Hsb13
      · ipureintro; exact sent_hfs_slot m c 13 13 rfl inb_S16x1024x1024_S1x1024x1024_13_0_0 _ _ (sent_payload_junk m c 13 (fun u => k0_pay16 (k0_pay15 u)) (fun u y => pay_apply u _ _ _ y) (Memref.whole cc0_scratch0) 1 inb_S2x1024x1024_S1x1024x1024_1_0_0 (fun _ => rfl) (k0_off15 c) (k0_off15_inb c) (fun _ => rfl) _ _ (k0_off15_eq c) rfl rfl)
    isplitl [Hd13]; · iexact Hd13
    isplitl [HO]; · iexact HO
    isplitl [HtS13]; · iexact HtS13
    isplitr; · iexact HrS13
    isplitl [HtP13]; · iexact HtP13
    iexact HrP13
  iintro ⟨HcS13, HO⟩
  sl_exec
  -- the copy of chunk 14 into the partner's result rows
  iapply (rule_send_at m c ⟨k0_dev16 c, k0_dev16_lt c⟩ (dev16_eq c) 14 _ _ fd14) $$ [Hsb14 Hd14 HO HtS14 HtP14]
  · isplitr; · iexact HIS14
    isplitr; · iexact HIP14
    isplitl [Hsb14]
    · iexists _
      isplitr
      rotate_left
      · iexact Hsb14
      · ipureintro; exact sent_hfs_slot m c 14 14 rfl inb_S16x1024x1024_S1x1024x1024_14_0_0 _ _ (sent_payload_junk m c 14 (fun u => k0_pay18 (k0_pay17 u)) (fun u y => pay_apply u _ _ _ y) (Memref.whole cc0_scratch0) 0 inb_S2x1024x1024_S1x1024x1024_0_0_0 (fun _ => rfl) (k0_off16 c) (k0_off16_inb c) (fun _ => rfl) _ _ (k0_off16_eq c) rfl rfl)
    isplitl [Hd14]; · iexact Hd14
    isplitl [HO]; · iexact HO
    isplitl [HtS14]; · iexact HtS14
    isplitr; · iexact HrS14
    isplitl [HtP14]; · iexact HtP14
    iexact HrP14
  iintro ⟨HcS14, HO⟩
  -- to the end of the first stretch: chunk 15 is narrowed into its slot
  sl_exec
  subst hk
  beta_reduce
  -- the state the local phase starts from
  iapply (local_run m K c _ _ _ _ _ _ _ _ _ _ _)
  isplitl [Hx Hs2a Hs2b Hs3a Hs3b Hown0 Hown1 Hown2 Hown3 Hown4 Hown5 Hown6 Hown7 Hown8 Hown9 Hown10 Hown11 Hown12 Hown13 Hown14 Hown15 Hl2 Hl3 Hl4 Hl5 HO Hsb15 Hd15 HtS15 HtP15 HcS0 HatS0]
  · unfold MidA
    isplitr; · iexact HIS15
    isplitr; · iexact HIP15
    isplitr; · iexact HIS0
    isplitr; · iexact Hlev
    isplitr; · iexact HrS15
    isplitr; · iexact HrP15
    isplitl [Hx]; · iexact Hx
    isplitl [Hs2a]; · iexact Hs2a
    isplitl [Hs2b]; · iexact Hs2b
    isplitl [Hs3a]; · iexact Hs3a
    isplitl [Hs3b]; · iexact Hs3b
    isplitl [Hown0]; · iexact Hown0
    isplitl [Hown1]; · iexact Hown1
    isplitl [Hown2]; · iexact Hown2
    isplitl [Hown3]; · iexact Hown3
    isplitl [Hown4]; · iexact Hown4
    isplitl [Hown5]; · iexact Hown5
    isplitl [Hown6]; · iexact Hown6
    isplitl [Hown7]; · iexact Hown7
    isplitl [Hown8]; · iexact Hown8
    isplitl [Hown9]; · iexact Hown9
    isplitl [Hown10]; · iexact Hown10
    isplitl [Hown11]; · iexact Hown11
    isplitl [Hown12]; · iexact Hown12
    isplitl [Hown13]; · iexact Hown13
    isplitl [Hown14]; · iexact Hown14
    isplitl [Hown15]; · iexact Hown15
    isplitl [Hl2]; · iexact Hl2
    isplitl [Hl3]; · iexact Hl3
    isplitl [Hl4]; · iexact Hl4
    isplitl [Hl5]; · iexact Hl5
    isplitl [HO]; · iexact HO
    isplitl [Hsb15]
    · iexists _
      isplitr
      rotate_left
      · iexact Hsb15
      · ipureintro; exact sent_hfs_slot m c 15 15 rfl inb_S16x1024x1024_S1x1024x1024_15_0_0 _ _ (sent_payload_junk m c 15 k0_pay19 (fun u y => pay_apply u _ _ _ y) (Memref.whole cc0_scratch0) 1 inb_S2x1024x1024_S1x1024x1024_1_0_0 (fun _ => rfl) (k0_off17 c) (k0_off17_inb c) (fun _ => rfl) _ _ (k0_off17_eq c) rfl rfl)
    isplitl [Hd15]; · iexact Hd15
    isplitl [HtS15]; · iexact HtS15
    isplitl [HtP15]; · iexact HtP15
    isplitl [HcS0]; · iexact HcS0
    iexact HatS0
  iintro HB
  unfold MidB
  icases HB with ⟨Hx, Hown0, Hown1, Hown2, Hown3, Hown4, Hown5, Hown6, Hown7, Hown8, Hown9, Hown10, Hown11, Hown12, Hown13, Hown14, Hown15, ⟨%g2a, Hs2a⟩, ⟨%g2b, Hs2b⟩, ⟨%g3a, Hs3a⟩, ⟨%g3b, Hs3b⟩, Hl2, Hl3, Hl4, Hl5, ⟨%W2, HO⟩, HcS15, Hz0, Hsp0⟩
  -- the state the remaining waits and the exit start from
  iapply (tail_run2 m K c _ _ _ Kt)
  isplitr [Hk]
  · unfold MidC
    isplitr; · iexact HIS0
    isplitr; · iexact HIS1
    isplitr; · iexact HIS2
    isplitr; · iexact HIS3
    isplitr; · iexact HIS4
    isplitr; · iexact HIS5
    isplitr; · iexact HIS6
    isplitr; · iexact HIS7
    isplitr; · iexact HIS8
    isplitr; · iexact HIS9
    isplitr; · iexact HIS10
    isplitr; · iexact HIS11
    isplitr; · iexact HIS12
    isplitr; · iexact HIS13
    isplitr; · iexact HIS14
    isplitr; · iexact HIS15
    isplitr; · iexact HIR0
    isplitr; · iexact HIR1
    isplitr; · iexact HIR2
    isplitr; · iexact HIR3
    isplitr; · iexact HIR4
    isplitr; · iexact HIR5
    isplitr; · iexact HIR6
    isplitr; · iexact HIR7
    isplitr; · iexact HIR8
    isplitr; · iexact HIR9
    isplitr; · iexact HIR10
    isplitr; · iexact HIR11
    isplitr; · iexact HIR12
    isplitr; · iexact HIR13
    isplitr; · iexact HIR14
    isplitr; · iexact HIR15
    isplitl [HatS1]; · iexact HatS1
    isplitl [HatS2]; · iexact HatS2
    isplitl [HatS3]; · iexact HatS3
    isplitl [HatS4]; · iexact HatS4
    isplitl [HatS5]; · iexact HatS5
    isplitl [HatS6]; · iexact HatS6
    isplitl [HatS7]; · iexact HatS7
    isplitl [HatS8]; · iexact HatS8
    isplitl [HatS9]; · iexact HatS9
    isplitl [HatS10]; · iexact HatS10
    isplitl [HatS11]; · iexact HatS11
    isplitl [HatS12]; · iexact HatS12
    isplitl [HatS13]; · iexact HatS13
    isplitl [HatS14]; · iexact HatS14
    isplitl [HatS15]; · iexact HatS15
    isplitl [HcS1]; · iexact HcS1
    isplitl [HcS2]; · iexact HcS2
    isplitl [HcS3]; · iexact HcS3
    isplitl [HcS4]; · iexact HcS4
    isplitl [HcS5]; · iexact HcS5
    isplitl [HcS6]; · iexact HcS6
    isplitl [HcS7]; · iexact HcS7
    isplitl [HcS8]; · iexact HcS8
    isplitl [HcS9]; · iexact HcS9
    isplitl [HcS10]; · iexact HcS10
    isplitl [HcS11]; · iexact HcS11
    isplitl [HcS12]; · iexact HcS12
    isplitl [HcS13]; · iexact HcS13
    isplitl [HcS14]; · iexact HcS14
    isplitl [HcS15]; · iexact HcS15
    isplitl [HatR0]; · iexact HatR0
    isplitl [HatR1]; · iexact HatR1
    isplitl [HatR2]; · iexact HatR2
    isplitl [HatR3]; · iexact HatR3
    isplitl [HatR4]; · iexact HatR4
    isplitl [HatR5]; · iexact HatR5
    isplitl [HatR6]; · iexact HatR6
    isplitl [HatR7]; · iexact HatR7
    isplitl [HatR8]; · iexact HatR8
    isplitl [HatR9]; · iexact HatR9
    isplitl [HatR10]; · iexact HatR10
    isplitl [HatR11]; · iexact HatR11
    isplitl [HatR12]; · iexact HatR12
    isplitl [HatR13]; · iexact HatR13
    isplitl [HatR14]; · iexact HatR14
    isplitl [HatR15]; · iexact HatR15
    isplitl [HcR0]; · iexact HcR0
    isplitl [HcR1]; · iexact HcR1
    isplitl [HcR2]; · iexact HcR2
    isplitl [HcR3]; · iexact HcR3
    isplitl [HcR4]; · iexact HcR4
    isplitl [HcR5]; · iexact HcR5
    isplitl [HcR6]; · iexact HcR6
    isplitl [HcR7]; · iexact HcR7
    isplitl [HcR8]; · iexact HcR8
    isplitl [HcR9]; · iexact HcR9
    isplitl [HcR10]; · iexact HcR10
    isplitl [HcR11]; · iexact HcR11
    isplitl [HcR12]; · iexact HcR12
    isplitl [HcR13]; · iexact HcR13
    isplitl [HcR14]; · iexact HcR14
    isplitl [HcR15]; · iexact HcR15
    isplitl [Hz0]; · iexact Hz0
    isplitl [Hsp0]; · iexact Hsp0
    isplitl [HO]; · iexists _; iexact HO
    isplitl [Hx]; · iexact Hx
    isplitl [Hown0]; · iexact Hown0
    isplitl [Hown1]; · iexact Hown1
    isplitl [Hown2]; · iexact Hown2
    isplitl [Hown3]; · iexact Hown3
    isplitl [Hown4]; · iexact Hown4
    isplitl [Hown5]; · iexact Hown5
    isplitl [Hown6]; · iexact Hown6
    isplitl [Hown7]; · iexact Hown7
    isplitl [Hown8]; · iexact Hown8
    isplitl [Hown9]; · iexact Hown9
    isplitl [Hown10]; · iexact Hown10
    isplitl [Hown11]; · iexact Hown11
    isplitl [Hown12]; · iexact Hown12
    isplitl [Hown13]; · iexact Hown13
    isplitl [Hown14]; · iexact Hown14
    isplitl [Hown15]; · iexact Hown15
    isplitl [Hs0a]; · iexists _; iexact Hs0a
    isplitl [Hs0b]; · iexists _; iexact Hs0b
    isplitl [Hs2a]; · iexists _; iexact Hs2a
    isplitl [Hs2b]; · iexists _; iexact Hs2b
    isplitl [Hs3a]; · iexists _; iexact Hs3a
    isplitl [Hs3b]; · iexists _; iexact Hs3b
    isplitl [Hl0]; · iexact Hl0
    isplitl [Hl1]; · iexact Hl1
    isplitl [Hl2]; · iexact Hl2
    isplitl [Hl3]; · iexact Hl3
    isplitl [Hl4]; · iexact Hl4
    iexact Hl5
  · iexact Hk

/-- The body of device `c`, executed from `bodyPre` to `bodyPost`. -/
theorem sound_body (K : Dev nD × Fin 33 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Kt := by
  rw [cc0_body_split]
  exact sound_body_aux m K c Kt _ rfl

end Cert.Kernel.A2A

end
-- ==== Proof.Kernel.BodyStmt.lean ====
/-
  The body obligation of one device: from the state before the body, the kernel's body runs to the state after it.
-/
import proofs.«900627_g7700000000000628_dist_a2a_v7x_xyz2x2x2_z_m16384_n1024_bf16_1_alg».proof.Proof.Kernel.Proto
import proofs.«900627_g7700000000000628_dist_a2a_v7x_xyz2x2x2_z_m16384_n1024_bf16_1_alg».proof.Proof.Gen.Kernel.Points
import proofs.«900627_g7700000000000628_dist_a2a_v7x_xyz2x2x2_z_m16384_n1024_bf16_1_alg».proof.Proof.Kernel.Body

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The pipeline stages no window, so a separating product over its windows is empty. -/
theorem bigSep_W0 (Φ : Fin cfg0.W → sProp 𝕄) : bigSep Finset.univ Φ = iprop(emp) := by
  have h : (Finset.univ : Finset (Fin cfg0.W)) = ∅ :=
    Finset.eq_empty_of_forall_notMem fun w _ => absurd w.isLt (Nat.not_lt_zero _)
  rw [h, bigSep_empty]; rfl

/-- The library's body obligation on device `c` (the pipeline has no window and one point): the state before the
    body is the body lemma's precondition regrouped, the invariants' names taken out of the start; what the core owes
    is held within a bound that is everything, before the body and after it. -/
theorem body_obligation (c : Dev nD) : BodyObligation (dats (F := F) m 0 c) (defs₀ (F := F)) 𝒱₀ () Set.univ := fun t => by
  rw [fin_N0 t, bigSep_W0, bigSep_W0]
  show iprop(Φ₀ m c ∗ Pipeline.owesWithin c (O₀ c) ((dats (F := F) m 0 c).bound () t0_0.castSucc) ∗ emp)
    ⊢ wp frame (wpE (defs₀ (F := F)) 𝒱₀ c none) Set.univ (bodyAt0 (F := F) t0_0)
        (fun _ => iprop(Φ₁ m c ∗ Pipeline.owesWithin c 0 ((dats (F := F) m 0 c).bound () t0_0.succ) ∗ emp))
  unfold Φ₀ start
  iintro ⟨⟨⟨⟨%K, Hg⟩, Hb, Hr, Hl, Hs⟩, Ha, Hscr⟩, HO, -⟩
  iapply (sound_body m K c _)
  unfold bodyPre bodyPost
  isplitr []
  · isplitl [Hg]; · iexact Hg
    isplitl [Hb]; · iexact Hb
    isplitl [Hr]; · iexact Hr
    isplitl [Hl]; · iexact Hl
    isplitl [Hs]; · iexact Hs
    isplitl [Ha]; · iexact Ha
    isplitl [Hscr]; · iexact Hscr
    iapply (Pipeline.owesWithin_mono c (O₀ c) (Set.subset_univ _))
    iexact HO
  · iintro ⟨HΦ, HO⟩
    isplitl [HΦ]; · iexact HΦ
    isplitl [HO]
    · iapply (Pipeline.owesWithin_mono c 0 Set.subset_union_left)
      iexact HO
    · iempintro

end Cert.Kernel.A2A

end
-- ==== Proof.Kernel.Launch.lean ====
/-
  The launch: from every device's body obligation to the run of the whole mesh.
-/
import proofs.«900627_g7700000000000628_dist_a2a_v7x_xyz2x2x2_z_m16384_n1024_bf16_1_alg».proof.Proof.Kernel.Proto
import proofs.«900627_g7700000000000628_dist_a2a_v7x_xyz2x2x2_z_m16384_n1024_bf16_1_alg».proof.Proof.Kernel.Tables
import proofs.«900627_g7700000000000628_dist_a2a_v7x_xyz2x2x2_z_m16384_n1024_bf16_1_alg».proof.Proof.Kernel.BodyStmt
import proofs.«900627_g7700000000000628_dist_a2a_v7x_xyz2x2x2_z_m16384_n1024_bf16_1_alg».proof.Proof.Gen.Kernel.Frame

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The layout facts -/

theorem ownSemFacts : Pipeline.OwnSemFacts cfg0.spec osem :=
  ⟨by decide, fun a b h => SemLoc.dma.inj h, fun k w s => w.elim0⟩

theorem share_eq (c : Dev nD) (w : Fin cfg0.W) : (dats m 0 c).share w = fullShare := w.elim0

/-! ## The 33 cells of a device: the barrier cell, then the send cells, then the receive cells -/

/-- The places of chunk `r`'s send cell and receive cell among a device's 33 cells. -/
abbrev sIx (r : Fin 16) : Fin 33 := ⟨1 + r.val, by have := r.isLt; omega⟩
abbrev rIx (r : Fin 16) : Fin 33 := ⟨17 + r.val, by have := r.isLt; omega⟩

theorem csem_zero : csem (0 : Fin 33) = .reg barS := by
  unfold csem; exact dif_pos rfl

theorem csem_sIx (r : Fin 16) : csem (sIx r) = .dma (sendSem r) := by
  have h0 : ¬ (sIx r).val = 0 := by show ¬ (1 + r.val = 0); omega
  have h1 : (sIx r).val < 17 := by show 1 + r.val < 17; have := r.isLt; omega
  unfold csem
  rw [dif_neg h0, dif_pos h1]
  exact congrArg (fun x => SemLoc.dma (sendSem x)) (Fin.ext (show 1 + r.val - 1 = r.val by omega))

theorem csem_rIx (r : Fin 16) : csem (rIx r) = .dma (recvSem r) := by
  have h0 : ¬ (rIx r).val = 0 := by show ¬ (17 + r.val = 0); omega
  have h1 : ¬ (rIx r).val < 17 := by show ¬ (17 + r.val < 17); omega
  unfold csem
  rw [dif_neg h0, dif_neg h1]
  exact congrArg (fun x => SemLoc.dma (recvSem x)) (Fin.ext (show 17 + r.val - 17 = r.val by omega))

theorem kcell_zero (c : Dev nD) : kcell (c, (0 : Fin 33)) = barCell c := congrArg (Prod.mk (c : Thread nD τ)) csem_zero
theorem kcell_sIx (c : Dev nD) (r : Fin 16) : kcell (c, sIx r) = sendCell c r := congrArg (Prod.mk (c : Thread nD τ)) (csem_sIx r)
theorem kcell_rIx (c : Dev nD) (r : Fin 16) : kcell (c, rIx r) = recvCell c r := congrArg (Prod.mk (c : Thread nD τ)) (csem_rIx r)

/-- Every cell but the barrier's is a DMA semaphore, number 5 + its place. -/
theorem csem_cases (k : Fin 33) :
    (csem k = .reg barS ∧ k.val = 0) ∨ (∃ q : DmaSem sig, csem k = .dma q ∧ q.val = 5 + k.val ∧ k.val ≠ 0) := by
  by_cases h0 : k.val = 0
  · left; exact ⟨by unfold csem; rw [dif_pos h0], h0⟩
  · right
    have hk := k.isLt
    by_cases h1 : k.val < 17
    · refine ⟨sendSem ⟨k.val - 1, by omega⟩, by unfold csem; rw [dif_neg h0, dif_pos h1], ?_, h0⟩
      show 6 + (k.val - 1) = 5 + k.val; omega
    · refine ⟨recvSem ⟨k.val - 17, by omega⟩, by unfold csem; rw [dif_neg h0, dif_neg h1], ?_, h0⟩
      show 22 + (k.val - 17) = 5 + k.val; omega

theorem csem_injective : Function.Injective csem := by
  intro a b h
  rcases csem_cases a with ⟨ha, a0⟩ | ⟨qa, ha, va, a0⟩ <;> rcases csem_cases b with ⟨hb, b0⟩ | ⟨qb, hb, vb, b0⟩
  · exact Fin.ext (a0.trans b0.symm)
  · rw [ha, hb] at h; cases h
  · rw [ha, hb] at h; cases h
  · rw [ha, hb] at h
    have hq : qa = qb := SemLoc.dma.inj h
    subst hq
    exact Fin.ext (by omega)

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The 33 places are the barrier's, the sixteen send places and the sixteen receive places. -/
def f33 : Unit ⊕ (Fin 16 ⊕ Fin 16) → Fin 33
  | .inl _ => 0
  | .inr (.inl r) => sIx r
  | .inr (.inr r) => rIx r
def e33 : Unit ⊕ (Fin 16 ⊕ Fin 16) ≃ Fin 33 := Equiv.ofBijective f33 (by decide)

/-- The 38 DMA semaphores are the six local ones, the sixteen send and the sixteen receive semaphores. -/
def f38 : Fin 6 ⊕ (Fin 16 ⊕ Fin 16) → Fin 38
  | .inl k => ⟨k.val, by have := k.isLt; omega⟩
  | .inr (.inl r) => ⟨6 + r.val, by have := r.isLt; omega⟩
  | .inr (.inr r) => ⟨22 + r.val, by have := r.isLt; omega⟩
def e38 : Fin 6 ⊕ (Fin 16 ⊕ Fin 16) ≃ Fin 38 := Equiv.ofBijective f38 (by decide)

omit [FloatOps F] in
theorem bigSep_fin33 (Ψ : Fin 33 → sProp 𝕄) :
    bigSep Finset.univ Ψ = iprop(Ψ 0 ∗ (bigSep Finset.univ fun r : Fin 16 => Ψ (sIx r)) ∗ bigSep Finset.univ fun r : Fin 16 => Ψ (rIx r)) := by
  rw [bigSep_univ_equiv e33 Ψ, bigSep_univ_sum, bigSep_univ_sum, bigSep_univ_of_subsingleton ()]
  rfl

omit [FloatOps F] in
/-- A family over a device's 33 cells, cell by cell. -/
theorem bigSep_cells (c : Dev nD) (Φ : GSem nD τ sig → sProp 𝕄) :
    (bigSep Finset.univ fun k : Fin 33 => Φ (kcell (c, k)))
      = iprop(Φ (barCell c) ∗ (bigSep Finset.univ fun r : Fin 16 => Φ (sendCell c r)) ∗ bigSep Finset.univ fun r : Fin 16 => Φ (recvCell c r)) := by
  rw [bigSep_fin33 (fun k => Φ (kcell (c, k)))]
  show iprop(Φ (kcell (c, 0)) ∗ (bigSep Finset.univ fun r : Fin 16 => Φ (kcell (c, sIx r))) ∗ bigSep Finset.univ fun r : Fin 16 => Φ (kcell (c, rIx r))) = _
  rw [kcell_zero, funext fun r => congrArg Φ (kcell_sIx c r), funext fun r => congrArg Φ (kcell_rIx c r)]

omit [FloatOps F] in
theorem bigSep_fin38 (Ψ : Fin 38 → sProp 𝕄) :
    bigSep Finset.univ Ψ = iprop((bigSep Finset.univ fun k : Fin 6 => Ψ ⟨k.val, by have := k.isLt; omega⟩)
      ∗ (bigSep Finset.univ fun r : Fin 16 => Ψ ⟨6 + r.val, by have := r.isLt; omega⟩)
      ∗ bigSep Finset.univ fun r : Fin 16 => Ψ ⟨22 + r.val, by have := r.isLt; omega⟩) := by
  rw [bigSep_univ_equiv e38 Ψ, bigSep_univ_sum, bigSep_univ_sum]
  rfl

/-! ## The launch element and what it deals each device -/

def cellsF : Finset (GSem nD τ sig) := Finset.univ.map ⟨kcell, kcell_injective⟩

/-- A cell's one duty token as minted. -/
abbrev tokOf (ck : Dev nD × Fin 33) : GSem nD τ sig × ℕ × Unit := (kcell ck, 0, ())
theorem tokOf_injective : Function.Injective (tokOf : Dev nD × Fin 33 → GSem nD τ sig × ℕ × Unit) :=
  fun a b h => kcell_injective (congrArg (fun x : GSem nD τ sig × ℕ × Unit => x.1) h)
def toksF : Finset (GSem nD τ sig × ℕ × Unit) := Finset.univ.map ⟨tokOf, tokOf_injective⟩

/-- The launch element: the pipeline library's, the protocol's, and the transfer counters' unit. -/
def u₀ : UU :=
  (initOf (Pipeline.cells cfgs cellOf_inj) (Pipeline.launchToks cfgs cellOf_inj), (initOf cellsF toksF, 1))

/-- The duty tokens of device `c`'s own cells. -/
def toks (c : Dev nD) : sProp 𝕄 := bigSep Finset.univ fun k : Fin 33 => dutyTok ER (kcell (c, k)) 0 ()

/-- The device's six local DMA semaphores at zero. -/
def locs (c : Dev nD) : sProp 𝕄 := bigSep Finset.univ fun k : Fin 6 => semVal (locCell c k) 0

/-- What the launch element deals device `c` (the theorem's `G`). -/
def G (c : Dev nD) : sProp 𝕄 :=
  iprop((bigSep Finset.univ fun k : Fin 33 => roundState ER (a2aRd m) (kcell (c, k)) 0)
    ∗ (bigSep Finset.univ fun k : Fin 33 => atPos ER (kcell (c, k)) 0 ∅ 0)
    ∗ (bigSep Finset.univ fun k : Fin 33 => reached ER (kcell (c, k)) 0) ∗ toks c)

/-- What the global step makes of it (`G'`). -/
def G' (c : Dev nD) : sProp 𝕄 := iprop((∃ K, ghost m K c) ∗ locs c)

theorem fund_cells : BI.own (ER (initOf cellsF toksF)) ⊢ (|==> bigSep Finset.univ (G m) : sProp 𝕄) := by
  have hX (Φ : GSem nD τ sig → sProp 𝕄) : bigSep cellsF Φ = bigSep Finset.univ fun c : Dev nD => bigSep Finset.univ fun k : Fin 33 => Φ (kcell (c, k)) := by
    unfold cellsF; rw [bigSep_map, bigSep_univ_prod]; rfl
  have hT : bigSep toksF (fun x => (dutyTok ER x.1 x.2.1 x.2.2 : sProp 𝕄)) = bigSep Finset.univ fun c : Dev nD => toks c := by
    unfold toksF; rw [bigSep_map, bigSep_univ_prod]; rfl
  iintro HX
  imod (Rounds.fund ER (a2aRd m) cellsF toksF) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The global step: the cells' invariants allocated, the tokens dealt to their payers -/

omit [FloatOps F] in
theorem ownSems0_eq (c : Dev nD) : (Pipeline.ownSems0 (Ix := Unit) (Name := ℕ) (U := UU) (Lvl := ℕ) (Val := Elt F) (τ := τ) osem c : sProp 𝕄)
    = iprop(locs c ∗ (bigSep Finset.univ fun r : Fin 16 => semVal (sendCell c r) 0) ∗ bigSep Finset.univ fun r : Fin 16 => semVal (recvCell c r) 0) := by
  unfold Pipeline.ownSems0; rw [bigSep_fin38]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 33 => semVal (kcell (c, k)) 0) ∗ locs c) : sProp 𝕄) := by
  rw [ownSems0_eq, unscopedSems0_eq, bigSep_cells c (fun g => semVal g 0)]
  iintro ⟨⟨HL, HS, HV⟩, HB⟩
  isplitr [HL]
  · isplitl [HB]; · iexact HB
    isplitl [HS] <;> iassumption
  · iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (a2aRd m) κ (kcell (c, k))))
          ∗ (bigSep Finset.univ fun k : Fin 33 => atPos ER (kcell (c, k)) 0 ∅ 0)
          ∗ (bigSep Finset.univ fun k : Fin 33 => reached ER (kcell (c, k)) 0) ∗ toks c ∗ locs c) := by
  unfold G
  iintro ⟨Hos, Hus, Hst, Hat, Hr, Htok⟩
  ihave Hv := (sems0_eq (F := F) c) $$ [Hos Hus]
  · isplitl [Hos] <;> iassumption
  icases Hv with ⟨Hv, Hloc⟩
  imod (show iprop((bigSep Finset.univ fun k : Fin 33 => semVal (kcell (c, k)) 0) ∗ bigSep Finset.univ fun k : Fin 33 => roundState ER (a2aRd m) (kcell (c, k)) 0)
      ⊢ (|={Set.univ}=> bigSep Finset.univ fun k : Fin 33 => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hloc

/-- The persistent records of the whole mesh: every cell's invariant at its name, every cell at round 0. -/
def records (K : Dev nD × Fin 33 → ℕ) : sProp 𝕄 :=
  iprop((bigSep Finset.univ fun ck : Dev nD × Fin 33 => cellInv ER (a2aRd m) (K ck) (kcell ck))
    ∗ bigSep Finset.univ fun ck : Dev nD × Fin 33 => reached ER (kcell ck) 0)

instance records_persistent (K : Dev nD × Fin 33 → ℕ) : BI.Persistent (records m K) := by unfold records; infer_instance

/-- What stays with device `c`: the tokens of the duties IT pays, -/
def payToks (c : Dev nD) : sProp 𝕄 :=
  iprop(dutyTok ER (barCell (peer c)) 0 () ∗ (bigSep Finset.univ fun r : Fin 16 => dutyTok ER (recvCell (peer c) r) 0 ())
    ∗ bigSep Finset.univ fun r : Fin 16 => dutyTok ER (sendCell c r) 0 ())
/-- its positions, and its local semaphores. -/
def linear (c : Dev nD) : sProp 𝕄 :=
  iprop((bigSep Finset.univ fun k : Fin 33 => atPos ER (kcell (c, k)) 0 ∅ 0) ∗ payToks c ∗ locs c)

omit [FloatOps F] in
/-- A persistent assertion in hand gives every summand it entails. -/
theorem rows {I : Type} [DecidableEq I] (S : Finset I) {R : sProp 𝕄} [BI.Persistent R] {Ψ : I → sProp 𝕄} (h : ∀ i, R ⊢ Ψ i) :
    R ⊢ bigSep S Ψ :=
  (BI.bigSep_of_persistent S R).trans (bigSep_mono fun i _ => h i)

theorem inv_own (K : Dev nD × Fin 33 → ℕ) (c : Dev nD) :
    (bigSep Finset.univ fun ck : Dev nD × Fin 33 => (cellInv ER (a2aRd m) (K ck) (kcell ck) : sProp 𝕄))
      ⊢ bigSep Finset.univ fun k : Fin 33 => cellInv ER (a2aRd m) (K (c, k)) (kcell (c, k)) :=
  rows Finset.univ fun k => bigSep_elim (Finset.mem_univ (c, k))
theorem inv_bar (K : Dev nD × Fin 33 → ℕ) (c : Dev nD) :
    (bigSep Finset.univ fun ck : Dev nD × Fin 33 => (cellInv ER (a2aRd m) (K ck) (kcell ck) : sProp 𝕄))
      ⊢ cellInv ER (a2aRd m) (K (c, 0)) (barCell c) :=
  (bigSep_elim (Finset.mem_univ (c, (0 : Fin 33)))).trans (Entails.of_eq (congrArg (cellInv ER (a2aRd m) (K (c, 0))) (kcell_zero c)))
theorem inv_recv (K : Dev nD × Fin 33 → ℕ) (c : Dev nD) :
    (bigSep Finset.univ fun ck : Dev nD × Fin 33 => (cellInv ER (a2aRd m) (K ck) (kcell ck) : sProp 𝕄))
      ⊢ bigSep Finset.univ fun r : Fin 16 => cellInv ER (a2aRd m) (K (c, rIx r)) (recvCell c r) :=
  rows Finset.univ fun r => (bigSep_elim (Finset.mem_univ (c, rIx r))).trans
    (Entails.of_eq (congrArg (cellInv ER (a2aRd m) (K (c, rIx r))) (kcell_rIx c r)))

omit [FloatOps F] in
theorem reached_own (c : Dev nD) :
    (bigSep Finset.univ fun ck : Dev nD × Fin 33 => (reached ER (kcell ck) 0 : sProp 𝕄))
      ⊢ bigSep Finset.univ fun k : Fin 33 => reached ER (kcell (c, k)) 0 :=
  rows Finset.univ fun k => bigSep_elim (Finset.mem_univ (c, k))
omit [FloatOps F] in
theorem reached_bar (c : Dev nD) :
    (bigSep Finset.univ fun ck : Dev nD × Fin 33 => (reached ER (kcell ck) 0 : sProp 𝕄)) ⊢ reached ER (barCell c) 0 :=
  (bigSep_elim (Finset.mem_univ (c, (0 : Fin 33)))).trans (Entails.of_eq (congrArg (fun g => (reached ER g 0 : sProp 𝕄)) (kcell_zero c)))
omit [FloatOps F] in
theorem reached_recv (c : Dev nD) :
    (bigSep Finset.univ fun ck : Dev nD × Fin 33 => (reached ER (kcell ck) 0 : sProp 𝕄))
      ⊢ bigSep Finset.univ fun r : Fin 16 => reached ER (recvCell c r) 0 :=
  rows Finset.univ fun r => (bigSep_elim (Finset.mem_univ (c, rIx r))).trans
    (Entails.of_eq (congrArg (fun g => (reached ER g 0 : sProp 𝕄)) (kcell_rIx c r)))

theorem ghost_intro (K : Dev nD × Fin 33 → ℕ) (c : Dev nD) : iprop(records m K ∗ linear c) ⊢ G' m c := by
  unfold records linear payToks G' ghost invs
  iintro ⟨⟨#HI, #HR⟩, Hat, ⟨HtB, HtV, HtS⟩, Hloc⟩
  isplitr [Hloc]
  · iexists K
    isplitr
    · isplitr; · iapply (inv_own m K c); iexact HI
      isplitr; · iapply (inv_bar m K (peer c)); iexact HI
      iapply (inv_recv m K (peer c)); iexact HI
    isplitl [Hat]; · iexact Hat
    isplitr; · iapply (reached_own (F := F) c); iexact HR
    isplitr; · iapply (reached_bar (F := F) (peer c)); iexact HR
    isplitr; · iapply (reached_recv (F := F) (peer c)); iexact HR
    isplitl [HtB]; · iexact HtB
    isplitl [HtV]; · iexact HtV
    iexact HtS
  · iexact Hloc

omit [FloatOps F] in
/-- A family over the devices, read at each device's partner. -/
theorem bigSep_peer (Φ : Dev nD → sProp 𝕄) : bigSep Finset.univ Φ = bigSep Finset.univ fun c => Φ (peer c) :=
  bigSep_univ_equiv pairing Φ

omit [FloatOps F] in
/-- The tokens dealt to their payers: a barrier's and a receive cell's token to the partner, a send cell's stays. -/
theorem toks_around : (bigSep Finset.univ fun c : Dev nD => (toks c : sProp 𝕄)) ⊢ bigSep Finset.univ fun c : Dev nD => payToks c := by
  have h : (fun c : Dev nD => (toks c : sProp 𝕄))
      = fun c => iprop(dutyTok ER (barCell c) 0 () ∗ (bigSep Finset.univ fun r : Fin 16 => dutyTok ER (sendCell c r) 0 ())
          ∗ bigSep Finset.univ fun r : Fin 16 => dutyTok ER (recvCell c r) 0 ()) :=
    funext fun c => bigSep_cells c (fun g => dutyTok ER g 0 ())
  rw [h]
  unfold payToks
  rw [bigSep_sep', bigSep_sep', bigSep_sep', bigSep_sep',
    bigSep_peer (fun c : Dev nD => (dutyTok ER (barCell c) 0 () : sProp 𝕄)),
    bigSep_peer (fun c : Dev nD => (bigSep Finset.univ fun r : Fin 16 => dutyTok ER (recvCell c r) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro :
    iprop((bigSep Finset.univ fun c : Dev nD => bigSep Finset.univ fun k : Fin 33 => (atPos ER (kcell (c, k)) 0 ∅ 0 : sProp 𝕄))
        ∗ (bigSep Finset.univ fun c : Dev nD => (payToks c : sProp 𝕄)) ∗ bigSep Finset.univ fun c : Dev nD => (locs c : sProp 𝕄))
      ⊢ bigSep Finset.univ fun c : Dev nD => (linear c : sProp 𝕄) := by
  unfold linear
  rw [bigSep_sep', bigSep_sep']

theorem regroup :
    (bigSep Finset.univ fun c : Dev nD => iprop((bigSep Finset.univ fun k : Fin 33 => iprop(∃ κ : ℕ, cellInv ER (a2aRd m) κ (kcell (c, k))))
          ∗ (bigSep Finset.univ fun k : Fin 33 => atPos ER (kcell (c, k)) 0 ∅ 0)
          ∗ (bigSep Finset.univ fun k : Fin 33 => reached ER (kcell (c, k)) 0) ∗ toks c ∗ locs c) : sProp 𝕄)
      ⊢ bigSep Finset.univ (G' m) := by
  rw [bigSep_sep', bigSep_sep', bigSep_sep', bigSep_sep',
    ← bigSep_univ_prod (fun ck : Dev nD × Fin 33 => iprop(∃ κ : ℕ, cellInv ER (a2aRd m) κ (kcell ck))),
    ← bigSep_univ_prod (fun ck : Dev nD × Fin 33 => (reached ER (kcell ck) 0 : sProp 𝕄))]
  iintro ⟨HI, Hat, #HR, Htok, Hloc⟩
  ihave HK := (BI.bigSep_exists_pi Finset.univ (fun (ck : Dev nD × Fin 33) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk]; · iexact Htk
    iexact Hloc

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device still owes of its receive debts from chunk `k` on: a chunk's credit to each of those cells of its partner. -/
theorem owedFrom_sum (c : Dev nD) : ∀ j k : ℕ, j + k = 16 →
    owedFrom c k = ∑ r ∈ Finset.univ.filter (fun r : Fin 16 => k ≤ r.val), (tallyAt (recvCell (peer c) r) () N : CellTallies nD τ sig Unit)
  | 0, k, h => by
    have hk : k = 16 := by omega
    subst hk
    rw [owedFrom_16, Finset.filter_eq_empty_iff.mpr (fun r _ => by have := r.isLt; omega), Finset.sum_empty]
  | j + 1, k, h => by
    have hk : k < 16 := by omega
    have h1 : owedFrom c k = owedFrom c (k + 1) + tallyAt (recvCell (peer c) ⟨k, hk⟩) () N := owedFrom_lt c ⟨k, hk⟩
    have hf : Finset.univ.filter (fun r : Fin 16 => k ≤ r.val) = insert ⟨k, hk⟩ (Finset.univ.filter (fun r : Fin 16 => k + 1 ≤ r.val)) := by
      ext r; simp only [Finset.mem_filter, Finset.mem_univ, true_and, Finset.mem_insert, Fin.ext_iff]; omega
    rw [h1, owedFrom_sum c j (k + 1) (by omega), hf,
      Finset.sum_insert (by simp only [Finset.mem_filter, Finset.mem_univ, true_and]; omega), add_comm]

theorem owedFrom_zero (c : Dev nD) :
    owedFrom c 0 = ∑ r : Fin 16, (tallyAt (recvCell (peer c) r) () N : CellTallies nD τ sig Unit) := by
  rw [owedFrom_sum c 16 0 rfl]
  exact Finset.sum_congr (Finset.filter_true_of_mem fun r _ => Nat.zero_le _) fun _ _ => rfl

omit [FloatOps F] in
theorem creds (c : Dev nD) :
    (Pipeline.launchCred O₀ c : sProp 𝕄)
      ⊢ iprop(cred (tallyAt (barCell c) () 1) ∗ bigSep Finset.univ fun r : Fin 16 => cred (tallyAt (recvCell c r) () N)) := by
  have hO : (O₀ : Dev nD → CellTallies nD τ sig Unit)
      = fun d => (∑ r : Fin 16, (tallyAt (recvCell (peer d) r) () N : CellTallies nD τ sig Unit)) + tallyAt (barCell (peer d)) () 1 :=
    funext fun d => by unfold O₀; rw [owedFrom_zero]
  rw [hO, Pipeline.launchCred_add, Pipeline.launchCred_sum]
  have hR : (bigSep Finset.univ fun r : Fin 16 =>
        (Pipeline.launchCred (fun d => (tallyAt (recvCell (peer d) r) () N : CellTallies nD τ sig Unit)) c : sProp 𝕄))
      ⊢ bigSep Finset.univ fun r : Fin 16 => cred (tallyAt (recvCell c r) () N) :=
    bigSep_mono fun r _ => Pipeline.launchCred_tallyAt (SemLoc.dma (recvSem r)) peer peer peer_peer peer_peer () N c
  iintro ⟨HR, HB⟩
  isplitl [HB]
  · iapply (Pipeline.launchCred_tallyAt (SemLoc.reg barS) peer peer peer_peer peer_peer () 1 c); iexact HB
  · iapply hR; iexact HR

/-! ## The theorem's side conditions -/

/-- What a device enters its region with: the start, and its two arrays as launched. -/
def XX (c : Dev nD) : sProp 𝕄 := iprop(start m c ∗ arrays m c (m ((c : Thread nD τ).loc main_v1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(XX m c ∗ emp) := by
  rw [Pipeline.unscopedRestP_none, unscopedRest0_eq]
  unfold G'
  iintro ⟨⟨Ha, Hv⟩, Hlev, Hcr, -, HG, Hloc⟩
  ihave Hc := (creds (F := F) c) $$ Hcr
  icases Hc with ⟨H1, HN⟩
  imodintro
  unfold XX start arrays X locs
  isplitl
  · isplitl [HG H1 HN Hlev Hloc]
    · isplitl [HG]; · iexact HG
      isplitl [H1]; · iexact H1
      isplitl [HN]; · iexact HN
      isplitl [Hlev]; · iexact Hlev
      iexact Hloc
    · isplitl [Ha]; · iexact Ha
      iexact Hv
  · iempintro

theorem phi0_intro (c : Dev nD) :
    iprop(XX m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ XX scratch
  iintro ⟨⟨Hs, Ha⟩, -, Hscr⟩
  isplitl [Hs]; · iexact Hs
  isplitl [Ha]; · iexact Ha
  iexact Hscr

theorem phi1_exit (c : Dev nD) :
    (dats m 0 c).Φ (Fin.last cfg0.N) ⊢ iprop(arrays m c (OV m c) ∗ Pipeline.ownSems0 osem c ∗ Pipeline.scopedRest cfg0.spec c) := by
  rw [show (dats m 0 c).Φ (Fin.last cfg0.N) = Φ₁ m c from rfl, scopedRest0_eq]
  unfold Φ₁ scratch Pipeline.ownSems0
  iintro ⟨Ha, Hscr, Hs⟩
  isplitl [Ha]; · iexact Ha
  isplitl [Hs]; · iexact Hs
  iexact Hscr

theorem waits (c : Dev nD) : (levAts L lv : sProp 𝕄) ⊢ Pipeline.cellsWaits cfgs (dats m) () 0 c :=
  Pipeline.cellsWaits_intro cfgs (dats m) () 0 c fun w s t => w.elim0

end Launch

open Launch

/-! ## The run -/

set_option maxRecDepth 100000 in
/-- From any memory with every semaphore at zero, every weakly fair execution of the eight devices' kernels ends,
    faults nowhere, and leaves each device's result array at the column block of the whole array that its last
    coordinate names, its argument array as it was. -/
theorem run_main :
    θ_run (defs (F := F)) (onTc (τ := τ) (main (F := F))) ⟨m, fun _ => 0, ρ⟩ (fun r => ∀ c : Dev nD,
      r.2.mem ((c.tc : Thread nD τ).loc main_v1) = outVal (fun d => m ((d.tc : Thread nD τ).loc main_arg0)) c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HXC⟩
      ihave H2 := (own_pair_emb (embR : Emb (UB × Counters) 𝕄) (initOf cellsF toksF) (1 : Counters)) $$ HXC
      icases H2 with ⟨HX, -⟩
      imod (fund_cells m) $$ HX with HG
      imodintro
      isplitl [HP] <;> iassumption)
    (hglob := glob m)
    (hA := fun _ w => w.elim0) (hpf := fun _ k => k.elim0)
    (X := XX m) (Y := fun c => arrays m c (OV m c)) (Z := fun _ => iprop(emp))
    (hX := start_intro m ρ) (hin := phi0_intro m) (hout := phi1_exit m)
    (QY := fun c s => s.mem ((c : Thread nD τ).loc main_v1) = OV m c ∧ s.mem ((c : Thread nD τ).loc main_arg0) = X m c)
    (hY := fun c s' => by
      unfold arrays
      iintro ⟨⟨Hx, Ho⟩, -, HSI⟩
      icombine HSI Hx gives %hx
      icombine HSI Ho gives %ho
      imodintro
      isplitr
      · ipureintro; exact ⟨Buf.eq_of_forall_mem_univ ho, Buf.eq_of_forall_mem_univ hx⟩
      iexact HSI)
    (hQ := fun s h c => ⟨(h c).2.2.1, (h c).2.2.2⟩)

#print axioms run_main

end Cert.Kernel.A2A

end
-- ==== Proof.KernelIdeal.Spec.lean ====
/-
  The all-to-all along the mesh's last axis, as a specification.

  The mesh is 2 x 2 x 2 and a device's linear id is 4 x + 2 y + z, so its coordinate on the last axis is the id's
  parity and its partner on that axis is the id with the parity flipped.  Device c holds the row block z of the whole
  array x (16384 rows of 2048 columns); its result is the column block z of x (32768 rows of 1024 columns), each entry
  narrowed to bf16: the rows of its own row block come from its own argument, the rows of the other row block from
  its partner's argument.
-/
import proofs.«900627_g7700000000000628_dist_a2a_v7x_xyz2x2x2_z_m16384_n1024_bf16_1_alg».proof.KernelIdeal
import Idealize.ShloMosaic.Lib.ValueIdx

noncomputable section

namespace Cert.KernelIdeal.A2A

open Idealize.ShloMosaic Idealize.SL.Sem

variable {F : FTy → Type} [FloatOps F]

/-- A device's coordinate on the mesh's last axis. -/
def zOf (c : Dev nD) : ℕ := c.val % 2

theorem zOf_lt (c : Dev nD) : zOf c < 2 := Nat.mod_lt _ (by decide)

/-- The device with the same first two coordinates and the other last coordinate. -/
def peer (c : Dev nD) : Dev nD :=
  ⟨(4 * (c.val / 4) + 2 * ((c.val / 2) % 2) + 1) - (c.val % 2), by have := c.isLt; simp only [nD] at *; omega⟩

theorem peer_peer (c : Dev nD) : peer (peer c) = c := by revert c; decide
theorem peer_ne (c : Dev nD) : peer c ≠ c := by revert c; decide
theorem zOf_peer (c : Dev nD) : zOf (peer c) = 1 - zOf c := by revert c; decide

/-- The device whose argument block holds row `r` of the whole array, as seen from device `c`: `c` itself when the
    row lies in `c`'s own row block, its partner otherwise. -/
def ownerOf (c : Dev nD) (r : ℕ) : Dev nD := if r / 16384 = zOf c then c else peer c

/-- What device `c`'s result array must hold: at row `r`, column `k`, the entry at row `r % 16384`, column
    `1024 z + k` of the argument block of the device owning row `r`, narrowed to bf16. -/
def outVal (X : (d : Dev nD) → Buf (Elt F) ((d.tc : Thread nD τ).loc main_arg0)) (c : Dev nD) :
    Buf (Elt F) ((c.tc : Thread nD τ).loc main_v1) :=
  fun (j : S32768x1024.Idx) =>
    (truncf .bf16 (X (ownerOf c (j 0).val) : FVec F S16384x2048 .f32) (by decide) : FVec F S16384x2048 .bf16)
      (ValueIdx.ix2 (⟨(j 0).val % 16384, Nat.mod_lt _ (by decide)⟩ : Fin 16384)
        (⟨1024 * zOf c + (j 1).val, by have h0 := zOf_lt c; have h1 : (j 1).val < 1024 := (j 1).isLt; omega⟩ : Fin 2048))

end Cert.KernelIdeal.A2A

end
-- ==== Proof.KernelIdeal.Proto.lean ====
/-
  The protocol of the all-to-all along the mesh's last axis, under the rounds discipline.

  Every device c has a partner p = peer c.  At entry c signals p's barrier semaphore one unit and waits one unit on its
  own: the unit it receives is p's word that p is inside the kernel, and with it p lends c the sixteen row slices of
  p's result array that c will write.  For each of the sixteen row chunks r, c copies its narrowed chunk from its send
  buffer's slot r into p's result array, crediting its own send semaphore r when the slot is read and p's receive
  semaphore r when the slice is written; the landing hands p the slice back, holding its final contents.  Each of the
  33 semaphores of a device that another device or a remote copy pays is a cell with ONE round of ONE duty.
-/
import proofs.«900627_g7700000000000628_dist_a2a_v7x_xyz2x2x2_z_m16384_n1024_bf16_1_alg».proof.Proof.KernelIdeal.Spec
import proofs.«900627_g7700000000000628_dist_a2a_v7x_xyz2x2x2_z_m16384_n1024_bf16_1_alg».proof.Proof.Gen.KernelIdeal
import proofs.«900627_g7700000000000628_dist_a2a_v7x_xyz2x2x2_z_m16384_n1024_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's (one duty a round), and the counters the
    local copies' invariants take their tokens from -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER (F := F)).LandsIn (upEmb : UEmb _ (MT nD τ sig Unit (Elt F) ℕ UU ℕ)) := by
  delta ER; unfold embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Every device's argument block at launch. -/
def X (d : Dev nD) : Buf (Elt F) ((d : Thread nD τ).loc main_arg0) := m ((d : Thread nD τ).loc main_arg0)
/-- Device `c`'s result array as it must end. -/
def OV (c : Dev nD) : Buf (Elt F) ((c : Thread nD τ).loc main_v1) := outVal (X m) c

/-- The kernel names its partner by seventeen integer chains; each is `peer`. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)
theorem dev10_eq (c : Dev nD) : (⟨k0_dev10 c, k0_dev10_lt c⟩ : Dev nD) = peer c := Fin.ext (k0_dev10_eq c)
theorem dev11_eq (c : Dev nD) : (⟨k0_dev11 c, k0_dev11_lt c⟩ : Dev nD) = peer c := Fin.ext (k0_dev11_eq c)
theorem dev12_eq (c : Dev nD) : (⟨k0_dev12 c, k0_dev12_lt c⟩ : Dev nD) = peer c := Fin.ext (k0_dev12_eq c)
theorem dev13_eq (c : Dev nD) : (⟨k0_dev13 c, k0_dev13_lt c⟩ : Dev nD) = peer c := Fin.ext (k0_dev13_eq c)
theorem dev14_eq (c : Dev nD) : (⟨k0_dev14 c, k0_dev14_lt c⟩ : Dev nD) = peer c := Fin.ext (k0_dev14_eq c)
theorem dev15_eq (c : Dev nD) : (⟨k0_dev15 c, k0_dev15_lt c⟩ : Dev nD) = peer c := Fin.ext (k0_dev15_eq c)
theorem dev16_eq (c : Dev nD) : (⟨k0_dev16 c, k0_dev16_lt c⟩ : Dev nD) = peer c := Fin.ext (k0_dev16_eq c)
theorem dev17_eq (c : Dev nD) : (⟨k0_dev17 c, k0_dev17_lt c⟩ : Dev nD) = peer c := Fin.ext (k0_dev17_eq c)

def pairing : Dev nD ≃ Dev nD := ⟨peer, peer, peer_peer, peer_peer⟩

/-! ## The memrefs and cells -/

abbrev xM : Memref sig .tc .hbm S16384x2048 .f32 := Memref.whole main_arg0
abbrev oM : Memref sig .tc .hbm S32768x1024 .bf16 := Memref.whole main_v1
abbrev stgS : Memref sig .tc .vmem S2x1024x1024 .f32 := Memref.whole cc0_scratch0
abbrev sndB : Memref sig .tc .vmem S16x1024x1024 .bf16 := Memref.whole cc0_scratch1
abbrev stgL : Memref sig .tc .vmem S2x1024x1024 .f32 := Memref.whole cc0_scratch2
abbrev locB : Memref sig .tc .vmem S2x1024x1024 .bf16 := Memref.whole cc0_scratch3

/-- Row chunk `r`'s slice of the result array as DEVICE `c`'s kernel addresses it: rows `16384 z + 1024 r` on,
    `z` the last coordinate of `c`.  The same slice is the destination of `c`'s local store (on `c`) and of `c`'s remote
    copy (on `peer c`). -/
abbrev oS (c : Dev nD) (r : Fin 16) : Memref sig .tc .hbm S1024x1024 .bf16 :=
  (oM).slice (Rect.unit (s := S32768x1024) (k0_off4 c (BitVec.ofNat 32 (1024 * r.val))) S1024x1024.size (k0_off4_inb c r)) (fun _ => rfl)

theorem sb_inb (r : Fin 16) : ∀ a, (![r.val, 0, 0] : Fin 3 → Nat) a + S1x1024x1024.size a ≤ S16x1024x1024.size a := by
  revert r; decide
/-- Slot `r` of the send buffer. -/
abbrev sbS (r : Fin 16) : Memref sig .tc .vmem S1024x1024 .bf16 :=
  ((sndB).slice (Rect.unit (s := S16x1024x1024) ![r.val, 0, 0] S1x1024x1024.size (sb_inb r)) (fun _ => rfl)).squeeze S1024x1024 squeezes_S1x1024x1024_S1024x1024

/-- The barrier semaphore of the collective (not scoped to the launch); the send and receive DMA semaphores of chunk `r`
    (the kernel's ninth and tenth scratch operands, sixteen each: numbers `6 + r` and `22 + r` of the 38). -/
abbrev barS : Sem sig := (SemArray.scalar (sig.barrier 0 rfl) : Sems sig S_).sem
def sendSem (r : Fin 16) : DmaSem sig := ⟨6 + r.val, by have := r.isLt; show 6 + r.val < 38; omega⟩
def recvSem (r : Fin 16) : DmaSem sig := ⟨22 + r.val, by have := r.isLt; show 22 + r.val < 38; omega⟩
/-- The six DMA semaphores only the device's own local copies touch (numbers 0 to 5). -/
def locSem (k : Fin 6) : DmaSem sig := ⟨k.val, by have := k.isLt; show k.val < 38; omega⟩

abbrev barCell (c : Dev nD) : GSem nD τ sig := ((c : Thread nD τ), .reg barS)
abbrev sendCell (c : Dev nD) (r : Fin 16) : GSem nD τ sig := ((c : Thread nD τ), .dma (sendSem r))
abbrev recvCell (c : Dev nD) (r : Fin 16) : GSem nD τ sig := ((c : Thread nD τ), .dma (recvSem r))
abbrev locCell (c : Dev nD) (k : Fin 6) : GSem nD τ sig := ((c : Thread nD τ), .dma (locSem k))

/-- The kernel's OWN (scoped) semaphores, as the launch theorem indexes them: all 38 DMA semaphores. -/
abbrev osem : Fin 38 → SemLoc sig := fun k => .dma k
/-- The protocol's 33 cells of a device: the barrier, the sixteen send cells, the sixteen receive cells. -/
def csem (k : Fin 33) : SemLoc sig :=
  if h0 : k.val = 0 then .reg barS
  else if h1 : k.val < 17 then .dma (sendSem ⟨k.val - 1, by omega⟩)
  else .dma (recvSem ⟨k.val - 17, by have := k.isLt; omega⟩)
abbrev kcell (ck : Dev nD × Fin 33) : GSem nD τ sig := ((ck.1 : Thread nD τ), csem ck.2)

/-- The credit of one chunk's copy (1024 x 1024 bf16 elements). -/
abbrev N : ℕ := (sbS 0 : Memref sig .tc .vmem S1024x1024 .bf16).view.dmaCredit
theorem N_pos : 0 < N := View.dmaCredit_pos _ (by decide)

/-! ## The schedule -/

/-- A result-array slice held outright at some contents, on device `d`. -/
def slicePts (d : Dev nD) (v : Memref sig .tc .hbm S1024x1024 .bf16) : sProp 𝕄 :=
  iprop(∃ f : Buf (Elt F) (v.view.loc (d : Thread nD τ)), v.view.loc (d : Thread nD τ) ↦[v.view.set]{fullShare} f)

/-- What `peer c`'s signal hands `c` (the one duty of `c`'s barrier cell): for every chunk, the slice of `peer c`'s
    result array that `c` will write, and that `peer c` has reached round 0 of its receive cell for the chunk. -/
def barPay (c : Dev nD) : sProp 𝕄 :=
  bigSep Finset.univ fun r : Fin 16 => iprop(slicePts (F := F) (peer c) (oS c r) ∗ reached ER (recvCell (peer c) r) 0)
/-- What the landing of `peer c`'s copy of chunk `r` hands `c`: the slice of `c`'s result array it wrote, at its final contents. -/
def recvPay (c : Dev nD) (r : Fin 16) : sProp 𝕄 :=
  (oS (peer c) r).view.loc (c : Thread nD τ) ↦[(oS (peer c) r).view.set]{fullShare} OV m c
/-- What the send buffer holds once every chunk is narrowed into it: slot `s`, row `a`, column `b` is the entry at row
    `1024 s + a`, column `1024 (1 - z) + b` of the device's argument block (the columns its partner keeps), narrowed. -/
def sbV (c : Dev nD) : Buf (Elt F) ((c : Thread nD τ).loc cc0_scratch1) :=
  fun (j : S16x1024x1024.Idx) =>
    (truncf .bf16 (X m c : FVec F S16384x2048 .f32) (by decide) : FVec F S16384x2048 .bf16)
      (ValueIdx.ix2 (⟨1024 * (j 0).val + (j 1).val, by have h0 : (j 0).val < 16 := (j 0).isLt; have h1 : (j 1).val < 1024 := (j 1).isLt; omega⟩ : Fin 16384)
        (⟨1024 * (1 - zOf c) + (j 2).val, by have h2 : (j 2).val < 1024 := (j 2).isLt; have := zOf_lt c; omega⟩ : Fin 2048))
/-- What the reading of slot `r` hands `c` back: the slot, at its sent chunk. -/
def sendPay (c : Dev nD) (r : Fin 16) : sProp 𝕄 :=
  (sbS r).view.loc (c : Thread nD τ) ↦[(sbS r).view.set]{fullShare} sbV m c

/-- Is `g` one of the protocol's cells (on a TensorCore thread: the barrier, a send or a receive semaphore)? -/
def IsCell (g : GSem nD τ sig) : Prop :=
  g.1.2 = .tc ∧ (g.2 = .reg barS ∨ ∃ q : DmaSem sig, g.2 = .dma q ∧ 6 ≤ q.val)
instance (g : GSem nD τ sig) : Decidable (IsCell g) := by unfold IsCell; infer_instance

/-- One round, round 0, one duty: a barrier cell's of one unit, a send or receive cell's of a chunk's credit. -/
def a2aRd : Rounds.Schedule (GSem nD τ sig) Unit 𝕄 where
  duties g r := if r = 0 ∧ IsCell g then {()} else ∅
  unitless _ := False
  amount g _ _ := if g.2 = .reg barS then 1 else N
  payload g _ _ :=
    match g.2 with
    | .reg s => if s = barS then barPay g.1.1 else iprop(emp)
    | .dma q =>
      if h : 22 ≤ q.val then recvPay m g.1.1 ⟨q.val - 22, by have hq : q.val < 38 := q.isLt; show q.val - 22 < 16; omega⟩
      else if h' : 6 ≤ q.val then sendPay m g.1.1 ⟨q.val - 6, by omega⟩
      else iprop(emp)
  amount_pos g _ _ _ := by
    by_cases h : g.2 = .reg barS
    · rw [if_pos h]; exact Nat.one_pos
    · rw [if_neg h]; exact N_pos

instance a2aRd_payload_storable (g : GSem nD τ sig) (r : ℕ) (d : Unit) :
    BI.Storable (upEmb : UEmb _ 𝕄) ((a2aRd (F := F) m).payload g r d) := by
  dsimp only [a2aRd]
  split
  · split
    · unfold barPay slicePts; infer_instance
    · infer_instance
  · split
    · unfold recvPay; infer_instance
    · split
      · unfold sendPay; infer_instance
      · infer_instance

/-! ## What each device owes at launch; the levels -/

/-- The receive credits device `c` still owes its partner before its copy of chunk `k`: chunks `k` to 15, summed so that
    the copy of chunk `k` peels the last summand. -/
def owedFrom (c : Dev nD) : ℕ → CellTallies nD τ sig Unit
  | k => if h : k < 16 then owedFrom c (k + 1) + tallyAt (recvCell (peer c) ⟨k, h⟩) () N else 0
termination_by k => 16 - k

theorem owedFrom_lt (c : Dev nD) (k : Fin 16) :
    owedFrom c k.val = owedFrom c (k.val + 1) + tallyAt (recvCell (peer c) k) () N := by
  rw [owedFrom, dif_pos k.isLt]
theorem owedFrom_16 (c : Dev nD) : owedFrom c 16 = 0 := by
  rw [owedFrom, dif_neg (by omega)]

/-- At launch device `c` owes its partner's sixteen receive cells a chunk's credit each and its partner's barrier cell
    one unit; the signal comes first, so its unit is the last summand. -/
def O₀ (c : Dev nD) : CellTallies nD τ sig Unit := owedFrom c 0 + tallyAt (barCell (peer c)) () 1

def L (g : GSem nD τ sig) : Finset Unit := if g.1.2 = .tc then {()} else ∅
/-- Barrier cells at level 1, receive cells at 2, everything else (the local copies' and the send cells) at 0. -/
def lv (g : GSem nD τ sig) (_ : Unit) : ℕ :=
  match g.2 with
  | .reg s => if s = barS then 1 else 0
  | .dma q => if 22 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state and the proof data -/

/-- The cells' invariants device `c`'s body opens, under the names `K` the launch allocated them at: its own 33, its
    partner's barrier cell (its signal) and its partner's sixteen receive cells (its copies). -/
def invs (K : Dev nD × Fin 33 → ℕ) (c : Dev nD) : sProp 𝕄 :=
  iprop((bigSep Finset.univ fun k : Fin 33 => cellInv ER (a2aRd m) (K (c, k)) (kcell (c, k)))
    ∗ cellInv ER (a2aRd m) (K (peer c, 0)) (barCell (peer c))
    ∗ bigSep Finset.univ fun r : Fin 16 => cellInv ER (a2aRd m) (K (peer c, ⟨17 + r.val, by have := r.isLt; omega⟩)) (recvCell (peer c) r))

instance invs_persistent (K : Dev nD × Fin 33 → ℕ) (c : Dev nD) : BI.Persistent (invs m K c) := by unfold invs; infer_instance

/-- The protocol's ghost state device `c` starts from: the invariants; its positions at round 0 of its 33 cells; that
    round 0 is reached of the cells it pays and of its own; the 33 duty tokens it pays with — its partner's barrier
    duty, its partner's sixteen receive duties, its own sixteen send duties. -/
def ghost (K : Dev nD × Fin 33 → ℕ) (c : Dev nD) : sProp 𝕄 :=
  iprop(invs m K c
    ∗ (bigSep Finset.univ fun k : Fin 33 => atPos ER (kcell (c, k)) 0 ∅ 0)
    ∗ (bigSep Finset.univ fun k : Fin 33 => reached ER (kcell (c, k)) 0)
    ∗ reached ER (barCell (peer c)) 0 ∗ (bigSep Finset.univ fun r : Fin 16 => reached ER (recvCell (peer c) r) 0)
    ∗ dutyTok ER (barCell (peer c)) 0 ()
    ∗ (bigSep Finset.univ fun r : Fin 16 => dutyTok ER (recvCell (peer c) r) 0 ())
    ∗ (bigSep Finset.univ fun r : Fin 16 => dutyTok ER (sendCell c r) 0 ()))

/-- What device `c`'s body starts from besides its buffers: the ghost state at some names, its credit tokens (its
    barrier's unit, each receive cell's credit), the level facts, and its six local DMA semaphores at zero. -/
def start (c : Dev nD) : sProp 𝕄 :=
  iprop((∃ K, ghost m K c) ∗ cred (tallyAt (barCell c) () 1)
    ∗ (bigSep Finset.univ fun r : Fin 16 => cred (tallyAt (recvCell c r) () N)) ∗ levAts L lv
    ∗ bigSep Finset.univ fun k : Fin 6 => semVal (locCell c k) 0)

/-- The device's two unscoped arrays: the argument as launched, the result at contents `f`. -/
def arrays (c : Dev nD) (f : Buf (Elt F) ((c : Thread nD τ).loc main_v1)) : sProp 𝕄 :=
  iprop((((c : Thread nD τ).loc main_arg0) ↦{fullShare} X m c) ∗ (((c : Thread nD τ).loc main_v1) ↦{fullShare} f))
/-- Its four scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Before the body: the start, the arrays as launched, the scratch buffers. -/
def Φ₀ (c : Dev nD) : sProp 𝕄 := iprop(start m c ∗ arrays m c (m ((c : Thread nD τ).loc main_v1)) ∗ scratch (F := F) c)
/-- After it: the result array at its final contents, the argument as launched, the scratch buffers, and all 38 own
    semaphores back at zero (the barrier cell is not the kernel's: nothing to hand back). -/
def Φ₁ (c : Dev nD) : sProp 𝕄 :=
  iprop(arrays m c (OV m c) ∗ scratch (F := F) c ∗ bigSep Finset.univ fun k : Fin 38 => semVal ((c : Thread nD τ), osem k) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The body's statement -/

/-- What the body starts from, the names of the invariants fixed. -/
def bodyPre (K : Dev nD × Fin 33 → ℕ) (c : Dev nD) : sProp 𝕄 :=
  iprop(ghost m K c ∗ cred (tallyAt (barCell c) () 1)
    ∗ (bigSep Finset.univ fun r : Fin 16 => cred (tallyAt (recvCell c r) () N)) ∗ levAts L lv
    ∗ (bigSep Finset.univ fun k : Fin 6 => semVal (locCell c k) 0)
    ∗ arrays m c (m ((c : Thread nD τ).loc main_v1)) ∗ scratch (F := F) c
    ∗ Pipeline.owesWithin c (O₀ c) Set.univ)

def bodyPost (c : Dev nD) : sProp 𝕄 := iprop(Φ₁ m c ∗ Pipeline.owesWithin c 0 Set.univ)

end Cert.KernelIdeal.A2A

end
-- ==== Proof.KernelIdeal.Tables.lean ====
/-
  The schedule's tables: which duty each of a device's 33 cells has in its one round, of what amount, with what
  payload; and the level argument: a device waits on a cell only while everything it still owes lies above that cell.
-/
import proofs.«900627_g7700000000000628_dist_a2a_v7x_xyz2x2x2_z_m16384_n1024_bf16_1_alg».proof.Proof.KernelIdeal.Proto

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD) (r : Fin 16)

omit [FloatOps F] in
theorem isCell_bar : IsCell (barCell c) := ⟨rfl, .inl rfl⟩
omit [FloatOps F] in
theorem isCell_send : IsCell (sendCell c r) := ⟨rfl, .inr ⟨sendSem r, rfl, Nat.le_add_right 6 r.val⟩⟩
omit [FloatOps F] in
theorem isCell_recv : IsCell (recvCell c r) :=
  ⟨rfl, .inr ⟨recvSem r, rfl, by show 6 ≤ 22 + r.val; omega⟩⟩

theorem duties_bar : (a2aRd (F := F) m).duties (barCell c) 0 = {()} := by dsimp only [a2aRd]; exact if_pos ⟨rfl, isCell_bar c⟩
theorem duties_send : (a2aRd (F := F) m).duties (sendCell c r) 0 = {()} := by dsimp only [a2aRd]; exact if_pos ⟨rfl, isCell_send c r⟩
theorem duties_recv : (a2aRd (F := F) m).duties (recvCell c r) 0 = {()} := by dsimp only [a2aRd]; exact if_pos ⟨rfl, isCell_recv c r⟩
theorem duties_later (g : GSem nD τ sig) : ∀ r, 1 ≤ r → (a2aRd (F := F) m).duties g r = ∅ :=
  fun r hr => by dsimp only [a2aRd]; rw [if_neg fun h => by omega]

theorem amount_bar (d : Unit) : (a2aRd (F := F) m).amount (barCell c) 0 d = 1 := by dsimp only [a2aRd]; exact if_pos rfl
theorem amount_send (d : Unit) : (a2aRd (F := F) m).amount (sendCell c r) 0 d = N := by
  dsimp only [a2aRd]; exact if_neg fun h => by cases h
theorem amount_recv (d : Unit) : (a2aRd (F := F) m).amount (recvCell c r) 0 d = N := by
  dsimp only [a2aRd]; exact if_neg fun h => by cases h

theorem expect_bar : (a2aRd (F := F) m).expect (barCell c) 0 = 1 := by
  unfold Schedule.expect Schedule.amountOf; rw [duties_bar, Finset.sum_singleton, amount_bar]
theorem expect_send : (a2aRd (F := F) m).expect (sendCell c r) 0 = N := by
  unfold Schedule.expect Schedule.amountOf; rw [duties_send, Finset.sum_singleton, amount_send]
theorem expect_recv : (a2aRd (F := F) m).expect (recvCell c r) 0 = N := by
  unfold Schedule.expect Schedule.amountOf; rw [duties_recv, Finset.sum_singleton, amount_recv]

theorem payload_bar (d : Unit) : (a2aRd (F := F) m).payload (barCell c) 0 d = barPay c := by
  dsimp only [a2aRd]; rw [if_pos rfl]
theorem payload_send (d : Unit) : (a2aRd (F := F) m).payload (sendCell c r) 0 d = sendPay m c r := by
  dsimp only [a2aRd]
  rw [dif_neg (show ¬ 22 ≤ (sendSem r).val by have := r.isLt; show ¬ 22 ≤ 6 + r.val; omega),
    dif_pos (show 6 ≤ (sendSem r).val from Nat.le_add_right 6 r.val)]
  exact congrArg (sendPay m c) (Fin.ext (Nat.add_sub_cancel_left (n := 6) (m := r.val)))
theorem payload_recv (d : Unit) : (a2aRd (F := F) m).payload (recvCell c r) 0 d = recvPay m c r := by
  dsimp only [a2aRd]
  rw [dif_pos (show 22 ≤ (recvSem r).val from Nat.le_add_right 22 r.val)]
  exact congrArg (recvPay m c) (Fin.ext (Nat.add_sub_cancel_left (n := 22) (m := r.val)))

/-- The rest of a cell's round, no duty taken: its one payload. -/
theorem rest_bar : bigSep ((a2aRd (F := F) m).duties (barCell c) 0 \ ∅) (fun d => (a2aRd (F := F) m).payload (barCell c) 0 d) = barPay c := by
  rw [Finset.sdiff_empty, duties_bar, bigSep_singleton, payload_bar]
theorem rest_send : bigSep ((a2aRd (F := F) m).duties (sendCell c r) 0 \ ∅) (fun d => (a2aRd (F := F) m).payload (sendCell c r) 0 d) = sendPay m c r := by
  rw [Finset.sdiff_empty, duties_send, bigSep_singleton, payload_send]
theorem rest_recv : bigSep ((a2aRd (F := F) m).duties (recvCell c r) 0 \ ∅) (fun d => (a2aRd (F := F) m).payload (recvCell c r) 0 d) = recvPay m c r := by
  rw [Finset.sdiff_empty, duties_recv, bigSep_singleton, payload_recv]

end Sched

/-- The proof of Proto.lean's `a2aRd_payload_storable` (to be moved there). -/
theorem payload_storable (g : GSem nD τ sig) (r : ℕ) (d : Unit) :
    BI.Storable (upEmb : UEmb _ 𝕄) ((a2aRd (F := F) m).payload g r d) := by
  dsimp only [a2aRd]
  split
  · split
    · unfold barPay slicePts; infer_instance
    · infer_instance
  · split
    · unfold recvPay; infer_instance
    · split
      · unfold sendPay; infer_instance
      · infer_instance

/-! ## The levels -/

omit [FloatOps F] in
/-- Whatever a device still owes of its receive debts is owed to a receive cell of its partner. -/
theorem owedFrom_pos {c : Dev nD} {n : ℕ} {g : GSem nD τ sig} {u : Unit} (h : 0 < owedFrom c n g u) :
    ∃ r : Fin 16, g = recvCell (peer c) r := by
  induction hk : 16 - n generalizing n with
  | zero =>
    rw [owedFrom, dif_neg (by omega)] at h
    exact absurd h (Nat.lt_irrefl 0)
  | succ k ih =>
    have hn : n < 16 := by omega
    have e : owedFrom c n = owedFrom c (n + 1) + tallyAt (recvCell (peer c) ⟨n, hn⟩) () N := owedFrom_lt c ⟨n, hn⟩
    rw [e, Pi.add_apply, Finsupp.add_apply, tallyAt_apply] at h
    by_cases hg : g = recvCell (peer c) ⟨n, hn⟩ ∧ u = ()
    · exact ⟨_, hg.1⟩
    · rw [if_neg hg, Nat.add_zero] at h
      exact ih h (by omega)

omit [FloatOps F] in
/-- A wait on one of the device's six local DMA semaphores, or on one of its send cells, while it owes receive credit
    only (all at level 2, the awaited cell at level 0). -/
theorem mayWait_low (c : Dev nD) (q : DmaSem sig) (hq : q.val < 22) (n : ℕ) :
    (levAts L lv : sProp 𝕄) ⊢ MayWait (c : Thread nD τ) (.dma q) () (owedFrom c n) :=
  MayOwe.of_cut (L := L) (lev := lv) 0
    (fun p hp => by rw [Finset.mem_singleton.mp hp, L_tc]; exact Finset.mem_singleton_self _)
    (fun g u hg => by obtain ⟨r, rfl⟩ := owedFrom_pos hg; rw [L_tc]; exact Finset.mem_singleton_self _)
    (fun p hp => by rw [Finset.mem_singleton.mp hp]; dsimp only [lv]; rw [if_neg (by omega)])
    (fun g u hg => by
      obtain ⟨r, rfl⟩ := owedFrom_pos hg
      dsimp only [lv]; rw [if_pos (show 22 ≤ (recvSem r).val from Nat.le_add_right 22 r.val)]; decide)

omit [FloatOps F] in
/-- At its barrier wait (level 1) a device owes its partner's sixteen receive credits only (level 2). -/
theorem mayWait_bar (c : Dev nD) :
    (levAts L lv : sProp 𝕄) ⊢ MayWait (c : Thread nD τ) (.reg barS) () (owedFrom c 0) :=
  MayOwe.of_cut (L := L) (lev := lv) 1
    (fun p hp => by rw [Finset.mem_singleton.mp hp, L_tc]; exact Finset.mem_singleton_self _)
    (fun g u hg => by obtain ⟨r, rfl⟩ := owedFrom_pos hg; rw [L_tc]; exact Finset.mem_singleton_self _)
    (fun p hp => by rw [Finset.mem_singleton.mp hp]; dsimp only [lv]; rw [if_pos rfl])
    (fun g u hg => by
      obtain ⟨r, rfl⟩ := owedFrom_pos hg
      dsimp only [lv]; rw [if_pos (show 22 ≤ (recvSem r).val from Nat.le_add_right 22 r.val)]; decide)

/-- info: 'Cert.KernelIdeal.A2A.owedFrom_pos' depends on axioms: [propext, Classical.choice, Quot.sound] -/
#guard_msgs in #print axioms owedFrom_pos

/-- info: 'Cert.KernelIdeal.A2A.mayWait_low' depends on axioms: [propext, Classical.choice, Quot.sound] -/
#guard_msgs in #print axioms mayWait_low

/-- info: 'Cert.KernelIdeal.A2A.mayWait_bar' depends on axioms: [propext, Classical.choice, Quot.sound] -/
#guard_msgs in #print axioms mayWait_bar

end Cert.KernelIdeal.A2A

end
-- ==== Proof.KernelIdeal.BodyPrep.lean ====
/-
  Bookkeeping for the body: a separating conjunction over a device's six local semaphores, sixteen chunks or 33 cells
  written out term by term, and which semaphore each of the 33 cells is.
-/
import proofs.«900627_g7700000000000628_dist_a2a_v7x_xyz2x2x2_z_m16384_n1024_bf16_1_alg».proof.Proof.KernelIdeal.Proto
import proofs.«900627_g7700000000000628_dist_a2a_v7x_xyz2x2x2_z_m16384_n1024_bf16_1_alg».proof.Proof.KernelIdeal.Tables

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin33 (Φ : Fin 33 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32) :=
  bigSep_univ_eq_bigSepL [0, 1, 2, 3, 4, 5, 6, 7, 8, 9, 10, 11, 12, 13, 14, 15, 16, 17, 18, 19, 20, 21, 22, 23, 24, 25, 26, 27, 28, 29, 30, 31, 32] (by decide) (by decide) Φ

omit [FloatOps F] in
theorem csem_bar : csem (0 : Fin 33) = .reg barS := rfl
omit [FloatOps F] in
theorem csem_send (r : Fin 16) : csem (⟨1 + r.val, by have := r.isLt; omega⟩ : Fin 33) = .dma (sendSem r) := by
  unfold csem
  rw [dif_neg (by show ¬ (1 + r.val = 0); omega), dif_pos (by show 1 + r.val < 17; have := r.isLt; omega)]
  congr 2
  exact Fin.ext (by show 1 + r.val - 1 = r.val; omega)
omit [FloatOps F] in
theorem csem_recv (r : Fin 16) : csem (⟨17 + r.val, by have := r.isLt; omega⟩ : Fin 33) = .dma (recvSem r) := by
  unfold csem
  rw [dif_neg (by show ¬ (17 + r.val = 0); omega), dif_neg (by show ¬ (17 + r.val < 17); omega)]
  congr 2
  exact Fin.ext (by show 17 + r.val - 17 = r.val; omega)

end Cert.KernelIdeal.A2A

end
-- ==== Proof.KernelIdeal.Regions.lean ====
/-
  The result array as its 32 row slices, the send buffer as its 16 slots.

  A device's result array has 32768 rows: the sixteen slices its own kernel addresses (rows 16384 z + 1024 r on) and the
  sixteen its partner's kernel addresses (rows 16384 (1 - z) + 1024 r on) are pairwise disjoint and cover it; the send
  buffer's sixteen slots likewise.  So holding the whole buffer is holding every piece, at the same contents.
-/
import proofs.«900627_g7700000000000628_dist_a2a_v7x_xyz2x2x2_z_m16384_n1024_bf16_1_alg».proof.Proof.KernelIdeal.Proto

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which elements a slice holds -/

/-- Row chunk `r`'s slice as device `d`'s kernel addresses it holds the rows `16384 z + 1024 r` to `16384 z + 1024 r + 1023`,
    `z` the parity of `d`, all columns. -/
theorem mem_oS (d : Dev nD) (r : Fin 16) (i : S32768x1024.Idx) :
    i ∈ (oS d r).view.set ↔
      16384 * (d.val % 2) + 1024 * r.val ≤ (i 0).val ∧ (i 0).val < 16384 * (d.val % 2) + 1024 * r.val + 1024 := by
  rw [View.set_slice_whole, Rect.mem_set_unit, k0_off4_eq]
  refine ⟨fun h => h 0, fun h a => ?_⟩
  obtain ⟨a, ha⟩ := a
  have ha2 : a < 2 := ha
  interval_cases a
  · exact h
  · have h1 : (i ⟨1, ha⟩).val < 1024 := (i ⟨1, ha⟩).isLt
    exact ⟨Nat.zero_le _, by show _ < 0 + 1024; omega⟩

/-- Slot `r` of the send buffer holds the elements whose first coordinate is `r`. -/
theorem mem_sbS (r : Fin 16) (i : S16x1024x1024.Idx) : i ∈ (sbS r).view.set ↔ (i 0).val = r.val := by
  rw [View.set_reshape, View.set_slice_whole, Rect.mem_set_unit]
  refine ⟨fun h => ?_, fun h a => ?_⟩
  · have h0 : r.val ≤ (i 0).val ∧ (i 0).val < r.val + 1 := h 0
    omega
  · obtain ⟨a, ha⟩ := a
    have ha3 : a < 3 := ha
    interval_cases a
    · exact (show r.val ≤ (i 0).val ∧ (i 0).val < r.val + 1 from ⟨by omega, by omega⟩)
    · have h1 : (i ⟨1, ha⟩).val < 1024 := (i ⟨1, ha⟩).isLt
      exact ⟨Nat.zero_le _, by show _ < 0 + 1024; omega⟩
    · have h2 : (i ⟨2, ha⟩).val < 1024 := (i ⟨2, ha⟩).isLt
      exact ⟨Nat.zero_le _, by show _ < 0 + 1024; omega⟩

/-- Two chunks' slices of one device's addressing share no element. -/
theorem oS_disj (d : Dev nD) {r r' : Fin 16} (h : r ≠ r') :
    Disjoint ((oS d r).view.set : Finset S32768x1024.Idx) (oS d r').view.set := by
  rw [Finset.disjoint_left]
  intro i hi hi'
  rw [mem_oS] at hi hi'
  exact h (Fin.ext (by omega))

/-- A slice of a device's addressing and a slice of its partner's lie in different halves of the rows. -/
theorem oS_disj_peer (c : Dev nD) (r r' : Fin 16) :
    Disjoint ((oS c r).view.set : Finset S32768x1024.Idx) (oS (peer c) r').view.set := by
  rw [Finset.disjoint_left]
  intro i hi hi'
  rw [mem_oS] at hi hi'
  have hz : (peer c).val % 2 = 1 - c.val % 2 := zOf_peer c
  have hr := r.isLt
  have hr' := r'.isLt
  rw [hz] at hi'
  omega

/-- Every element of the result array lies in a slice of the device's addressing or in one of its partner's. -/
theorem oS_cover (c : Dev nD) (i : S32768x1024.Idx) :
    (∃ r : Fin 16, i ∈ (oS c r).view.set) ∨ ∃ r : Fin 16, i ∈ (oS (peer c) r).view.set := by
  have hi : (i 0).val < 32768 := (i 0).isLt
  have hz : (peer c).val % 2 = 1 - c.val % 2 := zOf_peer c
  by_cases h : (i 0).val / 16384 = c.val % 2
  · refine .inl ⟨⟨((i 0).val % 16384) / 1024, by omega⟩, ?_⟩
    rw [mem_oS]
    show 16384 * (c.val % 2) + 1024 * (((i 0).val % 16384) / 1024) ≤ (i 0).val
      ∧ (i 0).val < 16384 * (c.val % 2) + 1024 * (((i 0).val % 16384) / 1024) + 1024
    omega
  · refine .inr ⟨⟨((i 0).val % 16384) / 1024, by omega⟩, ?_⟩
    rw [mem_oS, hz]
    show 16384 * (1 - c.val % 2) + 1024 * (((i 0).val % 16384) / 1024) ≤ (i 0).val
      ∧ (i 0).val < 16384 * (1 - c.val % 2) + 1024 * (((i 0).val % 16384) / 1024) + 1024
    omega

/-- Two slots of the send buffer share no element. -/
theorem sbS_disj {r r' : Fin 16} (h : r ≠ r') :
    Disjoint ((sbS r).view.set : Finset S16x1024x1024.Idx) (sbS r').view.set := by
  rw [Finset.disjoint_left]
  intro i hi hi'
  rw [mem_sbS] at hi hi'
  exact h (Fin.ext (by omega))

/-! ## The two splittings -/

omit [FloatOps F] in
/-- The result array held whole is its sixteen own slices and its partner's sixteen, all at the same contents. -/
theorem out_split (c : Dev nD) (f : Buf (Elt F) ((c : Thread nD τ).loc main_v1)) :
    ((((c : Thread nD τ).loc main_v1) ↦{fullShare} f : sProp 𝕄))
      ⊣⊢ iprop((bigSep Finset.univ fun r : Fin 16 => ((oS c r).view.loc (c : Thread nD τ) ↦[(oS c r).view.set]{fullShare} f : sProp 𝕄))
          ∗ (bigSep Finset.univ fun r : Fin 16 => ((oS (peer c) r).view.loc (c : Thread nD τ) ↦[(oS (peer c) r).view.set]{fullShare} f : sProp 𝕄))) := by
  have hu : (Finset.univ : Finset (Idx ((c : Thread nD τ).loc main_v1))) =
      (Finset.biUnion (β := Idx ((c : Thread nD τ).loc main_v1)) Finset.univ fun r : Fin 16 => (oS c r).view.set)
        ∪ (Finset.biUnion (β := Idx ((c : Thread nD τ).loc main_v1)) Finset.univ fun r : Fin 16 => (oS (peer c) r).view.set) := by
    ext i
    simp only [Finset.mem_univ, Finset.mem_union, Finset.mem_biUnion, true_and, true_iff]
    exact oS_cover c i
  have hd : Disjoint (Finset.biUnion (β := Idx ((c : Thread nD τ).loc main_v1)) Finset.univ fun r : Fin 16 => (oS c r).view.set)
      (Finset.biUnion (β := Idx ((c : Thread nD τ).loc main_v1)) Finset.univ fun r : Fin 16 => (oS (peer c) r).view.set) := by
    rw [Finset.disjoint_biUnion_left]
    intro r _
    rw [Finset.disjoint_biUnion_right]
    intro r' _
    exact oS_disj_peer c r r'
  rw [hu]
  refine (pointsTo_union hd).trans (BiEntails.of_eq ?_)
  rw [pointsTo_biUnion _ _ (fun r _ r' _ h => oS_disj c h), pointsTo_biUnion _ _ (fun r _ r' _ h => oS_disj (peer c) h)]

omit [FloatOps F] in
/-- The send buffer held whole is its sixteen slots, all at the same contents. -/
theorem sndB_split (c : Dev nD) (f : Buf (Elt F) ((c : Thread nD τ).loc cc0_scratch1)) :
    ((((c : Thread nD τ).loc cc0_scratch1) ↦{fullShare} f : sProp 𝕄))
      ⊣⊢ (bigSep Finset.univ fun r : Fin 16 => ((sbS r).view.loc (c : Thread nD τ) ↦[(sbS r).view.set]{fullShare} f : sProp 𝕄)) := by
  have hu : (Finset.univ : Finset (Idx ((c : Thread nD τ).loc cc0_scratch1))) = Finset.univ.biUnion fun r : Fin 16 => (sbS r).view.set := by
    ext i
    simp only [Finset.mem_univ, Finset.mem_biUnion, true_and, true_iff]
    exact ⟨⟨(i 0).val, (i 0).isLt⟩, (mem_sbS _ i).mpr rfl⟩
  rw [hu]
  refine BiEntails.of_eq ?_
  rw [pointsTo_biUnion _ _ (fun r _ r' _ h => sbS_disj h)]

/-- info: 'Cert.KernelIdeal.A2A.out_split' depends on axioms: [propext, Classical.choice, Quot.sound] -/
#guard_msgs in #print axioms out_split

/-- info: 'Cert.KernelIdeal.A2A.sndB_split' depends on axioms: [propext, Classical.choice, Quot.sound] -/
#guard_msgs in #print axioms sndB_split

end Cert.KernelIdeal.A2A

end
-- ==== Proof.KernelIdeal.Contents.lean ====
/-
  What the buffers hold on the way, and the two landing facts.

  Chunk r of device s, narrowed: the 1024 x 1024 block of s's argument at rows 1024 r on, columns of the column block
  that the device's PARTNER keeps (the chunk s sends) or that s itself keeps (the chunk s stores locally).  A copy of
  the sent chunk into the partner's result rows, or of the kept chunk into the device's own, writes exactly the
  result array's final contents there.
-/
import proofs.«900627_g7700000000000628_dist_a2a_v7x_xyz2x2x2_z_m16384_n1024_bf16_1_alg».proof.Proof.KernelIdeal.Proto
import Idealize.ShloMosaic.Lib.Pipeline.Value

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The chunk device `s` sends for row chunk `r`: rows `1024 r` on of its argument, the columns of its partner's block. -/
def sentChunk (s : Dev nD) (r : Fin 16) : Vec F S1024x1024 .bf16 :=
  fun y => (truncf .bf16 (X m s : FVec F S16384x2048 .f32) (by decide) : FVec F S16384x2048 .bf16)
    (ValueIdx.ix2 (⟨1024 * r.val + (y 0).val, by have := r.isLt; have h : (y 0).val < 1024 := (y 0).isLt; omega⟩ : Fin 16384)
      (⟨1024 * (1 - zOf s) + (y 1).val, by have := zOf_lt s; have h : (y 1).val < 1024 := (y 1).isLt; omega⟩ : Fin 2048))

/-- The chunk device `s` keeps for row chunk `r`: the same rows, the columns of its own block. -/
def keptChunk (s : Dev nD) (r : Fin 16) : Vec F S1024x1024 .bf16 :=
  fun y => (truncf .bf16 (X m s : FVec F S16384x2048 .f32) (by decide) : FVec F S16384x2048 .bf16)
    (ValueIdx.ix2 (⟨1024 * r.val + (y 0).val, by have := r.isLt; have h : (y 0).val < 1024 := (y 0).isLt; omega⟩ : Fin 16384)
      (⟨1024 * zOf s + (y 1).val, by have := zOf_lt s; have h : (y 1).val < 1024 := (y 1).isLt; omega⟩ : Fin 2048))

/-! ## Where a result slice's elements lie, and the result array read there -/

/-- The element at `y` of row chunk `r`'s slice, as device `s` addresses it, lies at row
    `16384 z + 1024 r + y 0` of the result array, `z` the last coordinate of `s`, -/
theorem oS_emb_row (s : Dev nD) (r : Fin 16) (y : S1024x1024.Idx) :
    (((oS s r).view.emb y : S32768x1024.Idx) 0).val = 16384 * zOf s + 1024 * r.val + (y 0).val := by
  show (k0_off4 s (BitVec.ofNat 32 (1024 * r.val))) 0 + 1 * (y 0).val = _
  rw [k0_off4_eq]
  show 16384 * (s.val % 2) + 1024 * r.val + 1 * (y 0).val = 16384 * (s.val % 2) + 1024 * r.val + (y 0).val
  omega

/-- and at column `y 1`. -/
theorem oS_emb_col (s : Dev nD) (r : Fin 16) (y : S1024x1024.Idx) :
    (((oS s r).view.emb y : S32768x1024.Idx) 1).val = (y 1).val := by
  show (k0_off4 s (BitVec.ofNat 32 (1024 * r.val))) 1 + 1 * (y 1).val = _
  rw [k0_off4_eq]
  show 0 + 1 * (y 1).val = (y 1).val
  omega

/-- The result array device `c` must end with, read at `j`, once the owner of row `j 0` and the two coordinates
    read in the owner's argument are named. -/
theorem outVal_at (Y : (d : Dev nD) → Buf (Elt F) ((d.tc : Thread nD τ).loc main_arg0)) (c : Dev nD)
    (j : S32768x1024.Idx) (d : Dev nD) (hd : ownerOf c (j 0).val = d) (a : Fin 16384) (b : Fin 2048)
    (ha : a.val = (j 0).val % 16384) (hb : b.val = 1024 * zOf c + (j 1).val) :
    outVal Y c j = FloatOps.truncf .bf16 (by decide) ((Y d : FVec F S16384x2048 .f32) (ValueIdx.ix2 a b)) := by
  subst hd
  obtain rfl : a = ⟨(j 0).val % 16384, Nat.mod_lt _ (by decide)⟩ := Fin.ext ha
  have hbnd : 1024 * zOf c + (j 1).val < 2048 := by
    clear ha hb; have h0 := zOf_lt c; have h1 : (j 1).val < 1024 := (j 1).isLt; omega
  obtain rfl : b = ⟨1024 * zOf c + (j 1).val, hbnd⟩ := Fin.ext hb
  rfl

/-- The landing of device `s`'s copy of chunk `r` on its partner `c`: whatever `c`'s result array held (`fd`), the slice
    written with the sent chunk holds the result's final contents: the receive cell's payload. -/
theorem land_recv (c s : Dev nD) (hs : s = peer c) (r : Fin 16)
    (fd : Buf (Elt F) ((oS s r).view.loc (c : Thread nD τ)))
    (src : S1024x1024.Idx → Elt F .bf16) (hsrc : src = sentChunk m s r) :
    ((oS s r).view.loc (c : Thread nD τ) ↦[(oS s r).view.set]{fullShare} ((oS s r).view.write (Elt F) fd src Finset.univ) : sProp 𝕄)
      ⊢ recvPay m c r := by
  subst hs hsrc
  unfold recvPay
  refine Entails.of_eq (pointsTo_congr fun i hi => ?_)
  obtain ⟨y, rfl⟩ := View.exists_emb_of_mem_set _ hi
  rw [View.write_emb_of_mem _ _ (Finset.mem_univ y)]
  have hrow := oS_emb_row (peer c) r y
  have hcol := oS_emb_col (peer c) r y
  have hz := zOf_lt c
  have hp := zOf_peer c
  have hr := r.isLt
  have hy0 : (y 0).val < 1024 := (y 0).isLt
  have hown : ownerOf c (((oS (peer c) r).view.emb y : S32768x1024.Idx) 0).val = peer c := by
    unfold ownerOf
    rw [if_neg]
    rw [hrow, hp]; omega
  show _ = outVal (X m) c ((oS (peer c) r).view.emb y)
  rw [outVal_at (X m) c _ (peer c) hown
    ⟨1024 * r.val + (y 0).val, by omega⟩
    ⟨1024 * (1 - zOf (peer c)) + (y 1).val, by have h1 : (y 1).val < 1024 := (y 1).isLt; omega⟩
    (by show 1024 * r.val + (y 0).val = _; rw [hrow, hp]; omega)
    (by show 1024 * (1 - zOf (peer c)) + (y 1).val = _; rw [hcol, hp]; omega)]
  rfl

/-- The landing of device `c`'s local store of chunk `r`: the slice written with the kept chunk holds the result's
    final contents. -/
theorem land_local (c : Dev nD) (r : Fin 16)
    (fd : Buf (Elt F) ((oS c r).view.loc (c : Thread nD τ)))
    (src : S1024x1024.Idx → Elt F .bf16) (hsrc : src = keptChunk m c r) :
    ((oS c r).view.loc (c : Thread nD τ) ↦[(oS c r).view.set]{fullShare} ((oS c r).view.write (Elt F) fd src Finset.univ) : sProp 𝕄)
      ⊢ ((oS c r).view.loc (c : Thread nD τ) ↦[(oS c r).view.set]{fullShare} OV m c : sProp 𝕄) := by
  subst hsrc
  refine Entails.of_eq (pointsTo_congr fun i hi => ?_)
  obtain ⟨y, rfl⟩ := View.exists_emb_of_mem_set _ hi
  rw [View.write_emb_of_mem _ _ (Finset.mem_univ y)]
  have hrow := oS_emb_row c r y
  have hcol := oS_emb_col c r y
  have hz := zOf_lt c
  have hr := r.isLt
  have hy0 : (y 0).val < 1024 := (y 0).isLt
  have hown : ownerOf c (((oS c r).view.emb y : S32768x1024.Idx) 0).val = c := by
    unfold ownerOf
    rw [if_pos]
    rw [hrow]; omega
  show _ = outVal (X m) c ((oS c r).view.emb y)
  rw [outVal_at (X m) c _ c hown
    ⟨1024 * r.val + (y 0).val, by omega⟩
    ⟨1024 * zOf c + (y 1).val, by have h1 : (y 1).val < 1024 := (y 1).isLt; omega⟩
    (by show 1024 * r.val + (y 0).val = _; rw [hrow]; omega)
    (by show 1024 * zOf c + (y 1).val = _; rw [hcol])]
  rfl

/-- info: 'Cert.KernelIdeal.A2A.land_recv' depends on axioms: [propext, Classical.choice, Quot.sound] -/
#guard_msgs in #print axioms Cert.KernelIdeal.A2A.land_recv
/-- info: 'Cert.KernelIdeal.A2A.land_local' depends on axioms: [propext, Classical.choice, Quot.sound] -/
#guard_msgs in #print axioms Cert.KernelIdeal.A2A.land_local

end Cert.KernelIdeal.A2A

end
-- ==== Proof.KernelIdeal.RuleSend.lean ====
/-
  The remote copy of one chunk, as a rule of the protocol.

  Device c copies slot r of its send buffer, which holds the chunk it sends, into row chunk r's slice of its partner's
  result array.  The reading of the slot credits c's own send cell r and hands the slot back at the send buffer's final
  contents; the landing credits the partner's receive cell r and hands the partner the slice at its result array's final
  contents.  Of what c owes, the landing pays the last summand: the partner's receive credit for chunk r.
-/
import proofs.«900627_g7700000000000628_dist_a2a_v7x_xyz2x2x2_z_m16384_n1024_bf16_1_alg».proof.Proof.KernelIdeal.Proto
import proofs.«900627_g7700000000000628_dist_a2a_v7x_xyz2x2x2_z_m16384_n1024_bf16_1_alg».proof.Proof.KernelIdeal.Tables
import proofs.«900627_g7700000000000628_dist_a2a_v7x_xyz2x2x2_z_m16384_n1024_bf16_1_alg».proof.Proof.KernelIdeal.Contents

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where a slot's elements lie, and the send buffer read there -/

/-- The element at `y` of slot `r` of the send buffer lies at `(r, y 0, y 1)`: the slot is the buffer's slice at
    first coordinate `r` with that axis of size one dropped. -/
theorem sbS_emb (r : Fin 16) (y : S1024x1024.Idx) :
    (((sbS r).view.emb y : S16x1024x1024.Idx) 0).val = r.val
      ∧ (((sbS r).view.emb y : S16x1024x1024.Idx) 1).val = (y 0).val
      ∧ (((sbS r).view.emb y : S16x1024x1024.Idx) 2).val = (y 1).val := by
  have e : Shape.reshapeEquiv (s := S1x1024x1024) (s' := S1024x1024) squeezes_S1x1024x1024_S1024x1024.numel_eq y
      = Fin.cons ⟨0, Nat.one_pos⟩ y := Shape.reshapeEquiv_cons_one _ y
  refine ⟨?_, ?_, ?_⟩
  · show (![r.val, 0, 0] : Fin 3 → ℕ) 0
      + 1 * ((Shape.reshapeEquiv (s := S1x1024x1024) (s' := S1024x1024) squeezes_S1x1024x1024_S1024x1024.numel_eq y) 0).val = _
    rw [e]; show r.val + 1 * 0 = r.val; omega
  · show (![r.val, 0, 0] : Fin 3 → ℕ) 1
      + 1 * ((Shape.reshapeEquiv (s := S1x1024x1024) (s' := S1024x1024) squeezes_S1x1024x1024_S1024x1024.numel_eq y) 1).val = _
    rw [e]; show 0 + 1 * (y 0).val = (y 0).val; omega
  · show (![r.val, 0, 0] : Fin 3 → ℕ) 2
      + 1 * ((Shape.reshapeEquiv (s := S1x1024x1024) (s' := S1024x1024) squeezes_S1x1024x1024_S1024x1024.numel_eq y) 2).val = _
    rw [e]; show 0 + 1 * (y 1).val = (y 1).val; omega

/-- The send buffer's final contents read at `j`, once the two coordinates read in the device's argument are named. -/
theorem sbV_at (c : Dev nD) (j : S16x1024x1024.Idx) (a : Fin 16384) (b : Fin 2048)
    (ha : a.val = 1024 * (j 0).val + (j 1).val) (hb : b.val = 1024 * (1 - zOf c) + (j 2).val) :
    sbV m c j = FloatOps.truncf .bf16 (by decide) ((X m c : FVec F S16384x2048 .f32) (ValueIdx.ix2 a b)) := by
  have hab : 1024 * (j 0).val + (j 1).val < 16384 := by
    clear ha hb; have h0 : (j 0).val < 16 := (j 0).isLt; have h1 : (j 1).val < 1024 := (j 1).isLt; omega
  have hbb : 1024 * (1 - zOf c) + (j 2).val < 2048 := by
    clear ha hb; have h2 : (j 2).val < 1024 := (j 2).isLt; have := zOf_lt c; omega
  obtain rfl : a = ⟨1024 * (j 0).val + (j 1).val, hab⟩ := Fin.ext ha
  obtain rfl : b = ⟨1024 * (1 - zOf c) + (j 2).val, hbb⟩ := Fin.ext hb
  rfl

/-- A slot that reads as the chunk the device sends holds the send buffer's final contents. -/
theorem slot_sent (c : Dev nD) (r : Fin 16)
    (fs : Buf (Elt F) ((sbS r).view.loc (c : Thread nD τ))) (hfs : (sbS r).view.read (Elt F) fs = sentChunk m c r) :
    ((sbS r).view.loc (c : Thread nD τ) ↦[(sbS r).view.set]{fullShare} fs : sProp 𝕄) ⊢ sendPay m c r := by
  unfold sendPay
  refine Entails.of_eq (pointsTo_congr fun i hi => ?_)
  obtain ⟨y, rfl⟩ := View.exists_emb_of_mem_set _ hi
  have h := congrFun hfs y
  rw [View.read_apply] at h
  obtain ⟨e0, e1, e2⟩ := sbS_emb r y
  have hr := r.isLt
  have hz := zOf_lt c
  have hy0 : (y 0).val < 1024 := (y 0).isLt
  have hy1 : (y 1).val < 1024 := (y 1).isLt
  rw [sbV_at m c _ ⟨1024 * r.val + (y 0).val, by omega⟩ ⟨1024 * (1 - zOf c) + (y 1).val, by omega⟩
    (by show 1024 * r.val + (y 0).val = _; rw [e0, e1]) (by show 1024 * (1 - zOf c) + (y 1).val = _; rw [e2])]
  exact h

/-! ## The rule -/

/-- The remote copy of chunk `r`: from the two cells' invariants, the slot at the sent chunk, the partner's slice at any
    contents, what the device still owes from chunk `r` on, and the two duties' tokens at round 0, the copy is
    enqueued; the device goes on with its send cell's credit and what it owes from chunk `r + 1` on. -/
theorem rule_send (c : Dev nD) (r : Fin 16) (κ₁ κ₂ : ℕ) (W : Waits sig Unit)
    (fs : Buf (Elt F) ((sbS r).view.loc (c : Thread nD τ))) (hfs : (sbS r).view.read (Elt F) fs = sentChunk m c r)
    (fd : Buf (Elt F) ((oS c r).view.loc (peer c : Thread nD τ)))
    {hsc : (oS c r : Memref sig (Dev.tc (peer c) : Thread nD τ).2.kind .hbm S1024x1024 .bf16).view.ref.isScScratch = false}
    {hsrc : (sbS r).view.WordExact} {hdst : (oS c r).view.WordExact}
    {hsem : DmaTarget.Typed .vmem (.dma (recvSem r)) (.remote (Dev.tc (peer c) : Thread nD τ) (oS c r) (.dma (sendSem r)) hsc)}
    {α : Type} {Q : α → sProp 𝕄} {k : PUnit → Prog (TpuEff nD τ sig (Elt F) Λ₀ .tc) α} :
    iprop(cellInv ER (a2aRd m) κ₁ (sendCell c r) ∗ cellInv ER (a2aRd m) κ₂ (recvCell (peer c) r)
        ∗ ((sbS r).view.loc (c : Thread nD τ) ↦[(sbS r).view.set]{fullShare} fs)
        ∗ ((oS c r).view.loc (peer c : Thread nD τ) ↦[(oS c r).view.set]{fullShare} fd)
        ∗ owes (c : Thread nD τ) (owedFrom c r.val) W
        ∗ dutyTok ER (sendCell c r) 0 () ∗ reached ER (sendCell c r) 0
        ∗ dutyTok ER (recvCell (peer c) r) 0 () ∗ reached ER (recvCell (peer c) r) 0)
      ⊢ iprop(((cred (tallyAt (sendCell c r) () N) ∗ owes (c : Thread nD τ) (owedFrom c (r.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbS r) (.remote (Dev.tc (peer c) : Thread nD τ) (oS c r) (.dma (sendSem r)) hsc) (.dma (recvSem r)) hsrc hdst hsem) k) Q) :=
  Rounds.wp_send_pointsTo 𝒱₀ ER (a2aRd m) (c : Thread nD τ) none (κ₁ := κ₁) (κ₂ := κ₂)
    (r₁ := 0) (r₂ := 0) (d₁ := ()) (d₂ := ()) (fd := fd)
    (by rw [duties_send]; exact Finset.mem_singleton_self _) (by rw [duties_recv]; exact Finset.mem_singleton_self _)
    () () N rfl (amount_send m c r ()) (amount_recv m (peer c) r ()) (owedFrom c (r.val + 1)) (owedFrom_lt c r) (W := W)
    (by rw [payload_send]; exact slot_sent m c r fs hfs)
    (by rw [payload_recv]; exact land_recv m (peer c) c (peer_peer c).symm r fd _ hfs)

/-- info: 'Cert.KernelIdeal.A2A.slot_sent' depends on axioms: [propext, Classical.choice, Quot.sound] -/
#guard_msgs in #print axioms Cert.KernelIdeal.A2A.slot_sent
/-- info: 'Cert.KernelIdeal.A2A.rule_send' depends on axioms: [propext, Classical.choice, Quot.sound] -/
#guard_msgs in #print axioms Cert.KernelIdeal.A2A.rule_send

end Cert.KernelIdeal.A2A

end
-- ==== Proof.KernelIdeal.RuleSendEx.lean ====
/-
  The remote copy of a chunk, in the form the body run applies it: the slot held at SOME contents that read, through the
  slot, as the chunk to send.
-/
import proofs.«900627_g7700000000000628_dist_a2a_v7x_xyz2x2x2_z_m16384_n1024_bf16_1_alg».proof.Proof.KernelIdeal.RuleSend
import proofs.«900627_g7700000000000628_dist_a2a_v7x_xyz2x2x2_z_m16384_n1024_bf16_1_alg».proof.Proof.KernelIdeal.BodyPrep

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem rule_send_ex (c : Dev nD) (r : Fin 16) (κ₁ κ₂ : ℕ) {W : Waits sig Unit}
    (fd : Buf (Elt F) ((oS c r).view.loc (peer c : Thread nD τ)))
    {hsc : (oS c r : Memref sig (Dev.tc (peer c) : Thread nD τ).2.kind .hbm S1024x1024 .bf16).view.ref.isScScratch = false}
    {hsrc : (sbS r).view.WordExact} {hdst : (oS c r).view.WordExact}
    {hsem : DmaTarget.Typed .vmem (.dma (recvSem r)) (.remote (Dev.tc (peer c) : Thread nD τ) (oS c r) (.dma (sendSem r)) hsc)}
    {α : Type} {Q : α → sProp 𝕄} {k : PUnit → Prog (TpuEff nD τ sig (Elt F) Λ₀ .tc) α} :
    iprop(cellInv ER (a2aRd m) κ₁ (sendCell c r) ∗ cellInv ER (a2aRd m) κ₂ (recvCell (peer c) r)
        ∗ (∃ fs : Buf (Elt F) ((sbS r).view.loc (c : Thread nD τ)), ⌜(sbS r).view.read (Elt F) fs = sentChunk m c r⌝
            ∗ ((sbS r).view.loc (c : Thread nD τ) ↦[(sbS r).view.set]{fullShare} fs))
        ∗ ((oS c r).view.loc (peer c : Thread nD τ) ↦[(oS c r).view.set]{fullShare} fd)
        ∗ owes (c : Thread nD τ) (owedFrom c r.val) W
        ∗ dutyTok ER (sendCell c r) 0 () ∗ reached ER (sendCell c r) 0
        ∗ dutyTok ER (recvCell (peer c) r) 0 () ∗ reached ER (recvCell (peer c) r) 0)
      ⊢ iprop(((cred (tallyAt (sendCell c r) () N) ∗ owes (c : Thread nD τ) (owedFrom c (r.val + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbS r) (.remote (Dev.tc (peer c) : Thread nD τ) (oS c r) (.dma (sendSem r)) hsc) (.dma (recvSem r)) hsrc hdst hsem) k) Q) := by
  iintro ⟨H1, H2, ⟨%fs, %hfs, Hs⟩, Hd, HO, Ht1, Hr1, Ht2, Hr2⟩
  iapply (rule_send m c r κ₁ κ₂ W fs hfs fd) $$ [H1 H2 Hs Hd HO Ht1 Hr1 Ht2 Hr2]
  isplitl [H1]; · iexact H1
  isplitl [H2]; · iexact H2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

/-- The same, the partner named by any device equal to it (the kernel names it by an integer chain). -/
theorem rule_send_at (c n : Dev nD) (hn : n = peer c) (r : Fin 16) (κ₁ κ₂ : ℕ) {W : Waits sig Unit}
    (fd : Buf (Elt F) ((oS c r).view.loc (peer c : Thread nD τ)))
    {hsc : (oS c r : Memref sig (Dev.tc n : Thread nD τ).2.kind .hbm S1024x1024 .bf16).view.ref.isScScratch = false}
    {hsrc : (sbS r).view.WordExact} {hdst : (oS c r).view.WordExact}
    {hsem : DmaTarget.Typed .vmem (.dma (recvSem r)) (.remote (Dev.tc n : Thread nD τ) (oS c r) (.dma (sendSem r)) hsc)}
    {α : Type} {Q : α → sProp 𝕄} {k : PUnit → Prog (TpuEff nD τ sig (Elt F) Λ₀ .tc) α} :
    iprop(cellInv ER (a2aRd m) κ₁ (sendCell c r) ∗ cellInv ER (a2aRd m) κ₂ (recvCell (peer c) r)
        ∗ (∃ fs : Buf (Elt F) ((sbS r).view.loc (c : Thread nD τ)), ⌜(sbS r).view.read (Elt F) fs = sentChunk m c r⌝
            ∗ ((sbS r).view.loc (c : Thread nD τ) ↦[(sbS r).view.set]{fullShare} fs))
        ∗ ((oS c r).view.loc (peer c : Thread nD τ) ↦[(oS c r).view.set]{fullShare} fd)
        ∗ owes (c : Thread nD τ) (owedFrom c r.val) W
        ∗ dutyTok ER (sendCell c r) 0 () ∗ reached ER (sendCell c r) 0
        ∗ dutyTok ER (recvCell (peer c) r) 0 () ∗ reached ER (recvCell (peer c) r) 0)
      ⊢ iprop(((cred (tallyAt (sendCell c r) () N) ∗ owes (c : Thread nD τ) (owedFrom c (r.val + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbS r) (.remote (Dev.tc n : Thread nD τ) (oS c r) (.dma (sendSem r)) hsc) (.dma (recvSem r)) hsrc hdst hsem) k) Q) := by
  subst hn
  exact rule_send_ex m c r κ₁ κ₂ fd

omit [FloatOps F] in
/-- What a device hands its partner with its barrier signal: its own sixteen slices that the partner will write, and
    that it has reached round 0 of each of its receive cells. -/
theorem barPay_peer (c : Dev nD) :
    (barPay (F := F) (peer c) : sProp 𝕄)
      = bigSep Finset.univ fun r : Fin 16 => iprop(slicePts (F := F) c (oS (peer c) r) ∗ reached ER (recvCell c r) 0) := by
  unfold barPay
  rw [peer_peer]

/-- The payload of the partner's barrier cell from its sixteen conjuncts written out. -/
theorem bar_payload_intro (c : Dev nD) :
    (iprop((slicePts (F := F) c (oS (peer c) 0) ∗ reached ER (recvCell c 0) 0) ∗ (slicePts (F := F) c (oS (peer c) 1) ∗ reached ER (recvCell c 1) 0) ∗ (slicePts (F := F) c (oS (peer c) 2) ∗ reached ER (recvCell c 2) 0) ∗ (slicePts (F := F) c (oS (peer c) 3) ∗ reached ER (recvCell c 3) 0) ∗ (slicePts (F := F) c (oS (peer c) 4) ∗ reached ER (recvCell c 4) 0) ∗ (slicePts (F := F) c (oS (peer c) 5) ∗ reached ER (recvCell c 5) 0) ∗ (slicePts (F := F) c (oS (peer c) 6) ∗ reached ER (recvCell c 6) 0) ∗ (slicePts (F := F) c (oS (peer c) 7) ∗ reached ER (recvCell c 7) 0) ∗ (slicePts (F := F) c (oS (peer c) 8) ∗ reached ER (recvCell c 8) 0) ∗ (slicePts (F := F) c (oS (peer c) 9) ∗ reached ER (recvCell c 9) 0) ∗ (slicePts (F := F) c (oS (peer c) 10) ∗ reached ER (recvCell c 10) 0) ∗ (slicePts (F := F) c (oS (peer c) 11) ∗ reached ER (recvCell c 11) 0) ∗ (slicePts (F := F) c (oS (peer c) 12) ∗ reached ER (recvCell c 12) 0) ∗ (slicePts (F := F) c (oS (peer c) 13) ∗ reached ER (recvCell c 13) 0) ∗ (slicePts (F := F) c (oS (peer c) 14) ∗ reached ER (recvCell c 14) 0) ∗ (slicePts (F := F) c (oS (peer c) 15) ∗ reached ER (recvCell c 15) 0)) : sProp 𝕄)
      ⊢ (a2aRd (F := F) m).payload (barCell (peer c)) 0 () := by
  rw [payload_bar, barPay_peer, bigSep_fin16]

end Cert.KernelIdeal.A2A

end
-- ==== Proof.KernelIdeal.BodyEnds.lean ====
/-
  The two ends of the body.  At entry each of the three two-slot scratch buffers, held whole, is cut into its two
  slots; at exit the slots are joined again, the result array is put together from its 32 row slices and the send buffer
  from its sixteen slots, the 38 semaphores are regrouped, and what is left is the state the launch takes back.
-/
import proofs.«900627_g7700000000000628_dist_a2a_v7x_xyz2x2x2_z_m16384_n1024_bf16_1_alg».proof.Proof.KernelIdeal.Proto
import proofs.«900627_g7700000000000628_dist_a2a_v7x_xyz2x2x2_z_m16384_n1024_bf16_1_alg».proof.Proof.KernelIdeal.Tables
import proofs.«900627_g7700000000000628_dist_a2a_v7x_xyz2x2x2_z_m16384_n1024_bf16_1_alg».proof.Proof.KernelIdeal.Regions
import proofs.«900627_g7700000000000628_dist_a2a_v7x_xyz2x2x2_z_m16384_n1024_bf16_1_alg».proof.Proof.KernelIdeal.BodyPrep

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots of a two-slot buffer -/

/-- The rectangle of slot `k` holds the elements whose first coordinate is `k`. -/
theorem mem_slotRect (k : ℕ) (inb : ∀ a, (![k, 0, 0] : Fin 3 → Nat) a + S1x1024x1024.size a ≤ S2x1024x1024.size a)
    (i : S2x1024x1024.Idx) :
    i ∈ (Rect.unit (s := S2x1024x1024) ![k, 0, 0] S1x1024x1024.size inb).set ↔ (i 0).val = k := by
  rw [Rect.mem_set_unit]
  refine ⟨fun h => ?_, fun h a => ?_⟩
  · have h0 : k ≤ (i 0).val ∧ (i 0).val < k + 1 := h 0
    omega
  · obtain ⟨a, ha⟩ := a
    have ha3 : a < 3 := ha
    interval_cases a
    · exact (show k ≤ (i 0).val ∧ (i 0).val < k + 1 from ⟨by omega, by omega⟩)
    · have h1 : (i ⟨1, ha⟩).val < 1024 := (i ⟨1, ha⟩).isLt
      exact ⟨Nat.zero_le _, by show _ < 0 + 1024; omega⟩
    · have h2 : (i ⟨2, ha⟩).val < 1024 := (i ⟨2, ha⟩).isLt
      exact ⟨Nat.zero_le _, by show _ < 0 + 1024; omega⟩

/-- Two sets of elements, the first coordinate 0 in one and 1 in the other, share nothing and cover the buffer. -/
theorem two_slots {A B : Finset S2x1024x1024.Idx} (hA : ∀ i, i ∈ A ↔ (i 0).val = 0) (hB : ∀ i, i ∈ B ↔ (i 0).val = 1) :
    Disjoint A B ∧ (Finset.univ : Finset S2x1024x1024.Idx) = A ∪ B := by
  refine ⟨Finset.disjoint_left.mpr fun i hi hi' => ?_, ?_⟩
  · rw [hA] at hi; rw [hB] at hi'; omega
  · ext i
    simp only [Finset.mem_univ, Finset.mem_union, true_iff]
    rw [hA, hB]
    have h2 : (i 0).val < 2 := (i 0).isLt
    omega

/-! ### `cc0_scratch0` -/

theorem stgS_sets :
    Disjoint ((((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set : Finset S2x1024x1024.Idx)
        (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set
      ∧ (Finset.univ : Finset S2x1024x1024.Idx)
        = (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set :=
  two_slots (fun i => by rw [View.set_reshape, View.set_slice_whole]; exact mem_slotRect 0 _ i)
    (fun i => by rw [View.set_reshape, View.set_slice_whole]; exact mem_slotRect 1 _ i)

omit [FloatOps F] in
/-- The buffer held whole is its two slots, at the same contents. -/
theorem stgS_split (c : Dev nD) (f : Buf (Elt F) ((c : Thread nD τ).loc cc0_scratch0)) :
    (((Memref.whole cc0_scratch0 : Memref sig .tc .vmem S2x1024x1024 .f32)).view.loc (c : Thread nD τ) ↦[((Memref.whole cc0_scratch0 : Memref sig .tc .vmem S2x1024x1024 .f32)).view.set]{fullShare} f : sProp 𝕄)
      ⊣⊢ iprop(((((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
          ∗ ((((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)) := by
  have e : (((Memref.whole cc0_scratch0 : Memref sig .tc .vmem S2x1024x1024 .f32)).view.loc (c : Thread nD τ) ↦[((Memref.whole cc0_scratch0 : Memref sig .tc .vmem S2x1024x1024 .f32)).view.set]{fullShare} f : sProp 𝕄)
      = (((c : Thread nD τ).loc cc0_scratch0) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f) := by
    rw [View.set_whole]
    exact congrArg (fun S : Finset (Idx ((c : Thread nD τ).loc cc0_scratch0)) => (((c : Thread nD τ).loc cc0_scratch0) ↦[S]{fullShare} f : sProp 𝕄)) stgS_sets.2
  exact (BiEntails.of_eq e).trans (pointsTo_union stgS_sets.1)

omit [FloatOps F] in
/-- The two slots, each at some contents, are the buffer whole at some contents. -/
theorem stgS_glue (c : Dev nD) :
    iprop((∃ f, (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
        ∗ (∃ f, (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f))
      ⊢ (iprop(∃ h : Buf (Elt F) ((c : Thread nD τ).loc cc0_scratch0), ((c : Thread nD τ).loc cc0_scratch0) ↦{fullShare} h) : sProp 𝕄) := by
  iintro ⟨⟨%f, Hf⟩, ⟨%g, Hg⟩⟩
  ihave H := (pointsTo_join (ℓ := (c : Thread nD τ).loc cc0_scratch0) (q := fullShare) (f := f) (g := g) stgS_sets.1) $$ [Hf Hg]
  · isplitl [Hf] <;> iassumption
  iexists _
  iapply (Entails.of_eq (congrArg (fun S : Finset (Idx ((c : Thread nD τ).loc cc0_scratch0)) => (((c : Thread nD τ).loc cc0_scratch0) ↦[S]{fullShare} _ : sProp 𝕄)) stgS_sets.2.symm))
  iexact H

/-! ### `cc0_scratch2` -/

theorem stgL_sets :
    Disjoint ((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set : Finset S2x1024x1024.Idx)
        (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set
      ∧ (Finset.univ : Finset S2x1024x1024.Idx)
        = (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set :=
  two_slots (fun i => by rw [View.set_reshape, View.set_slice_whole]; exact mem_slotRect 0 _ i)
    (fun i => by rw [View.set_reshape, View.set_slice_whole]; exact mem_slotRect 1 _ i)

omit [FloatOps F] in
/-- The buffer held whole is its two slots, at the same contents. -/
theorem stgL_split (c : Dev nD) (f : Buf (Elt F) ((c : Thread nD τ).loc cc0_scratch2)) :
    (((Memref.whole cc0_scratch2 : Memref sig .tc .vmem S2x1024x1024 .f32)).view.loc (c : Thread nD τ) ↦[((Memref.whole cc0_scratch2 : Memref sig .tc .vmem S2x1024x1024 .f32)).view.set]{fullShare} f : sProp 𝕄)
      ⊣⊢ iprop(((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
          ∗ ((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)) := by
  have e : (((Memref.whole cc0_scratch2 : Memref sig .tc .vmem S2x1024x1024 .f32)).view.loc (c : Thread nD τ) ↦[((Memref.whole cc0_scratch2 : Memref sig .tc .vmem S2x1024x1024 .f32)).view.set]{fullShare} f : sProp 𝕄)
      = (((c : Thread nD τ).loc cc0_scratch2) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f) := by
    rw [View.set_whole]
    exact congrArg (fun S : Finset (Idx ((c : Thread nD τ).loc cc0_scratch2)) => (((c : Thread nD τ).loc cc0_scratch2) ↦[S]{fullShare} f : sProp 𝕄)) stgL_sets.2
  exact (BiEntails.of_eq e).trans (pointsTo_union stgL_sets.1)

omit [FloatOps F] in
/-- The two slots, each at some contents, are the buffer whole at some contents. -/
theorem stgL_glue (c : Dev nD) :
    iprop((∃ f, (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
        ∗ (∃ f, (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f))
      ⊢ (iprop(∃ h : Buf (Elt F) ((c : Thread nD τ).loc cc0_scratch2), ((c : Thread nD τ).loc cc0_scratch2) ↦{fullShare} h) : sProp 𝕄) := by
  iintro ⟨⟨%f, Hf⟩, ⟨%g, Hg⟩⟩
  ihave H := (pointsTo_join (ℓ := (c : Thread nD τ).loc cc0_scratch2) (q := fullShare) (f := f) (g := g) stgL_sets.1) $$ [Hf Hg]
  · isplitl [Hf] <;> iassumption
  iexists _
  iapply (Entails.of_eq (congrArg (fun S : Finset (Idx ((c : Thread nD τ).loc cc0_scratch2)) => (((c : Thread nD τ).loc cc0_scratch2) ↦[S]{fullShare} _ : sProp 𝕄)) stgL_sets.2.symm))
  iexact H

/-! ### `cc0_scratch3` -/

theorem locB_sets :
    Disjoint ((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set : Finset S2x1024x1024.Idx)
        (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set
      ∧ (Finset.univ : Finset S2x1024x1024.Idx)
        = (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set :=
  two_slots (fun i => by rw [View.set_reshape, View.set_slice_whole]; exact mem_slotRect 0 _ i)
    (fun i => by rw [View.set_reshape, View.set_slice_whole]; exact mem_slotRect 1 _ i)

omit [FloatOps F] in
/-- The buffer held whole is its two slots, at the same contents. -/
theorem locB_split (c : Dev nD) (f : Buf (Elt F) ((c : Thread nD τ).loc cc0_scratch3)) :
    (((Memref.whole cc0_scratch3 : Memref sig .tc .vmem S2x1024x1024 .bf16)).view.loc (c : Thread nD τ) ↦[((Memref.whole cc0_scratch3 : Memref sig .tc .vmem S2x1024x1024 .bf16)).view.set]{fullShare} f : sProp 𝕄)
      ⊣⊢ iprop(((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
          ∗ ((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f)) := by
  have e : (((Memref.whole cc0_scratch3 : Memref sig .tc .vmem S2x1024x1024 .bf16)).view.loc (c : Thread nD τ) ↦[((Memref.whole cc0_scratch3 : Memref sig .tc .vmem S2x1024x1024 .bf16)).view.set]{fullShare} f : sProp 𝕄)
      = (((c : Thread nD τ).loc cc0_scratch3) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set
          ∪ (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f) := by
    rw [View.set_whole]
    exact congrArg (fun S : Finset (Idx ((c : Thread nD τ).loc cc0_scratch3)) => (((c : Thread nD τ).loc cc0_scratch3) ↦[S]{fullShare} f : sProp 𝕄)) locB_sets.2
  exact (BiEntails.of_eq e).trans (pointsTo_union locB_sets.1)

omit [FloatOps F] in
/-- The two slots, each at some contents, are the buffer whole at some contents. -/
theorem locB_glue (c : Dev nD) :
    iprop((∃ f, (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
        ∗ (∃ f, (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f))
      ⊢ (iprop(∃ h : Buf (Elt F) ((c : Thread nD τ).loc cc0_scratch3), ((c : Thread nD τ).loc cc0_scratch3) ↦{fullShare} h) : sProp 𝕄) := by
  iintro ⟨⟨%f, Hf⟩, ⟨%g, Hg⟩⟩
  ihave H := (pointsTo_join (ℓ := (c : Thread nD τ).loc cc0_scratch3) (q := fullShare) (f := f) (g := g) locB_sets.1) $$ [Hf Hg]
  · isplitl [Hf] <;> iassumption
  iexists _
  iapply (Entails.of_eq (congrArg (fun S : Finset (Idx ((c : Thread nD τ).loc cc0_scratch3)) => (((c : Thread nD τ).loc cc0_scratch3) ↦[S]{fullShare} _ : sProp 𝕄)) locB_sets.2.symm))
  iexact H

/-! ## The exit -/

/-- The 38 DMA semaphores are the six local ones, the sixteen send and the sixteen receive semaphores. -/
def f38 : Fin 6 ⊕ (Fin 16 ⊕ Fin 16) → Fin 38
  | .inl k => ⟨k.val, by have := k.isLt; omega⟩
  | .inr (.inl r) => ⟨6 + r.val, by have := r.isLt; omega⟩
  | .inr (.inr r) => ⟨22 + r.val, by have := r.isLt; omega⟩
def e38 : Fin 6 ⊕ (Fin 16 ⊕ Fin 16) ≃ Fin 38 := Equiv.ofBijective f38 (by decide)

omit [FloatOps F] in
theorem sems38 (c : Dev nD) :
    iprop((bigSep Finset.univ fun k : Fin 6 => semVal (locCell c k) 0) ∗ (bigSep Finset.univ fun r : Fin 16 => semVal (sendCell c r) 0)
        ∗ (bigSep Finset.univ fun r : Fin 16 => semVal (recvCell c r) 0))
      ⊢ (bigSep Finset.univ fun k : Fin 38 => semVal ((c : Thread nD τ), osem k) 0 : sProp 𝕄) := by
  rw [bigSep_univ_equiv e38 (fun k : Fin 38 => (semVal ((c : Thread nD τ), osem k) 0 : sProp 𝕄)), bigSep_univ_sum, bigSep_univ_sum]
  exact .rfl

/-- After the last wait: the argument as launched, the result array's 32 slices at their final contents (the sixteen
    the device stored itself, the sixteen its partner's copies landed), the send buffer's sixteen slots handed back, the
    six slots of the double-buffered scratch buffers, every semaphore of the kernel's own at zero and nothing owed:
    that is the state the launch takes back. -/
theorem exit_post (c : Dev nD) (W : Waits sig Unit) :
    iprop((((Memref.whole main_arg0 : Memref sig .tc .hbm S16384x2048 .f32)).view.loc (c : Thread nD τ) ↦[((Memref.whole main_arg0 : Memref sig .tc .hbm S16384x2048 .f32)).view.set]{fullShare} X m c)
      ∗ (bigSep Finset.univ fun r : Fin 16 => ((oS c r).view.loc (c : Thread nD τ) ↦[(oS c r).view.set]{fullShare} OV m c : sProp 𝕄))
      ∗ (bigSep Finset.univ fun r : Fin 16 => recvPay m c r)
      ∗ (bigSep Finset.univ fun r : Fin 16 => sendPay m c r)
      ∗ (∃ f, (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (∃ f, (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (∃ f, (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (bigSep Finset.univ fun k : Fin 6 => semVal (locCell c k) 0) ∗ (bigSep Finset.univ fun r : Fin 16 => semVal (sendCell c r) 0)
      ∗ (bigSep Finset.univ fun r : Fin 16 => semVal (recvCell c r) 0)
      ∗ owes (c : Thread nD τ) 0 W)
    ⊢ bodyPost m c := by
  unfold bodyPost Φ₁ arrays scratch recvPay sendPay
  rw [View.set_whole]
  iintro ⟨Hx, Ho, Hr, Hs, Ha0, Ha1, Hb0, Hb1, Hc0, Hc1, HL, HS, HV, HO⟩
  ihave Hout := (out_split (F := F) c (OV m c)).2 $$ [Ho Hr]
  · isplitl [Ho] <;> iassumption
  ihave Hsnd := (sndB_split (F := F) c (sbV m c)).2 $$ Hs
  ihave HA := (stgS_glue (F := F) c) $$ [Ha0 Ha1]
  · isplitl [Ha0] <;> iassumption
  ihave HB := (stgL_glue (F := F) c) $$ [Hb0 Hb1]
  · isplitl [Hb0] <;> iassumption
  ihave HC := (locB_glue (F := F) c) $$ [Hc0 Hc1]
  · isplitl [Hc0] <;> iassumption
  ihave Hsem := (sems38 (F := F) c) $$ [HL HS HV]
  · isplitl [HL]; · iexact HL
    isplitl [HS] <;> iassumption
  isplitr [HO]
  · isplitl [Hx Hout]
    · isplitl [Hx] <;> iassumption
    isplitr [Hsem]
    · isplitl [HA]; · iexact HA
      isplitl [Hsnd]; · iexists _; iexact Hsnd
      isplitl [HB] <;> iassumption
    · iexact Hsem
  · iexists W
    isplitr
    · ipureintro; exact Set.subset_univ _
    · iexact HO

/-- info: 'Cert.KernelIdeal.A2A.stgS_split' depends on axioms: [propext, Classical.choice, Quot.sound] -/
#guard_msgs in #print axioms stgS_split

/-- info: 'Cert.KernelIdeal.A2A.stgL_split' depends on axioms: [propext, Classical.choice, Quot.sound] -/
#guard_msgs in #print axioms stgL_split

/-- info: 'Cert.KernelIdeal.A2A.locB_split' depends on axioms: [propext, Classical.choice, Quot.sound] -/
#guard_msgs in #print axioms locB_split

/-- info: 'Cert.KernelIdeal.A2A.stgS_glue' depends on axioms: [propext, Classical.choice, Quot.sound] -/
#guard_msgs in #print axioms stgS_glue

/-- info: 'Cert.KernelIdeal.A2A.stgL_glue' depends on axioms: [propext, Classical.choice, Quot.sound] -/
#guard_msgs in #print axioms stgL_glue

/-- info: 'Cert.KernelIdeal.A2A.locB_glue' depends on axioms: [propext, Classical.choice, Quot.sound] -/
#guard_msgs in #print axioms locB_glue

/-- info: 'Cert.KernelIdeal.A2A.exit_post' depends on axioms: [propext, Classical.choice, Quot.sound] -/
#guard_msgs in #print axioms exit_post

/-- The exit with every group written out term by term: the same as `exit_post`, for a context that holds the pieces one by one. -/
theorem exit_post_flat (c : Dev nD) (W : Waits sig Unit) :
    iprop((((Memref.whole main_arg0 : Memref sig .tc .hbm S16384x2048 .f32)).view.loc (c : Thread nD τ) ↦[((Memref.whole main_arg0 : Memref sig .tc .hbm S16384x2048 .f32)).view.set]{fullShare} X m c)
      ∗ (((oS c 0).view.loc (c : Thread nD τ) ↦[(oS c 0).view.set]{fullShare} OV m c) ∗ ((oS c 1).view.loc (c : Thread nD τ) ↦[(oS c 1).view.set]{fullShare} OV m c) ∗ ((oS c 2).view.loc (c : Thread nD τ) ↦[(oS c 2).view.set]{fullShare} OV m c) ∗ ((oS c 3).view.loc (c : Thread nD τ) ↦[(oS c 3).view.set]{fullShare} OV m c) ∗ ((oS c 4).view.loc (c : Thread nD τ) ↦[(oS c 4).view.set]{fullShare} OV m c) ∗ ((oS c 5).view.loc (c : Thread nD τ) ↦[(oS c 5).view.set]{fullShare} OV m c) ∗ ((oS c 6).view.loc (c : Thread nD τ) ↦[(oS c 6).view.set]{fullShare} OV m c) ∗ ((oS c 7).view.loc (c : Thread nD τ) ↦[(oS c 7).view.set]{fullShare} OV m c) ∗ ((oS c 8).view.loc (c : Thread nD τ) ↦[(oS c 8).view.set]{fullShare} OV m c) ∗ ((oS c 9).view.loc (c : Thread nD τ) ↦[(oS c 9).view.set]{fullShare} OV m c) ∗ ((oS c 10).view.loc (c : Thread nD τ) ↦[(oS c 10).view.set]{fullShare} OV m c) ∗ ((oS c 11).view.loc (c : Thread nD τ) ↦[(oS c 11).view.set]{fullShare} OV m c) ∗ ((oS c 12).view.loc (c : Thread nD τ) ↦[(oS c 12).view.set]{fullShare} OV m c) ∗ ((oS c 13).view.loc (c : Thread nD τ) ↦[(oS c 13).view.set]{fullShare} OV m c) ∗ ((oS c 14).view.loc (c : Thread nD τ) ↦[(oS c 14).view.set]{fullShare} OV m c) ∗ ((oS c 15).view.loc (c : Thread nD τ) ↦[(oS c 15).view.set]{fullShare} OV m c))
      ∗ (recvPay m c 0 ∗ recvPay m c 1 ∗ recvPay m c 2 ∗ recvPay m c 3 ∗ recvPay m c 4 ∗ recvPay m c 5 ∗ recvPay m c 6 ∗ recvPay m c 7 ∗ recvPay m c 8 ∗ recvPay m c 9 ∗ recvPay m c 10 ∗ recvPay m c 11 ∗ recvPay m c 12 ∗ recvPay m c 13 ∗ recvPay m c 14 ∗ recvPay m c 15)
      ∗ (sendPay m c 0 ∗ sendPay m c 1 ∗ sendPay m c 2 ∗ sendPay m c 3 ∗ sendPay m c 4 ∗ sendPay m c 5 ∗ sendPay m c 6 ∗ sendPay m c 7 ∗ sendPay m c 8 ∗ sendPay m c 9 ∗ sendPay m c 10 ∗ sendPay m c 11 ∗ sendPay m c 12 ∗ sendPay m c 13 ∗ sendPay m c 14 ∗ sendPay m c 15)
      ∗ (∃ f, (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (∃ f, (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (∃ f, (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
      ∗ (∃ f, (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
      ∗ (semVal (locCell c 0) 0 ∗ semVal (locCell c 1) 0 ∗ semVal (locCell c 2) 0 ∗ semVal (locCell c 3) 0 ∗ semVal (locCell c 4) 0 ∗ semVal (locCell c 5) 0)
      ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (sendCell c 8) 0 ∗ semVal (sendCell c 9) 0 ∗ semVal (sendCell c 10) 0 ∗ semVal (sendCell c 11) 0 ∗ semVal (sendCell c 12) 0 ∗ semVal (sendCell c 13) 0 ∗ semVal (sendCell c 14) 0 ∗ semVal (sendCell c 15) 0)
      ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal (recvCell c 8) 0 ∗ semVal (recvCell c 9) 0 ∗ semVal (recvCell c 10) 0 ∗ semVal (recvCell c 11) 0 ∗ semVal (recvCell c 12) 0 ∗ semVal (recvCell c 13) 0 ∗ semVal (recvCell c 14) 0 ∗ semVal (recvCell c 15) 0)
      ∗ owes (c : Thread nD τ) 0 W)
    ⊢ bodyPost m c := by
  have h := exit_post m c W
  rw [bigSep_fin16, bigSep_fin16, bigSep_fin16, bigSep_fin6, bigSep_fin16, bigSep_fin16] at h
  exact h

/-- info: 'Cert.KernelIdeal.A2A.exit_post_flat' depends on axioms: [propext, Classical.choice, Quot.sound] -/
#guard_msgs in #print axioms exit_post_flat

end Cert.KernelIdeal.A2A

end
-- ==== Proof.KernelIdeal.ValueSteps.lean ====
/-
  The value steps of the body: what the kernel's buffers hold on the way, entry by entry.

  For each row chunk the kernel copies a 1024 x 1024 block of its argument into a staging slot, loads the slot, narrows
  the loaded block to bf16 and stores it into a slot of the send buffer (the columns its partner keeps) or of the local
  buffer (the columns it keeps itself).  Each step moves entries without changing them, except the narrowing, which
  acts entry by entry; so the slot ends holding the sent chunk, or the kept chunk, of the specification.
-/
import proofs.«900627_g7700000000000628_dist_a2a_v7x_xyz2x2x2_z_m16384_n1024_bf16_1_alg».proof.Proof.KernelIdeal.Proto
import proofs.«900627_g7700000000000628_dist_a2a_v7x_xyz2x2x2_z_m16384_n1024_bf16_1_alg».proof.Proof.KernelIdeal.Contents
import proofs.«900627_g7700000000000628_dist_a2a_v7x_xyz2x2x2_z_m16384_n1024_bf16_1_alg».proof.Proof.KernelIdeal.RuleSend
import proofs.«900627_g7700000000000628_dist_a2a_v7x_xyz2x2x2_z_m16384_n1024_bf16_1_alg».proof.Proof.Gen.KernelIdeal.Skeleton
import Idealize.ShloMosaic.Lib.Writes
import Idealize.ShloMosaic.Lib.ValueLayout
import Idealize.ShloMosaic.Lib.Exec.Geometry

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-! ## Reading the argument through a chunk's slice -/

/-- The argument read through its 1024 x 1024 slice at offsets `off`: at `y`, the entry at row `off 0 + y 0`,
    column `off 1 + y 1`. -/
theorem xslice_read (c : Dev nD) (off : Fin 2 → ℕ) (inb : ∀ a, off a + S1024x1024.size a ≤ S16384x2048.size a)
    (hs : ∀ a, (Rect.unit (s := S16384x2048) off S1024x1024.size inb).stride a = 1) (y : S1024x1024.Idx)
    (a : Fin 16384) (b : Fin 2048) (ha : a.val = off 0 + (y 0).val) (hb : b.val = off 1 + (y 1).val) :
    View.read (Elt F) ((Memref.whole main_arg0 : Memref sig .tc .hbm S16384x2048 .f32).slice
        (Rect.unit (s := S16384x2048) off S1024x1024.size inb) hs).view (X m c) y
      = (X m c : FVec F S16384x2048 .f32) (ix2 a b) := by
  rw [View.read_apply]
  show (X m c : FVec F S16384x2048 .f32) ((Rect.unit (s := S16384x2048) off S1024x1024.size inb).emb y) = _
  congr 1
  funext d
  apply Fin.ext
  match d with
  | ⟨0, _⟩ => show off 0 + 1 * (y 0).val = a.val; omega
  | ⟨1, _⟩ => show off 1 + 1 * (y 1).val = b.val; omega

/-! ## Loading a staging slot -/

/-- A staging buffer's slot `k` written whole with `w`, then loaded through the buffer at the slot's rectangle: at
    `x`, the entry of `w` at `(x 1, x 2)`. -/
theorem staged_read {sp : Space} {L : List (View.Piece (Elt F) S1024x1024 .f32)} (c : Dev nD) (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (f : Buf (Elt F) (stg.view.loc (c : Thread nD τ))) (w : S1024x1024.Idx → Elt F .f32)
    (x : S1x1024x1024.Idx) :
    View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F) f (⟨Rect.whole S1024x1024, w⟩ :: L)) x
      = w (ix2 (x 1) (x 2)) := by
  rw [View.readAt_apply, View.writes_cons, View.read_apply]
  have hx : stg.view.emb ((Rect.unit (s := S2x1024x1024) ![k, 0, 0] S1x1024x1024.size inb).toLoadRect.idx x)
      = ((((stg.slice (Rect.unit (s := S2x1024x1024) ![k, 0, 0] S1x1024x1024.size inb) hs).squeeze S1024x1024
            squeezes_S1x1024x1024_S1024x1024).view).slice (Rect.whole S1024x1024)).emb (ix2 (x 1) (x 2)) := by
    show stg.view.emb ((Rect.unit (s := S2x1024x1024) ![k, 0, 0] S1x1024x1024.size inb).emb x)
      = stg.view.emb ((Rect.unit (s := S2x1024x1024) ![k, 0, 0] S1x1024x1024.size inb).emb
          (Shape.reshapeEquiv (s := S1x1024x1024) (s' := S1024x1024) squeezes_S1x1024x1024_S1024x1024.numel_eq
            ((Rect.whole S1024x1024).emb (ix2 (x 1) (x 2)))))
    rw [Rect.emb_whole_apply, Shape.reshapeEquiv_cons_one]
    congr 2
    funext a
    match a with
    | ⟨0, _⟩ => exact Fin.ext (by have h0 : (x 0).val < 1 := (x 0).isLt; show (x 0).val = 0; omega)
    | ⟨1, _⟩ => rfl
    | ⟨2, _⟩ => rfl
  rw [hx, View.write_emb_of_mem _ _ (Finset.mem_univ _), cast_cast, cast_eq]

/-! ## The payload -/

/-- Every chunk's payload is the loaded block narrowed entry by entry: the two casts only drop and restore the leading
    axis of size one. -/
theorem pay_apply (u : Vec F S1x1024x1024 .f32) (h1 : S1x1024x1024.ShapeCasts S1024x1024)
    (h2 : S1024x1024.ShapeCasts S1x1024x1024) (hb : FTy.bits .bf16 < FTy.bits .f32) (y : S1x1024x1024.Idx) :
    shapeCast S1x1024x1024
        (truncf .bf16 (shapeCast S1024x1024 u h1 : FVec F S1024x1024 .f32) hb : FVec F S1024x1024 .bf16) h2 y
      = FloatOps.truncf .bf16 hb (u y) := by
  obtain ⟨a, b, d, rfl⟩ : ∃ a b d, y = ix3 a b d := ⟨_, _, _, eq_ix3 y⟩
  rw [shapeCast_ab_1ab_apply]
  show FloatOps.truncf .bf16 hb (shapeCast S1024x1024 u h1 (ix2 b d)) = _
  rw [shapeCast_1ab_ab_apply]
  have ha : a = 0 := Fin.ext (by have := a.isLt; omega)
  rw [ha]

/-! ## Reading a slot of the send buffer out of the buffer's stores -/

/-- The send buffer after a store of `w` at slot `k` (over earlier stores), read through slot `r = k`: at `y`, the
    entry of `w` at `(0, y 0, y 1)`. -/
theorem sbS_read_writes (c : Dev nD) (r : Fin 16) (k : ℕ) (hk : k = r.val)
    (inb : ∀ a, (![k, 0, 0] : Fin 3 → ℕ) a + S1x1024x1024.size a ≤ S16x1024x1024.size a)
    (f : Buf (Elt F) ((Memref.whole cc0_scratch1 : Memref sig .tc .vmem S16x1024x1024 .bf16).view.loc (c : Thread nD τ)))
    (w : S1x1024x1024.Idx → Elt F .bf16) (L : List (View.Piece (Elt F) S16x1024x1024 .bf16)) (y : S1024x1024.Idx) :
    (sbS r).view.read (Elt F)
        ((Memref.whole cc0_scratch1 : Memref sig .tc .vmem S16x1024x1024 .bf16).view.writes (Elt F) f
          (⟨Rect.unit (s := S16x1024x1024) ![k, 0, 0] S1x1024x1024.size inb, w⟩ :: L)) y
      = w (ix3 0 (y 0) (y 1)) := by
  subst hk
  rw [View.read_apply, View.writes_cons]
  have hy : (sbS r).view.emb y
      = ((Memref.whole cc0_scratch1 : Memref sig .tc .vmem S16x1024x1024 .bf16).view.slice
          (Rect.unit (s := S16x1024x1024) ![r.val, 0, 0] S1x1024x1024.size inb)).emb (ix3 0 (y 0) (y 1)) := by
    show (Memref.whole cc0_scratch1 : Memref sig .tc .vmem S16x1024x1024 .bf16).view.emb
        ((Rect.unit (s := S16x1024x1024) ![r.val, 0, 0] S1x1024x1024.size (sb_inb r)).emb
          (Shape.reshapeEquiv (s := S1x1024x1024) (s' := S1024x1024) squeezes_S1x1024x1024_S1024x1024.numel_eq y))
      = (Memref.whole cc0_scratch1 : Memref sig .tc .vmem S16x1024x1024 .bf16).view.emb
        ((Rect.unit (s := S16x1024x1024) ![r.val, 0, 0] S1x1024x1024.size inb).emb (ix3 0 (y 0) (y 1)))
    rw [Shape.reshapeEquiv_cons_one]
    congr 2
    funext a
    match a with
    | ⟨0, _⟩ => rfl
    | ⟨1, _⟩ => rfl
    | ⟨2, _⟩ => rfl
  rw [hy, View.write_emb_of_mem _ _ (Finset.mem_univ _)]
  rfl

/-! ## A chunk's narrowed block, entry by entry -/

/-- A staging slot filled by the copy of the argument's slice at `off`, loaded, and narrowed by the chunk's payload:
    at `y`, the argument's entry at row `off 0 + y 1`, column `off 1 + y 2`, narrowed. -/
theorem chunk_payload {L : List (View.Piece (Elt F) S1024x1024 .f32)} (c : Dev nD) (pay : Vec F S1x1024x1024 .f32 → FVec F S1x1024x1024 .bf16)
    (hpay : ∀ u y, pay u y = FloatOps.truncf .bf16 (by decide) (u y))
    {sp : Space} (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (f : Buf (Elt F) (stg.view.loc (c : Thread nD τ)))
    (off : Fin 2 → ℕ) (inbo : ∀ a, off a + S1024x1024.size a ≤ S16384x2048.size a)
    (hso : ∀ a, (Rect.unit (s := S16384x2048) off S1024x1024.size inbo).stride a = 1)
    (y : S1x1024x1024.Idx) (a : Fin 16384) (b : Fin 2048)
    (ha : a.val = off 0 + (y 1).val) (hb : b.val = off 1 + (y 2).val) :
    pay (View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F) f
          (⟨Rect.whole S1024x1024, ReadAs.same.apply (View.read (Elt F)
              ((Memref.whole main_arg0 : Memref sig .tc .hbm S16384x2048 .f32).slice
                (Rect.unit (s := S16384x2048) off S1024x1024.size inbo) hso).view (X m c))⟩ :: L))) y
      = FloatOps.truncf .bf16 (by decide) ((X m c : FVec F S16384x2048 .f32) (ix2 a b)) := by
  rw [hpay, staged_read]
  exact congrArg _ (xslice_read m c off inbo hso _ a b ha hb)

/-- The same for a chunk the device SENDS: row chunk `r`, the columns its partner keeps. -/
theorem sent_payload {L : List (View.Piece (Elt F) S1024x1024 .f32)} (c : Dev nD) (r : Fin 16) (pay : Vec F S1x1024x1024 .f32 → FVec F S1x1024x1024 .bf16)
    (hpay : ∀ u y, pay u y = FloatOps.truncf .bf16 (by decide) (u y))
    {sp : Space} (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (f : Buf (Elt F) (stg.view.loc (c : Thread nD τ)))
    (off : Fin 2 → ℕ) (inbo : ∀ a, off a + S1024x1024.size a ≤ S16384x2048.size a)
    (hso : ∀ a, (Rect.unit (s := S16384x2048) off S1024x1024.size inbo).stride a = 1)
    (o0 o1 : ℕ) (hoff : off = ![o0, o1]) (h0 : o0 = 1024 * r.val) (h1 : o1 = 1024 - 1024 * (c.val % 2))
    (y : S1x1024x1024.Idx) (a : Fin 16384) (b : Fin 2048)
    (ha : a.val = 1024 * r.val + (y 1).val) (hb : b.val = 1024 * (1 - zOf c) + (y 2).val) :
    pay (View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F) f
          (⟨Rect.whole S1024x1024, ReadAs.same.apply (View.read (Elt F)
              ((Memref.whole main_arg0 : Memref sig .tc .hbm S16384x2048 .f32).slice
                (Rect.unit (s := S16384x2048) off S1024x1024.size inbo) hso).view (X m c))⟩ :: L))) y
      = FloatOps.truncf .bf16 (by decide) ((X m c : FVec F S16384x2048 .f32) (ix2 a b)) := by
  refine chunk_payload m c pay hpay stg k inb hs f off inbo hso y a b ?_ ?_
  · rw [hoff, ha, h0]; rfl
  · rw [hoff, hb, h1]; show 1024 * (1 - c.val % 2) + (y 2).val = 1024 - 1024 * (c.val % 2) + (y 2).val
    have := Nat.mod_lt c.val (show 0 < 2 by decide); omega

/-- `sent_payload` with the staging slot's earlier contents unspecified (the copy fills the whole slot). -/
theorem sent_payload_junk [∀ e, Nonempty (Elt F e)] {L : List (View.Piece (Elt F) S1024x1024 .f32)} (c : Dev nD) (r : Fin 16)
    (pay : Vec F S1x1024x1024 .f32 → FVec F S1x1024x1024 .bf16)
    (hpay : ∀ u y, pay u y = FloatOps.truncf .bf16 (by decide) (u y))
    {sp : Space} (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (off : Fin 2 → ℕ) (inbo : ∀ a, off a + S1024x1024.size a ≤ S16384x2048.size a)
    (hso : ∀ a, (Rect.unit (s := S16384x2048) off S1024x1024.size inbo).stride a = 1)
    (o0 o1 : ℕ) (hoff : off = ![o0, o1]) (h0 : o0 = 1024 * r.val) (h1 : o1 = 1024 - 1024 * (c.val % 2))
    (y : S1x1024x1024.Idx) (a : Fin 16384) (b : Fin 2048)
    (ha : a.val = 1024 * r.val + (y 1).val) (hb : b.val = 1024 * (1 - zOf c) + (y 2).val) :
    pay (View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F)
          ((stg.slice (Rect.unit (s := S2x1024x1024) ![k, 0, 0] S1x1024x1024.size inb) hs).squeeze S1024x1024
            squeezes_S1x1024x1024_S1024x1024).view.junk
          (⟨Rect.whole S1024x1024, ReadAs.same.apply (View.read (Elt F)
              ((Memref.whole main_arg0 : Memref sig .tc .hbm S16384x2048 .f32).slice
                (Rect.unit (s := S16384x2048) off S1024x1024.size inbo) hso).view (X m c))⟩ :: L))) y
      = FloatOps.truncf .bf16 (by decide) ((X m c : FVec F S16384x2048 .f32) (ix2 a b)) :=
  sent_payload m c r pay hpay stg k inb hs _ off inbo hso o0 o1 hoff h0 h1 y a b ha hb

/-! ## The send buffer's slot holds the sent chunk -/

/-- The send buffer after a store at slot `k = r` of a block that is, entry by entry, the argument's narrowed entries
    of the sent chunk, read through slot `r`: the sent chunk. -/
theorem sent_hfs_whole (c : Dev nD) (r : Fin 16) (k : ℕ) (hk : k = r.val)
    (inb : ∀ a, (![k, 0, 0] : Fin 3 → ℕ) a + S1x1024x1024.size a ≤ S16x1024x1024.size a)
    (f : Buf (Elt F) ((Memref.whole cc0_scratch1 : Memref sig .tc .vmem S16x1024x1024 .bf16).view.loc (c : Thread nD τ)))
    (L : List (View.Piece (Elt F) S16x1024x1024 .bf16)) (w : S1x1024x1024.Idx → Elt F .bf16)
    (hw : ∀ (y : S1x1024x1024.Idx) (a : Fin 16384) (b : Fin 2048), a.val = 1024 * r.val + (y 1).val →
      b.val = 1024 * (1 - zOf c) + (y 2).val →
      w y = FloatOps.truncf .bf16 (by decide) ((X m c : FVec F S16384x2048 .f32) (ix2 a b))) :
    (sbS r).view.read (Elt F)
        ((Memref.whole cc0_scratch1 : Memref sig .tc .vmem S16x1024x1024 .bf16).view.writes (Elt F) f
          (⟨Rect.unit (s := S16x1024x1024) ![k, 0, 0] S1x1024x1024.size inb, w⟩ :: L))
      = sentChunk m c r := by
  funext y
  rw [sbS_read_writes c r k hk inb f w L y]
  have hr := r.isLt
  have hz := zOf_lt c
  have hy0 : (y 0).val < 1024 := (y 0).isLt
  have hy1 : (y 1).val < 1024 := (y 1).isLt
  exact hw (ix3 0 (y 0) (y 1)) ⟨1024 * r.val + (y 0).val, by omega⟩ ⟨1024 * (1 - zOf c) + (y 1).val, by omega⟩ rfl rfl

/-! ## The same for a chunk the device KEEPS -/

/-- `chunk_payload` for a chunk the device keeps: row chunk `r`, the columns of its own block. -/
theorem kept_payload {L : List (View.Piece (Elt F) S1024x1024 .f32)} (c : Dev nD) (r : Fin 16) (pay : Vec F S1x1024x1024 .f32 → FVec F S1x1024x1024 .bf16)
    (hpay : ∀ u y, pay u y = FloatOps.truncf .bf16 (by decide) (u y))
    {sp : Space} (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (f : Buf (Elt F) (stg.view.loc (c : Thread nD τ)))
    (off : Fin 2 → ℕ) (inbo : ∀ a, off a + S1024x1024.size a ≤ S16384x2048.size a)
    (hso : ∀ a, (Rect.unit (s := S16384x2048) off S1024x1024.size inbo).stride a = 1)
    (o0 o1 : ℕ) (hoff : off = ![o0, o1]) (h0 : o0 = 1024 * r.val) (h1 : o1 = 1024 * (c.val % 2))
    (y : S1x1024x1024.Idx) (a : Fin 16384) (b : Fin 2048)
    (ha : a.val = 1024 * r.val + (y 1).val) (hb : b.val = 1024 * zOf c + (y 2).val) :
    pay (View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F) f
          (⟨Rect.whole S1024x1024, ReadAs.same.apply (View.read (Elt F)
              ((Memref.whole main_arg0 : Memref sig .tc .hbm S16384x2048 .f32).slice
                (Rect.unit (s := S16384x2048) off S1024x1024.size inbo) hso).view (X m c))⟩ :: L))) y
      = FloatOps.truncf .bf16 (by decide) ((X m c : FVec F S16384x2048 .f32) (ix2 a b)) := by
  refine chunk_payload m c pay hpay stg k inb hs f off inbo hso y a b ?_ ?_
  · rw [hoff, ha, h0]; rfl
  · rw [hoff, hb, h1]; rfl

/-- `kept_payload` with the staging slot's earlier contents unspecified. -/
theorem kept_payload_junk [∀ e, Nonempty (Elt F e)] {L : List (View.Piece (Elt F) S1024x1024 .f32)} (c : Dev nD) (r : Fin 16)
    (pay : Vec F S1x1024x1024 .f32 → FVec F S1x1024x1024 .bf16)
    (hpay : ∀ u y, pay u y = FloatOps.truncf .bf16 (by decide) (u y))
    {sp : Space} (stg : Memref sig .tc sp S2x1024x1024 .f32) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (off : Fin 2 → ℕ) (inbo : ∀ a, off a + S1024x1024.size a ≤ S16384x2048.size a)
    (hso : ∀ a, (Rect.unit (s := S16384x2048) off S1024x1024.size inbo).stride a = 1)
    (o0 o1 : ℕ) (hoff : off = ![o0, o1]) (h0 : o0 = 1024 * r.val) (h1 : o1 = 1024 * (c.val % 2))
    (y : S1x1024x1024.Idx) (a : Fin 16384) (b : Fin 2048)
    (ha : a.val = 1024 * r.val + (y 1).val) (hb : b.val = 1024 * zOf c + (y 2).val) :
    pay (View.readAt (Elt F) stg.view (Rect.unit (s := S2x1024x1024) ![k, 0, 0] S1x1024x1024.size inb).toLoadRect
        (((stg.slice (Rect.unit (s := S2x1024x1024) ![k, 0, 0] S1x1024x1024.size inb) hs).squeeze S1024x1024
            squeezes_S1x1024x1024_S1024x1024).view.writes (Elt F)
          ((stg.slice (Rect.unit (s := S2x1024x1024) ![k, 0, 0] S1x1024x1024.size inb) hs).squeeze S1024x1024
            squeezes_S1x1024x1024_S1024x1024).view.junk
          (⟨Rect.whole S1024x1024, ReadAs.same.apply (View.read (Elt F)
              ((Memref.whole main_arg0 : Memref sig .tc .hbm S16384x2048 .f32).slice
                (Rect.unit (s := S16384x2048) off S1024x1024.size inbo) hso).view (X m c))⟩ :: L))) y
      = FloatOps.truncf .bf16 (by decide) ((X m c : FVec F S16384x2048 .f32) (ix2 a b)) :=
  kept_payload m c r pay hpay stg k inb hs _ off inbo hso o0 o1 hoff h0 h1 y a b ha hb

/-! ## A slot of a three-axis buffer, read after a store through the buffer at that slot -/

/-- A buffer of `n` slots of 1024 x 1024 entries, stored at slot `k` with `w` (through the whole buffer, at the slot's
    rectangle), read through the slot: at `y`, the entry of `w` at `(0, y 0, y 1)`. -/
theorem slot_read_write {sp : Space} {n : ℕ} {e : EltTy} (c : Dev nD)
    (B : Memref sig .tc sp (⟨3, ![n, 1024, 1024]⟩ : Shape) e) (k : ℕ)
    (inb : ∀ a, (![k, 0, 0] : Fin 3 → ℕ) a + S1x1024x1024.size a ≤ (⟨3, ![n, 1024, 1024]⟩ : Shape).size a)
    (hs : ∀ a, (Rect.unit (s := (⟨3, ![n, 1024, 1024]⟩ : Shape)) ![k, 0, 0] S1x1024x1024.size inb).stride a = 1)
    (f : Buf (Elt F) (B.view.loc (c : Thread nD τ))) (w : S1x1024x1024.Idx → Elt F e) (y : S1024x1024.Idx) :
    ((B.slice (Rect.unit (s := (⟨3, ![n, 1024, 1024]⟩ : Shape)) ![k, 0, 0] S1x1024x1024.size inb) hs).squeeze S1024x1024
          squeezes_S1x1024x1024_S1024x1024).view.read (Elt F)
        (View.write (Elt F) (B.access (Rect.unit (s := (⟨3, ![n, 1024, 1024]⟩ : Shape)) ![k, 0, 0] S1x1024x1024.size inb))
          f w Finset.univ) y
      = w (ix3 0 (y 0) (y 1)) := by
  rw [View.read_apply]
  have hy : ((B.slice (Rect.unit (s := (⟨3, ![n, 1024, 1024]⟩ : Shape)) ![k, 0, 0] S1x1024x1024.size inb) hs).squeeze
        S1024x1024 squeezes_S1x1024x1024_S1024x1024).view.emb y
      = (B.access (Rect.unit (s := (⟨3, ![n, 1024, 1024]⟩ : Shape)) ![k, 0, 0] S1x1024x1024.size inb)).emb
          (ix3 0 (y 0) (y 1)) := by
    show B.view.emb ((Rect.unit (s := (⟨3, ![n, 1024, 1024]⟩ : Shape)) ![k, 0, 0] S1x1024x1024.size inb).emb
        (Shape.reshapeEquiv (s := S1x1024x1024) (s' := S1024x1024) squeezes_S1x1024x1024_S1024x1024.numel_eq y))
      = B.view.emb ((Rect.unit (s := (⟨3, ![n, 1024, 1024]⟩ : Shape)) ![k, 0, 0] S1x1024x1024.size inb).emb
          (ix3 0 (y 0) (y 1)))
    rw [Shape.reshapeEquiv_cons_one]
    congr 2
    funext a
    match a with
    | ⟨0, _⟩ => rfl
    | ⟨1, _⟩ => rfl
    | ⟨2, _⟩ => rfl
  rw [hy, View.write_emb_of_mem _ _ (Finset.mem_univ _), cast_cast, cast_eq]

/-- Slot `r` of the send buffer, stored with a block that is entry by entry the sent chunk's narrowed entries, reads
    as the sent chunk. -/
theorem sent_hfs_slot (c : Dev nD) (r : Fin 16) (k : ℕ) (hk : k = r.val)
    (inb : ∀ a, (![k, 0, 0] : Fin 3 → ℕ) a + S1x1024x1024.size a ≤ S16x1024x1024.size a)
    (f : Buf (Elt F) ((Memref.whole cc0_scratch1 : Memref sig .tc .vmem S16x1024x1024 .bf16).view.loc (c : Thread nD τ)))
    (w : S1x1024x1024.Idx → Elt F .bf16)
    (hw : ∀ (y : S1x1024x1024.Idx) (a : Fin 16384) (b : Fin 2048), a.val = 1024 * r.val + (y 1).val →
      b.val = 1024 * (1 - zOf c) + (y 2).val →
      w y = FloatOps.truncf .bf16 (by decide) ((X m c : FVec F S16384x2048 .f32) (ix2 a b))) :
    (sbS r).view.read (Elt F)
        (View.write (Elt F) ((Memref.whole cc0_scratch1 : Memref sig .tc .vmem S16x1024x1024 .bf16).access
          (Rect.unit (s := S16x1024x1024) ![k, 0, 0] S1x1024x1024.size inb)) f w Finset.univ)
      = sentChunk m c r := by
  subst hk
  funext y
  refine (slot_read_write c (Memref.whole cc0_scratch1 : Memref sig .tc .vmem S16x1024x1024 .bf16) r.val inb
    (fun _ => rfl) f w y).trans ?_
  have hr := r.isLt
  have hz := zOf_lt c
  have hy0 : (y 0).val < 1024 := (y 0).isLt
  have hy1 : (y 1).val < 1024 := (y 1).isLt
  exact hw (ix3 0 (y 0) (y 1)) ⟨1024 * r.val + (y 0).val, by omega⟩ ⟨1024 * (1 - zOf c) + (y 1).val, by omega⟩ rfl rfl

/-- Slot `k` of the local buffer, stored with a block that is entry by entry the kept chunk's narrowed entries, reads
    as the kept chunk of row chunk `r`. -/
theorem kept_hfs_slot (c : Dev nD) (r : Fin 16) (k : ℕ)
    (inb : ∀ a, (![k, 0, 0] : Fin 3 → ℕ) a + S1x1024x1024.size a ≤ S2x1024x1024.size a)
    (hs : ∀ a, (Rect.unit (s := S2x1024x1024) ![k, 0, 0] S1x1024x1024.size inb).stride a = 1)
    (f : Buf (Elt F) ((Memref.whole cc0_scratch3 : Memref sig .tc .vmem S2x1024x1024 .bf16).view.loc (c : Thread nD τ)))
    (w : S1x1024x1024.Idx → Elt F .bf16)
    (hw : ∀ (y : S1x1024x1024.Idx) (a : Fin 16384) (b : Fin 2048), a.val = 1024 * r.val + (y 1).val →
      b.val = 1024 * zOf c + (y 2).val →
      w y = FloatOps.truncf .bf16 (by decide) ((X m c : FVec F S16384x2048 .f32) (ix2 a b))) :
    (((Memref.whole cc0_scratch3 : Memref sig .tc .vmem S2x1024x1024 .bf16).slice
          (Rect.unit (s := S2x1024x1024) ![k, 0, 0] S1x1024x1024.size inb) hs).squeeze S1024x1024
          squeezes_S1x1024x1024_S1024x1024).view.read (Elt F)
        (View.write (Elt F) ((Memref.whole cc0_scratch3 : Memref sig .tc .vmem S2x1024x1024 .bf16).access
          (Rect.unit (s := S2x1024x1024) ![k, 0, 0] S1x1024x1024.size inb)) f w Finset.univ)
      = keptChunk m c r := by
  funext y
  refine (slot_read_write c (Memref.whole cc0_scratch3 : Memref sig .tc .vmem S2x1024x1024 .bf16) k inb hs f w y).trans ?_
  have hr := r.isLt
  have hz := zOf_lt c
  have hy0 : (y 0).val < 1024 := (y 0).isLt
  have hy1 : (y 1).val < 1024 := (y 1).isLt
  exact hw (ix3 0 (y 0) (y 1)) ⟨1024 * r.val + (y 0).val, by omega⟩ ⟨1024 * zOf c + (y 1).val, by omega⟩ rfl rfl

/-! ## The send buffer's final contents, slot by slot -/

/-- Slot `r` of the send buffer's final contents reads as the sent chunk. -/
theorem read_sbV (c : Dev nD) (r : Fin 16) : (sbS r).view.read (Elt F) (sbV m c) = sentChunk m c r := by
  funext y
  rw [View.read_apply]
  obtain ⟨e0, e1, e2⟩ := sbS_emb r y
  have hr := r.isLt
  have hz := zOf_lt c
  have hy0 : (y 0).val < 1024 := (y 0).isLt
  have hy1 : (y 1).val < 1024 := (y 1).isLt
  rw [sbV_at m c _ ⟨1024 * r.val + (y 0).val, by omega⟩ ⟨1024 * (1 - zOf c) + (y 1).val, by omega⟩
    (by show 1024 * r.val + (y 0).val = _; rw [e0, e1]) (by show 1024 * (1 - zOf c) + (y 1).val = _; rw [e2])]
  rfl

/-- A slot of the send buffer just stored with the sent chunk's narrowed entries holds the send buffer's final
    contents there. -/
theorem sent_slot_canon (c : Dev nD) (r : Fin 16) (k : ℕ) (hk : k = r.val)
    (inb : ∀ a, (![k, 0, 0] : Fin 3 → ℕ) a + S1x1024x1024.size a ≤ S16x1024x1024.size a)
    (f : Buf (Elt F) ((Memref.whole cc0_scratch1 : Memref sig .tc .vmem S16x1024x1024 .bf16).view.loc (c : Thread nD τ)))
    (w : S1x1024x1024.Idx → Elt F .bf16)
    (hw : ∀ (y : S1x1024x1024.Idx) (a : Fin 16384) (b : Fin 2048), a.val = 1024 * r.val + (y 1).val →
      b.val = 1024 * (1 - zOf c) + (y 2).val →
      w y = FloatOps.truncf .bf16 (by decide) ((X m c : FVec F S16384x2048 .f32) (ix2 a b))) :
    ((sbS r).view.loc (c : Thread nD τ) ↦[(sbS r).view.set]{fullShare}
        (View.write (Elt F) ((Memref.whole cc0_scratch1 : Memref sig .tc .vmem S16x1024x1024 .bf16).access
          (Rect.unit (s := S16x1024x1024) ![k, 0, 0] S1x1024x1024.size inb)) f w Finset.univ) : sProp 𝕄)
      ⊢ ((sbS r).view.loc (c : Thread nD τ) ↦[(sbS r).view.set]{fullShare} sbV m c : sProp 𝕄) :=
  slot_sent m c r _ (sent_hfs_slot m c r k hk inb f w hw)

/-- The same, with the slot spelt as the symbolic run spells it (the buffer's slice at `![k, 0, 0]`, squeezed). -/
theorem sent_slot_canon' (c : Dev nD) (r : Fin 16) (k : ℕ) (hk : k = r.val)
    (inb : ∀ a, (![k, 0, 0] : Fin 3 → ℕ) a + S1x1024x1024.size a ≤ S16x1024x1024.size a)
    (hs : ∀ a, (Rect.unit (s := S16x1024x1024) ![k, 0, 0] S1x1024x1024.size inb).stride a = 1)
    (f : Buf (Elt F) ((Memref.whole cc0_scratch1 : Memref sig .tc .vmem S16x1024x1024 .bf16).view.loc (c : Thread nD τ)))
    (w : S1x1024x1024.Idx → Elt F .bf16)
    (hw : ∀ (y : S1x1024x1024.Idx) (a : Fin 16384) (b : Fin 2048), a.val = 1024 * r.val + (y 1).val →
      b.val = 1024 * (1 - zOf c) + (y 2).val →
      w y = FloatOps.truncf .bf16 (by decide) ((X m c : FVec F S16384x2048 .f32) (ix2 a b))) :
    ((((Memref.whole cc0_scratch1 : Memref sig .tc .vmem S16x1024x1024 .bf16).slice
          (Rect.unit (s := S16x1024x1024) ![k, 0, 0] S1x1024x1024.size inb) hs).squeeze S1024x1024
          squeezes_S1x1024x1024_S1024x1024).view.loc (c : Thread nD τ)
        ↦[(((Memref.whole cc0_scratch1 : Memref sig .tc .vmem S16x1024x1024 .bf16).slice
          (Rect.unit (s := S16x1024x1024) ![k, 0, 0] S1x1024x1024.size inb) hs).squeeze S1024x1024
          squeezes_S1x1024x1024_S1024x1024).view.set]{fullShare}
        (View.write (Elt F) ((Memref.whole cc0_scratch1 : Memref sig .tc .vmem S16x1024x1024 .bf16).access
          (Rect.unit (s := S16x1024x1024) ![k, 0, 0] S1x1024x1024.size inb)) f w Finset.univ) : sProp 𝕄)
      ⊢ ((sbS r).view.loc (c : Thread nD τ) ↦[(sbS r).view.set]{fullShare} sbV m c : sProp 𝕄) := by
  subst hk
  exact sent_slot_canon m c r r.val rfl inb f w hw

/-! ## Opening the symbolic executor's auxiliary definitions -/

open Lean Elab Tactic Meta in
/-- Unfold, in the goal, every definition whose name has a component `sl` (the auxiliary definitions a symbolic run
    makes for the values it meets, named `<theorem>.sl.<binder>`).  Plain definitional unfolding: the goal is
    replaced by a definitionally equal one. -/
elab "unfold_sl" : tactic => do
  let g ← getMainGoal
  let t ← instantiateMVars (← g.getType)
  let t' ← Meta.deltaExpand t fun n => n.components.contains `sl
  replaceMainGoal [← g.replaceTargetDefEq t']

/-! ## A landed own slice of the result array -/

/-- Row chunk `r`'s own slice of the result array, filled whole by the copy of a block that is the kept chunk, holds
    the result array's final contents.  The slice is spelt by its row offset's word `N = 1024 r`. -/
theorem own_land (c : Dev nD) (r : Fin 16) (N : ℕ) (hN : N = 1024 * r.val)
    (inb : ∀ a, (k0_off4 c (BitVec.ofNat 32 N)) a + S1024x1024.size a ≤ S32768x1024.size a)
    (hs : ∀ a, (Rect.unit (s := S32768x1024) (k0_off4 c (BitVec.ofNat 32 N)) S1024x1024.size inb).stride a = 1)
    (fo : Buf (Elt F) (((Memref.whole main_v1 : Memref sig .tc .hbm S32768x1024 .bf16).slice
      (Rect.unit (s := S32768x1024) (k0_off4 c (BitVec.ofNat 32 N)) S1024x1024.size inb) hs).view.loc (c : Thread nD τ)))
    (Wv : S1024x1024.Idx → Elt F .bf16) (hW : Wv = keptChunk m c r) :
    ((((Memref.whole main_v1 : Memref sig .tc .hbm S32768x1024 .bf16).slice
          (Rect.unit (s := S32768x1024) (k0_off4 c (BitVec.ofNat 32 N)) S1024x1024.size inb) hs).view.loc (c : Thread nD τ)
        ↦[((Memref.whole main_v1 : Memref sig .tc .hbm S32768x1024 .bf16).slice
          (Rect.unit (s := S32768x1024) (k0_off4 c (BitVec.ofNat 32 N)) S1024x1024.size inb) hs).view.set]{fullShare}
        (((Memref.whole main_v1 : Memref sig .tc .hbm S32768x1024 .bf16).slice
          (Rect.unit (s := S32768x1024) (k0_off4 c (BitVec.ofNat 32 N)) S1024x1024.size inb) hs).view.writes (Elt F) fo
          [⟨Rect.whole (Rect.unit (s := S32768x1024) (k0_off4 c (BitVec.ofNat 32 N)) S1024x1024.size inb).shape, Wv⟩])
        : sProp 𝕄))
      ⊢ ((oS c r).view.loc (c : Thread nD τ) ↦[(oS c r).view.set]{fullShare} OV m c : sProp 𝕄) := by
  subst hN
  have e := View.write_univ_eq_writes_whole (Val := Elt F) (oS c r).view fo [] Wv
  refine (Entails.of_eq (?_ : _ = _)).trans (land_local m c r fo Wv hW)
  exact congrArg (fun g => ((oS c r).view.loc (c : Thread nD τ) ↦[(oS c r).view.set]{fullShare} g : sProp 𝕄)) e.symm

/-- The same with the condition on the landed block left as a premise inside the entailment. -/
theorem own_land_wand (c : Dev nD) (r : Fin 16) (N : ℕ) (hN : N = 1024 * r.val)
    (inb : ∀ a, (k0_off4 c (BitVec.ofNat 32 N)) a + S1024x1024.size a ≤ S32768x1024.size a)
    (hs : ∀ a, (Rect.unit (s := S32768x1024) (k0_off4 c (BitVec.ofNat 32 N)) S1024x1024.size inb).stride a = 1)
    (fo : Buf (Elt F) (((Memref.whole main_v1 : Memref sig .tc .hbm S32768x1024 .bf16).slice
      (Rect.unit (s := S32768x1024) (k0_off4 c (BitVec.ofNat 32 N)) S1024x1024.size inb) hs).view.loc (c : Thread nD τ)))
    (Wv : S1024x1024.Idx → Elt F .bf16) :
    ((((Memref.whole main_v1 : Memref sig .tc .hbm S32768x1024 .bf16).slice
          (Rect.unit (s := S32768x1024) (k0_off4 c (BitVec.ofNat 32 N)) S1024x1024.size inb) hs).view.loc (c : Thread nD τ)
        ↦[((Memref.whole main_v1 : Memref sig .tc .hbm S32768x1024 .bf16).slice
          (Rect.unit (s := S32768x1024) (k0_off4 c (BitVec.ofNat 32 N)) S1024x1024.size inb) hs).view.set]{fullShare}
        (((Memref.whole main_v1 : Memref sig .tc .hbm S32768x1024 .bf16).slice
          (Rect.unit (s := S32768x1024) (k0_off4 c (BitVec.ofNat 32 N)) S1024x1024.size inb) hs).view.writes (Elt F) fo
          [⟨Rect.whole (Rect.unit (s := S32768x1024) (k0_off4 c (BitVec.ofNat 32 N)) S1024x1024.size inb).shape, Wv⟩])
        : sProp 𝕄))
      ⊢ iprop(⌜Wv = keptChunk m c r⌝ -∗
          ((oS c r).view.loc (c : Thread nD τ) ↦[(oS c r).view.set]{fullShare} OV m c : sProp 𝕄)) := by
  iintro H %hW
  iapply (own_land m c r N hN inb hs fo Wv hW)
  iexact H

/-- info: 'Cert.KernelIdeal.A2A.sent_hfs_whole' depends on axioms: [propext, Classical.choice, Quot.sound] -/
#guard_msgs in #print axioms Cert.KernelIdeal.A2A.sent_hfs_whole
/-- info: 'Cert.KernelIdeal.A2A.sent_payload_junk' depends on axioms: [propext, Classical.choice, Quot.sound] -/
#guard_msgs in #print axioms Cert.KernelIdeal.A2A.sent_payload_junk
/-- info: 'Cert.KernelIdeal.A2A.kept_payload_junk' depends on axioms: [propext, Classical.choice, Quot.sound] -/
#guard_msgs in #print axioms Cert.KernelIdeal.A2A.kept_payload_junk
/-- info: 'Cert.KernelIdeal.A2A.sent_hfs_slot' depends on axioms: [propext, Classical.choice, Quot.sound] -/
#guard_msgs in #print axioms Cert.KernelIdeal.A2A.sent_hfs_slot
/-- info: 'Cert.KernelIdeal.A2A.kept_hfs_slot' depends on axioms: [propext, Classical.choice, Quot.sound] -/
#guard_msgs in #print axioms Cert.KernelIdeal.A2A.kept_hfs_slot
/-- info: 'Cert.KernelIdeal.A2A.sent_slot_canon'' depends on axioms: [propext, Classical.choice, Quot.sound] -/
#guard_msgs in #print axioms Cert.KernelIdeal.A2A.sent_slot_canon'
/-- info: 'Cert.KernelIdeal.A2A.own_land' depends on axioms: [propext, Classical.choice, Quot.sound] -/
#guard_msgs in #print axioms Cert.KernelIdeal.A2A.own_land
/-- info: 'Cert.KernelIdeal.A2A.own_land_wand' depends on axioms: [propext, Classical.choice, Quot.sound] -/
#guard_msgs in #print axioms Cert.KernelIdeal.A2A.own_land_wand

end Cert.KernelIdeal.A2A

end
-- ==== Proof.KernelIdeal.Progs.lean ====
/-
  The body's text cut at two of its printed parts' boundaries: the handshake and the sixteen remote copies (parts 1 to 17),
  the local phase (parts 18 to 34), the remaining waits (part 35 to the end); and that the body is the three in sequence.
-/
import proofs.«900627_g7700000000000628_dist_a2a_v7x_xyz2x2x2_z_m16384_n1024_bf16_1_alg».proof.Proof.KernelIdeal.Proto
import proofs.«900627_g7700000000000628_dist_a2a_v7x_xyz2x2x2_z_m16384_n1024_bf16_1_alg».proof.Proof.Gen.KernelIdeal.Skeleton
import proofs.«900627_g7700000000000628_dist_a2a_v7x_xyz2x2x2_z_m16384_n1024_bf16_1_alg».proof.Proof.Gen.KernelIdeal.Points

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Parts 1 to 17, then `k` on the words part 1 hands on. -/
noncomputable def headProg (k : Dev nD → BitVec 32 → BitVec 32 → BitVec 32 → BitVec 32 → Prog (TpuEff nD τ sig (Elt F) Λ₀ .tc) PUnit) :
    Prog (TpuEff nD τ sig (Elt F) Λ₀ .tc) PUnit := do
  let ⟨d0, v2, v5, v8, v9⟩ : Σ' (d0 : Dev nD) (v2 : BitVec 32) (v5 : BitVec 32) (v8 : BitVec 32), BitVec 32 ← k0_part1 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8
  k0_part2 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  k0_part3 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  k0_part4 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  let v144 : BitVec 32 ← k0_part5 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8
  let v173 : BitVec 32 ← k0_part6 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v8 v9 v144
  let c4_i32_167 : BitVec 32 ← k0_part7 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v5 v8 v9 v173
  k0_part8 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9 c4_i32_167
  let v263 : BitVec 32 ← k0_part9 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  k0_part10 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9 v263
  k0_part11 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  k0_part12 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  k0_part13 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  let v409 : FVec F S1024x1024 .bf16 ← k0_part14 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  let v440 : FVec F S1024x1024 .bf16 ← k0_part15 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9 v409
  let v470 : FVec F S1024x1024 .f32 ← k0_part16 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9 v440
  k0_part17 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9 v470
  k d0 v2 v5 v8 v9

/-- Parts 18 to 34, then `rest`. -/
noncomputable def localProg (d0 : Dev nD) (v2 v5 v8 v9 : BitVec 32) (rest : Prog (TpuEff nD τ sig (Elt F) Λ₀ .tc) PUnit) :
    Prog (TpuEff nD τ sig (Elt F) Λ₀ .tc) PUnit := do
  k0_part18 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v8 v9
  let v556 : FVec F S1024x1024 .bf16 ← k0_part19 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  let v584 : FVec F S1024x1024 .bf16 ← k0_part20 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v556
  let v612 : FVec F S1024x1024 .bf16 ← k0_part21 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v584
  let v640 : FVec F S1024x1024 .bf16 ← k0_part22 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v612
  let v667 : FVec F S1024x1024 .f32 ← k0_part23 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v640
  let v694 : Vec F S1x1024x1024 .f32 ← k0_part24 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v667
  k0_part25 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v694
  k0_part26 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part27 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part28 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part29 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part30 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part31 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part32 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  let v943 : FVec F S1024x1024 .bf16 ← k0_part33 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8
  k0_part34 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v8 v943
  rest

/-- Part 35 to the end. -/
noncomputable def tailProg (d0 : Dev nD) (v2 v5 v9 : BitVec 32) : Prog (TpuEff nD τ sig (Elt F) Λ₀ .tc) PUnit := do
  k0_part35 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part36 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  let ⟨v1050, c2_i32_961⟩ : Σ' (v1050 : BitVec 32), BitVec 32 ← k0_part37 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part38 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9 v1050 c2_i32_961
  k0_part39 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part40 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part41 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part42 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  k0_part43 (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 d0 v2 v5 v9
  let c0_i32_1135 : BitVec 32 := 0#32
  let v1218 : Memref sig .tc .vmem S1x1024x1024 .bf16 := (Memref.whole cc0_scratch1 : Memref sig .tc .vmem S16x1024x1024 .bf16).slice (Rect.unit (s := S16x1024x1024) ![15, 0, 0] S1x1024x1024.size inb_S16x1024x1024_S1x1024x1024_15_0_0) (fun _ => rfl)
  let v1219 : Memref sig .tc .vmem S1024x1024 .bf16 := v1218.squeeze S1024x1024 squeezes_S1x1024x1024_S1024x1024
  let v1215 : DmaSems sig S1 := cc0_scratch8.slice (Rect.unit (s := S16) ![15] S1.size inb_S16_S1_15)
  let v1216 : DmaSems sig S_ := v1215.squeeze S_ squeezes_S1_S_
  let v1217 : Memref sig .tc .hbm S1024x1024 .bf16 := (Memref.whole main_v1 : Memref sig .tc .hbm S32768x1024 .bf16).slice (Rect.unit (s := S32768x1024) (k0_off4 d0 15360#32) S1024x1024.size (k0_off4_inb d0 15)) (fun _ => rfl)
  Prog.lift (.waitDma2 v1216.sem v1219 v1217 (((Memref.isWhole_whole cc0_scratch1).wordExact_slice rfl _ wordsbf16_S16x1024x1024_S1x1024x1024_15_0_0).reshape _ _) ((Memref.isWhole_whole main_v1).wordExact_slice rfl _ (k0_off4_wordsbf16 d0 15)))
  pure ⟨⟩

/-- The body is the three stretches in sequence. -/
theorem cc0_body_split :
    (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8)
      = headProg (F := F) fun d0 v2 v5 v8 v9 => localProg d0 v2 v5 v8 v9 (tailProg d0 v2 v5 v9) := by
  rfl

-- the two later stretches are opened only by the lemmas that run them
attribute [irreducible] localProg tailProg

end Cert.KernelIdeal.A2A

end
-- ==== Proof.KernelIdeal.RuleWait.lean ====
/-
  The final waits of a device, as rules of the protocol.

  A device ends by waiting, for every chunk r, on its send cell r (slot r of its send buffer has been read) and on its
  receive cell r (its partner's copy of chunk r has landed).  Such a wait takes the rest of the cell's one round and so
  hands over the cell's one payload: the slot back, resp. the slice of the result array at its final contents.  No
  later round of the cell has a duty, so the cell then closes and its counter, at zero, is the device's again.
-/
import proofs.«900627_g7700000000000628_dist_a2a_v7x_xyz2x2x2_z_m16384_n1024_bf16_1_alg».proof.Proof.KernelIdeal.Proto
import proofs.«900627_g7700000000000628_dist_a2a_v7x_xyz2x2x2_z_m16384_n1024_bf16_1_alg».proof.Proof.KernelIdeal.Tables

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The wait on send cell `r`, for the credit of one chunk: the device gets slot `r` of its send buffer back, and the
    cell's counter at zero. -/
theorem rule_wait_send (c : Dev nD) (r : Fin 16) (κ : ℕ) (W : Waits sig Unit)
    {sp' sp : Space} {s' : Shape} {e' : EltTy}
    {src : Memref sig (c : Thread nD τ).2.kind sp' s' e'} {dst : Memref sig .tc sp S1024x1024 .bf16}
    {hsrc : src.view.WordExact} {hdst : dst.view.WordExact}
    {α : Type} {Q : α → sProp 𝕄} {k : PUnit → Prog (TpuEff nD τ sig (Elt F) Λ₀ .tc) α} :
    iprop(cellInv ER (a2aRd m) κ (sendCell c r) ∗ cred (tallyAt (sendCell c r) () N) ∗ owes (c : Thread nD τ) 0 W
        ∗ atPos ER (sendCell c r) 0 ∅ 0)
      ⊢ iprop(((owes (c : Thread nD τ) 0 (insert (SemLoc.dma (sendSem r), ()) W) ∗ semVal (sendCell c r) 0 ∗ sendPay m c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem r) src dst hsrc hdst) k) Q) := by
  iintro ⟨#HI, Hc, HO, Hat⟩ Hk
  iapply (Rounds.wp_wait_rest_token 𝒱₀ ER (a2aRd m) (c : Thread nD τ) none (κ := κ)
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c r)) $$ Hpay
  imod (Rounds.cell_close ER (a2aRd m) (Set.mem_univ κ) (fun h => h) (R := 0 + 1) (duties_later m (sendCell c r))) $$ [Hat] with Hz
  · isplitr; · iexact HI
    iexact Hat
  iapply Hk
  isplitl [HO]; · iexact HO
  isplitl [Hz]; · iexact Hz
  iexact Hp

/-- The wait on receive cell `r`, for the credit of one chunk: the device gets the slice of its result array that its
    partner's copy of chunk `r` wrote, at its final contents, and the cell's counter at zero. -/
theorem rule_wait_recv (c : Dev nD) (r : Fin 16) (κ : ℕ) (W : Waits sig Unit)
    {sp' sp : Space} {s' : Shape} {e' : EltTy}
    {src : Memref sig (c : Thread nD τ).2.kind sp' s' e'} {dst : Memref sig .tc sp S1024x1024 .bf16}
    {hsrc : src.view.WordExact} {hdst : dst.view.WordExact}
    {α : Type} {Q : α → sProp 𝕄} {k : PUnit → Prog (TpuEff nD τ sig (Elt F) Λ₀ .tc) α} :
    iprop(cellInv ER (a2aRd m) κ (recvCell c r) ∗ cred (tallyAt (recvCell c r) () N) ∗ owes (c : Thread nD τ) 0 W
        ∗ atPos ER (recvCell c r) 0 ∅ 0)
      ⊢ iprop(((owes (c : Thread nD τ) 0 (insert (SemLoc.dma (recvSem r), ()) W) ∗ semVal (recvCell c r) 0 ∗ recvPay m c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem r) src dst hsrc hdst) k) Q) := by
  iintro ⟨#HI, Hc, HO, Hat⟩ Hk
  iapply (Rounds.wp_wait_rest_token 𝒱₀ ER (a2aRd m) (c : Thread nD τ) none (κ := κ)
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c r)) $$ Hpay
  imod (Rounds.cell_close ER (a2aRd m) (Set.mem_univ κ) (fun h => h) (R := 0 + 1) (duties_later m (recvCell c r))) $$ [Hat] with Hz
  · isplitr; · iexact HI
    iexact Hat
  iapply Hk
  isplitl [HO]; · iexact HO
  isplitl [Hz]; · iexact Hz
  iexact Hp

/-! ## The same in two steps: the payloads of a round already waited for, and the closing of the cell -/

/-- After its wait a send cell closes: no later round has a duty, and its counter, at zero, is the device's again. -/
theorem close_send (c : Dev nD) (r : Fin 16) (κ : ℕ) :
    iprop(cellInv ER (a2aRd m) κ (sendCell c r) ∗ atPos ER (sendCell c r) 1 ∅ 0)
      ⊢ iprop(|={Set.univ}=> semVal (sendCell c r) 0) :=
  Rounds.cell_close ER (a2aRd m) (Set.mem_univ κ) (fun h => h) (R := 1) (duties_later m (sendCell c r))

/-- After its wait a receive cell closes likewise. -/
theorem close_recv (c : Dev nD) (r : Fin 16) (κ : ℕ) :
    iprop(cellInv ER (a2aRd m) κ (recvCell c r) ∗ atPos ER (recvCell c r) 1 ∅ 0)
      ⊢ iprop(|={Set.univ}=> semVal (recvCell c r) 0) :=
  Rounds.cell_close ER (a2aRd m) (Set.mem_univ κ) (fun h => h) (R := 1) (duties_later m (recvCell c r))

/-- All the payloads of a send cell's round: its one payload. -/
theorem pays_send (c : Dev nD) (r : Fin 16) :
    bigSep ((a2aRd (F := F) m).duties (sendCell c r) 0) (fun d => (a2aRd (F := F) m).payload (sendCell c r) 0 d) = sendPay m c r := by
  rw [duties_send, bigSep_singleton, payload_send]

/-- All the payloads of a receive cell's round: its one payload. -/
theorem pays_recv (c : Dev nD) (r : Fin 16) :
    bigSep ((a2aRd (F := F) m).duties (recvCell c r) 0) (fun d => (a2aRd (F := F) m).payload (recvCell c r) 0 d) = recvPay m c r := by
  rw [duties_recv, bigSep_singleton, payload_recv]

/-- info: 'Cert.KernelIdeal.A2A.rule_wait_send' depends on axioms: [propext, Classical.choice, Quot.sound] -/
#guard_msgs in #print axioms rule_wait_send

/-- info: 'Cert.KernelIdeal.A2A.rule_wait_recv' depends on axioms: [propext, Classical.choice, Quot.sound] -/
#guard_msgs in #print axioms rule_wait_recv

end Cert.KernelIdeal.A2A

end
-- ==== Proof.KernelIdeal.LocalRun.lean ====
/-
  The local phase of a device's body, as one lemma.

  After the last chunk's copy to the partner has been started, the device moves its own row block: for each of the
  sixteen chunks it loads the chunk's window of its argument into a staging slot, narrows it to bf16 into a slot of its
  local buffer and copies that slot into the chunk's own slice of its result array, two chunks in flight at a time.  At
  the end every own slice holds the result array's final contents, every buffer and local counter is back, and the wait
  on the first send cell has handed back slot 0 of the send buffer.
-/
import proofs.«900627_g7700000000000628_dist_a2a_v7x_xyz2x2x2_z_m16384_n1024_bf16_1_alg».proof.Proof.KernelIdeal.Proto
import proofs.«900627_g7700000000000628_dist_a2a_v7x_xyz2x2x2_z_m16384_n1024_bf16_1_alg».proof.Proof.KernelIdeal.Tables
import proofs.«900627_g7700000000000628_dist_a2a_v7x_xyz2x2x2_z_m16384_n1024_bf16_1_alg».proof.Proof.KernelIdeal.BodyPrep
import proofs.«900627_g7700000000000628_dist_a2a_v7x_xyz2x2x2_z_m16384_n1024_bf16_1_alg».proof.Proof.KernelIdeal.Regions
import proofs.«900627_g7700000000000628_dist_a2a_v7x_xyz2x2x2_z_m16384_n1024_bf16_1_alg».proof.Proof.KernelIdeal.Contents
import proofs.«900627_g7700000000000628_dist_a2a_v7x_xyz2x2x2_z_m16384_n1024_bf16_1_alg».proof.Proof.KernelIdeal.RuleSend
import proofs.«900627_g7700000000000628_dist_a2a_v7x_xyz2x2x2_z_m16384_n1024_bf16_1_alg».proof.Proof.KernelIdeal.RuleSendEx
import proofs.«900627_g7700000000000628_dist_a2a_v7x_xyz2x2x2_z_m16384_n1024_bf16_1_alg».proof.Proof.KernelIdeal.RuleWait
import proofs.«900627_g7700000000000628_dist_a2a_v7x_xyz2x2x2_z_m16384_n1024_bf16_1_alg».proof.Proof.KernelIdeal.ValueSteps
import proofs.«900627_g7700000000000628_dist_a2a_v7x_xyz2x2x2_z_m16384_n1024_bf16_1_alg».proof.Proof.KernelIdeal.Progs
import proofs.«900627_g7700000000000628_dist_a2a_v7x_xyz2x2x2_z_m16384_n1024_bf16_1_alg».proof.Proof.Gen.KernelIdeal.Skeleton
import proofs.«900627_g7700000000000628_dist_a2a_v7x_xyz2x2x2_z_m16384_n1024_bf16_1_alg».proof.Proof.Gen.KernelIdeal.Points

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the local phase starts from.  In order: the invariants of send cell 15, of the partner's receive cell 15 and of
    send cell 0; the level facts; round 0 reached of send cell 15 and of the partner's receive cell 15; the argument whole;
    the two slots of the staging buffer and of the local buffer; the sixteen own slices of the result array, at any
    contents; the four local counters at zero; what is still owed (the partner's receive credit for chunk 15); slot 15 of
    the send buffer holding the chunk to send; the partner's slice for chunk 15; the two duty tokens of that copy; the
    credit and the position of send cell 0. -/
def MidA (K : Dev nD × Fin 33 → ℕ) (c : Dev nD) (W : Waits sig Unit) (fo : Buf (Elt F) ((c : Thread nD τ).loc main_v1))
    (f2 : Buf (Elt F) ((c : Thread nD τ).loc cc0_scratch2)) (f3 : Buf (Elt F) ((c : Thread nD τ).loc cc0_scratch3))
    (fd15 : Buf (Elt F) ((oS c 15).view.loc (peer c : Thread nD τ))) : sProp 𝕄 :=
  iprop(cellInv ER (a2aRd m) (K (c, 16)) (sendCell c 15)
    ∗ cellInv ER (a2aRd m) (K (peer c, 32)) (recvCell (peer c) 15)
    ∗ cellInv ER (a2aRd m) (K (c, 1)) (sendCell c 0)
    ∗ (levAts L lv : sProp 𝕄)
    ∗ reached ER (sendCell c 15) 0
    ∗ reached ER (recvCell (peer c) 15) 0
    ∗ (((Memref.whole main_arg0 : Memref sig .tc .hbm S16384x2048 .f32)).view.loc (c : Thread nD τ) ↦[((Memref.whole main_arg0 : Memref sig .tc .hbm S16384x2048 .f32)).view.set]{fullShare} X m c : sProp 𝕄)
    ∗ (((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ) ↦[((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024)).view.set]{fullShare} f2 : sProp 𝕄)
    ∗ (((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ) ↦[((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)).view.set]{fullShare} f2 : sProp 𝕄)
    ∗ (((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ) ↦[((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024)).view.set]{fullShare} f3 : sProp 𝕄)
    ∗ (((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ) ↦[((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024)).view.set]{fullShare} f3 : sProp 𝕄)
    ∗ ((((Memref.whole main_v1 : Memref sig .tc .hbm S32768x1024 .bf16).slice (Rect.unit (s := S32768x1024) (k0_off4 c 0#32) S1024x1024.size (k0_off4_inb c 0)) (fun _ => rfl))).view.loc (c : Thread nD τ) ↦[(((Memref.whole main_v1 : Memref sig .tc .hbm S32768x1024 .bf16).slice (Rect.unit (s := S32768x1024) (k0_off4 c 0#32) S1024x1024.size (k0_off4_inb c 0)) (fun _ => rfl))).view.set]{fullShare} fo : sProp 𝕄)
    ∗ ((((Memref.whole main_v1 : Memref sig .tc .hbm S32768x1024 .bf16).slice (Rect.unit (s := S32768x1024) (k0_off4 c 1024#32) S1024x1024.size (k0_off4_inb c 1)) (fun _ => rfl))).view.loc (c : Thread nD τ) ↦[(((Memref.whole main_v1 : Memref sig .tc .hbm S32768x1024 .bf16).slice (Rect.unit (s := S32768x1024) (k0_off4 c 1024#32) S1024x1024.size (k0_off4_inb c 1)) (fun _ => rfl))).view.set]{fullShare} fo : sProp 𝕄)
    ∗ ((((Memref.whole main_v1 : Memref sig .tc .hbm S32768x1024 .bf16).slice (Rect.unit (s := S32768x1024) (k0_off4 c 2048#32) S1024x1024.size (k0_off4_inb c 2)) (fun _ => rfl))).view.loc (c : Thread nD τ) ↦[(((Memref.whole main_v1 : Memref sig .tc .hbm S32768x1024 .bf16).slice (Rect.unit (s := S32768x1024) (k0_off4 c 2048#32) S1024x1024.size (k0_off4_inb c 2)) (fun _ => rfl))).view.set]{fullShare} fo : sProp 𝕄)
    ∗ ((((Memref.whole main_v1 : Memref sig .tc .hbm S32768x1024 .bf16).slice (Rect.unit (s := S32768x1024) (k0_off4 c 3072#32) S1024x1024.size (k0_off4_inb c 3)) (fun _ => rfl))).view.loc (c : Thread nD τ) ↦[(((Memref.whole main_v1 : Memref sig .tc .hbm S32768x1024 .bf16).slice (Rect.unit (s := S32768x1024) (k0_off4 c 3072#32) S1024x1024.size (k0_off4_inb c 3)) (fun _ => rfl))).view.set]{fullShare} fo : sProp 𝕄)
    ∗ ((((Memref.whole main_v1 : Memref sig .tc .hbm S32768x1024 .bf16).slice (Rect.unit (s := S32768x1024) (k0_off4 c 4096#32) S1024x1024.size (k0_off4_inb c 4)) (fun _ => rfl))).view.loc (c : Thread nD τ) ↦[(((Memref.whole main_v1 : Memref sig .tc .hbm S32768x1024 .bf16).slice (Rect.unit (s := S32768x1024) (k0_off4 c 4096#32) S1024x1024.size (k0_off4_inb c 4)) (fun _ => rfl))).view.set]{fullShare} fo : sProp 𝕄)
    ∗ ((((Memref.whole main_v1 : Memref sig .tc .hbm S32768x1024 .bf16).slice (Rect.unit (s := S32768x1024) (k0_off4 c 5120#32) S1024x1024.size (k0_off4_inb c 5)) (fun _ => rfl))).view.loc (c : Thread nD τ) ↦[(((Memref.whole main_v1 : Memref sig .tc .hbm S32768x1024 .bf16).slice (Rect.unit (s := S32768x1024) (k0_off4 c 5120#32) S1024x1024.size (k0_off4_inb c 5)) (fun _ => rfl))).view.set]{fullShare} fo : sProp 𝕄)
    ∗ ((((Memref.whole main_v1 : Memref sig .tc .hbm S32768x1024 .bf16).slice (Rect.unit (s := S32768x1024) (k0_off4 c 6144#32) S1024x1024.size (k0_off4_inb c 6)) (fun _ => rfl))).view.loc (c : Thread nD τ) ↦[(((Memref.whole main_v1 : Memref sig .tc .hbm S32768x1024 .bf16).slice (Rect.unit (s := S32768x1024) (k0_off4 c 6144#32) S1024x1024.size (k0_off4_inb c 6)) (fun _ => rfl))).view.set]{fullShare} fo : sProp 𝕄)
    ∗ ((((Memref.whole main_v1 : Memref sig .tc .hbm S32768x1024 .bf16).slice (Rect.unit (s := S32768x1024) (k0_off4 c 7168#32) S1024x1024.size (k0_off4_inb c 7)) (fun _ => rfl))).view.loc (c : Thread nD τ) ↦[(((Memref.whole main_v1 : Memref sig .tc .hbm S32768x1024 .bf16).slice (Rect.unit (s := S32768x1024) (k0_off4 c 7168#32) S1024x1024.size (k0_off4_inb c 7)) (fun _ => rfl))).view.set]{fullShare} fo : sProp 𝕄)
    ∗ ((((Memref.whole main_v1 : Memref sig .tc .hbm S32768x1024 .bf16).slice (Rect.unit (s := S32768x1024) (k0_off4 c 8192#32) S1024x1024.size (k0_off4_inb c 8)) (fun _ => rfl))).view.loc (c : Thread nD τ) ↦[(((Memref.whole main_v1 : Memref sig .tc .hbm S32768x1024 .bf16).slice (Rect.unit (s := S32768x1024) (k0_off4 c 8192#32) S1024x1024.size (k0_off4_inb c 8)) (fun _ => rfl))).view.set]{fullShare} fo : sProp 𝕄)
    ∗ ((((Memref.whole main_v1 : Memref sig .tc .hbm S32768x1024 .bf16).slice (Rect.unit (s := S32768x1024) (k0_off4 c 9216#32) S1024x1024.size (k0_off4_inb c 9)) (fun _ => rfl))).view.loc (c : Thread nD τ) ↦[(((Memref.whole main_v1 : Memref sig .tc .hbm S32768x1024 .bf16).slice (Rect.unit (s := S32768x1024) (k0_off4 c 9216#32) S1024x1024.size (k0_off4_inb c 9)) (fun _ => rfl))).view.set]{fullShare} fo : sProp 𝕄)
    ∗ ((((Memref.whole main_v1 : Memref sig .tc .hbm S32768x1024 .bf16).slice (Rect.unit (s := S32768x1024) (k0_off4 c 10240#32) S1024x1024.size (k0_off4_inb c 10)) (fun _ => rfl))).view.loc (c : Thread nD τ) ↦[(((Memref.whole main_v1 : Memref sig .tc .hbm S32768x1024 .bf16).slice (Rect.unit (s := S32768x1024) (k0_off4 c 10240#32) S1024x1024.size (k0_off4_inb c 10)) (fun _ => rfl))).view.set]{fullShare} fo : sProp 𝕄)
    ∗ ((((Memref.whole main_v1 : Memref sig .tc .hbm S32768x1024 .bf16).slice (Rect.unit (s := S32768x1024) (k0_off4 c 11264#32) S1024x1024.size (k0_off4_inb c 11)) (fun _ => rfl))).view.loc (c : Thread nD τ) ↦[(((Memref.whole main_v1 : Memref sig .tc .hbm S32768x1024 .bf16).slice (Rect.unit (s := S32768x1024) (k0_off4 c 11264#32) S1024x1024.size (k0_off4_inb c 11)) (fun _ => rfl))).view.set]{fullShare} fo : sProp 𝕄)
    ∗ ((((Memref.whole main_v1 : Memref sig .tc .hbm S32768x1024 .bf16).slice (Rect.unit (s := S32768x1024) (k0_off4 c 12288#32) S1024x1024.size (k0_off4_inb c 12)) (fun _ => rfl))).view.loc (c : Thread nD τ) ↦[(((Memref.whole main_v1 : Memref sig .tc .hbm S32768x1024 .bf16).slice (Rect.unit (s := S32768x1024) (k0_off4 c 12288#32) S1024x1024.size (k0_off4_inb c 12)) (fun _ => rfl))).view.set]{fullShare} fo : sProp 𝕄)
    ∗ ((((Memref.whole main_v1 : Memref sig .tc .hbm S32768x1024 .bf16).slice (Rect.unit (s := S32768x1024) (k0_off4 c 13312#32) S1024x1024.size (k0_off4_inb c 13)) (fun _ => rfl))).view.loc (c : Thread nD τ) ↦[(((Memref.whole main_v1 : Memref sig .tc .hbm S32768x1024 .bf16).slice (Rect.unit (s := S32768x1024) (k0_off4 c 13312#32) S1024x1024.size (k0_off4_inb c 13)) (fun _ => rfl))).view.set]{fullShare} fo : sProp 𝕄)
    ∗ ((((Memref.whole main_v1 : Memref sig .tc .hbm S32768x1024 .bf16).slice (Rect.unit (s := S32768x1024) (k0_off4 c 14336#32) S1024x1024.size (k0_off4_inb c 14)) (fun _ => rfl))).view.loc (c : Thread nD τ) ↦[(((Memref.whole main_v1 : Memref sig .tc .hbm S32768x1024 .bf16).slice (Rect.unit (s := S32768x1024) (k0_off4 c 14336#32) S1024x1024.size (k0_off4_inb c 14)) (fun _ => rfl))).view.set]{fullShare} fo : sProp 𝕄)
    ∗ ((((Memref.whole main_v1 : Memref sig .tc .hbm S32768x1024 .bf16).slice (Rect.unit (s := S32768x1024) (k0_off4 c 15360#32) S1024x1024.size (k0_off4_inb c 15)) (fun _ => rfl))).view.loc (c : Thread nD τ) ↦[(((Memref.whole main_v1 : Memref sig .tc .hbm S32768x1024 .bf16).slice (Rect.unit (s := S32768x1024) (k0_off4 c 15360#32) S1024x1024.size (k0_off4_inb c 15)) (fun _ => rfl))).view.set]{fullShare} fo : sProp 𝕄)
    ∗ semVal ((c : Thread nD τ), SemLoc.dma ((SemArray.slice cc0_scratch5 (Rect.unit (s := S2) ![0] S1.size inb_S2_S1_0)).squeeze S_ squeezes_S1_S_).sem) 0
    ∗ semVal ((c : Thread nD τ), SemLoc.dma ((SemArray.slice cc0_scratch5 (Rect.unit (s := S2) ![1] S1.size inb_S2_S1_1)).squeeze S_ squeezes_S1_S_).sem) 0
    ∗ semVal ((c : Thread nD τ), SemLoc.dma ((SemArray.slice cc0_scratch6 (Rect.unit (s := S2) ![0] S1.size inb_S2_S1_0)).squeeze S_ squeezes_S1_S_).sem) 0
    ∗ semVal ((c : Thread nD τ), SemLoc.dma ((SemArray.slice cc0_scratch6 (Rect.unit (s := S2) ![1] S1.size inb_S2_S1_1)).squeeze S_ squeezes_S1_S_).sem) 0
    ∗ owes (c : Thread nD τ) (owedFrom c 15) W
    ∗ (∃ fs : Buf (Elt F) ((sbS 15).view.loc (c : Thread nD τ)), ⌜(sbS 15).view.read (Elt F) fs = sentChunk m c 15⌝ ∗ (((((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024)).view.loc (c : Thread nD τ) ↦[((((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024)).view.set]{fullShare} fs : sProp 𝕄))
    ∗ ((oS c 15).view.loc (peer c : Thread nD τ) ↦[(oS c 15).view.set]{fullShare} fd15)
    ∗ dutyTok ER (sendCell c 15) 0 ()
    ∗ dutyTok ER (recvCell (peer c) 15) 0 ()
    ∗ cred (tallyAt (sendCell c 0) () N)
    ∗ atPos ER (sendCell c 0) 0 ∅ 0)

/-- What the local phase leaves: the argument whole; the sixteen own slices at the result array's final contents; the
    four slots of the staging and local buffers at some contents; the four local counters at zero; nothing owed; the
    credit of send cell 15; send cell 0's counter at zero and slot 0 of the send buffer back. -/
def MidB (K : Dev nD × Fin 33 → ℕ) (c : Dev nD) : sProp 𝕄 :=
  iprop((((Memref.whole main_arg0 : Memref sig .tc .hbm S16384x2048 .f32)).view.loc (c : Thread nD τ) ↦[((Memref.whole main_arg0 : Memref sig .tc .hbm S16384x2048 .f32)).view.set]{fullShare} X m c : sProp 𝕄)
    ∗ ((oS c 0).view.loc (c : Thread nD τ) ↦[(oS c 0).view.set]{fullShare} OV m c : sProp 𝕄)
    ∗ ((oS c 1).view.loc (c : Thread nD τ) ↦[(oS c 1).view.set]{fullShare} OV m c : sProp 𝕄)
    ∗ ((oS c 2).view.loc (c : Thread nD τ) ↦[(oS c 2).view.set]{fullShare} OV m c : sProp 𝕄)
    ∗ ((oS c 3).view.loc (c : Thread nD τ) ↦[(oS c 3).view.set]{fullShare} OV m c : sProp 𝕄)
    ∗ ((oS c 4).view.loc (c : Thread nD τ) ↦[(oS c 4).view.set]{fullShare} OV m c : sProp 𝕄)
    ∗ ((oS c 5).view.loc (c : Thread nD τ) ↦[(oS c 5).view.set]{fullShare} OV m c : sProp 𝕄)
    ∗ ((oS c 6).view.loc (c : Thread nD τ) ↦[(oS c 6).view.set]{fullShare} OV m c : sProp 𝕄)
    ∗ ((oS c 7).view.loc (c : Thread nD τ) ↦[(oS c 7).view.set]{fullShare} OV m c : sProp 𝕄)
    ∗ ((oS c 8).view.loc (c : Thread nD τ) ↦[(oS c 8).view.set]{fullShare} OV m c : sProp 𝕄)
    ∗ ((oS c 9).view.loc (c : Thread nD τ) ↦[(oS c 9).view.set]{fullShare} OV m c : sProp 𝕄)
    ∗ ((oS c 10).view.loc (c : Thread nD τ) ↦[(oS c 10).view.set]{fullShare} OV m c : sProp 𝕄)
    ∗ ((oS c 11).view.loc (c : Thread nD τ) ↦[(oS c 11).view.set]{fullShare} OV m c : sProp 𝕄)
    ∗ ((oS c 12).view.loc (c : Thread nD τ) ↦[(oS c 12).view.set]{fullShare} OV m c : sProp 𝕄)
    ∗ ((oS c 13).view.loc (c : Thread nD τ) ↦[(oS c 13).view.set]{fullShare} OV m c : sProp 𝕄)
    ∗ ((oS c 14).view.loc (c : Thread nD τ) ↦[(oS c 14).view.set]{fullShare} OV m c : sProp 𝕄)
    ∗ ((oS c 15).view.loc (c : Thread nD τ) ↦[(oS c 15).view.set]{fullShare} OV m c : sProp 𝕄)
    ∗ (∃ f : Buf (Elt F) (((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ)), (((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ) ↦[((((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024)).view.set]{fullShare} f : sProp 𝕄))
    ∗ (∃ f : Buf (Elt F) (((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ)), (((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ) ↦[((((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)).view.set]{fullShare} f : sProp 𝕄))
    ∗ (∃ f : Buf (Elt F) (((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ)), (((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024)).view.loc (c : Thread nD τ) ↦[((((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024)).view.set]{fullShare} f : sProp 𝕄))
    ∗ (∃ f : Buf (Elt F) (((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ)), (((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024)).view.loc (c : Thread nD τ) ↦[((((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024)).view.set]{fullShare} f : sProp 𝕄))
    ∗ semVal (locCell c 2) 0
    ∗ semVal (locCell c 3) 0
    ∗ semVal (locCell c 4) 0
    ∗ semVal (locCell c 5) 0
    ∗ (∃ W' : Waits sig Unit, owes (c : Thread nD τ) 0 W')
    ∗ cred (tallyAt (sendCell c 15) () N)
    ∗ semVal (sendCell c 0) 0
    ∗ sendPay m c 0)

set_option maxHeartbeats 40000000 in
set_option maxRecDepth 100000 in
/-- The local phase, run from `MidA` to `MidB`. -/
theorem local_run (K : Dev nD × Fin 33 → ℕ) (c : Dev nD) (W : Waits sig Unit) (v2 v5 v8 v9 : BitVec 32)
    (fo : Buf (Elt F) ((c : Thread nD τ).loc main_v1))
    (f2 : Buf (Elt F) ((c : Thread nD τ).loc cc0_scratch2)) (f3 : Buf (Elt F) ((c : Thread nD τ).loc cc0_scratch3))
    (fd15 : Buf (Elt F) ((oS c 15).view.loc (peer c : Thread nD τ)))
    (rest : Prog (TpuEff nD τ sig (Elt F) Λ₀ .tc) PUnit) (Q : PUnit → sProp 𝕄) :
    iprop(MidA m K c W fo f2 f3 fd15
        ∗ (MidB m K c -∗ wp frame (wpE (defs₀ (F := F)) 𝒱₀ (c : Thread nD τ) none) Set.univ rest Q))
      ⊢ wp frame (wpE (defs₀ (F := F)) 𝒱₀ (c : Thread nD τ) none) Set.univ (localProg (F := F) c v2 v5 v8 v9 rest) Q := by
  unfold MidA
  iintro ⟨⟨#HIS15, #HIP15, #HIS0, #Hlev, #HrS15, #HrP15, Hx, Hs2a, Hs2b, Hs3a, Hs3b, Hown0, Hown1, Hown2, Hown3, Hown4, Hown5, Hown6, Hown7, Hown8, Hown9, Hown10, Hown11, Hown12, Hown13, Hown14, Hown15, Hl2, Hl3, Hl4, Hl5, HO, Hsb15, Hd15, HtS15, HtP15, HcS0, HatS0⟩, Hk⟩
  icases Hsb15 with ⟨%fs, %hfs, Hsb15⟩
  ihave Hsb15 := (Entails.of_eq (show ((((((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024)).view.loc (c : Thread nD τ) ↦[((((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024)).view.set]{fullShare} fs : sProp 𝕄)) = ((sbS 15).view.loc (c : Thread nD τ) ↦[(sbS 15).view.set]{fullShare} fs : sProp 𝕄) from rfl)) $$ Hsb15
  have hmw2 : ∀ n : ℕ, (levAts L lv : sProp 𝕄) ⊢ MayWait (c : Thread nD τ) (SemLoc.dma ((SemArray.slice cc0_scratch5 (Rect.unit (s := S2) ![0] S1.size inb_S2_S1_0)).squeeze S_ squeezes_S1_S_).sem) () (owedFrom c n) := fun n => mayWait_low c _ (by decide) n
  have hmw3 : ∀ n : ℕ, (levAts L lv : sProp 𝕄) ⊢ MayWait (c : Thread nD τ) (SemLoc.dma ((SemArray.slice cc0_scratch5 (Rect.unit (s := S2) ![1] S1.size inb_S2_S1_1)).squeeze S_ squeezes_S1_S_).sem) () (owedFrom c n) := fun n => mayWait_low c _ (by decide) n
  have hmw4 : ∀ n : ℕ, (levAts L lv : sProp 𝕄) ⊢ MayWait (c : Thread nD τ) (SemLoc.dma ((SemArray.slice cc0_scratch6 (Rect.unit (s := S2) ![0] S1.size inb_S2_S1_0)).squeeze S_ squeezes_S1_S_).sem) () (owedFrom c n) := fun n => mayWait_low c _ (by decide) n
  have hmw5 : ∀ n : ℕ, (levAts L lv : sProp 𝕄) ⊢ MayWait (c : Thread nD τ) (SemLoc.dma ((SemArray.slice cc0_scratch6 (Rect.unit (s := S2) ![1] S1.size inb_S2_S1_1)).squeeze S_ squeezes_S1_S_).sem) () (owedFrom c n) := fun n => mayWait_low c _ (by decide) n
  unfold localProg
  sl_exec
  -- the copy of chunk 15 to the partner
  iapply (rule_send_at m c _ (dev17_eq c) 15 (K (c, 16)) (K (peer c, 32)) fd15) $$ [HO Hsb15 Hd15 HtS15 HtP15]
  · isplitr; · iexact HIS15
    isplitr; · iexact HIP15
    isplitl [Hsb15]
    · iexists fs
      isplitr; · ipureintro; exact hfs
      iexact Hsb15
    isplitl [Hd15]; · iexact Hd15
    isplitl [HO]; · iexact HO
    isplitl [HtS15]; · iexact HtS15
    isplitr; · iexact HrS15
    isplitl [HtP15]; · iexact HtP15
    iexact HrP15
  iintro ⟨HcS15, HO⟩
  rw [show owedFrom c (((15 : Fin 16) : ℕ) + 1) = 0 from owedFrom_16 c]
  -- the sixteen chunks of the own row block, and the wait on send cell 0
  sl_exec
  imod (close_send m c 0 (K (c, 1))) $$ [HatS0] with Hz
  · isplitr; · iexact HIS0
    iexact HatS0
  ihave Hp := (Entails.of_eq (pays_send m c 0)) $$ HatS0_pay1
  -- every own slice holds the result array's final contents
  ihave Hown0 := (own_land m c 0 0 rfl _ _ _ _ (by exact kept_hfs_slot m c 0 0 inb_S2x1024x1024_S1x1024x1024_0_0_0 (fun _ => rfl) _ _ (kept_payload_junk m c 0 k0_pay20 (fun u y => pay_apply u _ _ _ y) (Memref.whole cc0_scratch2) 0 inb_S2x1024x1024_S1x1024x1024_0_0_0 (fun _ => rfl) (k0_off18 c) (k0_off18_inb c) (fun _ => rfl) _ _ (k0_off18_eq c) rfl rfl))) $$ Hown0
  ihave Hown1 := (own_land m c 1 1024 rfl _ _ _ _ (by exact kept_hfs_slot m c 1 1 inb_S2x1024x1024_S1x1024x1024_1_0_0 (fun _ => rfl) _ _ (kept_payload_junk m c 1 (fun u => k0_pay22 (k0_pay21 u)) (fun u y => pay_apply u _ _ _ y) (Memref.whole cc0_scratch2) 1 inb_S2x1024x1024_S1x1024x1024_1_0_0 (fun _ => rfl) (k0_off19 c) (k0_off19_inb c) (fun _ => rfl) _ _ (k0_off19_eq c) rfl rfl))) $$ Hown1
  ihave Hown2 := (own_land m c 2 2048 rfl _ _ _ _ (by exact kept_hfs_slot m c 2 0 inb_S2x1024x1024_S1x1024x1024_0_0_0 (fun _ => rfl) _ _ (kept_payload_junk m c 2 (fun u => k0_pay24 (k0_pay23 u)) (fun u y => pay_apply u _ _ _ y) (Memref.whole cc0_scratch2) 0 inb_S2x1024x1024_S1x1024x1024_0_0_0 (fun _ => rfl) (k0_off20 c) (k0_off20_inb c) (fun _ => rfl) _ _ (k0_off20_eq c) rfl rfl))) $$ Hown2
  ihave Hown3 := (own_land m c 3 3072 rfl _ _ _ _ (by exact kept_hfs_slot m c 3 1 inb_S2x1024x1024_S1x1024x1024_1_0_0 (fun _ => rfl) _ _ (kept_payload_junk m c 3 (fun u => k0_pay26 (k0_pay25 u)) (fun u y => pay_apply u _ _ _ y) (Memref.whole cc0_scratch2) 1 inb_S2x1024x1024_S1x1024x1024_1_0_0 (fun _ => rfl) (k0_off21 c) (k0_off21_inb c) (fun _ => rfl) _ _ (k0_off21_eq c) rfl rfl))) $$ Hown3
  ihave Hown4 := (own_land m c 4 4096 rfl _ _ _ _ (by exact kept_hfs_slot m c 4 0 inb_S2x1024x1024_S1x1024x1024_0_0_0 (fun _ => rfl) _ _ (kept_payload_junk m c 4 (fun u => k0_pay28 (k0_pay27 u)) (fun u y => pay_apply u _ _ _ y) (Memref.whole cc0_scratch2) 0 inb_S2x1024x1024_S1x1024x1024_0_0_0 (fun _ => rfl) (k0_off22 c) (k0_off22_inb c) (fun _ => rfl) _ _ (k0_off22_eq c) rfl rfl))) $$ Hown4
  ihave Hown5 := (own_land m c 5 5120 rfl _ _ _ _ (by exact kept_hfs_slot m c 5 1 inb_S2x1024x1024_S1x1024x1024_1_0_0 (fun _ => rfl) _ _ (kept_payload_junk m c 5 (fun u => k0_pay30 (k0_pay29 u)) (fun u y => pay_apply u _ _ _ y) (Memref.whole cc0_scratch2) 1 inb_S2x1024x1024_S1x1024x1024_1_0_0 (fun _ => rfl) (k0_off23 c) (k0_off23_inb c) (fun _ => rfl) _ _ (k0_off23_eq c) rfl rfl))) $$ Hown5
  ihave Hown6 := (own_land m c 6 6144 rfl _ _ _ _ (by exact kept_hfs_slot m c 6 0 inb_S2x1024x1024_S1x1024x1024_0_0_0 (fun _ => rfl) _ _ (kept_payload_junk m c 6 k0_pay31 (fun u y => pay_apply u _ _ _ y) (Memref.whole cc0_scratch2) 0 inb_S2x1024x1024_S1x1024x1024_0_0_0 (fun _ => rfl) (k0_off24 c) (k0_off24_inb c) (fun _ => rfl) _ _ (k0_off24_eq c) rfl rfl))) $$ Hown6
  ihave Hown7 := (own_land m c 7 7168 rfl _ _ _ _ (by exact kept_hfs_slot m c 7 1 inb_S2x1024x1024_S1x1024x1024_1_0_0 (fun _ => rfl) _ _ (kept_payload_junk m c 7 k0_pay32 (fun u y => pay_apply u _ _ _ y) (Memref.whole cc0_scratch2) 1 inb_S2x1024x1024_S1x1024x1024_1_0_0 (fun _ => rfl) (k0_off25 c) (k0_off25_inb c) (fun _ => rfl) _ _ (k0_off25_eq c) rfl rfl))) $$ Hown7
  ihave Hown8 := (own_land m c 8 8192 rfl _ _ _ _ (by exact kept_hfs_slot m c 8 0 inb_S2x1024x1024_S1x1024x1024_0_0_0 (fun _ => rfl) _ _ (kept_payload_junk m c 8 k0_pay33 (fun u y => pay_apply u _ _ _ y) (Memref.whole cc0_scratch2) 0 inb_S2x1024x1024_S1x1024x1024_0_0_0 (fun _ => rfl) (k0_off26 c) (k0_off26_inb c) (fun _ => rfl) _ _ (k0_off26_eq c) rfl rfl))) $$ Hown8
  ihave Hown9 := (own_land m c 9 9216 rfl _ _ _ _ (by exact kept_hfs_slot m c 9 1 inb_S2x1024x1024_S1x1024x1024_1_0_0 (fun _ => rfl) _ _ (kept_payload_junk m c 9 k0_pay34 (fun u y => pay_apply u _ _ _ y) (Memref.whole cc0_scratch2) 1 inb_S2x1024x1024_S1x1024x1024_1_0_0 (fun _ => rfl) (k0_off27 c) (k0_off27_inb c) (fun _ => rfl) _ _ (k0_off27_eq c) rfl rfl))) $$ Hown9
  ihave Hown10 := (own_land m c 10 10240 rfl _ _ _ _ (by exact kept_hfs_slot m c 10 0 inb_S2x1024x1024_S1x1024x1024_0_0_0 (fun _ => rfl) _ _ (kept_payload_junk m c 10 k0_pay35 (fun u y => pay_apply u _ _ _ y) (Memref.whole cc0_scratch2) 0 inb_S2x1024x1024_S1x1024x1024_0_0_0 (fun _ => rfl) (k0_off28 c) (k0_off28_inb c) (fun _ => rfl) _ _ (k0_off28_eq c) rfl rfl))) $$ Hown10
  ihave Hown11 := (own_land m c 11 11264 rfl _ _ _ _ (by exact kept_hfs_slot m c 11 1 inb_S2x1024x1024_S1x1024x1024_1_0_0 (fun _ => rfl) _ _ (kept_payload_junk m c 11 k0_pay36 (fun u y => pay_apply u _ _ _ y) (Memref.whole cc0_scratch2) 1 inb_S2x1024x1024_S1x1024x1024_1_0_0 (fun _ => rfl) (k0_off29 c) (k0_off29_inb c) (fun _ => rfl) _ _ (k0_off29_eq c) rfl rfl))) $$ Hown11
  ihave Hown12 := (own_land m c 12 12288 rfl _ _ _ _ (by exact kept_hfs_slot m c 12 0 inb_S2x1024x1024_S1x1024x1024_0_0_0 (fun _ => rfl) _ _ (kept_payload_junk m c 12 k0_pay37 (fun u y => pay_apply u _ _ _ y) (Memref.whole cc0_scratch2) 0 inb_S2x1024x1024_S1x1024x1024_0_0_0 (fun _ => rfl) (k0_off30 c) (k0_off30_inb c) (fun _ => rfl) _ _ (k0_off30_eq c) rfl rfl))) $$ Hown12
  ihave Hown13 := (own_land m c 13 13312 rfl _ _ _ _ (by exact kept_hfs_slot m c 13 1 inb_S2x1024x1024_S1x1024x1024_1_0_0 (fun _ => rfl) _ _ (kept_payload_junk m c 13 k0_pay38 (fun u y => pay_apply u _ _ _ y) (Memref.whole cc0_scratch2) 1 inb_S2x1024x1024_S1x1024x1024_1_0_0 (fun _ => rfl) (k0_off31 c) (k0_off31_inb c) (fun _ => rfl) _ _ (k0_off31_eq c) rfl rfl))) $$ Hown13
  ihave Hown14 := (own_land m c 14 14336 rfl _ _ _ _ (by exact kept_hfs_slot m c 14 0 inb_S2x1024x1024_S1x1024x1024_0_0_0 (fun _ => rfl) _ _ (kept_payload_junk m c 14 k0_pay39 (fun u y => pay_apply u _ _ _ y) (Memref.whole cc0_scratch2) 0 inb_S2x1024x1024_S1x1024x1024_0_0_0 (fun _ => rfl) (k0_off32 c) (k0_off32_inb c) (fun _ => rfl) _ _ (k0_off32_eq c) rfl rfl))) $$ Hown14
  ihave Hown15 := (own_land m c 15 15360 rfl _ _ _ _ (by exact kept_hfs_slot m c 15 1 inb_S2x1024x1024_S1x1024x1024_1_0_0 (fun _ => rfl) _ _ (kept_payload_junk m c 15 (fun u => k0_pay41 (k0_pay40 u)) (fun u y => pay_apply u _ _ _ y) (Memref.whole cc0_scratch2) 1 inb_S2x1024x1024_S1x1024x1024_1_0_0 (fun _ => rfl) (k0_off33 c) (k0_off33_inb c) (fun _ => rfl) _ _ (k0_off33_eq c) rfl rfl))) $$ Hown15
  iapply Hk
  unfold MidB
  isplitl [Hx]; · iexact Hx
  isplitl [Hown0]; · iexact Hown0
  isplitl [Hown1]; · iexact Hown1
  isplitl [Hown2]; · iexact Hown2
  isplitl [Hown3]; · iexact Hown3
  isplitl [Hown4]; · iexact Hown4
  isplitl [Hown5]; · iexact Hown5
  isplitl [Hown6]; · iexact Hown6
  isplitl [Hown7]; · iexact Hown7
  isplitl [Hown8]; · iexact Hown8
  isplitl [Hown9]; · iexact Hown9
  isplitl [Hown10]; · iexact Hown10
  isplitl [Hown11]; · iexact Hown11
  isplitl [Hown12]; · iexact Hown12
  isplitl [Hown13]; · iexact Hown13
  isplitl [Hown14]; · iexact Hown14
  isplitl [Hown15]; · iexact Hown15
  isplitl [Hs2a]; · iexists _; iexact Hs2a
  isplitl [Hs2b]; · iexists _; iexact Hs2b
  isplitl [Hs3a]; · iexists _; iexact Hs3a
  isplitl [Hs3b]; · iexists _; iexact Hs3b
  isplitl [Hl2]; · iexact Hl2
  isplitl [Hl3]; · iexact Hl3
  isplitl [Hl4]; · iexact Hl4
  isplitl [Hl5]; · iexact Hl5
  isplitl [HO]; · iexists _; iexact HO
  isplitl [HcS15]; · iexact HcS15
  isplitl [Hz]; · iexact Hz
  iexact Hp

/-- info: 'Cert.KernelIdeal.A2A.local_run' depends on axioms: [propext, Classical.choice, Quot.sound] -/
#guard_msgs in #print axioms local_run

end Cert.KernelIdeal.A2A

end
-- ==== Proof.KernelIdeal.TailRun2.lean ====
/-
  The end of a device's body: its last waits, one on every remaining send and receive cell, and its return.

  When the tail starts, every remote copy has been started and the first send cell has been waited for and closed.  Each
  of the thirty-one waits takes the rest of its cell's one round, which hands over the cell's payload (a slot of the send
  buffer back, or the slice of the result array the partner's copy wrote, at its final contents); the cell then closes
  and its counter, at zero, is the device's again.  What is then held is the state the launch takes back.
-/
import proofs.«900627_g7700000000000628_dist_a2a_v7x_xyz2x2x2_z_m16384_n1024_bf16_1_alg».proof.Proof.KernelIdeal.Proto
import proofs.«900627_g7700000000000628_dist_a2a_v7x_xyz2x2x2_z_m16384_n1024_bf16_1_alg».proof.Proof.KernelIdeal.Tables
import proofs.«900627_g7700000000000628_dist_a2a_v7x_xyz2x2x2_z_m16384_n1024_bf16_1_alg».proof.Proof.KernelIdeal.BodyPrep
import proofs.«900627_g7700000000000628_dist_a2a_v7x_xyz2x2x2_z_m16384_n1024_bf16_1_alg».proof.Proof.KernelIdeal.Regions
import proofs.«900627_g7700000000000628_dist_a2a_v7x_xyz2x2x2_z_m16384_n1024_bf16_1_alg».proof.Proof.KernelIdeal.RuleWait
import proofs.«900627_g7700000000000628_dist_a2a_v7x_xyz2x2x2_z_m16384_n1024_bf16_1_alg».proof.Proof.KernelIdeal.BodyEnds
import proofs.«900627_g7700000000000628_dist_a2a_v7x_xyz2x2x2_z_m16384_n1024_bf16_1_alg».proof.Proof.KernelIdeal.Progs
import proofs.«900627_g7700000000000628_dist_a2a_v7x_xyz2x2x2_z_m16384_n1024_bf16_1_alg».proof.Proof.Gen.KernelIdeal.Skeleton
import proofs.«900627_g7700000000000628_dist_a2a_v7x_xyz2x2x2_z_m16384_n1024_bf16_1_alg».proof.Proof.Gen.KernelIdeal.Points

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device holds when the tail starts, as one chain: the invariants of its sixteen send and sixteen receive cells;
    its position and its credit on each cell still to be waited for; send cell 0 closed and its slot back; what it owes
    (nothing); the argument as launched; the sixteen row slices of the result array it stored itself, at their final
    contents; the six slots of the double-buffered scratch buffers; its six local semaphores at zero. -/
def MidC (K : Dev nD × Fin 33 → ℕ) (c : Dev nD) : sProp 𝕄 :=
  iprop(cellInv ER (a2aRd m) (K (c, 1)) (sendCell c 0)
    ∗ cellInv ER (a2aRd m) (K (c, 2)) (sendCell c 1)
    ∗ cellInv ER (a2aRd m) (K (c, 3)) (sendCell c 2)
    ∗ cellInv ER (a2aRd m) (K (c, 4)) (sendCell c 3)
    ∗ cellInv ER (a2aRd m) (K (c, 5)) (sendCell c 4)
    ∗ cellInv ER (a2aRd m) (K (c, 6)) (sendCell c 5)
    ∗ cellInv ER (a2aRd m) (K (c, 7)) (sendCell c 6)
    ∗ cellInv ER (a2aRd m) (K (c, 8)) (sendCell c 7)
    ∗ cellInv ER (a2aRd m) (K (c, 9)) (sendCell c 8)
    ∗ cellInv ER (a2aRd m) (K (c, 10)) (sendCell c 9)
    ∗ cellInv ER (a2aRd m) (K (c, 11)) (sendCell c 10)
    ∗ cellInv ER (a2aRd m) (K (c, 12)) (sendCell c 11)
    ∗ cellInv ER (a2aRd m) (K (c, 13)) (sendCell c 12)
    ∗ cellInv ER (a2aRd m) (K (c, 14)) (sendCell c 13)
    ∗ cellInv ER (a2aRd m) (K (c, 15)) (sendCell c 14)
    ∗ cellInv ER (a2aRd m) (K (c, 16)) (sendCell c 15)
    ∗ cellInv ER (a2aRd m) (K (c, 17)) (recvCell c 0)
    ∗ cellInv ER (a2aRd m) (K (c, 18)) (recvCell c 1)
    ∗ cellInv ER (a2aRd m) (K (c, 19)) (recvCell c 2)
    ∗ cellInv ER (a2aRd m) (K (c, 20)) (recvCell c 3)
    ∗ cellInv ER (a2aRd m) (K (c, 21)) (recvCell c 4)
    ∗ cellInv ER (a2aRd m) (K (c, 22)) (recvCell c 5)
    ∗ cellInv ER (a2aRd m) (K (c, 23)) (recvCell c 6)
    ∗ cellInv ER (a2aRd m) (K (c, 24)) (recvCell c 7)
    ∗ cellInv ER (a2aRd m) (K (c, 25)) (recvCell c 8)
    ∗ cellInv ER (a2aRd m) (K (c, 26)) (recvCell c 9)
    ∗ cellInv ER (a2aRd m) (K (c, 27)) (recvCell c 10)
    ∗ cellInv ER (a2aRd m) (K (c, 28)) (recvCell c 11)
    ∗ cellInv ER (a2aRd m) (K (c, 29)) (recvCell c 12)
    ∗ cellInv ER (a2aRd m) (K (c, 30)) (recvCell c 13)
    ∗ cellInv ER (a2aRd m) (K (c, 31)) (recvCell c 14)
    ∗ cellInv ER (a2aRd m) (K (c, 32)) (recvCell c 15)
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (sendCell c 8) 0 ∅ 0
    ∗ atPos ER (sendCell c 9) 0 ∅ 0
    ∗ atPos ER (sendCell c 10) 0 ∅ 0
    ∗ atPos ER (sendCell c 11) 0 ∅ 0
    ∗ atPos ER (sendCell c 12) 0 ∅ 0
    ∗ atPos ER (sendCell c 13) 0 ∅ 0
    ∗ atPos ER (sendCell c 14) 0 ∅ 0
    ∗ atPos ER (sendCell c 15) 0 ∅ 0
    ∗ cred (tallyAt (sendCell c 1) () N)
    ∗ cred (tallyAt (sendCell c 2) () N)
    ∗ cred (tallyAt (sendCell c 3) () N)
    ∗ cred (tallyAt (sendCell c 4) () N)
    ∗ cred (tallyAt (sendCell c 5) () N)
    ∗ cred (tallyAt (sendCell c 6) () N)
    ∗ cred (tallyAt (sendCell c 7) () N)
    ∗ cred (tallyAt (sendCell c 8) () N)
    ∗ cred (tallyAt (sendCell c 9) () N)
    ∗ cred (tallyAt (sendCell c 10) () N)
    ∗ cred (tallyAt (sendCell c 11) () N)
    ∗ cred (tallyAt (sendCell c 12) () N)
    ∗ cred (tallyAt (sendCell c 13) () N)
    ∗ cred (tallyAt (sendCell c 14) () N)
    ∗ cred (tallyAt (sendCell c 15) () N)
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0
    ∗ atPos ER (recvCell c 6) 0 ∅ 0
    ∗ atPos ER (recvCell c 7) 0 ∅ 0
    ∗ atPos ER (recvCell c 8) 0 ∅ 0
    ∗ atPos ER (recvCell c 9) 0 ∅ 0
    ∗ atPos ER (recvCell c 10) 0 ∅ 0
    ∗ atPos ER (recvCell c 11) 0 ∅ 0
    ∗ atPos ER (recvCell c 12) 0 ∅ 0
    ∗ atPos ER (recvCell c 13) 0 ∅ 0
    ∗ atPos ER (recvCell c 14) 0 ∅ 0
    ∗ atPos ER (recvCell c 15) 0 ∅ 0
    ∗ cred (tallyAt (recvCell c 0) () N)
    ∗ cred (tallyAt (recvCell c 1) () N)
    ∗ cred (tallyAt (recvCell c 2) () N)
    ∗ cred (tallyAt (recvCell c 3) () N)
    ∗ cred (tallyAt (recvCell c 4) () N)
    ∗ cred (tallyAt (recvCell c 5) () N)
    ∗ cred (tallyAt (recvCell c 6) () N)
    ∗ cred (tallyAt (recvCell c 7) () N)
    ∗ cred (tallyAt (recvCell c 8) () N)
    ∗ cred (tallyAt (recvCell c 9) () N)
    ∗ cred (tallyAt (recvCell c 10) () N)
    ∗ cred (tallyAt (recvCell c 11) () N)
    ∗ cred (tallyAt (recvCell c 12) () N)
    ∗ cred (tallyAt (recvCell c 13) () N)
    ∗ cred (tallyAt (recvCell c 14) () N)
    ∗ cred (tallyAt (recvCell c 15) () N)
    ∗ semVal (sendCell c 0) 0
    ∗ sendPay m c 0
    ∗ (∃ W : Waits sig Unit, owes (c : Thread nD τ) 0 W)
    ∗ (((Memref.whole main_arg0 : Memref sig .tc .hbm S16384x2048 .f32)).view.loc (c : Thread nD τ) ↦[((Memref.whole main_arg0 : Memref sig .tc .hbm S16384x2048 .f32)).view.set]{fullShare} X m c)
    ∗ ((oS c 0).view.loc (c : Thread nD τ) ↦[(oS c 0).view.set]{fullShare} OV m c)
    ∗ ((oS c 1).view.loc (c : Thread nD τ) ↦[(oS c 1).view.set]{fullShare} OV m c)
    ∗ ((oS c 2).view.loc (c : Thread nD τ) ↦[(oS c 2).view.set]{fullShare} OV m c)
    ∗ ((oS c 3).view.loc (c : Thread nD τ) ↦[(oS c 3).view.set]{fullShare} OV m c)
    ∗ ((oS c 4).view.loc (c : Thread nD τ) ↦[(oS c 4).view.set]{fullShare} OV m c)
    ∗ ((oS c 5).view.loc (c : Thread nD τ) ↦[(oS c 5).view.set]{fullShare} OV m c)
    ∗ ((oS c 6).view.loc (c : Thread nD τ) ↦[(oS c 6).view.set]{fullShare} OV m c)
    ∗ ((oS c 7).view.loc (c : Thread nD τ) ↦[(oS c 7).view.set]{fullShare} OV m c)
    ∗ ((oS c 8).view.loc (c : Thread nD τ) ↦[(oS c 8).view.set]{fullShare} OV m c)
    ∗ ((oS c 9).view.loc (c : Thread nD τ) ↦[(oS c 9).view.set]{fullShare} OV m c)
    ∗ ((oS c 10).view.loc (c : Thread nD τ) ↦[(oS c 10).view.set]{fullShare} OV m c)
    ∗ ((oS c 11).view.loc (c : Thread nD τ) ↦[(oS c 11).view.set]{fullShare} OV m c)
    ∗ ((oS c 12).view.loc (c : Thread nD τ) ↦[(oS c 12).view.set]{fullShare} OV m c)
    ∗ ((oS c 13).view.loc (c : Thread nD τ) ↦[(oS c 13).view.set]{fullShare} OV m c)
    ∗ ((oS c 14).view.loc (c : Thread nD τ) ↦[(oS c 14).view.set]{fullShare} OV m c)
    ∗ ((oS c 15).view.loc (c : Thread nD τ) ↦[(oS c 15).view.set]{fullShare} OV m c)
    ∗ (∃ f, (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ (∃ f, (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ (∃ f, (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ semVal (locCell c 0) 0
    ∗ semVal (locCell c 1) 0
    ∗ semVal (locCell c 2) 0
    ∗ semVal (locCell c 3) 0
    ∗ semVal (locCell c 4) 0
    ∗ semVal (locCell c 5) 0)

/-! ## Keeping the cells' pieces folded until their wait -/

/-- An assertion held folded: the same assertion under a name, unfolded where it is used. -/
def Kept (P : sProp 𝕄) : sProp 𝕄 := P

/-- The state at the start of the tail with each cell's invariant, position and credit held folded. -/
def MidCk (K : Dev nD × Fin 33 → ℕ) (c : Dev nD) : sProp 𝕄 :=
  iprop(Kept (cellInv ER (a2aRd m) (K (c, 1)) (sendCell c 0))
    ∗ Kept (cellInv ER (a2aRd m) (K (c, 2)) (sendCell c 1))
    ∗ Kept (cellInv ER (a2aRd m) (K (c, 3)) (sendCell c 2))
    ∗ Kept (cellInv ER (a2aRd m) (K (c, 4)) (sendCell c 3))
    ∗ Kept (cellInv ER (a2aRd m) (K (c, 5)) (sendCell c 4))
    ∗ Kept (cellInv ER (a2aRd m) (K (c, 6)) (sendCell c 5))
    ∗ Kept (cellInv ER (a2aRd m) (K (c, 7)) (sendCell c 6))
    ∗ Kept (cellInv ER (a2aRd m) (K (c, 8)) (sendCell c 7))
    ∗ Kept (cellInv ER (a2aRd m) (K (c, 9)) (sendCell c 8))
    ∗ Kept (cellInv ER (a2aRd m) (K (c, 10)) (sendCell c 9))
    ∗ Kept (cellInv ER (a2aRd m) (K (c, 11)) (sendCell c 10))
    ∗ Kept (cellInv ER (a2aRd m) (K (c, 12)) (sendCell c 11))
    ∗ Kept (cellInv ER (a2aRd m) (K (c, 13)) (sendCell c 12))
    ∗ Kept (cellInv ER (a2aRd m) (K (c, 14)) (sendCell c 13))
    ∗ Kept (cellInv ER (a2aRd m) (K (c, 15)) (sendCell c 14))
    ∗ Kept (cellInv ER (a2aRd m) (K (c, 16)) (sendCell c 15))
    ∗ Kept (cellInv ER (a2aRd m) (K (c, 17)) (recvCell c 0))
    ∗ Kept (cellInv ER (a2aRd m) (K (c, 18)) (recvCell c 1))
    ∗ Kept (cellInv ER (a2aRd m) (K (c, 19)) (recvCell c 2))
    ∗ Kept (cellInv ER (a2aRd m) (K (c, 20)) (recvCell c 3))
    ∗ Kept (cellInv ER (a2aRd m) (K (c, 21)) (recvCell c 4))
    ∗ Kept (cellInv ER (a2aRd m) (K (c, 22)) (recvCell c 5))
    ∗ Kept (cellInv ER (a2aRd m) (K (c, 23)) (recvCell c 6))
    ∗ Kept (cellInv ER (a2aRd m) (K (c, 24)) (recvCell c 7))
    ∗ Kept (cellInv ER (a2aRd m) (K (c, 25)) (recvCell c 8))
    ∗ Kept (cellInv ER (a2aRd m) (K (c, 26)) (recvCell c 9))
    ∗ Kept (cellInv ER (a2aRd m) (K (c, 27)) (recvCell c 10))
    ∗ Kept (cellInv ER (a2aRd m) (K (c, 28)) (recvCell c 11))
    ∗ Kept (cellInv ER (a2aRd m) (K (c, 29)) (recvCell c 12))
    ∗ Kept (cellInv ER (a2aRd m) (K (c, 30)) (recvCell c 13))
    ∗ Kept (cellInv ER (a2aRd m) (K (c, 31)) (recvCell c 14))
    ∗ Kept (cellInv ER (a2aRd m) (K (c, 32)) (recvCell c 15))
    ∗ Kept (atPos ER (sendCell c 1) 0 ∅ 0)
    ∗ Kept (atPos ER (sendCell c 2) 0 ∅ 0)
    ∗ Kept (atPos ER (sendCell c 3) 0 ∅ 0)
    ∗ Kept (atPos ER (sendCell c 4) 0 ∅ 0)
    ∗ Kept (atPos ER (sendCell c 5) 0 ∅ 0)
    ∗ Kept (atPos ER (sendCell c 6) 0 ∅ 0)
    ∗ Kept (atPos ER (sendCell c 7) 0 ∅ 0)
    ∗ Kept (atPos ER (sendCell c 8) 0 ∅ 0)
    ∗ Kept (atPos ER (sendCell c 9) 0 ∅ 0)
    ∗ Kept (atPos ER (sendCell c 10) 0 ∅ 0)
    ∗ Kept (atPos ER (sendCell c 11) 0 ∅ 0)
    ∗ Kept (atPos ER (sendCell c 12) 0 ∅ 0)
    ∗ Kept (atPos ER (sendCell c 13) 0 ∅ 0)
    ∗ Kept (atPos ER (sendCell c 14) 0 ∅ 0)
    ∗ Kept (atPos ER (sendCell c 15) 0 ∅ 0)
    ∗ Kept (cred (tallyAt (sendCell c 1) () N))
    ∗ Kept (cred (tallyAt (sendCell c 2) () N))
    ∗ Kept (cred (tallyAt (sendCell c 3) () N))
    ∗ Kept (cred (tallyAt (sendCell c 4) () N))
    ∗ Kept (cred (tallyAt (sendCell c 5) () N))
    ∗ Kept (cred (tallyAt (sendCell c 6) () N))
    ∗ Kept (cred (tallyAt (sendCell c 7) () N))
    ∗ Kept (cred (tallyAt (sendCell c 8) () N))
    ∗ Kept (cred (tallyAt (sendCell c 9) () N))
    ∗ Kept (cred (tallyAt (sendCell c 10) () N))
    ∗ Kept (cred (tallyAt (sendCell c 11) () N))
    ∗ Kept (cred (tallyAt (sendCell c 12) () N))
    ∗ Kept (cred (tallyAt (sendCell c 13) () N))
    ∗ Kept (cred (tallyAt (sendCell c 14) () N))
    ∗ Kept (cred (tallyAt (sendCell c 15) () N))
    ∗ Kept (atPos ER (recvCell c 0) 0 ∅ 0)
    ∗ Kept (atPos ER (recvCell c 1) 0 ∅ 0)
    ∗ Kept (atPos ER (recvCell c 2) 0 ∅ 0)
    ∗ Kept (atPos ER (recvCell c 3) 0 ∅ 0)
    ∗ Kept (atPos ER (recvCell c 4) 0 ∅ 0)
    ∗ Kept (atPos ER (recvCell c 5) 0 ∅ 0)
    ∗ Kept (atPos ER (recvCell c 6) 0 ∅ 0)
    ∗ Kept (atPos ER (recvCell c 7) 0 ∅ 0)
    ∗ Kept (atPos ER (recvCell c 8) 0 ∅ 0)
    ∗ Kept (atPos ER (recvCell c 9) 0 ∅ 0)
    ∗ Kept (atPos ER (recvCell c 10) 0 ∅ 0)
    ∗ Kept (atPos ER (recvCell c 11) 0 ∅ 0)
    ∗ Kept (atPos ER (recvCell c 12) 0 ∅ 0)
    ∗ Kept (atPos ER (recvCell c 13) 0 ∅ 0)
    ∗ Kept (atPos ER (recvCell c 14) 0 ∅ 0)
    ∗ Kept (atPos ER (recvCell c 15) 0 ∅ 0)
    ∗ Kept (cred (tallyAt (recvCell c 0) () N))
    ∗ Kept (cred (tallyAt (recvCell c 1) () N))
    ∗ Kept (cred (tallyAt (recvCell c 2) () N))
    ∗ Kept (cred (tallyAt (recvCell c 3) () N))
    ∗ Kept (cred (tallyAt (recvCell c 4) () N))
    ∗ Kept (cred (tallyAt (recvCell c 5) () N))
    ∗ Kept (cred (tallyAt (recvCell c 6) () N))
    ∗ Kept (cred (tallyAt (recvCell c 7) () N))
    ∗ Kept (cred (tallyAt (recvCell c 8) () N))
    ∗ Kept (cred (tallyAt (recvCell c 9) () N))
    ∗ Kept (cred (tallyAt (recvCell c 10) () N))
    ∗ Kept (cred (tallyAt (recvCell c 11) () N))
    ∗ Kept (cred (tallyAt (recvCell c 12) () N))
    ∗ Kept (cred (tallyAt (recvCell c 13) () N))
    ∗ Kept (cred (tallyAt (recvCell c 14) () N))
    ∗ Kept (cred (tallyAt (recvCell c 15) () N))
    ∗ semVal (sendCell c 0) 0
    ∗ sendPay m c 0
    ∗ (∃ W : Waits sig Unit, owes (c : Thread nD τ) 0 W)
    ∗ (((Memref.whole main_arg0 : Memref sig .tc .hbm S16384x2048 .f32)).view.loc (c : Thread nD τ) ↦[((Memref.whole main_arg0 : Memref sig .tc .hbm S16384x2048 .f32)).view.set]{fullShare} X m c)
    ∗ ((oS c 0).view.loc (c : Thread nD τ) ↦[(oS c 0).view.set]{fullShare} OV m c)
    ∗ ((oS c 1).view.loc (c : Thread nD τ) ↦[(oS c 1).view.set]{fullShare} OV m c)
    ∗ ((oS c 2).view.loc (c : Thread nD τ) ↦[(oS c 2).view.set]{fullShare} OV m c)
    ∗ ((oS c 3).view.loc (c : Thread nD τ) ↦[(oS c 3).view.set]{fullShare} OV m c)
    ∗ ((oS c 4).view.loc (c : Thread nD τ) ↦[(oS c 4).view.set]{fullShare} OV m c)
    ∗ ((oS c 5).view.loc (c : Thread nD τ) ↦[(oS c 5).view.set]{fullShare} OV m c)
    ∗ ((oS c 6).view.loc (c : Thread nD τ) ↦[(oS c 6).view.set]{fullShare} OV m c)
    ∗ ((oS c 7).view.loc (c : Thread nD τ) ↦[(oS c 7).view.set]{fullShare} OV m c)
    ∗ ((oS c 8).view.loc (c : Thread nD τ) ↦[(oS c 8).view.set]{fullShare} OV m c)
    ∗ ((oS c 9).view.loc (c : Thread nD τ) ↦[(oS c 9).view.set]{fullShare} OV m c)
    ∗ ((oS c 10).view.loc (c : Thread nD τ) ↦[(oS c 10).view.set]{fullShare} OV m c)
    ∗ ((oS c 11).view.loc (c : Thread nD τ) ↦[(oS c 11).view.set]{fullShare} OV m c)
    ∗ ((oS c 12).view.loc (c : Thread nD τ) ↦[(oS c 12).view.set]{fullShare} OV m c)
    ∗ ((oS c 13).view.loc (c : Thread nD τ) ↦[(oS c 13).view.set]{fullShare} OV m c)
    ∗ ((oS c 14).view.loc (c : Thread nD τ) ↦[(oS c 14).view.set]{fullShare} OV m c)
    ∗ ((oS c 15).view.loc (c : Thread nD τ) ↦[(oS c 15).view.set]{fullShare} OV m c)
    ∗ (∃ f, (((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch0 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ (∃ f, (((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ (∃ f, (((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.set]{fullShare} f)
    ∗ (∃ f, (((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.loc (c : Thread nD τ) ↦[(((Memref.whole cc0_scratch3 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.set]{fullShare} f)
    ∗ semVal (locCell c 0) 0
    ∗ semVal (locCell c 1) 0
    ∗ semVal (locCell c 2) 0
    ∗ semVal (locCell c 3) 0
    ∗ semVal (locCell c 4) 0
    ∗ semVal (locCell c 5) 0)

theorem MidC_eq (K : Dev nD × Fin 33 → ℕ) (c : Dev nD) : MidC m K c = MidCk m K c := rfl

/-- The wait on send cell `r` from the cell's pieces held folded. -/
theorem rule_wait_send_k (c : Dev nD) (r : Fin 16) (κ : ℕ) (W : Waits sig Unit)
    {sp' sp : Space} {s' : Shape} {e' : EltTy}
    {src : Memref sig (c : Thread nD τ).2.kind sp' s' e'} {dst : Memref sig .tc sp S1024x1024 .bf16}
    {hsrc : src.view.WordExact} {hdst : dst.view.WordExact}
    {α : Type} {Q : α → sProp 𝕄} {k : PUnit → Prog (TpuEff nD τ sig (Elt F) Λ₀ .tc) α} :
    iprop(Kept (cellInv ER (a2aRd m) κ (sendCell c r)) ∗ Kept (cred (tallyAt (sendCell c r) () N)) ∗ owes (c : Thread nD τ) 0 W
        ∗ Kept (atPos ER (sendCell c r) 0 ∅ 0))
      ⊢ iprop(((owes (c : Thread nD τ) 0 (insert (SemLoc.dma (sendSem r), ()) W) ∗ semVal (sendCell c r) 0 ∗ sendPay m c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem r) src dst hsrc hdst) k) Q) :=
  rule_wait_send m c r κ W

/-- The wait on receive cell `r` from the cell's pieces held folded. -/
theorem rule_wait_recv_k (c : Dev nD) (r : Fin 16) (κ : ℕ) (W : Waits sig Unit)
    {sp' sp : Space} {s' : Shape} {e' : EltTy}
    {src : Memref sig (c : Thread nD τ).2.kind sp' s' e'} {dst : Memref sig .tc sp S1024x1024 .bf16}
    {hsrc : src.view.WordExact} {hdst : dst.view.WordExact}
    {α : Type} {Q : α → sProp 𝕄} {k : PUnit → Prog (TpuEff nD τ sig (Elt F) Λ₀ .tc) α} :
    iprop(Kept (cellInv ER (a2aRd m) κ (recvCell c r)) ∗ Kept (cred (tallyAt (recvCell c r) () N)) ∗ owes (c : Thread nD τ) 0 W
        ∗ Kept (atPos ER (recvCell c r) 0 ∅ 0))
      ⊢ iprop(((owes (c : Thread nD τ) 0 (insert (SemLoc.dma (recvSem r), ()) W) ∗ semVal (recvCell c r) 0 ∗ recvPay m c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem r) src dst hsrc hdst) k) Q) :=
  rule_wait_recv m c r κ W

set_option maxHeartbeats 40000000 in
set_option maxRecDepth 100000 in
/-- From that state the tail runs to the state the launch takes back. -/
theorem tail_run2 (K : Dev nD × Fin 33 → ℕ) (c : Dev nD) (v2 v5 v9 : BitVec 32) (Kt : PUnit → sProp 𝕄) :
    iprop(MidC m K c ∗ (bodyPost m c -∗ Kt ⟨⟩))
      ⊢ wp frame (wpE (defs₀ (F := F)) 𝒱₀ c none) Set.univ (tailProg (F := F) c v2 v5 v9) Kt := by
  rw [MidC_eq]
  unfold MidCk
  iintro ⟨⟨HIS0, HIS1, HIS2, HIS3, HIS4, HIS5, HIS6, HIS7, HIS8, HIS9, HIS10, HIS11, HIS12, HIS13, HIS14, HIS15, HIR0, HIR1, HIR2, HIR3, HIR4, HIR5, HIR6, HIR7, HIR8, HIR9, HIR10, HIR11, HIR12, HIR13, HIR14, HIR15, HatS1, HatS2, HatS3, HatS4, HatS5, HatS6, HatS7, HatS8, HatS9, HatS10, HatS11, HatS12, HatS13, HatS14, HatS15, HcS1, HcS2, HcS3, HcS4, HcS5, HcS6, HcS7, HcS8, HcS9, HcS10, HcS11, HcS12, HcS13, HcS14, HcS15, HatR0, HatR1, HatR2, HatR3, HatR4, HatR5, HatR6, HatR7, HatR8, HatR9, HatR10, HatR11, HatR12, HatR13, HatR14, HatR15, HcR0, HcR1, HcR2, HcR3, HcR4, HcR5, HcR6, HcR7, HcR8, HcR9, HcR10, HcR11, HcR12, HcR13, HcR14, HcR15, Hz0, Hsp0, ⟨%W, HO⟩, Hx, Hown0, Hown1, Hown2, Hown3, Hown4, Hown5, Hown6, Hown7, Hown8, Hown9, Hown10, Hown11, Hown12, Hown13, Hown14, Hown15, ⟨%g0a, Hs0a⟩, ⟨%g0b, Hs0b⟩, ⟨%g2a, Hs2a⟩, ⟨%g2b, Hs2b⟩, ⟨%g3a, Hs3a⟩, ⟨%g3b, Hs3b⟩, Hl0, Hl1, Hl2, Hl3, Hl4, Hl5⟩, Hk⟩
  unfold tailProg
  -- the wait on receive cell 0
  sl_exec
  iapply (rule_wait_recv_k m c 0 (K (c, 17)) _) $$ [HIR0 HcR0 HO HatR0]
  · isplitl [HIR0]; · iexact HIR0
    isplitl [HcR0]; · iexact HcR0
    isplitl [HO]; · iexact HO
    iexact HatR0
  iintro ⟨HO, HzR0, Hrp0⟩
  -- the wait on send cell 1
  sl_exec
  iapply (rule_wait_send_k m c 1 (K (c, 2)) _) $$ [HIS1 HcS1 HO HatS1]
  · isplitl [HIS1]; · iexact HIS1
    isplitl [HcS1]; · iexact HcS1
    isplitl [HO]; · iexact HO
    iexact HatS1
  iintro ⟨HO, Hz1, Hsp1⟩
  -- the wait on receive cell 1
  sl_exec
  iapply (rule_wait_recv_k m c 1 (K (c, 18)) _) $$ [HIR1 HcR1 HO HatR1]
  · isplitl [HIR1]; · iexact HIR1
    isplitl [HcR1]; · iexact HcR1
    isplitl [HO]; · iexact HO
    iexact HatR1
  iintro ⟨HO, HzR1, Hrp1⟩
  -- the wait on send cell 2
  sl_exec
  iapply (rule_wait_send_k m c 2 (K (c, 3)) _) $$ [HIS2 HcS2 HO HatS2]
  · isplitl [HIS2]; · iexact HIS2
    isplitl [HcS2]; · iexact HcS2
    isplitl [HO]; · iexact HO
    iexact HatS2
  iintro ⟨HO, Hz2, Hsp2⟩
  -- the wait on receive cell 2
  sl_exec
  iapply (rule_wait_recv_k m c 2 (K (c, 19)) _) $$ [HIR2 HcR2 HO HatR2]
  · isplitl [HIR2]; · iexact HIR2
    isplitl [HcR2]; · iexact HcR2
    isplitl [HO]; · iexact HO
    iexact HatR2
  iintro ⟨HO, HzR2, Hrp2⟩
  -- the wait on send cell 3
  sl_exec
  iapply (rule_wait_send_k m c 3 (K (c, 4)) _) $$ [HIS3 HcS3 HO HatS3]
  · isplitl [HIS3]; · iexact HIS3
    isplitl [HcS3]; · iexact HcS3
    isplitl [HO]; · iexact HO
    iexact HatS3
  iintro ⟨HO, Hz3, Hsp3⟩
  -- the wait on receive cell 3
  sl_exec
  iapply (rule_wait_recv_k m c 3 (K (c, 20)) _) $$ [HIR3 HcR3 HO HatR3]
  · isplitl [HIR3]; · iexact HIR3
    isplitl [HcR3]; · iexact HcR3
    isplitl [HO]; · iexact HO
    iexact HatR3
  iintro ⟨HO, HzR3, Hrp3⟩
  -- the wait on send cell 4
  sl_exec
  iapply (rule_wait_send_k m c 4 (K (c, 5)) _) $$ [HIS4 HcS4 HO HatS4]
  · isplitl [HIS4]; · iexact HIS4
    isplitl [HcS4]; · iexact HcS4
    isplitl [HO]; · iexact HO
    iexact HatS4
  iintro ⟨HO, Hz4, Hsp4⟩
  -- the wait on receive cell 4
  sl_exec
  iapply (rule_wait_recv_k m c 4 (K (c, 21)) _) $$ [HIR4 HcR4 HO HatR4]
  · isplitl [HIR4]; · iexact HIR4
    isplitl [HcR4]; · iexact HcR4
    isplitl [HO]; · iexact HO
    iexact HatR4
  iintro ⟨HO, HzR4, Hrp4⟩
  -- the wait on send cell 5
  sl_exec
  iapply (rule_wait_send_k m c 5 (K (c, 6)) _) $$ [HIS5 HcS5 HO HatS5]
  · isplitl [HIS5]; · iexact HIS5
    isplitl [HcS5]; · iexact HcS5
    isplitl [HO]; · iexact HO
    iexact HatS5
  iintro ⟨HO, Hz5, Hsp5⟩
  -- the wait on receive cell 5
  sl_exec
  iapply (rule_wait_recv_k m c 5 (K (c, 22)) _) $$ [HIR5 HcR5 HO HatR5]
  · isplitl [HIR5]; · iexact HIR5
    isplitl [HcR5]; · iexact HcR5
    isplitl [HO]; · iexact HO
    iexact HatR5
  iintro ⟨HO, HzR5, Hrp5⟩
  -- the wait on send cell 6
  sl_exec
  iapply (rule_wait_send_k m c 6 (K (c, 7)) _) $$ [HIS6 HcS6 HO HatS6]
  · isplitl [HIS6]; · iexact HIS6
    isplitl [HcS6]; · iexact HcS6
    isplitl [HO]; · iexact HO
    iexact HatS6
  iintro ⟨HO, Hz6, Hsp6⟩
  -- the wait on receive cell 6
  sl_exec
  iapply (rule_wait_recv_k m c 6 (K (c, 23)) _) $$ [HIR6 HcR6 HO HatR6]
  · isplitl [HIR6]; · iexact HIR6
    isplitl [HcR6]; · iexact HcR6
    isplitl [HO]; · iexact HO
    iexact HatR6
  iintro ⟨HO, HzR6, Hrp6⟩
  -- the wait on send cell 7
  sl_exec
  iapply (rule_wait_send_k m c 7 (K (c, 8)) _) $$ [HIS7 HcS7 HO HatS7]
  · isplitl [HIS7]; · iexact HIS7
    isplitl [HcS7]; · iexact HcS7
    isplitl [HO]; · iexact HO
    iexact HatS7
  iintro ⟨HO, Hz7, Hsp7⟩
  -- the wait on receive cell 7
  sl_exec
  iapply (rule_wait_recv_k m c 7 (K (c, 24)) _) $$ [HIR7 HcR7 HO HatR7]
  · isplitl [HIR7]; · iexact HIR7
    isplitl [HcR7]; · iexact HcR7
    isplitl [HO]; · iexact HO
    iexact HatR7
  iintro ⟨HO, HzR7, Hrp7⟩
  -- the wait on send cell 8
  sl_exec
  iapply (rule_wait_send_k m c 8 (K (c, 9)) _) $$ [HIS8 HcS8 HO HatS8]
  · isplitl [HIS8]; · iexact HIS8
    isplitl [HcS8]; · iexact HcS8
    isplitl [HO]; · iexact HO
    iexact HatS8
  iintro ⟨HO, Hz8, Hsp8⟩
  -- the wait on receive cell 8
  sl_exec
  iapply (rule_wait_recv_k m c 8 (K (c, 25)) _) $$ [HIR8 HcR8 HO HatR8]
  · isplitl [HIR8]; · iexact HIR8
    isplitl [HcR8]; · iexact HcR8
    isplitl [HO]; · iexact HO
    iexact HatR8
  iintro ⟨HO, HzR8, Hrp8⟩
  -- the wait on send cell 9
  sl_exec
  iapply (rule_wait_send_k m c 9 (K (c, 10)) _) $$ [HIS9 HcS9 HO HatS9]
  · isplitl [HIS9]; · iexact HIS9
    isplitl [HcS9]; · iexact HcS9
    isplitl [HO]; · iexact HO
    iexact HatS9
  iintro ⟨HO, Hz9, Hsp9⟩
  -- the wait on receive cell 9
  sl_exec
  iapply (rule_wait_recv_k m c 9 (K (c, 26)) _) $$ [HIR9 HcR9 HO HatR9]
  · isplitl [HIR9]; · iexact HIR9
    isplitl [HcR9]; · iexact HcR9
    isplitl [HO]; · iexact HO
    iexact HatR9
  iintro ⟨HO, HzR9, Hrp9⟩
  -- the wait on send cell 10
  sl_exec
  iapply (rule_wait_send_k m c 10 (K (c, 11)) _) $$ [HIS10 HcS10 HO HatS10]
  · isplitl [HIS10]; · iexact HIS10
    isplitl [HcS10]; · iexact HcS10
    isplitl [HO]; · iexact HO
    iexact HatS10
  iintro ⟨HO, Hz10, Hsp10⟩
  -- the wait on receive cell 10
  sl_exec
  iapply (rule_wait_recv_k m c 10 (K (c, 27)) _) $$ [HIR10 HcR10 HO HatR10]
  · isplitl [HIR10]; · iexact HIR10
    isplitl [HcR10]; · iexact HcR10
    isplitl [HO]; · iexact HO
    iexact HatR10
  iintro ⟨HO, HzR10, Hrp10⟩
  -- the wait on send cell 11
  sl_exec
  iapply (rule_wait_send_k m c 11 (K (c, 12)) _) $$ [HIS11 HcS11 HO HatS11]
  · isplitl [HIS11]; · iexact HIS11
    isplitl [HcS11]; · iexact HcS11
    isplitl [HO]; · iexact HO
    iexact HatS11
  iintro ⟨HO, Hz11, Hsp11⟩
  -- the wait on receive cell 11
  sl_exec
  iapply (rule_wait_recv_k m c 11 (K (c, 28)) _) $$ [HIR11 HcR11 HO HatR11]
  · isplitl [HIR11]; · iexact HIR11
    isplitl [HcR11]; · iexact HcR11
    isplitl [HO]; · iexact HO
    iexact HatR11
  iintro ⟨HO, HzR11, Hrp11⟩
  -- the wait on send cell 12
  sl_exec
  iapply (rule_wait_send_k m c 12 (K (c, 13)) _) $$ [HIS12 HcS12 HO HatS12]
  · isplitl [HIS12]; · iexact HIS12
    isplitl [HcS12]; · iexact HcS12
    isplitl [HO]; · iexact HO
    iexact HatS12
  iintro ⟨HO, Hz12, Hsp12⟩
  -- the wait on receive cell 12
  sl_exec
  iapply (rule_wait_recv_k m c 12 (K (c, 29)) _) $$ [HIR12 HcR12 HO HatR12]
  · isplitl [HIR12]; · iexact HIR12
    isplitl [HcR12]; · iexact HcR12
    isplitl [HO]; · iexact HO
    iexact HatR12
  iintro ⟨HO, HzR12, Hrp12⟩
  -- the wait on send cell 13
  sl_exec
  iapply (rule_wait_send_k m c 13 (K (c, 14)) _) $$ [HIS13 HcS13 HO HatS13]
  · isplitl [HIS13]; · iexact HIS13
    isplitl [HcS13]; · iexact HcS13
    isplitl [HO]; · iexact HO
    iexact HatS13
  iintro ⟨HO, Hz13, Hsp13⟩
  -- the wait on receive cell 13
  sl_exec
  iapply (rule_wait_recv_k m c 13 (K (c, 30)) _) $$ [HIR13 HcR13 HO HatR13]
  · isplitl [HIR13]; · iexact HIR13
    isplitl [HcR13]; · iexact HcR13
    isplitl [HO]; · iexact HO
    iexact HatR13
  iintro ⟨HO, HzR13, Hrp13⟩
  -- the wait on send cell 14
  sl_exec
  iapply (rule_wait_send_k m c 14 (K (c, 15)) _) $$ [HIS14 HcS14 HO HatS14]
  · isplitl [HIS14]; · iexact HIS14
    isplitl [HcS14]; · iexact HcS14
    isplitl [HO]; · iexact HO
    iexact HatS14
  iintro ⟨HO, Hz14, Hsp14⟩
  -- the wait on receive cell 14
  sl_exec
  iapply (rule_wait_recv_k m c 14 (K (c, 31)) _) $$ [HIR14 HcR14 HO HatR14]
  · isplitl [HIR14]; · iexact HIR14
    isplitl [HcR14]; · iexact HcR14
    isplitl [HO]; · iexact HO
    iexact HatR14
  iintro ⟨HO, HzR14, Hrp14⟩
  -- the wait on send cell 15
  sl_exec
  iapply (rule_wait_send_k m c 15 (K (c, 16)) _) $$ [HIS15 HcS15 HO HatS15]
  · isplitl [HIS15]; · iexact HIS15
    isplitl [HcS15]; · iexact HcS15
    isplitl [HO]; · iexact HO
    iexact HatS15
  iintro ⟨HO, Hz15, Hsp15⟩
  -- the wait on receive cell 15
  sl_exec
  iapply (rule_wait_recv_k m c 15 (K (c, 32)) _) $$ [HIR15 HcR15 HO HatR15]
  · isplitl [HIR15]; · iexact HIR15
    isplitl [HcR15]; · iexact HcR15
    isplitl [HO]; · iexact HO
    iexact HatR15
  iintro ⟨HO, HzR15, Hrp15⟩
  sl_exec
  -- the return, and the state the launch takes back
  rw [wp_ret]; imodintro
  iapply Hk
  iapply (exit_post_flat m c _)
  isplitl [Hx]; · iexact Hx
  isplitl [Hown0 Hown1 Hown2 Hown3 Hown4 Hown5 Hown6 Hown7 Hown8 Hown9 Hown10 Hown11 Hown12 Hown13 Hown14 Hown15]
  · isplitl [Hown0]; · iexact Hown0
    isplitl [Hown1]; · iexact Hown1
    isplitl [Hown2]; · iexact Hown2
    isplitl [Hown3]; · iexact Hown3
    isplitl [Hown4]; · iexact Hown4
    isplitl [Hown5]; · iexact Hown5
    isplitl [Hown6]; · iexact Hown6
    isplitl [Hown7]; · iexact Hown7
    isplitl [Hown8]; · iexact Hown8
    isplitl [Hown9]; · iexact Hown9
    isplitl [Hown10]; · iexact Hown10
    isplitl [Hown11]; · iexact Hown11
    isplitl [Hown12]; · iexact Hown12
    isplitl [Hown13]; · iexact Hown13
    isplitl [Hown14]; · iexact Hown14
    iexact Hown15
  isplitl [Hrp0 Hrp1 Hrp2 Hrp3 Hrp4 Hrp5 Hrp6 Hrp7 Hrp8 Hrp9 Hrp10 Hrp11 Hrp12 Hrp13 Hrp14 Hrp15]
  · isplitl [Hrp0]; · iexact Hrp0
    isplitl [Hrp1]; · iexact Hrp1
    isplitl [Hrp2]; · iexact Hrp2
    isplitl [Hrp3]; · iexact Hrp3
    isplitl [Hrp4]; · iexact Hrp4
    isplitl [Hrp5]; · iexact Hrp5
    isplitl [Hrp6]; · iexact Hrp6
    isplitl [Hrp7]; · iexact Hrp7
    isplitl [Hrp8]; · iexact Hrp8
    isplitl [Hrp9]; · iexact Hrp9
    isplitl [Hrp10]; · iexact Hrp10
    isplitl [Hrp11]; · iexact Hrp11
    isplitl [Hrp12]; · iexact Hrp12
    isplitl [Hrp13]; · iexact Hrp13
    isplitl [Hrp14]; · iexact Hrp14
    iexact Hrp15
  isplitl [Hsp0 Hsp1 Hsp2 Hsp3 Hsp4 Hsp5 Hsp6 Hsp7 Hsp8 Hsp9 Hsp10 Hsp11 Hsp12 Hsp13 Hsp14 Hsp15]
  · isplitl [Hsp0]; · iexact Hsp0
    isplitl [Hsp1]; · iexact Hsp1
    isplitl [Hsp2]; · iexact Hsp2
    isplitl [Hsp3]; · iexact Hsp3
    isplitl [Hsp4]; · iexact Hsp4
    isplitl [Hsp5]; · iexact Hsp5
    isplitl [Hsp6]; · iexact Hsp6
    isplitl [Hsp7]; · iexact Hsp7
    isplitl [Hsp8]; · iexact Hsp8
    isplitl [Hsp9]; · iexact Hsp9
    isplitl [Hsp10]; · iexact Hsp10
    isplitl [Hsp11]; · iexact Hsp11
    isplitl [Hsp12]; · iexact Hsp12
    isplitl [Hsp13]; · iexact Hsp13
    isplitl [Hsp14]; · iexact Hsp14
    iexact Hsp15
  isplitl [Hs0a]; · iexists _; iexact Hs0a
  isplitl [Hs0b]; · iexists _; iexact Hs0b
  isplitl [Hs2a]; · iexists _; iexact Hs2a
  isplitl [Hs2b]; · iexists _; iexact Hs2b
  isplitl [Hs3a]; · iexists _; iexact Hs3a
  isplitl [Hs3b]; · iexists _; iexact Hs3b
  isplitl [Hl0 Hl1 Hl2 Hl3 Hl4 Hl5]
  · isplitl [Hl0]; · iexact Hl0
    isplitl [Hl1]; · iexact Hl1
    isplitl [Hl2]; · iexact Hl2
    isplitl [Hl3]; · iexact Hl3
    isplitl [Hl4]; · iexact Hl4
    iexact Hl5
  isplitl [Hz0 Hz1 Hz2 Hz3 Hz4 Hz5 Hz6 Hz7 Hz8 Hz9 Hz10 Hz11 Hz12 Hz13 Hz14 Hz15]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    iexact Hz15
  isplitl [HzR0 HzR1 HzR2 HzR3 HzR4 HzR5 HzR6 HzR7 HzR8 HzR9 HzR10 HzR11 HzR12 HzR13 HzR14 HzR15]
  · isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    isplitl [HzR7]; · iexact HzR7
    isplitl [HzR8]; · iexact HzR8
    isplitl [HzR9]; · iexact HzR9
    isplitl [HzR10]; · iexact HzR10
    isplitl [HzR11]; · iexact HzR11
    isplitl [HzR12]; · iexact HzR12
    isplitl [HzR13]; · iexact HzR13
    isplitl [HzR14]; · iexact HzR14
    iexact HzR15
  iexact HO

/-- info: 'Cert.KernelIdeal.A2A.tail_run2' depends on axioms: [propext, Classical.choice, Quot.sound] -/
#guard_msgs in #print axioms tail_run2

end Cert.KernelIdeal.A2A

end
-- ==== Proof.KernelIdeal.Body.lean ====
/-
  One device's body, run from the state before it to the state after it.
-/
import proofs.«900627_g7700000000000628_dist_a2a_v7x_xyz2x2x2_z_m16384_n1024_bf16_1_alg».proof.Proof.KernelIdeal.Proto
import proofs.«900627_g7700000000000628_dist_a2a_v7x_xyz2x2x2_z_m16384_n1024_bf16_1_alg».proof.Proof.KernelIdeal.Tables
import proofs.«900627_g7700000000000628_dist_a2a_v7x_xyz2x2x2_z_m16384_n1024_bf16_1_alg».proof.Proof.KernelIdeal.BodyPrep
import proofs.«900627_g7700000000000628_dist_a2a_v7x_xyz2x2x2_z_m16384_n1024_bf16_1_alg».proof.Proof.KernelIdeal.Regions
import proofs.«900627_g7700000000000628_dist_a2a_v7x_xyz2x2x2_z_m16384_n1024_bf16_1_alg».proof.Proof.KernelIdeal.Contents
import proofs.«900627_g7700000000000628_dist_a2a_v7x_xyz2x2x2_z_m16384_n1024_bf16_1_alg».proof.Proof.KernelIdeal.RuleSend
import proofs.«900627_g7700000000000628_dist_a2a_v7x_xyz2x2x2_z_m16384_n1024_bf16_1_alg».proof.Proof.KernelIdeal.RuleSendEx
import proofs.«900627_g7700000000000628_dist_a2a_v7x_xyz2x2x2_z_m16384_n1024_bf16_1_alg».proof.Proof.KernelIdeal.BodyEnds
import proofs.«900627_g7700000000000628_dist_a2a_v7x_xyz2x2x2_z_m16384_n1024_bf16_1_alg».proof.Proof.KernelIdeal.ValueSteps
import proofs.«900627_g7700000000000628_dist_a2a_v7x_xyz2x2x2_z_m16384_n1024_bf16_1_alg».proof.Proof.KernelIdeal.Progs
import proofs.«900627_g7700000000000628_dist_a2a_v7x_xyz2x2x2_z_m16384_n1024_bf16_1_alg».proof.Proof.KernelIdeal.LocalRun
import proofs.«900627_g7700000000000628_dist_a2a_v7x_xyz2x2x2_z_m16384_n1024_bf16_1_alg».proof.Proof.KernelIdeal.TailRun2
import proofs.«900627_g7700000000000628_dist_a2a_v7x_xyz2x2x2_z_m16384_n1024_bf16_1_alg».proof.Proof.KernelIdeal.RuleWait
import proofs.«900627_g7700000000000628_dist_a2a_v7x_xyz2x2x2_z_m16384_n1024_bf16_1_alg».proof.Proof.Gen.KernelIdeal.Skeleton
import proofs.«900627_g7700000000000628_dist_a2a_v7x_xyz2x2x2_z_m16384_n1024_bf16_1_alg».proof.Proof.Gen.KernelIdeal.Points

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
set_option maxHeartbeats 40000000 in
set_option maxRecDepth 100000 in
/-- The body with its later stretches behind a name `k`: the first stretch is run here, the other two by their lemmas. -/
theorem sound_body_aux (K : Dev nD × Fin 33 → ℕ) (c : Dev nD) (Kt : PUnit → sProp 𝕄)
    (k : Dev nD → BitVec 32 → BitVec 32 → BitVec 32 → BitVec 32 → Prog (TpuEff nD τ sig (Elt F) Λ₀ .tc) PUnit)
    (hk : k = fun d0 v2 v5 v8 v9 => localProg (F := F) d0 v2 v5 v8 v9 (tailProg d0 v2 v5 v9)) :
    iprop(bodyPre m K c ∗ (bodyPost m c -∗ Kt ⟨⟩))
      ⊢ wp frame (wpE (defs₀ (F := F)) 𝒱₀ c none) Set.univ (headProg (F := F) k) Kt := by
  unfold bodyPre ghost invs arrays scratch
  iintro ⟨⟨⟨⟨#HI, #HIbp, #HIrp⟩, Hat, #Hr, #HrBP, #HrRP, HtBP, HtRP, HtS⟩, HcB, HcR, #Hlev, Hloc, ⟨Hx, Hout⟩, ⟨⟨%f0, Hs0⟩, ⟨%f1, Hs1⟩, ⟨%f2, Hs2⟩, ⟨%f3, Hs3⟩⟩, Ho⟩, Hk⟩
  unfold Pipeline.owesWithin
  icases Ho with ⟨%W, %hW, HO⟩
  ihave HI' := (Entails.of_eq (bigSep_fin33 _)) $$ HI
  icases HI' with ⟨#HIB, #HIS0, #HIS1, #HIS2, #HIS3, #HIS4, #HIS5, #HIS6, #HIS7, #HIS8, #HIS9, #HIS10, #HIS11, #HIS12, #HIS13, #HIS14, #HIS15, #HIR0, #HIR1, #HIR2, #HIR3, #HIR4, #HIR5, #HIR6, #HIR7, #HIR8, #HIR9, #HIR10, #HIR11, #HIR12, #HIR13, #HIR14, #HIR15⟩
  ihave Hat' := (Entails.of_eq (bigSep_fin33 _)) $$ Hat
  icases Hat' with ⟨HatB, HatS0, HatS1, HatS2, HatS3, HatS4, HatS5, HatS6, HatS7, HatS8, HatS9, HatS10, HatS11, HatS12, HatS13, HatS14, HatS15, HatR0, HatR1, HatR2, HatR3, HatR4, HatR5, HatR6, HatR7, HatR8, HatR9, HatR10, HatR11, HatR12, HatR13, HatR14, HatR15⟩
  ihave Hr' := (Entails.of_eq (bigSep_fin33 _)) $$ Hr
  icases Hr' with ⟨#HrB, #HrS0, #HrS1, #HrS2, #HrS3, #HrS4, #HrS5, #HrS6, #HrS7, #HrS8, #HrS9, #HrS10, #HrS11, #HrS12, #HrS13, #HrS14, #HrS15, #HrR0, #HrR1, #HrR2, #HrR3, #HrR4, #HrR5, #HrR6, #HrR7, #HrR8, #HrR9, #HrR10, #HrR11, #HrR12, #HrR13, #HrR14, #HrR15⟩
  ihave HIrp' := (Entails.of_eq (bigSep_fin16 _)) $$ HIrp
  icases HIrp' with ⟨#HIP0, #HIP1, #HIP2, #HIP3, #HIP4, #HIP5, #HIP6, #HIP7, #HIP8, #HIP9, #HIP10, #HIP11, #HIP12, #HIP13, #HIP14, #HIP15⟩
  ihave HrRP' := (Entails.of_eq (bigSep_fin16 _)) $$ HrRP
  icases HrRP' with ⟨#HrP0, #HrP1, #HrP2, #HrP3, #HrP4, #HrP5, #HrP6, #HrP7, #HrP8, #HrP9, #HrP10, #HrP11, #HrP12, #HrP13, #HrP14, #HrP15⟩
  ihave HtRP' := (Entails.of_eq (bigSep_fin16 _)) $$ HtRP
  icases HtRP' with ⟨HtP0, HtP1, HtP2, HtP3, HtP4, HtP5, HtP6, HtP7, HtP8, HtP9, HtP10, HtP11, HtP12, HtP13, HtP14, HtP15⟩
  ihave HtS' := (Entails.of_eq (bigSep_fin16 _)) $$ HtS
  icases HtS' with ⟨HtS0, HtS1, HtS2, HtS3, HtS4, HtS5, HtS6, HtS7, HtS8, HtS9, HtS10, HtS11, HtS12, HtS13, HtS14, HtS15⟩
  ihave HcR' := (Entails.of_eq (bigSep_fin16 _)) $$ HcR
  icases HcR' with ⟨HcR0, HcR1, HcR2, HcR3, HcR4, HcR5, HcR6, HcR7, HcR8, HcR9, HcR10, HcR11, HcR12, HcR13, HcR14, HcR15⟩
  ihave Hloc' := (Entails.of_eq (bigSep_fin6 _)) $$ Hloc
  icases Hloc' with ⟨Hl0, Hl1, Hl2, Hl3, Hl4, Hl5⟩
  ihave Hl0 := (Entails.of_eq (show (semVal (locCell c 0) 0 : sProp 𝕄) = semVal ((c : Thread nD τ), SemLoc.dma ((SemArray.slice cc0_scratch4 (Rect.unit (s := S2) ![0] S1.size inb_S2_S1_0)).squeeze S_ squeezes_S1_S_).sem) 0 from rfl)) $$ Hl0
  ihave Hl1 := (Entails.of_eq (show (semVal (locCell c 1) 0 : sProp 𝕄) = semVal ((c : Thread nD τ), SemLoc.dma ((SemArray.slice cc0_scratch4 (Rect.unit (s := S2) ![1] S1.size inb_S2_S1_1)).squeeze S_ squeezes_S1_S_).sem) 0 from rfl)) $$ Hl1
  ihave Hl2 := (Entails.of_eq (show (semVal (locCell c 2) 0 : sProp 𝕄) = semVal ((c : Thread nD τ), SemLoc.dma ((SemArray.slice cc0_scratch5 (Rect.unit (s := S2) ![0] S1.size inb_S2_S1_0)).squeeze S_ squeezes_S1_S_).sem) 0 from rfl)) $$ Hl2
  ihave Hl3 := (Entails.of_eq (show (semVal (locCell c 3) 0 : sProp 𝕄) = semVal ((c : Thread nD τ), SemLoc.dma ((SemArray.slice cc0_scratch5 (Rect.unit (s := S2) ![1] S1.size inb_S2_S1_1)).squeeze S_ squeezes_S1_S_).sem) 0 from rfl)) $$ Hl3
  ihave Hl4 := (Entails.of_eq (show (semVal (locCell c 4) 0 : sProp 𝕄) = semVal ((c : Thread nD τ), SemLoc.dma ((SemArray.slice cc0_scratch6 (Rect.unit (s := S2) ![0] S1.size inb_S2_S1_0)).squeeze S_ squeezes_S1_S_).sem) 0 from rfl)) $$ Hl4
  ihave Hl5 := (Entails.of_eq (show (semVal (locCell c 5) 0 : sProp 𝕄) = semVal ((c : Thread nD τ), SemLoc.dma ((SemArray.slice cc0_scratch6 (Rect.unit (s := S2) ![1] S1.size inb_S2_S1_1)).squeeze S_ squeezes_S1_S_).sem) 0 from rfl)) $$ Hl5
  ihave Hout' := (out_split c _).1 $$ Hout
  icases Hout' with ⟨Hown, Hlent⟩
  ihave Hown' := (Entails.of_eq (bigSep_fin16 _)) $$ Hown
  icases Hown' with ⟨Hown0, Hown1, Hown2, Hown3, Hown4, Hown5, Hown6, Hown7, Hown8, Hown9, Hown10, Hown11, Hown12, Hown13, Hown14, Hown15⟩
  ihave Hlent' := (Entails.of_eq (bigSep_fin16 _)) $$ Hlent
  icases Hlent' with ⟨Hlent0, Hlent1, Hlent2, Hlent3, Hlent4, Hlent5, Hlent6, Hlent7, Hlent8, Hlent9, Hlent10, Hlent11, Hlent12, Hlent13, Hlent14, Hlent15⟩
  ihave Hown0 := (Entails.of_eq (show ((oS c 0).view.loc (c : Thread nD τ) ↦[(oS c 0).view.set]{fullShare} m ((c : Thread nD τ).loc main_v1) : sProp 𝕄) = (((Memref.whole main_v1 : Memref sig .tc .hbm S32768x1024 .bf16).slice (Rect.unit (s := S32768x1024) (k0_off4 c 0#32) S1024x1024.size (k0_off4_inb c 0)) (fun _ => rfl)).view.loc (c : Thread nD τ) ↦[((Memref.whole main_v1 : Memref sig .tc .hbm S32768x1024 .bf16).slice (Rect.unit (s := S32768x1024) (k0_off4 c 0#32) S1024x1024.size (k0_off4_inb c 0)) (fun _ => rfl)).view.set]{fullShare} m ((c : Thread nD τ).loc main_v1) : sProp 𝕄) from rfl)) $$ Hown0
  ihave Hown1 := (Entails.of_eq (show ((oS c 1).view.loc (c : Thread nD τ) ↦[(oS c 1).view.set]{fullShare} m ((c : Thread nD τ).loc main_v1) : sProp 𝕄) = (((Memref.whole main_v1 : Memref sig .tc .hbm S32768x1024 .bf16).slice (Rect.unit (s := S32768x1024) (k0_off4 c 1024#32) S1024x1024.size (k0_off4_inb c 1)) (fun _ => rfl)).view.loc (c : Thread nD τ) ↦[((Memref.whole main_v1 : Memref sig .tc .hbm S32768x1024 .bf16).slice (Rect.unit (s := S32768x1024) (k0_off4 c 1024#32) S1024x1024.size (k0_off4_inb c 1)) (fun _ => rfl)).view.set]{fullShare} m ((c : Thread nD τ).loc main_v1) : sProp 𝕄) from rfl)) $$ Hown1
  ihave Hown2 := (Entails.of_eq (show ((oS c 2).view.loc (c : Thread nD τ) ↦[(oS c 2).view.set]{fullShare} m ((c : Thread nD τ).loc main_v1) : sProp 𝕄) = (((Memref.whole main_v1 : Memref sig .tc .hbm S32768x1024 .bf16).slice (Rect.unit (s := S32768x1024) (k0_off4 c 2048#32) S1024x1024.size (k0_off4_inb c 2)) (fun _ => rfl)).view.loc (c : Thread nD τ) ↦[((Memref.whole main_v1 : Memref sig .tc .hbm S32768x1024 .bf16).slice (Rect.unit (s := S32768x1024) (k0_off4 c 2048#32) S1024x1024.size (k0_off4_inb c 2)) (fun _ => rfl)).view.set]{fullShare} m ((c : Thread nD τ).loc main_v1) : sProp 𝕄) from rfl)) $$ Hown2
  ihave Hown3 := (Entails.of_eq (show ((oS c 3).view.loc (c : Thread nD τ) ↦[(oS c 3).view.set]{fullShare} m ((c : Thread nD τ).loc main_v1) : sProp 𝕄) = (((Memref.whole main_v1 : Memref sig .tc .hbm S32768x1024 .bf16).slice (Rect.unit (s := S32768x1024) (k0_off4 c 3072#32) S1024x1024.size (k0_off4_inb c 3)) (fun _ => rfl)).view.loc (c : Thread nD τ) ↦[((Memref.whole main_v1 : Memref sig .tc .hbm S32768x1024 .bf16).slice (Rect.unit (s := S32768x1024) (k0_off4 c 3072#32) S1024x1024.size (k0_off4_inb c 3)) (fun _ => rfl)).view.set]{fullShare} m ((c : Thread nD τ).loc main_v1) : sProp 𝕄) from rfl)) $$ Hown3
  ihave Hown4 := (Entails.of_eq (show ((oS c 4).view.loc (c : Thread nD τ) ↦[(oS c 4).view.set]{fullShare} m ((c : Thread nD τ).loc main_v1) : sProp 𝕄) = (((Memref.whole main_v1 : Memref sig .tc .hbm S32768x1024 .bf16).slice (Rect.unit (s := S32768x1024) (k0_off4 c 4096#32) S1024x1024.size (k0_off4_inb c 4)) (fun _ => rfl)).view.loc (c : Thread nD τ) ↦[((Memref.whole main_v1 : Memref sig .tc .hbm S32768x1024 .bf16).slice (Rect.unit (s := S32768x1024) (k0_off4 c 4096#32) S1024x1024.size (k0_off4_inb c 4)) (fun _ => rfl)).view.set]{fullShare} m ((c : Thread nD τ).loc main_v1) : sProp 𝕄) from rfl)) $$ Hown4
  ihave Hown5 := (Entails.of_eq (show ((oS c 5).view.loc (c : Thread nD τ) ↦[(oS c 5).view.set]{fullShare} m ((c : Thread nD τ).loc main_v1) : sProp 𝕄) = (((Memref.whole main_v1 : Memref sig .tc .hbm S32768x1024 .bf16).slice (Rect.unit (s := S32768x1024) (k0_off4 c 5120#32) S1024x1024.size (k0_off4_inb c 5)) (fun _ => rfl)).view.loc (c : Thread nD τ) ↦[((Memref.whole main_v1 : Memref sig .tc .hbm S32768x1024 .bf16).slice (Rect.unit (s := S32768x1024) (k0_off4 c 5120#32) S1024x1024.size (k0_off4_inb c 5)) (fun _ => rfl)).view.set]{fullShare} m ((c : Thread nD τ).loc main_v1) : sProp 𝕄) from rfl)) $$ Hown5
  ihave Hown6 := (Entails.of_eq (show ((oS c 6).view.loc (c : Thread nD τ) ↦[(oS c 6).view.set]{fullShare} m ((c : Thread nD τ).loc main_v1) : sProp 𝕄) = (((Memref.whole main_v1 : Memref sig .tc .hbm S32768x1024 .bf16).slice (Rect.unit (s := S32768x1024) (k0_off4 c 6144#32) S1024x1024.size (k0_off4_inb c 6)) (fun _ => rfl)).view.loc (c : Thread nD τ) ↦[((Memref.whole main_v1 : Memref sig .tc .hbm S32768x1024 .bf16).slice (Rect.unit (s := S32768x1024) (k0_off4 c 6144#32) S1024x1024.size (k0_off4_inb c 6)) (fun _ => rfl)).view.set]{fullShare} m ((c : Thread nD τ).loc main_v1) : sProp 𝕄) from rfl)) $$ Hown6
  ihave Hown7 := (Entails.of_eq (show ((oS c 7).view.loc (c : Thread nD τ) ↦[(oS c 7).view.set]{fullShare} m ((c : Thread nD τ).loc main_v1) : sProp 𝕄) = (((Memref.whole main_v1 : Memref sig .tc .hbm S32768x1024 .bf16).slice (Rect.unit (s := S32768x1024) (k0_off4 c 7168#32) S1024x1024.size (k0_off4_inb c 7)) (fun _ => rfl)).view.loc (c : Thread nD τ) ↦[((Memref.whole main_v1 : Memref sig .tc .hbm S32768x1024 .bf16).slice (Rect.unit (s := S32768x1024) (k0_off4 c 7168#32) S1024x1024.size (k0_off4_inb c 7)) (fun _ => rfl)).view.set]{fullShare} m ((c : Thread nD τ).loc main_v1) : sProp 𝕄) from rfl)) $$ Hown7
  ihave Hown8 := (Entails.of_eq (show ((oS c 8).view.loc (c : Thread nD τ) ↦[(oS c 8).view.set]{fullShare} m ((c : Thread nD τ).loc main_v1) : sProp 𝕄) = (((Memref.whole main_v1 : Memref sig .tc .hbm S32768x1024 .bf16).slice (Rect.unit (s := S32768x1024) (k0_off4 c 8192#32) S1024x1024.size (k0_off4_inb c 8)) (fun _ => rfl)).view.loc (c : Thread nD τ) ↦[((Memref.whole main_v1 : Memref sig .tc .hbm S32768x1024 .bf16).slice (Rect.unit (s := S32768x1024) (k0_off4 c 8192#32) S1024x1024.size (k0_off4_inb c 8)) (fun _ => rfl)).view.set]{fullShare} m ((c : Thread nD τ).loc main_v1) : sProp 𝕄) from rfl)) $$ Hown8
  ihave Hown9 := (Entails.of_eq (show ((oS c 9).view.loc (c : Thread nD τ) ↦[(oS c 9).view.set]{fullShare} m ((c : Thread nD τ).loc main_v1) : sProp 𝕄) = (((Memref.whole main_v1 : Memref sig .tc .hbm S32768x1024 .bf16).slice (Rect.unit (s := S32768x1024) (k0_off4 c 9216#32) S1024x1024.size (k0_off4_inb c 9)) (fun _ => rfl)).view.loc (c : Thread nD τ) ↦[((Memref.whole main_v1 : Memref sig .tc .hbm S32768x1024 .bf16).slice (Rect.unit (s := S32768x1024) (k0_off4 c 9216#32) S1024x1024.size (k0_off4_inb c 9)) (fun _ => rfl)).view.set]{fullShare} m ((c : Thread nD τ).loc main_v1) : sProp 𝕄) from rfl)) $$ Hown9
  ihave Hown10 := (Entails.of_eq (show ((oS c 10).view.loc (c : Thread nD τ) ↦[(oS c 10).view.set]{fullShare} m ((c : Thread nD τ).loc main_v1) : sProp 𝕄) = (((Memref.whole main_v1 : Memref sig .tc .hbm S32768x1024 .bf16).slice (Rect.unit (s := S32768x1024) (k0_off4 c 10240#32) S1024x1024.size (k0_off4_inb c 10)) (fun _ => rfl)).view.loc (c : Thread nD τ) ↦[((Memref.whole main_v1 : Memref sig .tc .hbm S32768x1024 .bf16).slice (Rect.unit (s := S32768x1024) (k0_off4 c 10240#32) S1024x1024.size (k0_off4_inb c 10)) (fun _ => rfl)).view.set]{fullShare} m ((c : Thread nD τ).loc main_v1) : sProp 𝕄) from rfl)) $$ Hown10
  ihave Hown11 := (Entails.of_eq (show ((oS c 11).view.loc (c : Thread nD τ) ↦[(oS c 11).view.set]{fullShare} m ((c : Thread nD τ).loc main_v1) : sProp 𝕄) = (((Memref.whole main_v1 : Memref sig .tc .hbm S32768x1024 .bf16).slice (Rect.unit (s := S32768x1024) (k0_off4 c 11264#32) S1024x1024.size (k0_off4_inb c 11)) (fun _ => rfl)).view.loc (c : Thread nD τ) ↦[((Memref.whole main_v1 : Memref sig .tc .hbm S32768x1024 .bf16).slice (Rect.unit (s := S32768x1024) (k0_off4 c 11264#32) S1024x1024.size (k0_off4_inb c 11)) (fun _ => rfl)).view.set]{fullShare} m ((c : Thread nD τ).loc main_v1) : sProp 𝕄) from rfl)) $$ Hown11
  ihave Hown12 := (Entails.of_eq (show ((oS c 12).view.loc (c : Thread nD τ) ↦[(oS c 12).view.set]{fullShare} m ((c : Thread nD τ).loc main_v1) : sProp 𝕄) = (((Memref.whole main_v1 : Memref sig .tc .hbm S32768x1024 .bf16).slice (Rect.unit (s := S32768x1024) (k0_off4 c 12288#32) S1024x1024.size (k0_off4_inb c 12)) (fun _ => rfl)).view.loc (c : Thread nD τ) ↦[((Memref.whole main_v1 : Memref sig .tc .hbm S32768x1024 .bf16).slice (Rect.unit (s := S32768x1024) (k0_off4 c 12288#32) S1024x1024.size (k0_off4_inb c 12)) (fun _ => rfl)).view.set]{fullShare} m ((c : Thread nD τ).loc main_v1) : sProp 𝕄) from rfl)) $$ Hown12
  ihave Hown13 := (Entails.of_eq (show ((oS c 13).view.loc (c : Thread nD τ) ↦[(oS c 13).view.set]{fullShare} m ((c : Thread nD τ).loc main_v1) : sProp 𝕄) = (((Memref.whole main_v1 : Memref sig .tc .hbm S32768x1024 .bf16).slice (Rect.unit (s := S32768x1024) (k0_off4 c 13312#32) S1024x1024.size (k0_off4_inb c 13)) (fun _ => rfl)).view.loc (c : Thread nD τ) ↦[((Memref.whole main_v1 : Memref sig .tc .hbm S32768x1024 .bf16).slice (Rect.unit (s := S32768x1024) (k0_off4 c 13312#32) S1024x1024.size (k0_off4_inb c 13)) (fun _ => rfl)).view.set]{fullShare} m ((c : Thread nD τ).loc main_v1) : sProp 𝕄) from rfl)) $$ Hown13
  ihave Hown14 := (Entails.of_eq (show ((oS c 14).view.loc (c : Thread nD τ) ↦[(oS c 14).view.set]{fullShare} m ((c : Thread nD τ).loc main_v1) : sProp 𝕄) = (((Memref.whole main_v1 : Memref sig .tc .hbm S32768x1024 .bf16).slice (Rect.unit (s := S32768x1024) (k0_off4 c 14336#32) S1024x1024.size (k0_off4_inb c 14)) (fun _ => rfl)).view.loc (c : Thread nD τ) ↦[((Memref.whole main_v1 : Memref sig .tc .hbm S32768x1024 .bf16).slice (Rect.unit (s := S32768x1024) (k0_off4 c 14336#32) S1024x1024.size (k0_off4_inb c 14)) (fun _ => rfl)).view.set]{fullShare} m ((c : Thread nD τ).loc main_v1) : sProp 𝕄) from rfl)) $$ Hown14
  ihave Hown15 := (Entails.of_eq (show ((oS c 15).view.loc (c : Thread nD τ) ↦[(oS c 15).view.set]{fullShare} m ((c : Thread nD τ).loc main_v1) : sProp 𝕄) = (((Memref.whole main_v1 : Memref sig .tc .hbm S32768x1024 .bf16).slice (Rect.unit (s := S32768x1024) (k0_off4 c 15360#32) S1024x1024.size (k0_off4_inb c 15)) (fun _ => rfl)).view.loc (c : Thread nD τ) ↦[((Memref.whole main_v1 : Memref sig .tc .hbm S32768x1024 .bf16).slice (Rect.unit (s := S32768x1024) (k0_off4 c 15360#32) S1024x1024.size (k0_off4_inb c 15)) (fun _ => rfl)).view.set]{fullShare} m ((c : Thread nD τ).loc main_v1) : sProp 𝕄) from rfl)) $$ Hown15
  ihave Hs1' := (sndB_split c _).1 $$ Hs1
  ihave Hs1'' := (Entails.of_eq (bigSep_fin16 _)) $$ Hs1'
  icases Hs1'' with ⟨Hsb0, Hsb1, Hsb2, Hsb3, Hsb4, Hsb5, Hsb6, Hsb7, Hsb8, Hsb9, Hsb10, Hsb11, Hsb12, Hsb13, Hsb14, Hsb15⟩
  ihave Hsb0 := (Entails.of_eq (show ((sbS 0).view.loc (c : Thread nD τ) ↦[(sbS 0).view.set]{fullShare} f1 : sProp 𝕄) = ((((Memref.whole cc0_scratch1 : Memref sig .tc .vmem S16x1024x1024 .bf16).slice (Rect.unit (s := S16x1024x1024) ![0, 0, 0] S1x1024x1024.size inb_S16x1024x1024_S1x1024x1024_0_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![0, 0, 0] S1x1024x1024.size inb_S16x1024x1024_S1x1024x1024_0_0_0) (fun _ => rfl)).squeeze S1024x1024 squeezes_S1x1024x1024_S1024x1024).view.set]{fullShare} f1 : sProp 𝕄) from rfl)) $$ Hsb0
  ihave Hsb1 := (Entails.of_eq (show ((sbS 1).view.loc (c : Thread nD τ) ↦[(sbS 1).view.set]{fullShare} f1 : sProp 𝕄) = ((((Memref.whole cc0_scratch1 : Memref sig .tc .vmem S16x1024x1024 .bf16).slice (Rect.unit (s := S16x1024x1024) ![1, 0, 0] S1x1024x1024.size inb_S16x1024x1024_S1x1024x1024_1_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![1, 0, 0] S1x1024x1024.size inb_S16x1024x1024_S1x1024x1024_1_0_0) (fun _ => rfl)).squeeze S1024x1024 squeezes_S1x1024x1024_S1024x1024).view.set]{fullShare} f1 : sProp 𝕄) from rfl)) $$ Hsb1
  ihave Hsb2 := (Entails.of_eq (show ((sbS 2).view.loc (c : Thread nD τ) ↦[(sbS 2).view.set]{fullShare} f1 : sProp 𝕄) = ((((Memref.whole cc0_scratch1 : Memref sig .tc .vmem S16x1024x1024 .bf16).slice (Rect.unit (s := S16x1024x1024) ![2, 0, 0] S1x1024x1024.size inb_S16x1024x1024_S1x1024x1024_2_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![2, 0, 0] S1x1024x1024.size inb_S16x1024x1024_S1x1024x1024_2_0_0) (fun _ => rfl)).squeeze S1024x1024 squeezes_S1x1024x1024_S1024x1024).view.set]{fullShare} f1 : sProp 𝕄) from rfl)) $$ Hsb2
  ihave Hsb3 := (Entails.of_eq (show ((sbS 3).view.loc (c : Thread nD τ) ↦[(sbS 3).view.set]{fullShare} f1 : sProp 𝕄) = ((((Memref.whole cc0_scratch1 : Memref sig .tc .vmem S16x1024x1024 .bf16).slice (Rect.unit (s := S16x1024x1024) ![3, 0, 0] S1x1024x1024.size inb_S16x1024x1024_S1x1024x1024_3_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![3, 0, 0] S1x1024x1024.size inb_S16x1024x1024_S1x1024x1024_3_0_0) (fun _ => rfl)).squeeze S1024x1024 squeezes_S1x1024x1024_S1024x1024).view.set]{fullShare} f1 : sProp 𝕄) from rfl)) $$ Hsb3
  ihave Hsb4 := (Entails.of_eq (show ((sbS 4).view.loc (c : Thread nD τ) ↦[(sbS 4).view.set]{fullShare} f1 : sProp 𝕄) = ((((Memref.whole cc0_scratch1 : Memref sig .tc .vmem S16x1024x1024 .bf16).slice (Rect.unit (s := S16x1024x1024) ![4, 0, 0] S1x1024x1024.size inb_S16x1024x1024_S1x1024x1024_4_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![4, 0, 0] S1x1024x1024.size inb_S16x1024x1024_S1x1024x1024_4_0_0) (fun _ => rfl)).squeeze S1024x1024 squeezes_S1x1024x1024_S1024x1024).view.set]{fullShare} f1 : sProp 𝕄) from rfl)) $$ Hsb4
  ihave Hsb5 := (Entails.of_eq (show ((sbS 5).view.loc (c : Thread nD τ) ↦[(sbS 5).view.set]{fullShare} f1 : sProp 𝕄) = ((((Memref.whole cc0_scratch1 : Memref sig .tc .vmem S16x1024x1024 .bf16).slice (Rect.unit (s := S16x1024x1024) ![5, 0, 0] S1x1024x1024.size inb_S16x1024x1024_S1x1024x1024_5_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![5, 0, 0] S1x1024x1024.size inb_S16x1024x1024_S1x1024x1024_5_0_0) (fun _ => rfl)).squeeze S1024x1024 squeezes_S1x1024x1024_S1024x1024).view.set]{fullShare} f1 : sProp 𝕄) from rfl)) $$ Hsb5
  ihave Hsb6 := (Entails.of_eq (show ((sbS 6).view.loc (c : Thread nD τ) ↦[(sbS 6).view.set]{fullShare} f1 : sProp 𝕄) = ((((Memref.whole cc0_scratch1 : Memref sig .tc .vmem S16x1024x1024 .bf16).slice (Rect.unit (s := S16x1024x1024) ![6, 0, 0] S1x1024x1024.size inb_S16x1024x1024_S1x1024x1024_6_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![6, 0, 0] S1x1024x1024.size inb_S16x1024x1024_S1x1024x1024_6_0_0) (fun _ => rfl)).squeeze S1024x1024 squeezes_S1x1024x1024_S1024x1024).view.set]{fullShare} f1 : sProp 𝕄) from rfl)) $$ Hsb6
  ihave Hsb7 := (Entails.of_eq (show ((sbS 7).view.loc (c : Thread nD τ) ↦[(sbS 7).view.set]{fullShare} f1 : sProp 𝕄) = ((((Memref.whole cc0_scratch1 : Memref sig .tc .vmem S16x1024x1024 .bf16).slice (Rect.unit (s := S16x1024x1024) ![7, 0, 0] S1x1024x1024.size inb_S16x1024x1024_S1x1024x1024_7_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![7, 0, 0] S1x1024x1024.size inb_S16x1024x1024_S1x1024x1024_7_0_0) (fun _ => rfl)).squeeze S1024x1024 squeezes_S1x1024x1024_S1024x1024).view.set]{fullShare} f1 : sProp 𝕄) from rfl)) $$ Hsb7
  ihave Hsb8 := (Entails.of_eq (show ((sbS 8).view.loc (c : Thread nD τ) ↦[(sbS 8).view.set]{fullShare} f1 : sProp 𝕄) = ((((Memref.whole cc0_scratch1 : Memref sig .tc .vmem S16x1024x1024 .bf16).slice (Rect.unit (s := S16x1024x1024) ![8, 0, 0] S1x1024x1024.size inb_S16x1024x1024_S1x1024x1024_8_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![8, 0, 0] S1x1024x1024.size inb_S16x1024x1024_S1x1024x1024_8_0_0) (fun _ => rfl)).squeeze S1024x1024 squeezes_S1x1024x1024_S1024x1024).view.set]{fullShare} f1 : sProp 𝕄) from rfl)) $$ Hsb8
  ihave Hsb9 := (Entails.of_eq (show ((sbS 9).view.loc (c : Thread nD τ) ↦[(sbS 9).view.set]{fullShare} f1 : sProp 𝕄) = ((((Memref.whole cc0_scratch1 : Memref sig .tc .vmem S16x1024x1024 .bf16).slice (Rect.unit (s := S16x1024x1024) ![9, 0, 0] S1x1024x1024.size inb_S16x1024x1024_S1x1024x1024_9_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![9, 0, 0] S1x1024x1024.size inb_S16x1024x1024_S1x1024x1024_9_0_0) (fun _ => rfl)).squeeze S1024x1024 squeezes_S1x1024x1024_S1024x1024).view.set]{fullShare} f1 : sProp 𝕄) from rfl)) $$ Hsb9
  ihave Hsb10 := (Entails.of_eq (show ((sbS 10).view.loc (c : Thread nD τ) ↦[(sbS 10).view.set]{fullShare} f1 : sProp 𝕄) = ((((Memref.whole cc0_scratch1 : Memref sig .tc .vmem S16x1024x1024 .bf16).slice (Rect.unit (s := S16x1024x1024) ![10, 0, 0] S1x1024x1024.size inb_S16x1024x1024_S1x1024x1024_10_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![10, 0, 0] S1x1024x1024.size inb_S16x1024x1024_S1x1024x1024_10_0_0) (fun _ => rfl)).squeeze S1024x1024 squeezes_S1x1024x1024_S1024x1024).view.set]{fullShare} f1 : sProp 𝕄) from rfl)) $$ Hsb10
  ihave Hsb11 := (Entails.of_eq (show ((sbS 11).view.loc (c : Thread nD τ) ↦[(sbS 11).view.set]{fullShare} f1 : sProp 𝕄) = ((((Memref.whole cc0_scratch1 : Memref sig .tc .vmem S16x1024x1024 .bf16).slice (Rect.unit (s := S16x1024x1024) ![11, 0, 0] S1x1024x1024.size inb_S16x1024x1024_S1x1024x1024_11_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![11, 0, 0] S1x1024x1024.size inb_S16x1024x1024_S1x1024x1024_11_0_0) (fun _ => rfl)).squeeze S1024x1024 squeezes_S1x1024x1024_S1024x1024).view.set]{fullShare} f1 : sProp 𝕄) from rfl)) $$ Hsb11
  ihave Hsb12 := (Entails.of_eq (show ((sbS 12).view.loc (c : Thread nD τ) ↦[(sbS 12).view.set]{fullShare} f1 : sProp 𝕄) = ((((Memref.whole cc0_scratch1 : Memref sig .tc .vmem S16x1024x1024 .bf16).slice (Rect.unit (s := S16x1024x1024) ![12, 0, 0] S1x1024x1024.size inb_S16x1024x1024_S1x1024x1024_12_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![12, 0, 0] S1x1024x1024.size inb_S16x1024x1024_S1x1024x1024_12_0_0) (fun _ => rfl)).squeeze S1024x1024 squeezes_S1x1024x1024_S1024x1024).view.set]{fullShare} f1 : sProp 𝕄) from rfl)) $$ Hsb12
  ihave Hsb13 := (Entails.of_eq (show ((sbS 13).view.loc (c : Thread nD τ) ↦[(sbS 13).view.set]{fullShare} f1 : sProp 𝕄) = ((((Memref.whole cc0_scratch1 : Memref sig .tc .vmem S16x1024x1024 .bf16).slice (Rect.unit (s := S16x1024x1024) ![13, 0, 0] S1x1024x1024.size inb_S16x1024x1024_S1x1024x1024_13_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![13, 0, 0] S1x1024x1024.size inb_S16x1024x1024_S1x1024x1024_13_0_0) (fun _ => rfl)).squeeze S1024x1024 squeezes_S1x1024x1024_S1024x1024).view.set]{fullShare} f1 : sProp 𝕄) from rfl)) $$ Hsb13
  ihave Hsb14 := (Entails.of_eq (show ((sbS 14).view.loc (c : Thread nD τ) ↦[(sbS 14).view.set]{fullShare} f1 : sProp 𝕄) = ((((Memref.whole cc0_scratch1 : Memref sig .tc .vmem S16x1024x1024 .bf16).slice (Rect.unit (s := S16x1024x1024) ![14, 0, 0] S1x1024x1024.size inb_S16x1024x1024_S1x1024x1024_14_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![14, 0, 0] S1x1024x1024.size inb_S16x1024x1024_S1x1024x1024_14_0_0) (fun _ => rfl)).squeeze S1024x1024 squeezes_S1x1024x1024_S1024x1024).view.set]{fullShare} f1 : sProp 𝕄) from rfl)) $$ Hsb14
  ihave Hsb15 := (Entails.of_eq (show ((sbS 15).view.loc (c : Thread nD τ) ↦[(sbS 15).view.set]{fullShare} f1 : sProp 𝕄) = ((((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024).view.loc (c : Thread nD τ) ↦[(((Memref.whole cc0_scratch1 : Memref sig .tc .vmem S16x1024x1024 .bf16).slice (Rect.unit (s := S16x1024x1024) ![15, 0, 0] S1x1024x1024.size inb_S16x1024x1024_S1x1024x1024_15_0_0) (fun _ => rfl)).squeeze S1024x1024 squeezes_S1x1024x1024_S1024x1024).view.set]{fullShare} f1 : sProp 𝕄) from rfl)) $$ Hsb15
  ihave Hx := (Entails.of_eq (show (((c : Thread nD τ).loc main_arg0) ↦{fullShare} X m c : sProp 𝕄) = (((Memref.whole main_arg0 : Memref sig .tc .hbm S16384x2048 .f32)).view.loc (c : Thread nD τ) ↦[((Memref.whole main_arg0 : Memref sig .tc .hbm S16384x2048 .f32)).view.set]{fullShare} X m c : sProp 𝕄) from by rw [View.set_whole])) $$ Hx
  ihave Hs0 := (Entails.of_eq (show (((c : Thread nD τ).loc cc0_scratch0) ↦{fullShare} f0 : sProp 𝕄) = (((Memref.whole cc0_scratch0 : Memref sig .tc .vmem S2x1024x1024 .f32)).view.loc (c : Thread nD τ) ↦[((Memref.whole cc0_scratch0 : Memref sig .tc .vmem S2x1024x1024 .f32)).view.set]{fullShare} f0 : sProp 𝕄) from by rw [View.set_whole])) $$ Hs0
  ihave Hs2 := (Entails.of_eq (show (((c : Thread nD τ).loc cc0_scratch2) ↦{fullShare} f2 : sProp 𝕄) = (((Memref.whole cc0_scratch2 : Memref sig .tc .vmem S2x1024x1024 .f32)).view.loc (c : Thread nD τ) ↦[((Memref.whole cc0_scratch2 : Memref sig .tc .vmem S2x1024x1024 .f32)).view.set]{fullShare} f2 : sProp 𝕄) from by rw [View.set_whole])) $$ Hs2
  ihave Hs3 := (Entails.of_eq (show (((c : Thread nD τ).loc cc0_scratch3) ↦{fullShare} f3 : sProp 𝕄) = (((Memref.whole cc0_scratch3 : Memref sig .tc .vmem S2x1024x1024 .bf16)).view.loc (c : Thread nD τ) ↦[((Memref.whole cc0_scratch3 : Memref sig .tc .vmem S2x1024x1024 .bf16)).view.set]{fullShare} f3 : sProp 𝕄) from by rw [View.set_whole])) $$ Hs3
  ihave Hs0' := (stgS_split c f0).1 $$ Hs0
  icases Hs0' with ⟨Hs0a, Hs0b⟩
  ihave Hs2' := (stgL_split c f2).1 $$ Hs2
  icases Hs2' with ⟨Hs2a, Hs2b⟩
  ihave Hs3' := (locB_split c f3).1 $$ Hs3
  icases Hs3' with ⟨Hs3a, Hs3b⟩
  have hmw0 : ∀ n : ℕ, (levAts L lv : sProp 𝕄) ⊢ MayWait (c : Thread nD τ) (SemLoc.dma ((SemArray.slice cc0_scratch4 (Rect.unit (s := S2) ![0] S1.size inb_S2_S1_0)).squeeze S_ squeezes_S1_S_).sem) () (owedFrom c n) := fun n => mayWait_low c _ (by decide) n
  have hmw1 : ∀ n : ℕ, (levAts L lv : sProp 𝕄) ⊢ MayWait (c : Thread nD τ) (SemLoc.dma ((SemArray.slice cc0_scratch4 (Rect.unit (s := S2) ![1] S1.size inb_S2_S1_1)).squeeze S_ squeezes_S1_S_).sem) () (owedFrom c n) := fun n => mayWait_low c _ (by decide) n
  have hmw2 : ∀ n : ℕ, (levAts L lv : sProp 𝕄) ⊢ MayWait (c : Thread nD τ) (SemLoc.dma ((SemArray.slice cc0_scratch5 (Rect.unit (s := S2) ![0] S1.size inb_S2_S1_0)).squeeze S_ squeezes_S1_S_).sem) () (owedFrom c n) := fun n => mayWait_low c _ (by decide) n
  have hmw3 : ∀ n : ℕ, (levAts L lv : sProp 𝕄) ⊢ MayWait (c : Thread nD τ) (SemLoc.dma ((SemArray.slice cc0_scratch5 (Rect.unit (s := S2) ![1] S1.size inb_S2_S1_1)).squeeze S_ squeezes_S1_S_).sem) () (owedFrom c n) := fun n => mayWait_low c _ (by decide) n
  have hmw4 : ∀ n : ℕ, (levAts L lv : sProp 𝕄) ⊢ MayWait (c : Thread nD τ) (SemLoc.dma ((SemArray.slice cc0_scratch6 (Rect.unit (s := S2) ![0] S1.size inb_S2_S1_0)).squeeze S_ squeezes_S1_S_).sem) () (owedFrom c n) := fun n => mayWait_low c _ (by decide) n
  have hmw5 : ∀ n : ℕ, (levAts L lv : sProp 𝕄) ⊢ MayWait (c : Thread nD τ) (SemLoc.dma ((SemArray.slice cc0_scratch6 (Rect.unit (s := S2) ![1] S1.size inb_S2_S1_1)).squeeze S_ squeezes_S1_S_).sem) () (owedFrom c n) := fun n => mayWait_low c _ (by decide) n
  ihave T := (Entails.of_eq (show (cellInv ER (a2aRd m) (K (c, 1)) (kcell (c, 1)) : sProp 𝕄) = cellInv ER (a2aRd m) (K (c, 1)) (sendCell c 0) from rfl)) $$ HIS0
  icases T with #HIS0
  ihave T := (Entails.of_eq (show (cellInv ER (a2aRd m) (K (c, 17)) (kcell (c, 17)) : sProp 𝕄) = cellInv ER (a2aRd m) (K (c, 17)) (recvCell c 0) from rfl)) $$ HIR0
  icases T with #HIR0
  ihave HatS0 := (Entails.of_eq (show (atPos ER (kcell (c, 1)) 0 ∅ 0 : sProp 𝕄) = atPos ER (sendCell c 0) 0 ∅ 0 from rfl)) $$ HatS0
  ihave HatR0 := (Entails.of_eq (show (atPos ER (kcell (c, 17)) 0 ∅ 0 : sProp 𝕄) = atPos ER (recvCell c 0) 0 ∅ 0 from rfl)) $$ HatR0
  ihave T := (Entails.of_eq (show (cellInv ER (a2aRd m) (K (c, 2)) (kcell (c, 2)) : sProp 𝕄) = cellInv ER (a2aRd m) (K (c, 2)) (sendCell c 1) from rfl)) $$ HIS1
  icases T with #HIS1
  ihave T := (Entails.of_eq (show (cellInv ER (a2aRd m) (K (c, 18)) (kcell (c, 18)) : sProp 𝕄) = cellInv ER (a2aRd m) (K (c, 18)) (recvCell c 1) from rfl)) $$ HIR1
  icases T with #HIR1
  ihave HatS1 := (Entails.of_eq (show (atPos ER (kcell (c, 2)) 0 ∅ 0 : sProp 𝕄) = atPos ER (sendCell c 1) 0 ∅ 0 from rfl)) $$ HatS1
  ihave HatR1 := (Entails.of_eq (show (atPos ER (kcell (c, 18)) 0 ∅ 0 : sProp 𝕄) = atPos ER (recvCell c 1) 0 ∅ 0 from rfl)) $$ HatR1
  ihave T := (Entails.of_eq (show (cellInv ER (a2aRd m) (K (c, 3)) (kcell (c, 3)) : sProp 𝕄) = cellInv ER (a2aRd m) (K (c, 3)) (sendCell c 2) from rfl)) $$ HIS2
  icases T with #HIS2
  ihave T := (Entails.of_eq (show (cellInv ER (a2aRd m) (K (c, 19)) (kcell (c, 19)) : sProp 𝕄) = cellInv ER (a2aRd m) (K (c, 19)) (recvCell c 2) from rfl)) $$ HIR2
  icases T with #HIR2
  ihave HatS2 := (Entails.of_eq (show (atPos ER (kcell (c, 3)) 0 ∅ 0 : sProp 𝕄) = atPos ER (sendCell c 2) 0 ∅ 0 from rfl)) $$ HatS2
  ihave HatR2 := (Entails.of_eq (show (atPos ER (kcell (c, 19)) 0 ∅ 0 : sProp 𝕄) = atPos ER (recvCell c 2) 0 ∅ 0 from rfl)) $$ HatR2
  ihave T := (Entails.of_eq (show (cellInv ER (a2aRd m) (K (c, 4)) (kcell (c, 4)) : sProp 𝕄) = cellInv ER (a2aRd m) (K (c, 4)) (sendCell c 3) from rfl)) $$ HIS3
  icases T with #HIS3
  ihave T := (Entails.of_eq (show (cellInv ER (a2aRd m) (K (c, 20)) (kcell (c, 20)) : sProp 𝕄) = cellInv ER (a2aRd m) (K (c, 20)) (recvCell c 3) from rfl)) $$ HIR3
  icases T with #HIR3
  ihave HatS3 := (Entails.of_eq (show (atPos ER (kcell (c, 4)) 0 ∅ 0 : sProp 𝕄) = atPos ER (sendCell c 3) 0 ∅ 0 from rfl)) $$ HatS3
  ihave HatR3 := (Entails.of_eq (show (atPos ER (kcell (c, 20)) 0 ∅ 0 : sProp 𝕄) = atPos ER (recvCell c 3) 0 ∅ 0 from rfl)) $$ HatR3
  ihave T := (Entails.of_eq (show (cellInv ER (a2aRd m) (K (c, 5)) (kcell (c, 5)) : sProp 𝕄) = cellInv ER (a2aRd m) (K (c, 5)) (sendCell c 4) from rfl)) $$ HIS4
  icases T with #HIS4
  ihave T := (Entails.of_eq (show (cellInv ER (a2aRd m) (K (c, 21)) (kcell (c, 21)) : sProp 𝕄) = cellInv ER (a2aRd m) (K (c, 21)) (recvCell c 4) from rfl)) $$ HIR4
  icases T with #HIR4
  ihave HatS4 := (Entails.of_eq (show (atPos ER (kcell (c, 5)) 0 ∅ 0 : sProp 𝕄) = atPos ER (sendCell c 4) 0 ∅ 0 from rfl)) $$ HatS4
  ihave HatR4 := (Entails.of_eq (show (atPos ER (kcell (c, 21)) 0 ∅ 0 : sProp 𝕄) = atPos ER (recvCell c 4) 0 ∅ 0 from rfl)) $$ HatR4
  ihave T := (Entails.of_eq (show (cellInv ER (a2aRd m) (K (c, 6)) (kcell (c, 6)) : sProp 𝕄) = cellInv ER (a2aRd m) (K (c, 6)) (sendCell c 5) from rfl)) $$ HIS5
  icases T with #HIS5
  ihave T := (Entails.of_eq (show (cellInv ER (a2aRd m) (K (c, 22)) (kcell (c, 22)) : sProp 𝕄) = cellInv ER (a2aRd m) (K (c, 22)) (recvCell c 5) from rfl)) $$ HIR5
  icases T with #HIR5
  ihave HatS5 := (Entails.of_eq (show (atPos ER (kcell (c, 6)) 0 ∅ 0 : sProp 𝕄) = atPos ER (sendCell c 5) 0 ∅ 0 from rfl)) $$ HatS5
  ihave HatR5 := (Entails.of_eq (show (atPos ER (kcell (c, 22)) 0 ∅ 0 : sProp 𝕄) = atPos ER (recvCell c 5) 0 ∅ 0 from rfl)) $$ HatR5
  ihave T := (Entails.of_eq (show (cellInv ER (a2aRd m) (K (c, 7)) (kcell (c, 7)) : sProp 𝕄) = cellInv ER (a2aRd m) (K (c, 7)) (sendCell c 6) from rfl)) $$ HIS6
  icases T with #HIS6
  ihave T := (Entails.of_eq (show (cellInv ER (a2aRd m) (K (c, 23)) (kcell (c, 23)) : sProp 𝕄) = cellInv ER (a2aRd m) (K (c, 23)) (recvCell c 6) from rfl)) $$ HIR6
  icases T with #HIR6
  ihave HatS6 := (Entails.of_eq (show (atPos ER (kcell (c, 7)) 0 ∅ 0 : sProp 𝕄) = atPos ER (sendCell c 6) 0 ∅ 0 from rfl)) $$ HatS6
  ihave HatR6 := (Entails.of_eq (show (atPos ER (kcell (c, 23)) 0 ∅ 0 : sProp 𝕄) = atPos ER (recvCell c 6) 0 ∅ 0 from rfl)) $$ HatR6
  ihave T := (Entails.of_eq (show (cellInv ER (a2aRd m) (K (c, 8)) (kcell (c, 8)) : sProp 𝕄) = cellInv ER (a2aRd m) (K (c, 8)) (sendCell c 7) from rfl)) $$ HIS7
  icases T with #HIS7
  ihave T := (Entails.of_eq (show (cellInv ER (a2aRd m) (K (c, 24)) (kcell (c, 24)) : sProp 𝕄) = cellInv ER (a2aRd m) (K (c, 24)) (recvCell c 7) from rfl)) $$ HIR7
  icases T with #HIR7
  ihave HatS7 := (Entails.of_eq (show (atPos ER (kcell (c, 8)) 0 ∅ 0 : sProp 𝕄) = atPos ER (sendCell c 7) 0 ∅ 0 from rfl)) $$ HatS7
  ihave HatR7 := (Entails.of_eq (show (atPos ER (kcell (c, 24)) 0 ∅ 0 : sProp 𝕄) = atPos ER (recvCell c 7) 0 ∅ 0 from rfl)) $$ HatR7
  ihave T := (Entails.of_eq (show (cellInv ER (a2aRd m) (K (c, 9)) (kcell (c, 9)) : sProp 𝕄) = cellInv ER (a2aRd m) (K (c, 9)) (sendCell c 8) from rfl)) $$ HIS8
  icases T with #HIS8
  ihave T := (Entails.of_eq (show (cellInv ER (a2aRd m) (K (c, 25)) (kcell (c, 25)) : sProp 𝕄) = cellInv ER (a2aRd m) (K (c, 25)) (recvCell c 8) from rfl)) $$ HIR8
  icases T with #HIR8
  ihave HatS8 := (Entails.of_eq (show (atPos ER (kcell (c, 9)) 0 ∅ 0 : sProp 𝕄) = atPos ER (sendCell c 8) 0 ∅ 0 from rfl)) $$ HatS8
  ihave HatR8 := (Entails.of_eq (show (atPos ER (kcell (c, 25)) 0 ∅ 0 : sProp 𝕄) = atPos ER (recvCell c 8) 0 ∅ 0 from rfl)) $$ HatR8
  ihave T := (Entails.of_eq (show (cellInv ER (a2aRd m) (K (c, 10)) (kcell (c, 10)) : sProp 𝕄) = cellInv ER (a2aRd m) (K (c, 10)) (sendCell c 9) from rfl)) $$ HIS9
  icases T with #HIS9
  ihave T := (Entails.of_eq (show (cellInv ER (a2aRd m) (K (c, 26)) (kcell (c, 26)) : sProp 𝕄) = cellInv ER (a2aRd m) (K (c, 26)) (recvCell c 9) from rfl)) $$ HIR9
  icases T with #HIR9
  ihave HatS9 := (Entails.of_eq (show (atPos ER (kcell (c, 10)) 0 ∅ 0 : sProp 𝕄) = atPos ER (sendCell c 9) 0 ∅ 0 from rfl)) $$ HatS9
  ihave HatR9 := (Entails.of_eq (show (atPos ER (kcell (c, 26)) 0 ∅ 0 : sProp 𝕄) = atPos ER (recvCell c 9) 0 ∅ 0 from rfl)) $$ HatR9
  ihave T := (Entails.of_eq (show (cellInv ER (a2aRd m) (K (c, 11)) (kcell (c, 11)) : sProp 𝕄) = cellInv ER (a2aRd m) (K (c, 11)) (sendCell c 10) from rfl)) $$ HIS10
  icases T with #HIS10
  ihave T := (Entails.of_eq (show (cellInv ER (a2aRd m) (K (c, 27)) (kcell (c, 27)) : sProp 𝕄) = cellInv ER (a2aRd m) (K (c, 27)) (recvCell c 10) from rfl)) $$ HIR10
  icases T with #HIR10
  ihave HatS10 := (Entails.of_eq (show (atPos ER (kcell (c, 11)) 0 ∅ 0 : sProp 𝕄) = atPos ER (sendCell c 10) 0 ∅ 0 from rfl)) $$ HatS10
  ihave HatR10 := (Entails.of_eq (show (atPos ER (kcell (c, 27)) 0 ∅ 0 : sProp 𝕄) = atPos ER (recvCell c 10) 0 ∅ 0 from rfl)) $$ HatR10
  ihave T := (Entails.of_eq (show (cellInv ER (a2aRd m) (K (c, 12)) (kcell (c, 12)) : sProp 𝕄) = cellInv ER (a2aRd m) (K (c, 12)) (sendCell c 11) from rfl)) $$ HIS11
  icases T with #HIS11
  ihave T := (Entails.of_eq (show (cellInv ER (a2aRd m) (K (c, 28)) (kcell (c, 28)) : sProp 𝕄) = cellInv ER (a2aRd m) (K (c, 28)) (recvCell c 11) from rfl)) $$ HIR11
  icases T with #HIR11
  ihave HatS11 := (Entails.of_eq (show (atPos ER (kcell (c, 12)) 0 ∅ 0 : sProp 𝕄) = atPos ER (sendCell c 11) 0 ∅ 0 from rfl)) $$ HatS11
  ihave HatR11 := (Entails.of_eq (show (atPos ER (kcell (c, 28)) 0 ∅ 0 : sProp 𝕄) = atPos ER (recvCell c 11) 0 ∅ 0 from rfl)) $$ HatR11
  ihave T := (Entails.of_eq (show (cellInv ER (a2aRd m) (K (c, 13)) (kcell (c, 13)) : sProp 𝕄) = cellInv ER (a2aRd m) (K (c, 13)) (sendCell c 12) from rfl)) $$ HIS12
  icases T with #HIS12
  ihave T := (Entails.of_eq (show (cellInv ER (a2aRd m) (K (c, 29)) (kcell (c, 29)) : sProp 𝕄) = cellInv ER (a2aRd m) (K (c, 29)) (recvCell c 12) from rfl)) $$ HIR12
  icases T with #HIR12
  ihave HatS12 := (Entails.of_eq (show (atPos ER (kcell (c, 13)) 0 ∅ 0 : sProp 𝕄) = atPos ER (sendCell c 12) 0 ∅ 0 from rfl)) $$ HatS12
  ihave HatR12 := (Entails.of_eq (show (atPos ER (kcell (c, 29)) 0 ∅ 0 : sProp 𝕄) = atPos ER (recvCell c 12) 0 ∅ 0 from rfl)) $$ HatR12
  ihave T := (Entails.of_eq (show (cellInv ER (a2aRd m) (K (c, 14)) (kcell (c, 14)) : sProp 𝕄) = cellInv ER (a2aRd m) (K (c, 14)) (sendCell c 13) from rfl)) $$ HIS13
  icases T with #HIS13
  ihave T := (Entails.of_eq (show (cellInv ER (a2aRd m) (K (c, 30)) (kcell (c, 30)) : sProp 𝕄) = cellInv ER (a2aRd m) (K (c, 30)) (recvCell c 13) from rfl)) $$ HIR13
  icases T with #HIR13
  ihave HatS13 := (Entails.of_eq (show (atPos ER (kcell (c, 14)) 0 ∅ 0 : sProp 𝕄) = atPos ER (sendCell c 13) 0 ∅ 0 from rfl)) $$ HatS13
  ihave HatR13 := (Entails.of_eq (show (atPos ER (kcell (c, 30)) 0 ∅ 0 : sProp 𝕄) = atPos ER (recvCell c 13) 0 ∅ 0 from rfl)) $$ HatR13
  ihave T := (Entails.of_eq (show (cellInv ER (a2aRd m) (K (c, 15)) (kcell (c, 15)) : sProp 𝕄) = cellInv ER (a2aRd m) (K (c, 15)) (sendCell c 14) from rfl)) $$ HIS14
  icases T with #HIS14
  ihave T := (Entails.of_eq (show (cellInv ER (a2aRd m) (K (c, 31)) (kcell (c, 31)) : sProp 𝕄) = cellInv ER (a2aRd m) (K (c, 31)) (recvCell c 14) from rfl)) $$ HIR14
  icases T with #HIR14
  ihave HatS14 := (Entails.of_eq (show (atPos ER (kcell (c, 15)) 0 ∅ 0 : sProp 𝕄) = atPos ER (sendCell c 14) 0 ∅ 0 from rfl)) $$ HatS14
  ihave HatR14 := (Entails.of_eq (show (atPos ER (kcell (c, 31)) 0 ∅ 0 : sProp 𝕄) = atPos ER (recvCell c 14) 0 ∅ 0 from rfl)) $$ HatR14
  ihave T := (Entails.of_eq (show (cellInv ER (a2aRd m) (K (c, 16)) (kcell (c, 16)) : sProp 𝕄) = cellInv ER (a2aRd m) (K (c, 16)) (sendCell c 15) from rfl)) $$ HIS15
  icases T with #HIS15
  ihave T := (Entails.of_eq (show (cellInv ER (a2aRd m) (K (c, 32)) (kcell (c, 32)) : sProp 𝕄) = cellInv ER (a2aRd m) (K (c, 32)) (recvCell c 15) from rfl)) $$ HIR15
  icases T with #HIR15
  ihave HatS15 := (Entails.of_eq (show (atPos ER (kcell (c, 16)) 0 ∅ 0 : sProp 𝕄) = atPos ER (sendCell c 15) 0 ∅ 0 from rfl)) $$ HatS15
  ihave HatR15 := (Entails.of_eq (show (atPos ER (kcell (c, 32)) 0 ∅ 0 : sProp 𝕄) = atPos ER (recvCell c 15) 0 ∅ 0 from rfl)) $$ HatR15
  sl_unfold [headProg]
  sl_exec
  rw [dev1_eq]
  -- the signal to the partner's barrier cell: it lends the partner the sixteen slices the partner will write
  iapply (Rounds.wp_signal 𝒱₀ ER (a2aRd m) (c : Thread nD τ) none (dst := (peer c : Thread nD τ)) (κ := K (peer c, 0))
      (d := ()) (by rw [duties_bar]; exact Finset.mem_singleton_self _) ((amount_bar m (peer c) ()).trans (by decide)) () (owedFrom c 0) rfl)
    $$ [HO HtBP Hlent0 Hlent1 Hlent2 Hlent3 Hlent4 Hlent5 Hlent6 Hlent7 Hlent8 Hlent9 Hlent10 Hlent11 Hlent12 Hlent13 Hlent14 Hlent15]
  · isplitr; · iexact HIbp
    isplitl [HO]; · iexact HO
    isplitl [HtBP]; · iexact HtBP
    isplitl [Hlent0 Hlent1 Hlent2 Hlent3 Hlent4 Hlent5 Hlent6 Hlent7 Hlent8 Hlent9 Hlent10 Hlent11 Hlent12 Hlent13 Hlent14 Hlent15]
    · iapply (bar_payload_intro m c)
      isplitl [Hlent0]
      · isplitl [Hlent0]
        · unfold slicePts; iexists _; iexact Hlent0
        · iexact HrR0
      isplitl [Hlent1]
      · isplitl [Hlent1]
        · unfold slicePts; iexists _; iexact Hlent1
        · iexact HrR1
      isplitl [Hlent2]
      · isplitl [Hlent2]
        · unfold slicePts; iexists _; iexact Hlent2
        · iexact HrR2
      isplitl [Hlent3]
      · isplitl [Hlent3]
        · unfold slicePts; iexists _; iexact Hlent3
        · iexact HrR3
      isplitl [Hlent4]
      · isplitl [Hlent4]
        · unfold slicePts; iexists _; iexact Hlent4
        · iexact HrR4
      isplitl [Hlent5]
      · isplitl [Hlent5]
        · unfold slicePts; iexists _; iexact Hlent5
        · iexact HrR5
      isplitl [Hlent6]
      · isplitl [Hlent6]
        · unfold slicePts; iexists _; iexact Hlent6
        · iexact HrR6
      isplitl [Hlent7]
      · isplitl [Hlent7]
        · unfold slicePts; iexists _; iexact Hlent7
        · iexact HrR7
      isplitl [Hlent8]
      · isplitl [Hlent8]
        · unfold slicePts; iexists _; iexact Hlent8
        · iexact HrR8
      isplitl [Hlent9]
      · isplitl [Hlent9]
        · unfold slicePts; iexists _; iexact Hlent9
        · iexact HrR9
      isplitl [Hlent10]
      · isplitl [Hlent10]
        · unfold slicePts; iexists _; iexact Hlent10
        · iexact HrR10
      isplitl [Hlent11]
      · isplitl [Hlent11]
        · unfold slicePts; iexists _; iexact Hlent11
        · iexact HrR11
      isplitl [Hlent12]
      · isplitl [Hlent12]
        · unfold slicePts; iexists _; iexact Hlent12
        · iexact HrR12
      isplitl [Hlent13]
      · isplitl [Hlent13]
        · unfold slicePts; iexists _; iexact Hlent13
        · iexact HrR13
      isplitl [Hlent14]
      · isplitl [Hlent14]
        · unfold slicePts; iexists _; iexact Hlent14
        · iexact HrR14
      isplitl [Hlent15]
      · unfold slicePts; iexists _; iexact Hlent15
      · iexact HrR15
    · iexact HrBP
  iintro HO
  rw [wp_ret]; imodintro
  sl_exec
  -- the wait on its own barrier cell: the partner's slices arrive with it
  iapply (Rounds.wp_wait_rest_token 𝒱₀ ER (a2aRd m) (c : Thread nD τ) none (κ := K (c, 0))
      (wpE_semWait_eq 𝒱₀ (c : Thread nD τ) none Set.univ) (Set.mem_univ _) () (O := owedFrom c 0) (W := W) (R := 0) (m := 0) (T := ∅)
      (by rw [expect_bar]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay slicePts
  ihave Hp' := (Entails.of_eq (bigSep_fin16 _)) $$ Hp
  icases Hp' with ⟨⟨⟨%fd0, Hd0⟩, #HrQ0⟩, ⟨⟨%fd1, Hd1⟩, #HrQ1⟩, ⟨⟨%fd2, Hd2⟩, #HrQ2⟩, ⟨⟨%fd3, Hd3⟩, #HrQ3⟩, ⟨⟨%fd4, Hd4⟩, #HrQ4⟩, ⟨⟨%fd5, Hd5⟩, #HrQ5⟩, ⟨⟨%fd6, Hd6⟩, #HrQ6⟩, ⟨⟨%fd7, Hd7⟩, #HrQ7⟩, ⟨⟨%fd8, Hd8⟩, #HrQ8⟩, ⟨⟨%fd9, Hd9⟩, #HrQ9⟩, ⟨⟨%fd10, Hd10⟩, #HrQ10⟩, ⟨⟨%fd11, Hd11⟩, #HrQ11⟩, ⟨⟨%fd12, Hd12⟩, #HrQ12⟩, ⟨⟨%fd13, Hd13⟩, #HrQ13⟩, ⟨⟨%fd14, Hd14⟩, #HrQ14⟩, ⟨⟨%fd15, Hd15⟩, #HrQ15⟩⟩
  rw [wp_ret]; imodintro
  sl_exec
  -- the copy of chunk 0 into the partner's result rows
  iapply (rule_send_at m c ⟨k0_dev2 c, k0_dev2_lt c⟩ (dev2_eq c) 0 _ _ fd0) $$ [Hsb0 Hd0 HO HtS0 HtP0]
  · isplitr; · iexact HIS0
    isplitr; · iexact HIP0
    isplitl [Hsb0]
    · iexists _
      isplitr
      rotate_left
      · iexact Hsb0
      · ipureintro; exact sent_hfs_slot m c 0 0 rfl inb_S16x1024x1024_S1x1024x1024_0_0_0 _ _ (sent_payload_junk m c 0 k0_pay1 (fun u y => pay_apply u _ _ _ y) (Memref.whole cc0_scratch0) 0 inb_S2x1024x1024_S1x1024x1024_0_0_0 (fun _ => rfl) (k0_off1 c) (k0_off1_inb c) (fun _ => rfl) _ _ (k0_off1_eq c) rfl rfl)
    isplitl [Hd0]; · iexact Hd0
    isplitl [HO]; · iexact HO
    isplitl [HtS0]; · iexact HtS0
    isplitr; · iexact HrS0
    isplitl [HtP0]; · iexact HtP0
    iexact HrP0
  iintro ⟨HcS0, HO⟩
  sl_exec
  -- the copy of chunk 1 into the partner's result rows
  iapply (rule_send_at m c ⟨k0_dev3 c, k0_dev3_lt c⟩ (dev3_eq c) 1 _ _ fd1) $$ [Hsb1 Hd1 HO HtS1 HtP1]
  · isplitr; · iexact HIS1
    isplitr; · iexact HIP1
    isplitl [Hsb1]
    · iexists _
      isplitr
      rotate_left
      · iexact Hsb1
      · ipureintro; exact sent_hfs_slot m c 1 1 rfl inb_S16x1024x1024_S1x1024x1024_1_0_0 _ _ (sent_payload_junk m c 1 k0_pay2 (fun u y => pay_apply u _ _ _ y) (Memref.whole cc0_scratch0) 1 inb_S2x1024x1024_S1x1024x1024_1_0_0 (fun _ => rfl) (k0_off2 c) (k0_off2_inb c) (fun _ => rfl) _ _ (k0_off2_eq c) rfl rfl)
    isplitl [Hd1]; · iexact Hd1
    isplitl [HO]; · iexact HO
    isplitl [HtS1]; · iexact HtS1
    isplitr; · iexact HrS1
    isplitl [HtP1]; · iexact HtP1
    iexact HrP1
  iintro ⟨HcS1, HO⟩
  sl_exec
  -- the copy of chunk 2 into the partner's result rows
  iapply (rule_send_at m c ⟨k0_dev4 c, k0_dev4_lt c⟩ (dev4_eq c) 2 _ _ fd2) $$ [Hsb2 Hd2 HO HtS2 HtP2]
  · isplitr; · iexact HIS2
    isplitr; · iexact HIP2
    isplitl [Hsb2]
    · iexists _
      isplitr
      rotate_left
      · iexact Hsb2
      · ipureintro; exact sent_hfs_slot m c 2 2 rfl inb_S16x1024x1024_S1x1024x1024_2_0_0 _ _ (sent_payload_junk m c 2 k0_pay3 (fun u y => pay_apply u _ _ _ y) (Memref.whole cc0_scratch0) 0 inb_S2x1024x1024_S1x1024x1024_0_0_0 (fun _ => rfl) (k0_off3 c) (k0_off3_inb c) (fun _ => rfl) _ _ (k0_off3_eq c) rfl rfl)
    isplitl [Hd2]; · iexact Hd2
    isplitl [HO]; · iexact HO
    isplitl [HtS2]; · iexact HtS2
    isplitr; · iexact HrS2
    isplitl [HtP2]; · iexact HtP2
    iexact HrP2
  iintro ⟨HcS2, HO⟩
  sl_exec
  -- the copy of chunk 3 into the partner's result rows
  iapply (rule_send_at m c ⟨k0_dev5 c, k0_dev5_lt c⟩ (dev5_eq c) 3 _ _ fd3) $$ [Hsb3 Hd3 HO HtS3 HtP3]
  · isplitr; · iexact HIS3
    isplitr; · iexact HIP3
    isplitl [Hsb3]
    · iexists _
      isplitr
      rotate_left
      · iexact Hsb3
      · ipureintro; exact sent_hfs_slot m c 3 3 rfl inb_S16x1024x1024_S1x1024x1024_3_0_0 _ _ (sent_payload_junk m c 3 k0_pay4 (fun u y => pay_apply u _ _ _ y) (Memref.whole cc0_scratch0) 1 inb_S2x1024x1024_S1x1024x1024_1_0_0 (fun _ => rfl) (k0_off5 c) (k0_off5_inb c) (fun _ => rfl) _ _ (k0_off5_eq c) rfl rfl)
    isplitl [Hd3]; · iexact Hd3
    isplitl [HO]; · iexact HO
    isplitl [HtS3]; · iexact HtS3
    isplitr; · iexact HrS3
    isplitl [HtP3]; · iexact HtP3
    iexact HrP3
  iintro ⟨HcS3, HO⟩
  sl_exec
  -- the copy of chunk 4 into the partner's result rows
  iapply (rule_send_at m c ⟨k0_dev6 c, k0_dev6_lt c⟩ (dev6_eq c) 4 _ _ fd4) $$ [Hsb4 Hd4 HO HtS4 HtP4]
  · isplitr; · iexact HIS4
    isplitr; · iexact HIP4
    isplitl [Hsb4]
    · iexists _
      isplitr
      rotate_left
      · iexact Hsb4
      · ipureintro; exact sent_hfs_slot m c 4 4 rfl inb_S16x1024x1024_S1x1024x1024_4_0_0 _ _ (sent_payload_junk m c 4 k0_pay5 (fun u y => pay_apply u _ _ _ y) (Memref.whole cc0_scratch0) 0 inb_S2x1024x1024_S1x1024x1024_0_0_0 (fun _ => rfl) (k0_off6 c) (k0_off6_inb c) (fun _ => rfl) _ _ (k0_off6_eq c) rfl rfl)
    isplitl [Hd4]; · iexact Hd4
    isplitl [HO]; · iexact HO
    isplitl [HtS4]; · iexact HtS4
    isplitr; · iexact HrS4
    isplitl [HtP4]; · iexact HtP4
    iexact HrP4
  iintro ⟨HcS4, HO⟩
  sl_exec
  -- the copy of chunk 5 into the partner's result rows
  iapply (rule_send_at m c ⟨k0_dev7 c, k0_dev7_lt c⟩ (dev7_eq c) 5 _ _ fd5) $$ [Hsb5 Hd5 HO HtS5 HtP5]
  · isplitr; · iexact HIS5
    isplitr; · iexact HIP5
    isplitl [Hsb5]
    · iexists _
      isplitr
      rotate_left
      · iexact Hsb5
      · ipureintro; exact sent_hfs_slot m c 5 5 rfl inb_S16x1024x1024_S1x1024x1024_5_0_0 _ _ (sent_payload_junk m c 5 k0_pay6 (fun u y => pay_apply u _ _ _ y) (Memref.whole cc0_scratch0) 1 inb_S2x1024x1024_S1x1024x1024_1_0_0 (fun _ => rfl) (k0_off7 c) (k0_off7_inb c) (fun _ => rfl) _ _ (k0_off7_eq c) rfl rfl)
    isplitl [Hd5]; · iexact Hd5
    isplitl [HO]; · iexact HO
    isplitl [HtS5]; · iexact HtS5
    isplitr; · iexact HrS5
    isplitl [HtP5]; · iexact HtP5
    iexact HrP5
  iintro ⟨HcS5, HO⟩
  sl_exec
  -- the copy of chunk 6 into the partner's result rows
  iapply (rule_send_at m c ⟨k0_dev8 c, k0_dev8_lt c⟩ (dev8_eq c) 6 _ _ fd6) $$ [Hsb6 Hd6 HO HtS6 HtP6]
  · isplitr; · iexact HIS6
    isplitr; · iexact HIP6
    isplitl [Hsb6]
    · iexists _
      isplitr
      rotate_left
      · iexact Hsb6
      · ipureintro; exact sent_hfs_slot m c 6 6 rfl inb_S16x1024x1024_S1x1024x1024_6_0_0 _ _ (sent_payload_junk m c 6 k0_pay7 (fun u y => pay_apply u _ _ _ y) (Memref.whole cc0_scratch0) 0 inb_S2x1024x1024_S1x1024x1024_0_0_0 (fun _ => rfl) (k0_off8 c) (k0_off8_inb c) (fun _ => rfl) _ _ (k0_off8_eq c) rfl rfl)
    isplitl [Hd6]; · iexact Hd6
    isplitl [HO]; · iexact HO
    isplitl [HtS6]; · iexact HtS6
    isplitr; · iexact HrS6
    isplitl [HtP6]; · iexact HtP6
    iexact HrP6
  iintro ⟨HcS6, HO⟩
  sl_exec
  -- the copy of chunk 7 into the partner's result rows
  iapply (rule_send_at m c ⟨k0_dev9 c, k0_dev9_lt c⟩ (dev9_eq c) 7 _ _ fd7) $$ [Hsb7 Hd7 HO HtS7 HtP7]
  · isplitr; · iexact HIS7
    isplitr; · iexact HIP7
    isplitl [Hsb7]
    · iexists _
      isplitr
      rotate_left
      · iexact Hsb7
      · ipureintro; exact sent_hfs_slot m c 7 7 rfl inb_S16x1024x1024_S1x1024x1024_7_0_0 _ _ (sent_payload_junk m c 7 k0_pay8 (fun u y => pay_apply u _ _ _ y) (Memref.whole cc0_scratch0) 1 inb_S2x1024x1024_S1x1024x1024_1_0_0 (fun _ => rfl) (k0_off9 c) (k0_off9_inb c) (fun _ => rfl) _ _ (k0_off9_eq c) rfl rfl)
    isplitl [Hd7]; · iexact Hd7
    isplitl [HO]; · iexact HO
    isplitl [HtS7]; · iexact HtS7
    isplitr; · iexact HrS7
    isplitl [HtP7]; · iexact HtP7
    iexact HrP7
  iintro ⟨HcS7, HO⟩
  sl_exec
  -- the copy of chunk 8 into the partner's result rows
  iapply (rule_send_at m c ⟨k0_dev10 c, k0_dev10_lt c⟩ (dev10_eq c) 8 _ _ fd8) $$ [Hsb8 Hd8 HO HtS8 HtP8]
  · isplitr; · iexact HIS8
    isplitr; · iexact HIP8
    isplitl [Hsb8]
    · iexists _
      isplitr
      rotate_left
      · iexact Hsb8
      · ipureintro; exact sent_hfs_slot m c 8 8 rfl inb_S16x1024x1024_S1x1024x1024_8_0_0 _ _ (sent_payload_junk m c 8 k0_pay9 (fun u y => pay_apply u _ _ _ y) (Memref.whole cc0_scratch0) 0 inb_S2x1024x1024_S1x1024x1024_0_0_0 (fun _ => rfl) (k0_off10 c) (k0_off10_inb c) (fun _ => rfl) _ _ (k0_off10_eq c) rfl rfl)
    isplitl [Hd8]; · iexact Hd8
    isplitl [HO]; · iexact HO
    isplitl [HtS8]; · iexact HtS8
    isplitr; · iexact HrS8
    isplitl [HtP8]; · iexact HtP8
    iexact HrP8
  iintro ⟨HcS8, HO⟩
  sl_exec
  -- the copy of chunk 9 into the partner's result rows
  iapply (rule_send_at m c ⟨k0_dev11 c, k0_dev11_lt c⟩ (dev11_eq c) 9 _ _ fd9) $$ [Hsb9 Hd9 HO HtS9 HtP9]
  · isplitr; · iexact HIS9
    isplitr; · iexact HIP9
    isplitl [Hsb9]
    · iexists _
      isplitr
      rotate_left
      · iexact Hsb9
      · ipureintro; exact sent_hfs_slot m c 9 9 rfl inb_S16x1024x1024_S1x1024x1024_9_0_0 _ _ (sent_payload_junk m c 9 k0_pay10 (fun u y => pay_apply u _ _ _ y) (Memref.whole cc0_scratch0) 1 inb_S2x1024x1024_S1x1024x1024_1_0_0 (fun _ => rfl) (k0_off11 c) (k0_off11_inb c) (fun _ => rfl) _ _ (k0_off11_eq c) rfl rfl)
    isplitl [Hd9]; · iexact Hd9
    isplitl [HO]; · iexact HO
    isplitl [HtS9]; · iexact HtS9
    isplitr; · iexact HrS9
    isplitl [HtP9]; · iexact HtP9
    iexact HrP9
  iintro ⟨HcS9, HO⟩
  sl_exec
  -- the copy of chunk 10 into the partner's result rows
  iapply (rule_send_at m c ⟨k0_dev12 c, k0_dev12_lt c⟩ (dev12_eq c) 10 _ _ fd10) $$ [Hsb10 Hd10 HO HtS10 HtP10]
  · isplitr; · iexact HIS10
    isplitr; · iexact HIP10
    isplitl [Hsb10]
    · iexists _
      isplitr
      rotate_left
      · iexact Hsb10
      · ipureintro; exact sent_hfs_slot m c 10 10 rfl inb_S16x1024x1024_S1x1024x1024_10_0_0 _ _ (sent_payload_junk m c 10 k0_pay11 (fun u y => pay_apply u _ _ _ y) (Memref.whole cc0_scratch0) 0 inb_S2x1024x1024_S1x1024x1024_0_0_0 (fun _ => rfl) (k0_off12 c) (k0_off12_inb c) (fun _ => rfl) _ _ (k0_off12_eq c) rfl rfl)
    isplitl [Hd10]; · iexact Hd10
    isplitl [HO]; · iexact HO
    isplitl [HtS10]; · iexact HtS10
    isplitr; · iexact HrS10
    isplitl [HtP10]; · iexact HtP10
    iexact HrP10
  iintro ⟨HcS10, HO⟩
  sl_exec
  -- the copy of chunk 11 into the partner's result rows
  iapply (rule_send_at m c ⟨k0_dev13 c, k0_dev13_lt c⟩ (dev13_eq c) 11 _ _ fd11) $$ [Hsb11 Hd11 HO HtS11 HtP11]
  · isplitr; · iexact HIS11
    isplitr; · iexact HIP11
    isplitl [Hsb11]
    · iexists _
      isplitr
      rotate_left
      · iexact Hsb11
      · ipureintro; exact sent_hfs_slot m c 11 11 rfl inb_S16x1024x1024_S1x1024x1024_11_0_0 _ _ (sent_payload_junk m c 11 k0_pay12 (fun u y => pay_apply u _ _ _ y) (Memref.whole cc0_scratch0) 1 inb_S2x1024x1024_S1x1024x1024_1_0_0 (fun _ => rfl) (k0_off13 c) (k0_off13_inb c) (fun _ => rfl) _ _ (k0_off13_eq c) rfl rfl)
    isplitl [Hd11]; · iexact Hd11
    isplitl [HO]; · iexact HO
    isplitl [HtS11]; · iexact HtS11
    isplitr; · iexact HrS11
    isplitl [HtP11]; · iexact HtP11
    iexact HrP11
  iintro ⟨HcS11, HO⟩
  sl_exec
  -- the copy of chunk 12 into the partner's result rows
  iapply (rule_send_at m c ⟨k0_dev14 c, k0_dev14_lt c⟩ (dev14_eq c) 12 _ _ fd12) $$ [Hsb12 Hd12 HO HtS12 HtP12]
  · isplitr; · iexact HIS12
    isplitr; · iexact HIP12
    isplitl [Hsb12]
    · iexists _
      isplitr
      rotate_left
      · iexact Hsb12
      · ipureintro; exact sent_hfs_slot m c 12 12 rfl inb_S16x1024x1024_S1x1024x1024_12_0_0 _ _ (sent_payload_junk m c 12 (fun u => k0_pay14 (k0_pay13 u)) (fun u y => pay_apply u _ _ _ y) (Memref.whole cc0_scratch0) 0 inb_S2x1024x1024_S1x1024x1024_0_0_0 (fun _ => rfl) (k0_off14 c) (k0_off14_inb c) (fun _ => rfl) _ _ (k0_off14_eq c) rfl rfl)
    isplitl [Hd12]; · iexact Hd12
    isplitl [HO]; · iexact HO
    isplitl [HtS12]; · iexact HtS12
    isplitr; · iexact HrS12
    isplitl [HtP12]; · iexact HtP12
    iexact HrP12
  iintro ⟨HcS12, HO⟩
  sl_exec
  -- the copy of chunk 13 into the partner's result rows
  iapply (rule_send_at m c ⟨k0_dev15 c, k0_dev15_lt c⟩ (dev15_eq c) 13 _ _ fd13) $$ [Hsb13 Hd13 HO HtS13 HtP13]
  · isplitr; · iexact HIS13
    isplitr; · iexact HIP13
    isplitl [Hsb13]
    · iexists _
      isplitr
      rotate_left
      · iexact Hsb13
      · ipureintro; exact sent_hfs_slot m c 13 13 rfl inb_S16x1024x1024_S1x1024x1024_13_0_0 _ _ (sent_payload_junk m c 13 (fun u => k0_pay16 (k0_pay15 u)) (fun u y => pay_apply u _ _ _ y) (Memref.whole cc0_scratch0) 1 inb_S2x1024x1024_S1x1024x1024_1_0_0 (fun _ => rfl) (k0_off15 c) (k0_off15_inb c) (fun _ => rfl) _ _ (k0_off15_eq c) rfl rfl)
    isplitl [Hd13]; · iexact Hd13
    isplitl [HO]; · iexact HO
    isplitl [HtS13]; · iexact HtS13
    isplitr; · iexact HrS13
    isplitl [HtP13]; · iexact HtP13
    iexact HrP13
  iintro ⟨HcS13, HO⟩
  sl_exec
  -- the copy of chunk 14 into the partner's result rows
  iapply (rule_send_at m c ⟨k0_dev16 c, k0_dev16_lt c⟩ (dev16_eq c) 14 _ _ fd14) $$ [Hsb14 Hd14 HO HtS14 HtP14]
  · isplitr; · iexact HIS14
    isplitr; · iexact HIP14
    isplitl [Hsb14]
    · iexists _
      isplitr
      rotate_left
      · iexact Hsb14
      · ipureintro; exact sent_hfs_slot m c 14 14 rfl inb_S16x1024x1024_S1x1024x1024_14_0_0 _ _ (sent_payload_junk m c 14 (fun u => k0_pay18 (k0_pay17 u)) (fun u y => pay_apply u _ _ _ y) (Memref.whole cc0_scratch0) 0 inb_S2x1024x1024_S1x1024x1024_0_0_0 (fun _ => rfl) (k0_off16 c) (k0_off16_inb c) (fun _ => rfl) _ _ (k0_off16_eq c) rfl rfl)
    isplitl [Hd14]; · iexact Hd14
    isplitl [HO]; · iexact HO
    isplitl [HtS14]; · iexact HtS14
    isplitr; · iexact HrS14
    isplitl [HtP14]; · iexact HtP14
    iexact HrP14
  iintro ⟨HcS14, HO⟩
  -- to the end of the first stretch: chunk 15 is narrowed into its slot
  sl_exec
  subst hk
  beta_reduce
  -- the state the local phase starts from
  iapply (local_run m K c _ _ _ _ _ _ _ _ _ _ _)
  isplitl [Hx Hs2a Hs2b Hs3a Hs3b Hown0 Hown1 Hown2 Hown3 Hown4 Hown5 Hown6 Hown7 Hown8 Hown9 Hown10 Hown11 Hown12 Hown13 Hown14 Hown15 Hl2 Hl3 Hl4 Hl5 HO Hsb15 Hd15 HtS15 HtP15 HcS0 HatS0]
  · unfold MidA
    isplitr; · iexact HIS15
    isplitr; · iexact HIP15
    isplitr; · iexact HIS0
    isplitr; · iexact Hlev
    isplitr; · iexact HrS15
    isplitr; · iexact HrP15
    isplitl [Hx]; · iexact Hx
    isplitl [Hs2a]; · iexact Hs2a
    isplitl [Hs2b]; · iexact Hs2b
    isplitl [Hs3a]; · iexact Hs3a
    isplitl [Hs3b]; · iexact Hs3b
    isplitl [Hown0]; · iexact Hown0
    isplitl [Hown1]; · iexact Hown1
    isplitl [Hown2]; · iexact Hown2
    isplitl [Hown3]; · iexact Hown3
    isplitl [Hown4]; · iexact Hown4
    isplitl [Hown5]; · iexact Hown5
    isplitl [Hown6]; · iexact Hown6
    isplitl [Hown7]; · iexact Hown7
    isplitl [Hown8]; · iexact Hown8
    isplitl [Hown9]; · iexact Hown9
    isplitl [Hown10]; · iexact Hown10
    isplitl [Hown11]; · iexact Hown11
    isplitl [Hown12]; · iexact Hown12
    isplitl [Hown13]; · iexact Hown13
    isplitl [Hown14]; · iexact Hown14
    isplitl [Hown15]; · iexact Hown15
    isplitl [Hl2]; · iexact Hl2
    isplitl [Hl3]; · iexact Hl3
    isplitl [Hl4]; · iexact Hl4
    isplitl [Hl5]; · iexact Hl5
    isplitl [HO]; · iexact HO
    isplitl [Hsb15]
    · iexists _
      isplitr
      rotate_left
      · iexact Hsb15
      · ipureintro; exact sent_hfs_slot m c 15 15 rfl inb_S16x1024x1024_S1x1024x1024_15_0_0 _ _ (sent_payload_junk m c 15 k0_pay19 (fun u y => pay_apply u _ _ _ y) (Memref.whole cc0_scratch0) 1 inb_S2x1024x1024_S1x1024x1024_1_0_0 (fun _ => rfl) (k0_off17 c) (k0_off17_inb c) (fun _ => rfl) _ _ (k0_off17_eq c) rfl rfl)
    isplitl [Hd15]; · iexact Hd15
    isplitl [HtS15]; · iexact HtS15
    isplitl [HtP15]; · iexact HtP15
    isplitl [HcS0]; · iexact HcS0
    iexact HatS0
  iintro HB
  unfold MidB
  icases HB with ⟨Hx, Hown0, Hown1, Hown2, Hown3, Hown4, Hown5, Hown6, Hown7, Hown8, Hown9, Hown10, Hown11, Hown12, Hown13, Hown14, Hown15, ⟨%g2a, Hs2a⟩, ⟨%g2b, Hs2b⟩, ⟨%g3a, Hs3a⟩, ⟨%g3b, Hs3b⟩, Hl2, Hl3, Hl4, Hl5, ⟨%W2, HO⟩, HcS15, Hz0, Hsp0⟩
  -- the state the remaining waits and the exit start from
  iapply (tail_run2 m K c _ _ _ Kt)
  isplitr [Hk]
  · unfold MidC
    isplitr; · iexact HIS0
    isplitr; · iexact HIS1
    isplitr; · iexact HIS2
    isplitr; · iexact HIS3
    isplitr; · iexact HIS4
    isplitr; · iexact HIS5
    isplitr; · iexact HIS6
    isplitr; · iexact HIS7
    isplitr; · iexact HIS8
    isplitr; · iexact HIS9
    isplitr; · iexact HIS10
    isplitr; · iexact HIS11
    isplitr; · iexact HIS12
    isplitr; · iexact HIS13
    isplitr; · iexact HIS14
    isplitr; · iexact HIS15
    isplitr; · iexact HIR0
    isplitr; · iexact HIR1
    isplitr; · iexact HIR2
    isplitr; · iexact HIR3
    isplitr; · iexact HIR4
    isplitr; · iexact HIR5
    isplitr; · iexact HIR6
    isplitr; · iexact HIR7
    isplitr; · iexact HIR8
    isplitr; · iexact HIR9
    isplitr; · iexact HIR10
    isplitr; · iexact HIR11
    isplitr; · iexact HIR12
    isplitr; · iexact HIR13
    isplitr; · iexact HIR14
    isplitr; · iexact HIR15
    isplitl [HatS1]; · iexact HatS1
    isplitl [HatS2]; · iexact HatS2
    isplitl [HatS3]; · iexact HatS3
    isplitl [HatS4]; · iexact HatS4
    isplitl [HatS5]; · iexact HatS5
    isplitl [HatS6]; · iexact HatS6
    isplitl [HatS7]; · iexact HatS7
    isplitl [HatS8]; · iexact HatS8
    isplitl [HatS9]; · iexact HatS9
    isplitl [HatS10]; · iexact HatS10
    isplitl [HatS11]; · iexact HatS11
    isplitl [HatS12]; · iexact HatS12
    isplitl [HatS13]; · iexact HatS13
    isplitl [HatS14]; · iexact HatS14
    isplitl [HatS15]; · iexact HatS15
    isplitl [HcS1]; · iexact HcS1
    isplitl [HcS2]; · iexact HcS2
    isplitl [HcS3]; · iexact HcS3
    isplitl [HcS4]; · iexact HcS4
    isplitl [HcS5]; · iexact HcS5
    isplitl [HcS6]; · iexact HcS6
    isplitl [HcS7]; · iexact HcS7
    isplitl [HcS8]; · iexact HcS8
    isplitl [HcS9]; · iexact HcS9
    isplitl [HcS10]; · iexact HcS10
    isplitl [HcS11]; · iexact HcS11
    isplitl [HcS12]; · iexact HcS12
    isplitl [HcS13]; · iexact HcS13
    isplitl [HcS14]; · iexact HcS14
    isplitl [HcS15]; · iexact HcS15
    isplitl [HatR0]; · iexact HatR0
    isplitl [HatR1]; · iexact HatR1
    isplitl [HatR2]; · iexact HatR2
    isplitl [HatR3]; · iexact HatR3
    isplitl [HatR4]; · iexact HatR4
    isplitl [HatR5]; · iexact HatR5
    isplitl [HatR6]; · iexact HatR6
    isplitl [HatR7]; · iexact HatR7
    isplitl [HatR8]; · iexact HatR8
    isplitl [HatR9]; · iexact HatR9
    isplitl [HatR10]; · iexact HatR10
    isplitl [HatR11]; · iexact HatR11
    isplitl [HatR12]; · iexact HatR12
    isplitl [HatR13]; · iexact HatR13
    isplitl [HatR14]; · iexact HatR14
    isplitl [HatR15]; · iexact HatR15
    isplitl [HcR0]; · iexact HcR0
    isplitl [HcR1]; · iexact HcR1
    isplitl [HcR2]; · iexact HcR2
    isplitl [HcR3]; · iexact HcR3
    isplitl [HcR4]; · iexact HcR4
    isplitl [HcR5]; · iexact HcR5
    isplitl [HcR6]; · iexact HcR6
    isplitl [HcR7]; · iexact HcR7
    isplitl [HcR8]; · iexact HcR8
    isplitl [HcR9]; · iexact HcR9
    isplitl [HcR10]; · iexact HcR10
    isplitl [HcR11]; · iexact HcR11
    isplitl [HcR12]; · iexact HcR12
    isplitl [HcR13]; · iexact HcR13
    isplitl [HcR14]; · iexact HcR14
    isplitl [HcR15]; · iexact HcR15
    isplitl [Hz0]; · iexact Hz0
    isplitl [Hsp0]; · iexact Hsp0
    isplitl [HO]; · iexists _; iexact HO
    isplitl [Hx]; · iexact Hx
    isplitl [Hown0]; · iexact Hown0
    isplitl [Hown1]; · iexact Hown1
    isplitl [Hown2]; · iexact Hown2
    isplitl [Hown3]; · iexact Hown3
    isplitl [Hown4]; · iexact Hown4
    isplitl [Hown5]; · iexact Hown5
    isplitl [Hown6]; · iexact Hown6
    isplitl [Hown7]; · iexact Hown7
    isplitl [Hown8]; · iexact Hown8
    isplitl [Hown9]; · iexact Hown9
    isplitl [Hown10]; · iexact Hown10
    isplitl [Hown11]; · iexact Hown11
    isplitl [Hown12]; · iexact Hown12
    isplitl [Hown13]; · iexact Hown13
    isplitl [Hown14]; · iexact Hown14
    isplitl [Hown15]; · iexact Hown15
    isplitl [Hs0a]; · iexists _; iexact Hs0a
    isplitl [Hs0b]; · iexists _; iexact Hs0b
    isplitl [Hs2a]; · iexists _; iexact Hs2a
    isplitl [Hs2b]; · iexists _; iexact Hs2b
    isplitl [Hs3a]; · iexists _; iexact Hs3a
    isplitl [Hs3b]; · iexists _; iexact Hs3b
    isplitl [Hl0]; · iexact Hl0
    isplitl [Hl1]; · iexact Hl1
    isplitl [Hl2]; · iexact Hl2
    isplitl [Hl3]; · iexact Hl3
    isplitl [Hl4]; · iexact Hl4
    iexact Hl5
  · iexact Hk

/-- The body of device `c`, executed from `bodyPre` to `bodyPost`. -/
theorem sound_body (K : Dev nD × Fin 33 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Kt := by
  rw [cc0_body_split]
  exact sound_body_aux m K c Kt _ rfl

end Cert.KernelIdeal.A2A

end
-- ==== Proof.KernelIdeal.BodyStmt.lean ====
/-
  The body obligation of one device: from the state before the body, the kernel's body runs to the state after it.
-/
import proofs.«900627_g7700000000000628_dist_a2a_v7x_xyz2x2x2_z_m16384_n1024_bf16_1_alg».proof.Proof.KernelIdeal.Proto
import proofs.«900627_g7700000000000628_dist_a2a_v7x_xyz2x2x2_z_m16384_n1024_bf16_1_alg».proof.Proof.Gen.KernelIdeal.Points
import proofs.«900627_g7700000000000628_dist_a2a_v7x_xyz2x2x2_z_m16384_n1024_bf16_1_alg».proof.Proof.KernelIdeal.Body

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The pipeline stages no window, so a separating product over its windows is empty. -/
theorem bigSep_W0 (Φ : Fin cfg0.W → sProp 𝕄) : bigSep Finset.univ Φ = iprop(emp) := by
  have h : (Finset.univ : Finset (Fin cfg0.W)) = ∅ :=
    Finset.eq_empty_of_forall_notMem fun w _ => absurd w.isLt (Nat.not_lt_zero _)
  rw [h, bigSep_empty]; rfl

/-- The library's body obligation on device `c` (the pipeline has no window and one point): the state before the
    body is the body lemma's precondition regrouped, the invariants' names taken out of the start; what the core owes
    is held within a bound that is everything, before the body and after it. -/
theorem body_obligation (c : Dev nD) : BodyObligation (dats (F := F) m 0 c) (defs₀ (F := F)) 𝒱₀ () Set.univ := fun t => by
  rw [fin_N0 t, bigSep_W0, bigSep_W0]
  show iprop(Φ₀ m c ∗ Pipeline.owesWithin c (O₀ c) ((dats (F := F) m 0 c).bound () t0_0.castSucc) ∗ emp)
    ⊢ wp frame (wpE (defs₀ (F := F)) 𝒱₀ c none) Set.univ (bodyAt0 (F := F) t0_0)
        (fun _ => iprop(Φ₁ m c ∗ Pipeline.owesWithin c 0 ((dats (F := F) m 0 c).bound () t0_0.succ) ∗ emp))
  unfold Φ₀ start
  iintro ⟨⟨⟨⟨%K, Hg⟩, Hb, Hr, Hl, Hs⟩, Ha, Hscr⟩, HO, -⟩
  iapply (sound_body m K c _)
  unfold bodyPre bodyPost
  isplitr []
  · isplitl [Hg]; · iexact Hg
    isplitl [Hb]; · iexact Hb
    isplitl [Hr]; · iexact Hr
    isplitl [Hl]; · iexact Hl
    isplitl [Hs]; · iexact Hs
    isplitl [Ha]; · iexact Ha
    isplitl [Hscr]; · iexact Hscr
    iapply (Pipeline.owesWithin_mono c (O₀ c) (Set.subset_univ _))
    iexact HO
  · iintro ⟨HΦ, HO⟩
    isplitl [HΦ]; · iexact HΦ
    isplitl [HO]
    · iapply (Pipeline.owesWithin_mono c 0 Set.subset_union_left)
      iexact HO
    · iempintro

end Cert.KernelIdeal.A2A

end
-- ==== Proof.KernelIdeal.Launch.lean ====
/-
  The launch: from every device's body obligation to the run of the whole mesh.
-/
import proofs.«900627_g7700000000000628_dist_a2a_v7x_xyz2x2x2_z_m16384_n1024_bf16_1_alg».proof.Proof.KernelIdeal.Proto
import proofs.«900627_g7700000000000628_dist_a2a_v7x_xyz2x2x2_z_m16384_n1024_bf16_1_alg».proof.Proof.KernelIdeal.Tables
import proofs.«900627_g7700000000000628_dist_a2a_v7x_xyz2x2x2_z_m16384_n1024_bf16_1_alg».proof.Proof.KernelIdeal.BodyStmt
import proofs.«900627_g7700000000000628_dist_a2a_v7x_xyz2x2x2_z_m16384_n1024_bf16_1_alg».proof.Proof.Gen.KernelIdeal.Frame

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

/-! ## The layout facts -/

theorem ownSemFacts : Pipeline.OwnSemFacts cfg0.spec osem :=
  ⟨by decide, fun a b h => SemLoc.dma.inj h, fun k w s => w.elim0⟩

theorem share_eq (c : Dev nD) (w : Fin cfg0.W) : (dats m 0 c).share w = fullShare := w.elim0

/-! ## The 33 cells of a device: the barrier cell, then the send cells, then the receive cells -/

/-- The places of chunk `r`'s send cell and receive cell among a device's 33 cells. -/
abbrev sIx (r : Fin 16) : Fin 33 := ⟨1 + r.val, by have := r.isLt; omega⟩
abbrev rIx (r : Fin 16) : Fin 33 := ⟨17 + r.val, by have := r.isLt; omega⟩

theorem csem_zero : csem (0 : Fin 33) = .reg barS := by
  unfold csem; exact dif_pos rfl

theorem csem_sIx (r : Fin 16) : csem (sIx r) = .dma (sendSem r) := by
  have h0 : ¬ (sIx r).val = 0 := by show ¬ (1 + r.val = 0); omega
  have h1 : (sIx r).val < 17 := by show 1 + r.val < 17; have := r.isLt; omega
  unfold csem
  rw [dif_neg h0, dif_pos h1]
  exact congrArg (fun x => SemLoc.dma (sendSem x)) (Fin.ext (show 1 + r.val - 1 = r.val by omega))

theorem csem_rIx (r : Fin 16) : csem (rIx r) = .dma (recvSem r) := by
  have h0 : ¬ (rIx r).val = 0 := by show ¬ (17 + r.val = 0); omega
  have h1 : ¬ (rIx r).val < 17 := by show ¬ (17 + r.val < 17); omega
  unfold csem
  rw [dif_neg h0, dif_neg h1]
  exact congrArg (fun x => SemLoc.dma (recvSem x)) (Fin.ext (show 17 + r.val - 17 = r.val by omega))

theorem kcell_zero (c : Dev nD) : kcell (c, (0 : Fin 33)) = barCell c := congrArg (Prod.mk (c : Thread nD τ)) csem_zero
theorem kcell_sIx (c : Dev nD) (r : Fin 16) : kcell (c, sIx r) = sendCell c r := congrArg (Prod.mk (c : Thread nD τ)) (csem_sIx r)
theorem kcell_rIx (c : Dev nD) (r : Fin 16) : kcell (c, rIx r) = recvCell c r := congrArg (Prod.mk (c : Thread nD τ)) (csem_rIx r)

/-- Every cell but the barrier's is a DMA semaphore, number 5 + its place. -/
theorem csem_cases (k : Fin 33) :
    (csem k = .reg barS ∧ k.val = 0) ∨ (∃ q : DmaSem sig, csem k = .dma q ∧ q.val = 5 + k.val ∧ k.val ≠ 0) := by
  by_cases h0 : k.val = 0
  · left; exact ⟨by unfold csem; rw [dif_pos h0], h0⟩
  · right
    have hk := k.isLt
    by_cases h1 : k.val < 17
    · refine ⟨sendSem ⟨k.val - 1, by omega⟩, by unfold csem; rw [dif_neg h0, dif_pos h1], ?_, h0⟩
      show 6 + (k.val - 1) = 5 + k.val; omega
    · refine ⟨recvSem ⟨k.val - 17, by omega⟩, by unfold csem; rw [dif_neg h0, dif_neg h1], ?_, h0⟩
      show 22 + (k.val - 17) = 5 + k.val; omega

theorem csem_injective : Function.Injective csem := by
  intro a b h
  rcases csem_cases a with ⟨ha, a0⟩ | ⟨qa, ha, va, a0⟩ <;> rcases csem_cases b with ⟨hb, b0⟩ | ⟨qb, hb, vb, b0⟩
  · exact Fin.ext (a0.trans b0.symm)
  · rw [ha, hb] at h; cases h
  · rw [ha, hb] at h; cases h
  · rw [ha, hb] at h
    have hq : qa = qb := SemLoc.dma.inj h
    subst hq
    exact Fin.ext (by omega)

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The 33 places are the barrier's, the sixteen send places and the sixteen receive places. -/
def f33 : Unit ⊕ (Fin 16 ⊕ Fin 16) → Fin 33
  | .inl _ => 0
  | .inr (.inl r) => sIx r
  | .inr (.inr r) => rIx r
def e33 : Unit ⊕ (Fin 16 ⊕ Fin 16) ≃ Fin 33 := Equiv.ofBijective f33 (by decide)

/-- The 38 DMA semaphores are the six local ones, the sixteen send and the sixteen receive semaphores. -/
def f38 : Fin 6 ⊕ (Fin 16 ⊕ Fin 16) → Fin 38
  | .inl k => ⟨k.val, by have := k.isLt; omega⟩
  | .inr (.inl r) => ⟨6 + r.val, by have := r.isLt; omega⟩
  | .inr (.inr r) => ⟨22 + r.val, by have := r.isLt; omega⟩
def e38 : Fin 6 ⊕ (Fin 16 ⊕ Fin 16) ≃ Fin 38 := Equiv.ofBijective f38 (by decide)

omit [FloatOps F] in
theorem bigSep_fin33 (Ψ : Fin 33 → sProp 𝕄) :
    bigSep Finset.univ Ψ = iprop(Ψ 0 ∗ (bigSep Finset.univ fun r : Fin 16 => Ψ (sIx r)) ∗ bigSep Finset.univ fun r : Fin 16 => Ψ (rIx r)) := by
  rw [bigSep_univ_equiv e33 Ψ, bigSep_univ_sum, bigSep_univ_sum, bigSep_univ_of_subsingleton ()]
  rfl

omit [FloatOps F] in
/-- A family over a device's 33 cells, cell by cell. -/
theorem bigSep_cells (c : Dev nD) (Φ : GSem nD τ sig → sProp 𝕄) :
    (bigSep Finset.univ fun k : Fin 33 => Φ (kcell (c, k)))
      = iprop(Φ (barCell c) ∗ (bigSep Finset.univ fun r : Fin 16 => Φ (sendCell c r)) ∗ bigSep Finset.univ fun r : Fin 16 => Φ (recvCell c r)) := by
  rw [bigSep_fin33 (fun k => Φ (kcell (c, k)))]
  show iprop(Φ (kcell (c, 0)) ∗ (bigSep Finset.univ fun r : Fin 16 => Φ (kcell (c, sIx r))) ∗ bigSep Finset.univ fun r : Fin 16 => Φ (kcell (c, rIx r))) = _
  rw [kcell_zero, funext fun r => congrArg Φ (kcell_sIx c r), funext fun r => congrArg Φ (kcell_rIx c r)]

omit [FloatOps F] in
theorem bigSep_fin38 (Ψ : Fin 38 → sProp 𝕄) :
    bigSep Finset.univ Ψ = iprop((bigSep Finset.univ fun k : Fin 6 => Ψ ⟨k.val, by have := k.isLt; omega⟩)
      ∗ (bigSep Finset.univ fun r : Fin 16 => Ψ ⟨6 + r.val, by have := r.isLt; omega⟩)
      ∗ bigSep Finset.univ fun r : Fin 16 => Ψ ⟨22 + r.val, by have := r.isLt; omega⟩) := by
  rw [bigSep_univ_equiv e38 Ψ, bigSep_univ_sum, bigSep_univ_sum]
  rfl

/-! ## The launch element and what it deals each device -/

def cellsF : Finset (GSem nD τ sig) := Finset.univ.map ⟨kcell, kcell_injective⟩

/-- A cell's one duty token as minted. -/
abbrev tokOf (ck : Dev nD × Fin 33) : GSem nD τ sig × ℕ × Unit := (kcell ck, 0, ())
theorem tokOf_injective : Function.Injective (tokOf : Dev nD × Fin 33 → GSem nD τ sig × ℕ × Unit) :=
  fun a b h => kcell_injective (congrArg (fun x : GSem nD τ sig × ℕ × Unit => x.1) h)
def toksF : Finset (GSem nD τ sig × ℕ × Unit) := Finset.univ.map ⟨tokOf, tokOf_injective⟩

/-- The launch element: the pipeline library's, the protocol's, and the transfer counters' unit. -/
def u₀ : UU :=
  (initOf (Pipeline.cells cfgs cellOf_inj) (Pipeline.launchToks cfgs cellOf_inj), (initOf cellsF toksF, 1))

/-- The duty tokens of device `c`'s own cells. -/
def toks (c : Dev nD) : sProp 𝕄 := bigSep Finset.univ fun k : Fin 33 => dutyTok ER (kcell (c, k)) 0 ()

/-- The device's six local DMA semaphores at zero. -/
def locs (c : Dev nD) : sProp 𝕄 := bigSep Finset.univ fun k : Fin 6 => semVal (locCell c k) 0

/-- What the launch element deals device `c` (the theorem's `G`). -/
def G (c : Dev nD) : sProp 𝕄 :=
  iprop((bigSep Finset.univ fun k : Fin 33 => roundState ER (a2aRd m) (kcell (c, k)) 0)
    ∗ (bigSep Finset.univ fun k : Fin 33 => atPos ER (kcell (c, k)) 0 ∅ 0)
    ∗ (bigSep Finset.univ fun k : Fin 33 => reached ER (kcell (c, k)) 0) ∗ toks c)

/-- What the global step makes of it (`G'`). -/
def G' (c : Dev nD) : sProp 𝕄 := iprop((∃ K, ghost m K c) ∗ locs c)

theorem fund_cells : BI.own (ER (initOf cellsF toksF)) ⊢ (|==> bigSep Finset.univ (G m) : sProp 𝕄) := by
  have hX (Φ : GSem nD τ sig → sProp 𝕄) : bigSep cellsF Φ = bigSep Finset.univ fun c : Dev nD => bigSep Finset.univ fun k : Fin 33 => Φ (kcell (c, k)) := by
    unfold cellsF; rw [bigSep_map, bigSep_univ_prod]; rfl
  have hT : bigSep toksF (fun x => (dutyTok ER x.1 x.2.1 x.2.2 : sProp 𝕄)) = bigSep Finset.univ fun c : Dev nD => toks c := by
    unfold toksF; rw [bigSep_map, bigSep_univ_prod]; rfl
  iintro HX
  imod (Rounds.fund ER (a2aRd m) cellsF toksF) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The global step: the cells' invariants allocated, the tokens dealt to their payers -/

omit [FloatOps F] in
theorem ownSems0_eq (c : Dev nD) : (Pipeline.ownSems0 (Ix := Unit) (Name := ℕ) (U := UU) (Lvl := ℕ) (Val := Elt F) (τ := τ) osem c : sProp 𝕄)
    = iprop(locs c ∗ (bigSep Finset.univ fun r : Fin 16 => semVal (sendCell c r) 0) ∗ bigSep Finset.univ fun r : Fin 16 => semVal (recvCell c r) 0) := by
  unfold Pipeline.ownSems0; rw [bigSep_fin38]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 33 => semVal (kcell (c, k)) 0) ∗ locs c) : sProp 𝕄) := by
  rw [ownSems0_eq, unscopedSems0_eq, bigSep_cells c (fun g => semVal g 0)]
  iintro ⟨⟨HL, HS, HV⟩, HB⟩
  isplitr [HL]
  · isplitl [HB]; · iexact HB
    isplitl [HS] <;> iassumption
  · iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (a2aRd m) κ (kcell (c, k))))
          ∗ (bigSep Finset.univ fun k : Fin 33 => atPos ER (kcell (c, k)) 0 ∅ 0)
          ∗ (bigSep Finset.univ fun k : Fin 33 => reached ER (kcell (c, k)) 0) ∗ toks c ∗ locs c) := by
  unfold G
  iintro ⟨Hos, Hus, Hst, Hat, Hr, Htok⟩
  ihave Hv := (sems0_eq (F := F) c) $$ [Hos Hus]
  · isplitl [Hos] <;> iassumption
  icases Hv with ⟨Hv, Hloc⟩
  imod (show iprop((bigSep Finset.univ fun k : Fin 33 => semVal (kcell (c, k)) 0) ∗ bigSep Finset.univ fun k : Fin 33 => roundState ER (a2aRd m) (kcell (c, k)) 0)
      ⊢ (|={Set.univ}=> bigSep Finset.univ fun k : Fin 33 => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hloc

/-- The persistent records of the whole mesh: every cell's invariant at its name, every cell at round 0. -/
def records (K : Dev nD × Fin 33 → ℕ) : sProp 𝕄 :=
  iprop((bigSep Finset.univ fun ck : Dev nD × Fin 33 => cellInv ER (a2aRd m) (K ck) (kcell ck))
    ∗ bigSep Finset.univ fun ck : Dev nD × Fin 33 => reached ER (kcell ck) 0)

instance records_persistent (K : Dev nD × Fin 33 → ℕ) : BI.Persistent (records m K) := by unfold records; infer_instance

/-- What stays with device `c`: the tokens of the duties IT pays, -/
def payToks (c : Dev nD) : sProp 𝕄 :=
  iprop(dutyTok ER (barCell (peer c)) 0 () ∗ (bigSep Finset.univ fun r : Fin 16 => dutyTok ER (recvCell (peer c) r) 0 ())
    ∗ bigSep Finset.univ fun r : Fin 16 => dutyTok ER (sendCell c r) 0 ())
/-- its positions, and its local semaphores. -/
def linear (c : Dev nD) : sProp 𝕄 :=
  iprop((bigSep Finset.univ fun k : Fin 33 => atPos ER (kcell (c, k)) 0 ∅ 0) ∗ payToks c ∗ locs c)

omit [FloatOps F] in
/-- A persistent assertion in hand gives every summand it entails. -/
theorem rows {I : Type} [DecidableEq I] (S : Finset I) {R : sProp 𝕄} [BI.Persistent R] {Ψ : I → sProp 𝕄} (h : ∀ i, R ⊢ Ψ i) :
    R ⊢ bigSep S Ψ :=
  (BI.bigSep_of_persistent S R).trans (bigSep_mono fun i _ => h i)

theorem inv_own (K : Dev nD × Fin 33 → ℕ) (c : Dev nD) :
    (bigSep Finset.univ fun ck : Dev nD × Fin 33 => (cellInv ER (a2aRd m) (K ck) (kcell ck) : sProp 𝕄))
      ⊢ bigSep Finset.univ fun k : Fin 33 => cellInv ER (a2aRd m) (K (c, k)) (kcell (c, k)) :=
  rows Finset.univ fun k => bigSep_elim (Finset.mem_univ (c, k))
theorem inv_bar (K : Dev nD × Fin 33 → ℕ) (c : Dev nD) :
    (bigSep Finset.univ fun ck : Dev nD × Fin 33 => (cellInv ER (a2aRd m) (K ck) (kcell ck) : sProp 𝕄))
      ⊢ cellInv ER (a2aRd m) (K (c, 0)) (barCell c) :=
  (bigSep_elim (Finset.mem_univ (c, (0 : Fin 33)))).trans (Entails.of_eq (congrArg (cellInv ER (a2aRd m) (K (c, 0))) (kcell_zero c)))
theorem inv_recv (K : Dev nD × Fin 33 → ℕ) (c : Dev nD) :
    (bigSep Finset.univ fun ck : Dev nD × Fin 33 => (cellInv ER (a2aRd m) (K ck) (kcell ck) : sProp 𝕄))
      ⊢ bigSep Finset.univ fun r : Fin 16 => cellInv ER (a2aRd m) (K (c, rIx r)) (recvCell c r) :=
  rows Finset.univ fun r => (bigSep_elim (Finset.mem_univ (c, rIx r))).trans
    (Entails.of_eq (congrArg (cellInv ER (a2aRd m) (K (c, rIx r))) (kcell_rIx c r)))

omit [FloatOps F] in
theorem reached_own (c : Dev nD) :
    (bigSep Finset.univ fun ck : Dev nD × Fin 33 => (reached ER (kcell ck) 0 : sProp 𝕄))
      ⊢ bigSep Finset.univ fun k : Fin 33 => reached ER (kcell (c, k)) 0 :=
  rows Finset.univ fun k => bigSep_elim (Finset.mem_univ (c, k))
omit [FloatOps F] in
theorem reached_bar (c : Dev nD) :
    (bigSep Finset.univ fun ck : Dev nD × Fin 33 => (reached ER (kcell ck) 0 : sProp 𝕄)) ⊢ reached ER (barCell c) 0 :=
  (bigSep_elim (Finset.mem_univ (c, (0 : Fin 33)))).trans (Entails.of_eq (congrArg (fun g => (reached ER g 0 : sProp 𝕄)) (kcell_zero c)))
omit [FloatOps F] in
theorem reached_recv (c : Dev nD) :
    (bigSep Finset.univ fun ck : Dev nD × Fin 33 => (reached ER (kcell ck) 0 : sProp 𝕄))
      ⊢ bigSep Finset.univ fun r : Fin 16 => reached ER (recvCell c r) 0 :=
  rows Finset.univ fun r => (bigSep_elim (Finset.mem_univ (c, rIx r))).trans
    (Entails.of_eq (congrArg (fun g => (reached ER g 0 : sProp 𝕄)) (kcell_rIx c r)))

theorem ghost_intro (K : Dev nD × Fin 33 → ℕ) (c : Dev nD) : iprop(records m K ∗ linear c) ⊢ G' m c := by
  unfold records linear payToks G' ghost invs
  iintro ⟨⟨#HI, #HR⟩, Hat, ⟨HtB, HtV, HtS⟩, Hloc⟩
  isplitr [Hloc]
  · iexists K
    isplitr
    · isplitr; · iapply (inv_own m K c); iexact HI
      isplitr; · iapply (inv_bar m K (peer c)); iexact HI
      iapply (inv_recv m K (peer c)); iexact HI
    isplitl [Hat]; · iexact Hat
    isplitr; · iapply (reached_own (F := F) c); iexact HR
    isplitr; · iapply (reached_bar (F := F) (peer c)); iexact HR
    isplitr; · iapply (reached_recv (F := F) (peer c)); iexact HR
    isplitl [HtB]; · iexact HtB
    isplitl [HtV]; · iexact HtV
    iexact HtS
  · iexact Hloc

omit [FloatOps F] in
/-- A family over the devices, read at each device's partner. -/
theorem bigSep_peer (Φ : Dev nD → sProp 𝕄) : bigSep Finset.univ Φ = bigSep Finset.univ fun c => Φ (peer c) :=
  bigSep_univ_equiv pairing Φ

omit [FloatOps F] in
/-- The tokens dealt to their payers: a barrier's and a receive cell's token to the partner, a send cell's stays. -/
theorem toks_around : (bigSep Finset.univ fun c : Dev nD => (toks c : sProp 𝕄)) ⊢ bigSep Finset.univ fun c : Dev nD => payToks c := by
  have h : (fun c : Dev nD => (toks c : sProp 𝕄))
      = fun c => iprop(dutyTok ER (barCell c) 0 () ∗ (bigSep Finset.univ fun r : Fin 16 => dutyTok ER (sendCell c r) 0 ())
          ∗ bigSep Finset.univ fun r : Fin 16 => dutyTok ER (recvCell c r) 0 ()) :=
    funext fun c => bigSep_cells c (fun g => dutyTok ER g 0 ())
  rw [h]
  unfold payToks
  rw [bigSep_sep', bigSep_sep', bigSep_sep', bigSep_sep',
    bigSep_peer (fun c : Dev nD => (dutyTok ER (barCell c) 0 () : sProp 𝕄)),
    bigSep_peer (fun c : Dev nD => (bigSep Finset.univ fun r : Fin 16 => dutyTok ER (recvCell c r) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro :
    iprop((bigSep Finset.univ fun c : Dev nD => bigSep Finset.univ fun k : Fin 33 => (atPos ER (kcell (c, k)) 0 ∅ 0 : sProp 𝕄))
        ∗ (bigSep Finset.univ fun c : Dev nD => (payToks c : sProp 𝕄)) ∗ bigSep Finset.univ fun c : Dev nD => (locs c : sProp 𝕄))
      ⊢ bigSep Finset.univ fun c : Dev nD => (linear c : sProp 𝕄) := by
  unfold linear
  rw [bigSep_sep', bigSep_sep']

theorem regroup :
    (bigSep Finset.univ fun c : Dev nD => iprop((bigSep Finset.univ fun k : Fin 33 => iprop(∃ κ : ℕ, cellInv ER (a2aRd m) κ (kcell (c, k))))
          ∗ (bigSep Finset.univ fun k : Fin 33 => atPos ER (kcell (c, k)) 0 ∅ 0)
          ∗ (bigSep Finset.univ fun k : Fin 33 => reached ER (kcell (c, k)) 0) ∗ toks c ∗ locs c) : sProp 𝕄)
      ⊢ bigSep Finset.univ (G' m) := by
  rw [bigSep_sep', bigSep_sep', bigSep_sep', bigSep_sep',
    ← bigSep_univ_prod (fun ck : Dev nD × Fin 33 => iprop(∃ κ : ℕ, cellInv ER (a2aRd m) κ (kcell ck))),
    ← bigSep_univ_prod (fun ck : Dev nD × Fin 33 => (reached ER (kcell ck) 0 : sProp 𝕄))]
  iintro ⟨HI, Hat, #HR, Htok, Hloc⟩
  ihave HK := (BI.bigSep_exists_pi Finset.univ (fun (ck : Dev nD × Fin 33) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk]; · iexact Htk
    iexact Hloc

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device still owes of its receive debts from chunk `k` on: a chunk's credit to each of those cells of its partner. -/
theorem owedFrom_sum (c : Dev nD) : ∀ j k : ℕ, j + k = 16 →
    owedFrom c k = ∑ r ∈ Finset.univ.filter (fun r : Fin 16 => k ≤ r.val), (tallyAt (recvCell (peer c) r) () N : CellTallies nD τ sig Unit)
  | 0, k, h => by
    have hk : k = 16 := by omega
    subst hk
    rw [owedFrom_16, Finset.filter_eq_empty_iff.mpr (fun r _ => by have := r.isLt; omega), Finset.sum_empty]
  | j + 1, k, h => by
    have hk : k < 16 := by omega
    have h1 : owedFrom c k = owedFrom c (k + 1) + tallyAt (recvCell (peer c) ⟨k, hk⟩) () N := owedFrom_lt c ⟨k, hk⟩
    have hf : Finset.univ.filter (fun r : Fin 16 => k ≤ r.val) = insert ⟨k, hk⟩ (Finset.univ.filter (fun r : Fin 16 => k + 1 ≤ r.val)) := by
      ext r; simp only [Finset.mem_filter, Finset.mem_univ, true_and, Finset.mem_insert, Fin.ext_iff]; omega
    rw [h1, owedFrom_sum c j (k + 1) (by omega), hf,
      Finset.sum_insert (by simp only [Finset.mem_filter, Finset.mem_univ, true_and]; omega), add_comm]

theorem owedFrom_zero (c : Dev nD) :
    owedFrom c 0 = ∑ r : Fin 16, (tallyAt (recvCell (peer c) r) () N : CellTallies nD τ sig Unit) := by
  rw [owedFrom_sum c 16 0 rfl]
  exact Finset.sum_congr (Finset.filter_true_of_mem fun r _ => Nat.zero_le _) fun _ _ => rfl

omit [FloatOps F] in
theorem creds (c : Dev nD) :
    (Pipeline.launchCred O₀ c : sProp 𝕄)
      ⊢ iprop(cred (tallyAt (barCell c) () 1) ∗ bigSep Finset.univ fun r : Fin 16 => cred (tallyAt (recvCell c r) () N)) := by
  have hO : (O₀ : Dev nD → CellTallies nD τ sig Unit)
      = fun d => (∑ r : Fin 16, (tallyAt (recvCell (peer d) r) () N : CellTallies nD τ sig Unit)) + tallyAt (barCell (peer d)) () 1 :=
    funext fun d => by unfold O₀; rw [owedFrom_zero]
  rw [hO, Pipeline.launchCred_add, Pipeline.launchCred_sum]
  have hR : (bigSep Finset.univ fun r : Fin 16 =>
        (Pipeline.launchCred (fun d => (tallyAt (recvCell (peer d) r) () N : CellTallies nD τ sig Unit)) c : sProp 𝕄))
      ⊢ bigSep Finset.univ fun r : Fin 16 => cred (tallyAt (recvCell c r) () N) :=
    bigSep_mono fun r _ => Pipeline.launchCred_tallyAt (SemLoc.dma (recvSem r)) peer peer peer_peer peer_peer () N c
  iintro ⟨HR, HB⟩
  isplitl [HB]
  · iapply (Pipeline.launchCred_tallyAt (SemLoc.reg barS) peer peer peer_peer peer_peer () 1 c); iexact HB
  · iapply hR; iexact HR

/-! ## The theorem's side conditions -/

/-- What a device enters its region with: the start, and its two arrays as launched. -/
def XX (c : Dev nD) : sProp 𝕄 := iprop(start m c ∗ arrays m c (m ((c : Thread nD τ).loc main_v1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(XX m c ∗ emp) := by
  rw [Pipeline.unscopedRestP_none, unscopedRest0_eq]
  unfold G'
  iintro ⟨⟨Ha, Hv⟩, Hlev, Hcr, -, HG, Hloc⟩
  ihave Hc := (creds (F := F) c) $$ Hcr
  icases Hc with ⟨H1, HN⟩
  imodintro
  unfold XX start arrays X locs
  isplitl
  · isplitl [HG H1 HN Hlev Hloc]
    · isplitl [HG]; · iexact HG
      isplitl [H1]; · iexact H1
      isplitl [HN]; · iexact HN
      isplitl [Hlev]; · iexact Hlev
      iexact Hloc
    · isplitl [Ha]; · iexact Ha
      iexact Hv
  · iempintro

theorem phi0_intro (c : Dev nD) :
    iprop(XX m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ XX scratch
  iintro ⟨⟨Hs, Ha⟩, -, Hscr⟩
  isplitl [Hs]; · iexact Hs
  isplitl [Ha]; · iexact Ha
  iexact Hscr

theorem phi1_exit (c : Dev nD) :
    (dats m 0 c).Φ (Fin.last cfg0.N) ⊢ iprop(arrays m c (OV m c) ∗ Pipeline.ownSems0 osem c ∗ Pipeline.scopedRest cfg0.spec c) := by
  rw [show (dats m 0 c).Φ (Fin.last cfg0.N) = Φ₁ m c from rfl, scopedRest0_eq]
  unfold Φ₁ scratch Pipeline.ownSems0
  iintro ⟨Ha, Hscr, Hs⟩
  isplitl [Ha]; · iexact Ha
  isplitl [Hs]; · iexact Hs
  iexact Hscr

theorem waits (c : Dev nD) : (levAts L lv : sProp 𝕄) ⊢ Pipeline.cellsWaits cfgs (dats m) () 0 c :=
  Pipeline.cellsWaits_intro cfgs (dats m) () 0 c fun w s t => w.elim0

end Launch

open Launch

/-! ## The run -/

set_option maxRecDepth 100000 in
/-- From any memory with every semaphore at zero, every weakly fair execution of the eight devices' kernels ends,
    faults nowhere, and leaves each device's result array at the column block of the whole array that its last
    coordinate names, its argument array as it was. -/
theorem run_main :
    θ_run (defs (F := F)) (onTc (τ := τ) (main (F := F))) ⟨m, fun _ => 0, ρ⟩ (fun r => ∀ c : Dev nD,
      r.2.mem ((c.tc : Thread nD τ).loc main_v1) = outVal (fun d => m ((d.tc : Thread nD τ).loc main_arg0)) c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HXC⟩
      ihave H2 := (own_pair_emb (embR : Emb (UB × Counters) 𝕄) (initOf cellsF toksF) (1 : Counters)) $$ HXC
      icases H2 with ⟨HX, -⟩
      imod (fund_cells m) $$ HX with HG
      imodintro
      isplitl [HP] <;> iassumption)
    (hglob := glob m)
    (hA := fun _ w => w.elim0) (hpf := fun _ k => k.elim0)
    (X := XX m) (Y := fun c => arrays m c (OV m c)) (Z := fun _ => iprop(emp))
    (hX := start_intro m ρ) (hin := phi0_intro m) (hout := phi1_exit m)
    (QY := fun c s => s.mem ((c : Thread nD τ).loc main_v1) = OV m c ∧ s.mem ((c : Thread nD τ).loc main_arg0) = X m c)
    (hY := fun c s' => by
      unfold arrays
      iintro ⟨⟨Hx, Ho⟩, -, HSI⟩
      icombine HSI Hx gives %hx
      icombine HSI Ho gives %ho
      imodintro
      isplitr
      · ipureintro; exact ⟨Buf.eq_of_forall_mem_univ ho, Buf.eq_of_forall_mem_univ hx⟩
      iexact HSI)
    (hQ := fun s h c => ⟨(h c).2.2.1, (h c).2.2.2⟩)

#print axioms run_main

end Cert.KernelIdeal.A2A

end
-- ==== Proof.Value.lean ====
/-
  The reference's run, and the bridge from each device's result to its block of the reference's result.

  The reference narrows the whole array x (32768 rows of 2048 columns) to bf16, entry by entry.  Device c of the
  2 x 2 x 2 mesh, whose coordinate on the last axis is z, holds the row block z of x and must end holding the column
  block z of the narrowed array: at row r, column k, the entry of x at row r, column 1024 z + k, narrowed.  The
  specification reads that entry from the argument block of the device that owns row r.  That device's last
  coordinate is r / 16384, so its block is the row block r / 16384 of x, and its row r % 16384 is row
  16384 (r / 16384) + r % 16384 = r of x: the same entry.  Narrowing acts entry by entry, so it passes through the
  choice of block, and what is left is an equation between two indices into x, coordinate by coordinate.
-/
import proofs.«900627_g7700000000000628_dist_a2a_v7x_xyz2x2x2_z_m16384_n1024_bf16_1_alg».proof.Defs
import proofs.«900627_g7700000000000628_dist_a2a_v7x_xyz2x2x2_z_m16384_n1024_bf16_1_alg».proof.Proof.KernelIdeal.Spec
import proofs.«900627_g7700000000000628_dist_a2a_v7x_xyz2x2x2_z_m16384_n1024_bf16_1_alg».proof.Proof.Gen.ReferenceIdeal.Run
import proofs.«900627_g7700000000000628_dist_a2a_v7x_xyz2x2x2_z_m16384_n1024_bf16_1_alg».proof.Proof.Gen.ReferenceIdeal.Read
import proofs.«900627_g7700000000000628_dist_a2a_v7x_xyz2x2x2_z_m16384_n1024_bf16_1_alg».proof.Proof.Gen.Pre_finite_inputs_ReferenceIdeal
import Idealize.ShloMosaic.Lib.Layout

noncomputable section

namespace Cert.Value

open Idealize.ShloMosaic Idealize.SL.Sem Cert.KernelIdeal.A2A

variable {F : FTy → Type} [FloatOps F]

/-! ## The reference -/

/-- The reference's one device's location of a buffer. -/
abbrev refLoc (b : Ref Cert.ReferenceIdeal.sig .tc) : Loc Cert.ReferenceIdeal.nD Cert.ReferenceIdeal.τ Cert.ReferenceIdeal.sig :=
  ((0 : Dev Cert.ReferenceIdeal.nD).tc : Thread Cert.ReferenceIdeal.nD Cert.ReferenceIdeal.τ).loc b

/-- The reference's result as a function of its argument: the whole array narrowed to bf16. -/
def refVal (W : Buf (Elt F) (refLoc Cert.ReferenceIdeal.main_arg0)) : Buf (Elt F) (refLoc Cert.ReferenceIdeal.main_v0) :=
  Cert.ReferenceIdeal.Read.val_main_v0 (F := F) W

/-- The reference runs, leaves its result at the narrowed argument and its argument as it was. -/
theorem ref_run (m' : (ℓ : Loc Cert.ReferenceIdeal.nD Cert.ReferenceIdeal.τ Cert.ReferenceIdeal.sig) → Buf (Elt F) ℓ)
    (ρ' : Dev Cert.ReferenceIdeal.nD → PrngReg) :
    θ_run (Cert.ReferenceIdeal.defs (F := F)) (onTc (τ := Cert.ReferenceIdeal.τ) (Cert.ReferenceIdeal.main (F := F)))
      ⟨m', fun _ => 0, ρ'⟩ (fun r =>
        r.2.mem (refLoc Cert.ReferenceIdeal.main_v0) = refVal (m' (refLoc Cert.ReferenceIdeal.main_arg0))
        ∧ r.2.mem (refLoc Cert.ReferenceIdeal.main_arg0) = m' (refLoc Cert.ReferenceIdeal.main_arg0)) :=
  (θ_run Cert.ReferenceIdeal.defs _ _).mono
    (fun _ h => ⟨(h 0).1.trans (Cert.ReferenceIdeal.Read.val_main_v0_eq _), (h 0).2⟩)
    (Cert.ReferenceIdeal.Value.run (F := F) m' ρ')

/-- The reference's frame: its run with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-! ## The mesh's last axis -/

/-- Along a dimension cut by the mesh's last axis, a device holds the block its last coordinate names. -/
theorem meshLin_last (c : Dev Cert.KernelIdeal.nD) : Layout.meshLin [2, 2, 2] c.val [2] = zOf c := by
  revert c; decide

/-- The device owning row `r` has last coordinate `r / 16384`. -/
theorem zOf_ownerOf (c : Dev Cert.KernelIdeal.nD) (r : ℕ) (hr : r < 32768) : zOf (ownerOf c r) = r / 16384 := by
  have hz := zOf_lt c
  unfold ownerOf
  split
  · next h => exact h.symm
  · next h => rw [zOf_peer]; omega

/-! ## The bridge -/

/-- If every device's argument is its row block of the whole array, the array the specification names for device `c`
    is `c`'s column block of the reference's result. -/
theorem bridge
    (X : (d : Dev Cert.KernelIdeal.nD) → Buf (Elt F) ((d.tc : Thread Cert.KernelIdeal.nD Cert.KernelIdeal.τ).loc Cert.KernelIdeal.main_arg0))
    (W : Buf (Elt F) (refLoc Cert.ReferenceIdeal.main_arg0))
    (hagree : ∀ d : Dev Cert.KernelIdeal.nD,
      X d = Layout.blockN ⟨2, ![16384, 2048]⟩ ⟨2, ![32768, 2048]⟩ (Layout.meshBlock [2, 2, 2] ![[2], []] d) W)
    (c : Dev Cert.KernelIdeal.nD) :
    outVal X c
      = Layout.blockN ⟨2, ![32768, 1024]⟩ ⟨2, ![32768, 2048]⟩ (Layout.meshBlock [2, 2, 2] ![[], [2]] c) (refVal W) := by
  funext j
  have h0 : (j 0).val < 32768 := (j 0).isLt
  have h1 : (j 1).val < 1024 := (j 1).isLt
  have hz := zOf_lt c
  have ho := zOf_ownerOf c (j 0).val h0
  show FloatOps.truncf .bf16 _ (X (ownerOf c (j 0).val) _) = FloatOps.truncf .bf16 _ (W _)
  rw [hagree]
  show FloatOps.truncf .bf16 _ (W _) = FloatOps.truncf .bf16 _ (W _)
  congr 2
  funext b
  apply Fin.ext
  match b with
  | ⟨0, _⟩ =>
    show Layout.meshLin [2, 2, 2] (ownerOf c (j 0).val).val [2] * 16384 + (j 0).val % 16384
      = Layout.meshLin [2, 2, 2] c.val [] * 32768 + (j 0).val
    rw [meshLin_last, ho]
    show (j 0).val / 16384 * 16384 + (j 0).val % 16384 = 0 * 32768 + (j 0).val
    omega
  | ⟨1, _⟩ =>
    show Layout.meshLin [2, 2, 2] (ownerOf c (j 0).val).val [] * 2048 + (1024 * zOf c + (j 1).val)
      = Layout.meshLin [2, 2, 2] c.val [2] * 1024 + (j 1).val
    rw [meshLin_last]
    show 0 * 2048 + (1024 * zOf c + (j 1).val) = zOf c * 1024 + (j 1).val
    omega

/-- info: 'Cert.Value.ref_run' depends on axioms: [propext, Classical.choice, Quot.sound] -/
#guard_msgs in #print axioms Cert.Value.ref_run
/-- info: 'Cert.Value.bridge' depends on axioms: [propext, Classical.choice, Quot.sound] -/
#guard_msgs in #print axioms Cert.Value.bridge

end Cert.Value

end
-- ==== Proof.lean ====
/-
  The claim, assembled.

  Each kernel's run on the whole mesh names every device's result array and leaves every argument array as it was;
  a kernel's frame is that run with the result dropped, and the reference's frame is its own run with the result
  dropped.  The idealized kernel is the kernel's own text read over the extended reals, so the fourth conjunct asks
  for nothing.  For the last conjunct the reference's result is the whole array narrowed to bf16, entry by entry; the
  idealized kernel's run leaves on device c the array the specification names, and that array is c's column block of
  the reference's result as soon as every device's argument is its row block of the whole array.
-/
import proofs.«900627_g7700000000000628_dist_a2a_v7x_xyz2x2x2_z_m16384_n1024_bf16_1_alg».proof.Defs
import proofs.«900627_g7700000000000628_dist_a2a_v7x_xyz2x2x2_z_m16384_n1024_bf16_1_alg».proof.Proof.Gen.Kernel
import proofs.«900627_g7700000000000628_dist_a2a_v7x_xyz2x2x2_z_m16384_n1024_bf16_1_alg».proof.Proof.Gen.KernelIdeal
import proofs.«900627_g7700000000000628_dist_a2a_v7x_xyz2x2x2_z_m16384_n1024_bf16_1_alg».proof.Proof.Gen.ReferenceIdeal
import proofs.«900627_g7700000000000628_dist_a2a_v7x_xyz2x2x2_z_m16384_n1024_bf16_1_alg».proof.Proof.Gen.Pre_finite_inputs_Kernel
import proofs.«900627_g7700000000000628_dist_a2a_v7x_xyz2x2x2_z_m16384_n1024_bf16_1_alg».proof.Proof.Gen.Pre_finite_inputs_ReferenceIdeal
import proofs.«900627_g7700000000000628_dist_a2a_v7x_xyz2x2x2_z_m16384_n1024_bf16_1_alg».proof.Proof.Kernel.Launch
import proofs.«900627_g7700000000000628_dist_a2a_v7x_xyz2x2x2_z_m16384_n1024_bf16_1_alg».proof.Proof.KernelIdeal.Launch
import proofs.«900627_g7700000000000628_dist_a2a_v7x_xyz2x2x2_z_m16384_n1024_bf16_1_alg».proof.Proof.Value

noncomputable section

namespace Cert.Proof

open Idealize.ShloMosaic Idealize.SL.Sem

/-- The kernel's frame: its run with every device's result dropped. -/
theorem frame_Kernel : Cert.frame_Kernel := fun m ρ _ =>
  (θ_run Cert.Kernel.defs _ _).mono (fun _ h c => (h c).2) (Cert.Kernel.A2A.run_main (F := Bits) m ρ)

/-- The idealized kernel's frame: its run with every device's result dropped. -/
theorem frame_KernelIdeal : Cert.frame_KernelIdeal := fun m ρ _ =>
  (θ_run Cert.KernelIdeal.defs _ _).mono (fun _ h c => (h c).2) (Cert.KernelIdeal.A2A.run_main (F := Ideal) m ρ)

/-- Over the extended reals, from arguments that are the row blocks of one whole array: the reference ends at the
    whole array narrowed, and every device of the kernel at its column block of that. -/
theorem algebraic : Cert.algebraic_KernelIdeal_ReferenceIdeal := fun m ρ m' ρ' _ hagree =>
  ⟨Cert.Value.refVal (m' (Cert.Value.refLoc Cert.ReferenceIdeal.main_arg0)),
    (θ_run Cert.KernelIdeal.defs _ _).mono
      (fun _ h c => ⟨(h c).1.trans (Cert.Value.bridge _ _ hagree c), (h c).2⟩)
      (Cert.KernelIdeal.A2A.run_main (F := Ideal) m ρ),
    Cert.Value.ref_run (F := Ideal) m' ρ'⟩

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_Kernel, frame_KernelIdeal, Cert.Value.frame_ReferenceIdeal, trivial, algebraic⟩

end Cert.Proof

end
